-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v107)) (v1 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_v103) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_v176) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x64 : Shape := ⟨2, ![20000, 64]⟩
abbrev S320000x32 : Shape := ⟨2, ![320000, 32]⟩
abbrev S64x128 : Shape := ⟨2, ![64, 128]⟩
abbrev S128 : Shape := ⟨1, ![128]⟩
abbrev S32x32 : Shape := ⟨2, ![32, 32]⟩
abbrev S32 : Shape := ⟨1, ![32]⟩
abbrev S3x288x128 : Shape := ⟨3, ![3, 288, 128]⟩
abbrev S3x128 : Shape := ⟨2, ![3, 128]⟩
abbrev S3x128x128 : Shape := ⟨3, ![3, 128, 128]⟩
abbrev S3x256x128 : Shape := ⟨3, ![3, 256, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2x320000 : Shape := ⟨2, ![2, 320000]⟩
abbrev S_ : Shape := ⟨0, ![]⟩

class Facts : Prop where
  bcast_S_S20000x64 : S_.BroadcastsInDim S20000x64 (![] : Fin 0 → Fin S20000x64.rank)
  reducesTo_S20000x64_S_d0_1 : S20000x64.ReducesTo [0, 1] S_
  h_S_ : 0 < S_.numel
  bcast_S_S320000x32 : S_.BroadcastsInDim S320000x32 (![] : Fin 0 → Fin S320000x32.rank)
  reducesTo_S320000x32_S_d0_1 : S320000x32.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S3x288x128 : S_.BroadcastsInDim S3x288x128 (![] : Fin 0 → Fin S3x288x128.rank)
  reducesTo_S3x288x128_S_d0_1_2 : S3x288x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x256x128 : S_.BroadcastsInDim S3x256x128 (![] : Fin 0 → Fin S3x256x128.rank)
  reducesTo_S3x256x128_S_d0_1_2 : S3x256x128.ReducesTo [0, 1, 2] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S2x320000 : S_.BroadcastsInDim S2x320000 (![] : Fin 0 → Fin S2x320000.rank)
  reducesTo_S2x320000_S_d0_1 : S2x320000.ReducesTo [0, 1] S_

variable [Facts]

def fn_part5 {F : FTy → Type} [FloatOps F] (main_arg18 : IVec S2x320000 32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_c_34 : IVec S_ 32 := constantI S_ 32 0#32
  let main_v89 : IVec S2x320000 32 := broadcastInDim S2x320000 ![] bcast_S_S2x320000 main_c_34
  let main_v90 : IVec S2x320000 1 := cmpi .sge main_arg18 main_v89
  let main_c_35 : IVec S_ 1 := constantI S_ 1 1#1
  let main_v91 : IVec S_ 1 := (fun x v => Host.reduce IntOp.andi x v reducesTo_S2x320000_S_d0_1 h_S_) main_v90 main_c_35
  let main_v92 : IVec S_ 1 := andi main_v88 main_v91
  let main_c_36 : IVec S_ 32 := constantI S_ 32 20000#32
  let main_v93 : IVec S2x320000 32 := broadcastInDim S2x320000 ![] bcast_S_S2x320000 main_c_36
  let main_v94 : IVec S2x320000 1 := cmpi .slt main_arg18 main_v93
  let main_c_37 : IVec S_ 1 := constantI S_ 1 1#1
  let main_v95 : IVec S_ 1 := (fun x v => Host.reduce IntOp.andi x v reducesTo_S2x320000_S_d0_1 h_S_) main_v94 main_c_37
  let main_v96 : IVec S_ 1 := andi main_v92 main_v95
  main_v96

def fn_part4 {F : FTy → Type} [FloatOps F] (main_arg14 : FVec F S128x64 .f32) (main_arg15 : FVec F S64 .f32) (main_arg16 : FVec F S64x1 .f32) (main_arg17 : FVec F S1 .f32) (main_arg18 : IVec S2x320000 32) (main_v63 : IVec S_ 1) (main_v67 : IVec S_ 1) : IVec S_ 1 :=
  let main_v68 : IVec S_ 1 := andi main_v63 main_v67
  let main_v69 : FVec F S128x64 .f32 := Host.absf main_arg14
  let main_cst_26 : FVec F S_ .f32 := constant S_ .f32 0x7F800000#32
  let main_v70 : FVec F S128x64 .f32 := broadcastInDim S128x64 ![] bcast_S_S128x64 main_cst_26
  let main_v71 : IVec S128x64 1 := cmpf .olt main_v69 main_v70
  let main_c_27 : IVec S_ 1 := constantI S_ 1 1#1
  let main_v72 : IVec S_ 1 := (fun x v => Host.reduce IntOp.andi x v reducesTo_S128x64_S_d0_1 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x1 .f32 := Host.absf main_arg16
  let main_cst_30 : FVec F S_ .f32 := constant S_ .f32 0x7F800000#32
  let main_v80 : FVec F S64x1 .f32 := broadcastInDim S64x1 ![] bcast_S_S64x1 main_cst_30
  let main_v81 : IVec S64x1 1 := cmpf .olt main_v79 main_v80
  let main_c_31 : IVec S_ 1 := constantI S_ 1 1#1
  let main_v82 : IVec S_ 1 := (fun x v => Host.reduce IntOp.andi x v reducesTo_S64x1_S_d0_1 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S3x128 .f32) (main_arg12 : FVec F S3x128x128 .f32) (main_arg13 : FVec F S3x128 .f32) (main_arg14 : FVec F S128x64 .f32) (main_arg15 : FVec F S64 .f32) (main_arg16 : FVec F S64x1 .f32) (main_arg17 : FVec F S1 .f32) (main_arg18 : IVec S2x320000 32) (main_v48 : IVec S_ 1) (main_v49 : FVec F S3x256x128 .f32) (main_v50 : FVec F S3x256x128 .f32) : IVec S_ 1 :=
  let main_v51 : IVec S3x256x128 1 := cmpf .olt main_v49 main_v50
  let main_c_19 : IVec S_ 1 := constantI S_ 1 1#1
  let main_v52 : IVec S_ 1 := (fun x v => Host.reduce IntOp.andi x v reducesTo_S3x256x128_S_d0_1_2 h_S_) main_v51 main_c_19
  let main_v53 : IVec S_ 1 := andi main_v48 main_v52
  let main_v54 : FVec F S3x128 .f32 := Host.absf main_arg11
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S3x128x128 .f32 := Host.absf main_arg12
  let main_cst_22 : FVec F S_ .f32 := constant S_ .f32 0x7F800000#32
  let main_v60 : FVec F S3x128x128 .f32 := broadcastInDim S3x128x128 ![] bcast_S_S3x128x128 main_cst_22
  let main_v61 : IVec S3x128x128 1 := cmpf .olt main_v59 main_v60
  let main_c_23 : IVec S_ 1 := constantI S_ 1 1#1
  let main_v62 : IVec S_ 1 := (fun x v => Host.reduce IntOp.andi x v reducesTo_S3x128x128_S_d0_1_2 h_S_) main_v61 main_c_23
  let main_v63 : IVec S_ 1 := andi main_v58 main_v62
  let main_v64 : FVec F S3x128 .f32 := Host.absf main_arg13
  let main_cst_24 : FVec F S_ .f32 := constant S_ .f32 0x7F800000#32
  let main_v65 : FVec F S3x128 .f32 := broadcastInDim S3x128 ![] bcast_S_S3x128 main_cst_24
  let main_v66 : IVec S3x128 1 := cmpf .olt main_v64 main_v65
  let main_c_25 : IVec S_ 1 := constantI S_ 1 1#1
  let main_v67 : IVec S_ 1 := (fun x v => Host.reduce IntOp.andi x v reducesTo_S3x128_S_d0_1 h_S_) main_v66 main_c_25
  fn_part4 (F := F) main_arg14 main_arg15 main_arg16 main_arg17 main_arg18 main_v63 main_v67

def fn_part2 {F : FTy → Type} [FloatOps F] (main_arg7 : FVec F S3x128 .f32) (main_arg8 : FVec F S3x128x128 .f32) (main_arg9 : FVec F S3x128 .f32) (main_arg10 : FVec F S3x256x128 .f32) (main_arg11 : FVec F S3x128 .f32) (main_arg12 : FVec F S3x128x128 .f32) (main_arg13 : FVec F S3x128 .f32) (main_arg14 : FVec F S128x64 .f32) (main_arg15 : FVec F S64 .f32) (main_arg16 : FVec F S64x1 .f32) (main_arg17 : FVec F S1 .f32) (main_arg18 : IVec S2x320000 32) (main_v33 : IVec S_ 1) : IVec S_ 1 :=
  let main_v34 : FVec F S3x128 .f32 := Host.absf main_arg7
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128x128 .f32 := Host.absf main_arg8
  let main_cst_14 : FVec F S_ .f32 := constant S_ .f32 0x7F800000#32
  let main_v40 : FVec F S3x128x128 .f32 := broadcastInDim S3x128x128 ![] bcast_S_S3x128x128 main_cst_14
  let main_v41 : IVec S3x128x128 1 := cmpf .olt main_v39 main_v40
  let main_c_15 : IVec S_ 1 := constantI S_ 1 1#1
  let main_v42 : IVec S_ 1 := (fun x v => Host.reduce IntOp.andi x v reducesTo_S3x128x128_S_d0_1_2 h_S_) main_v41 main_c_15
  let main_v43 : IVec S_ 1 := andi main_v38 main_v42
  let main_v44 : FVec F S3x128 .f32 := Host.absf main_arg9
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S3x256x128 .f32 := Host.absf main_arg10
  let main_cst_18 : FVec F S_ .f32 := constant S_ .f32 0x7F800000#32
  let main_v50 : FVec F S3x256x128 .f32 := broadcastInDim S3x256x128 ![] bcast_S_S3x256x128 main_cst_18
  fn_part3 (F := F) main_arg11 main_arg12 main_arg13 main_arg14 main_arg15 main_arg16 main_arg17 main_arg18 main_v48 main_v49 main_v50

def fn_part1 {F : FTy → Type} [FloatOps F] (main_arg4 : FVec F S32x32 .f32) (main_arg5 : FVec F S32 .f32) (main_arg6 : FVec F S3x288x128 .f32) (main_arg7 : FVec F S3x128 .f32) (main_arg8 : FVec F S3x128x128 .f32) (main_arg9 : FVec F S3x128 .f32) (main_arg10 : FVec F S3x256x128 .f32) (main_arg11 : FVec F S3x128 .f32) (main_arg12 : FVec F S3x128x128 .f32) (main_arg13 : FVec F S3x128 .f32) (main_arg14 : FVec F S128x64 .f32) (main_arg15 : FVec F S64 .f32) (main_arg16 : FVec F S64x1 .f32) (main_arg17 : FVec F S1 .f32) (main_arg18 : IVec S2x320000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S3x288x128 .f32 := Host.absf main_arg6
  let main_cst_10 : FVec F S_ .f32 := constant S_ .f32 0x7F800000#32
  let main_v30 : FVec F S3x288x128 .f32 := broadcastInDim S3x288x128 ![] bcast_S_S3x288x128 main_cst_10
  let main_v31 : IVec S3x288x128 1 := cmpf .olt main_v29 main_v30
  let main_c_11 : IVec S_ 1 := constantI S_ 1 1#1
  let main_v32 : IVec S_ 1 := (fun x v => Host.reduce IntOp.andi x v reducesTo_S3x288x128_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S20000x64 .f32) (main_arg1 : FVec F S320000x32 .f32) (main_arg2 : FVec F S64x128 .f32) (main_arg3 : FVec F S128 .f32) (main_arg4 : FVec F S32x32 .f32) (main_arg5 : FVec F S32 .f32) (main_arg6 : FVec F S3x288x128 .f32) (main_arg7 : FVec F S3x128 .f32) (main_arg8 : FVec F S3x128x128 .f32) (main_arg9 : FVec F S3x128 .f32) (main_arg10 : FVec F S3x256x128 .f32) (main_arg11 : FVec F S3x128 .f32) (main_arg12 : FVec F S3x128x128 .f32) (main_arg13 : FVec F S3x128 .f32) (main_arg14 : FVec F S128x64 .f32) (main_arg15 : FVec F S64 .f32) (main_arg16 : FVec F S64x1 .f32) (main_arg17 : FVec F S1 .f32) (main_arg18 : IVec S2x320000 32) : IVec S_ 1 :=
  let main_v0 : FVec F S20000x64 .f32 := Host.absf main_arg0
  let main_cst : FVec F S_ .f32 := constant S_ .f32 0x7F800000#32
  let main_v1 : FVec F S20000x64 .f32 := broadcastInDim S20000x64 ![] bcast_S_S20000x64 main_cst
  let main_v2 : IVec S20000x64 1 := cmpf .olt main_v0 main_v1
  let main_c : IVec S_ 1 := constantI S_ 1 1#1
  let main_v3 : IVec S_ 1 := (fun x v => Host.reduce IntOp.andi x v reducesTo_S20000x64_S_d0_1 h_S_) main_v2 main_c
  let main_v4 : FVec F S320000x32 .f32 := Host.absf main_arg1
  let main_cst_0 : FVec F S_ .f32 := constant S_ .f32 0x7F800000#32
  let main_v5 : FVec F S320000x32 .f32 := broadcastInDim S320000x32 ![] bcast_S_S320000x32 main_cst_0
  let main_v6 : IVec S320000x32 1 := cmpf .olt main_v4 main_v5
  let main_c_1 : IVec S_ 1 := constantI S_ 1 1#1
  let main_v7 : IVec S_ 1 := (fun x v => Host.reduce IntOp.andi x v reducesTo_S320000x32_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S20000x64 : Shape := ⟨2, ![20000, 64]⟩
abbrev S320000x32 : Shape := ⟨2, ![320000, 32]⟩
abbrev S64x128 : Shape := ⟨2, ![64, 128]⟩
abbrev S128 : Shape := ⟨1, ![128]⟩
abbrev S32x32 : Shape := ⟨2, ![32, 32]⟩
abbrev S32 : Shape := ⟨1, ![32]⟩
abbrev S3x288x128 : Shape := ⟨3, ![3, 288, 128]⟩
abbrev S3x128 : Shape := ⟨2, ![3, 128]⟩
abbrev S3x128x128 : Shape := ⟨3, ![3, 128, 128]⟩
abbrev S3x256x128 : Shape := ⟨3, ![3, 256, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2x320000 : Shape := ⟨2, ![2, 320000]⟩
abbrev S1x320000 : Shape := ⟨2, ![1, 320000]⟩
abbrev S320000 : Shape := ⟨1, ![320000]⟩
abbrev S1x128 : Shape := ⟨2, ![1, 128]⟩
abbrev S20000x128 : Shape := ⟨2, ![20000, 128]⟩
abbrev S4000x64 : Shape := ⟨2, ![4000, 64]⟩
abbrev S4000x128 : Shape := ⟨2, ![4000, 128]⟩
abbrev S1x32 : Shape := ⟨2, ![1, 32]⟩
abbrev S3200x32 : Shape := ⟨2, ![3200, 32]⟩
abbrev S_ : Shape := ⟨0, ![]⟩
abbrev S320000x1 : Shape := ⟨2, ![320000, 1]⟩
abbrev S1x1 : Shape := ⟨2, ![1, 1]⟩
abbrev S320000x128 : Shape := ⟨2, ![320000, 128]⟩
abbrev S1x288x128 : Shape := ⟨3, ![1, 288, 128]⟩
abbrev S288x128 : Shape := ⟨2, ![288, 128]⟩
abbrev S128x128 : Shape := ⟨2, ![128, 128]⟩
abbrev S32x128 : Shape := ⟨2, ![32, 128]⟩
abbrev S1x128x128 : Shape := ⟨3, ![1, 128, 128]⟩
abbrev S3200x128 : Shape := ⟨2, ![3200, 128]⟩
abbrev S1x256x128 : Shape := ⟨3, ![1, 256, 128]⟩
abbrev S256x128 : Shape := ⟨2, ![256, 128]⟩
abbrev S1x64 : Shape := ⟨2, ![1, 64]⟩
abbrev S20000x1 : Shape := ⟨2, ![20000, 1]⟩
abbrev S4000x1 : Shape := ⟨2, ![4000, 1]⟩
abbrev S20000 : Shape := ⟨1, ![20000]⟩

abbrev nBuf : Space → Nat
  | .hbm => 262
  | .vmem => 95
  | .smem => 0
  | _ => 0

abbrev hbmTy0_0 (i : Nat) : BufTy := match i % 128 with
  | 0 => ⟨S20000x64, .f32⟩
  | 1 => ⟨S320000x32, .f32⟩
  | 2 => ⟨S64x128, .f32⟩
  | 3 => ⟨S128, .f32⟩
  | 4 => ⟨S32x32, .f32⟩
  | 5 => ⟨S32, .f32⟩
  | 6 => ⟨S3x288x128, .f32⟩
  | 7 => ⟨S3x128, .f32⟩
  | 8 => ⟨S3x128x128, .f32⟩
  | 9 => ⟨S3x128, .f32⟩
  | 10 => ⟨S3x256x128, .f32⟩
  | 11 => ⟨S3x128, .f32⟩
  | 12 => ⟨S3x128x128, .f32⟩
  | 13 => ⟨S3x128, .f32⟩
  | 14 => ⟨S128x64, .f32⟩
  | 15 => ⟨S64, .f32⟩
  | 16 => ⟨S64x1, .f32⟩
  | 17 => ⟨S1, .f32⟩
  | 18 => ⟨S2x320000, .i32⟩
  | 19 => ⟨S1x320000, .i32⟩
  | 20 => ⟨S320000, .i32⟩
  | 21 => ⟨S1x320000, .i32⟩
  | 22 => ⟨S320000, .i32⟩
  | 23 => ⟨S1x128, .f32⟩
  | 24 => ⟨S20000x128, .f32⟩
  | 25 => ⟨S1x32, .f32⟩
  | 26 => ⟨S320000x32, .f32⟩
  | 27 => ⟨S_, .i32⟩
  | 28 => ⟨S320000, .i32⟩
  | 29 => ⟨S320000, .i1⟩
  | 30 => ⟨S_, .i32⟩
  | 31 => ⟨S320000, .i32⟩
  | 32 => ⟨S320000, .i32⟩
  | 33 => ⟨S320000, .i32⟩
  | 34 => ⟨S320000x1, .i32⟩
  | 35 => ⟨S1, .i32⟩
  | 36 => ⟨S_, .i32⟩
  | 37 => ⟨S320000x1, .i32⟩
  | 38 => ⟨S320000x1, .i1⟩
  | 39 => ⟨S1x1, .i32⟩
  | 40 => ⟨S320000x1, .i32⟩
  | 41 => ⟨S320000x1, .i1⟩
  | 42 => ⟨S320000x1, .i1⟩
  | 43 => ⟨S_, .i1⟩
  | 44 => ⟨S320000, .i1⟩
  | 45 => ⟨S320000x128, .f32⟩
  | 46 => ⟨S320000x128, .i1⟩
  | 47 => ⟨S_, .f32⟩
  | 48 => ⟨S320000x128, .f32⟩
  | 49 => ⟨S320000x128, .f32⟩
  | 50 => ⟨S_, .i32⟩
  | 51 => ⟨S320000, .i32⟩
  | 52 => ⟨S320000, .i1⟩
  | 53 => ⟨S_, .i32⟩
  | 54 => ⟨S320000, .i32⟩
  | 55 => ⟨S320000, .i32⟩
  | 56 => ⟨S320000, .i32⟩
  | 57 => ⟨S320000x1, .i32⟩
  | 58 => ⟨S1, .i32⟩
  | 59 => ⟨S_, .i32⟩
  | 60 => ⟨S320000x1, .i32⟩
  | 61 => ⟨S320000x1, .i1⟩
  | 62 => ⟨S1x1, .i32⟩
  | 63 => ⟨S320000x1, .i32⟩
  | 64 => ⟨S320000x1, .i1⟩
  | 65 => ⟨S320000x1, .i1⟩
  | 66 => ⟨S_, .i1⟩
  | 67 => ⟨S320000, .i1⟩
  | 68 => ⟨S320000x128, .f32⟩
  | 69 => ⟨S320000x128, .i1⟩
  | 70 => ⟨S_, .f32⟩
  | 71 => ⟨S320000x128, .f32⟩
  | 72 => ⟨S320000x128, .f32⟩
  | 73 => ⟨S1x288x128, .f32⟩
  | 74 => ⟨S288x128, .f32⟩
  | 75 => ⟨S128x128, .f32⟩
  | 76 => ⟨S128x128, .f32⟩
  | 77 => ⟨S32x128, .f32⟩
  | 78 => ⟨S1x128, .f32⟩
  | 79 => ⟨S128, .f32⟩
  | 80 => ⟨S1x128, .f32⟩
  | 81 => ⟨S1x128x128, .f32⟩
  | 82 => ⟨S128x128, .f32⟩
  | 83 => ⟨S1x128, .f32⟩
  | 84 => ⟨S128, .f32⟩
  | 85 => ⟨S1x128, .f32⟩
  | 86 => ⟨S320000x128, .f32⟩
  | 87 => ⟨S_, .f32⟩
  | 88 => ⟨S20000x128, .f32⟩
  | 89 => ⟨S320000x1, .i32⟩
  | 90 => ⟨S20000x128, .f32⟩
  | 91 => ⟨S1x256x128, .f32⟩
  | 92 => ⟨S256x128, .f32⟩
  | 93 => ⟨S128x128, .f32⟩
  | 94 => ⟨S128x128, .f32⟩
  | 95 => ⟨S1x128, .f32⟩
  | 96 => ⟨S128, .f32⟩
  | 97 => ⟨S1x128, .f32⟩
  | 98 => ⟨S1x128x128, .f32⟩
  | 99 => ⟨S128x128, .f32⟩
  | 100 => ⟨S1x128, .f32⟩
  | 101 => ⟨S128, .f32⟩
  | 102 => ⟨S1x128, .f32⟩
  | 103 => ⟨S20000x128, .f32⟩
  | 104 => ⟨S_, .i32⟩
  | 105 => ⟨S320000, .i32⟩
  | 106 => ⟨S320000, .i1⟩
  | 107 => ⟨S_, .i32⟩
  | 108 => ⟨S320000, .i32⟩
  | 109 => ⟨S320000, .i32⟩
  | 110 => ⟨S320000, .i32⟩
  | 111 => ⟨S320000x1, .i32⟩
  | 112 => ⟨S1, .i32⟩
  | 113 => ⟨S_, .i32⟩
  | 114 => ⟨S320000x1, .i32⟩
  | 115 => ⟨S320000x1, .i1⟩
  | 116 => ⟨S1x1, .i32⟩
  | 117 => ⟨S320000x1, .i32⟩
  | 118 => ⟨S320000x1, .i1⟩
  | 119 => ⟨S320000x1, .i1⟩
  | 120 => ⟨S_, .i1⟩
  | 121 => ⟨S320000, .i1⟩
  | 122 => ⟨S320000x128, .f32⟩
  | 123 => ⟨S320000x128, .i1⟩
  | 124 => ⟨S_, .f32⟩
  | 125 => ⟨S320000x128, .f32⟩
  | 126 => ⟨S320000x128, .f32⟩
  | 127 => ⟨S_, .i32⟩
  | _ => ⟨S20000x64, .f32⟩

abbrev hbmTy0_1 (i : Nat) : BufTy := match i % 128 with
  | 0 => ⟨S320000, .i32⟩
  | 1 => ⟨S320000, .i1⟩
  | 2 => ⟨S_, .i32⟩
  | 3 => ⟨S320000, .i32⟩
  | 4 => ⟨S320000, .i32⟩
  | 5 => ⟨S320000, .i32⟩
  | 6 => ⟨S320000x1, .i32⟩
  | 7 => ⟨S1, .i32⟩
  | 8 => ⟨S_, .i32⟩
  | 9 => ⟨S320000x1, .i32⟩
  | 10 => ⟨S320000x1, .i1⟩
  | 11 => ⟨S1x1, .i32⟩
  | 12 => ⟨S320000x1, .i32⟩
  | 13 => ⟨S320000x1, .i1⟩
  | 14 => ⟨S320000x1, .i1⟩
  | 15 => ⟨S_, .i1⟩
  | 16 => ⟨S320000, .i1⟩
  | 17 => ⟨S320000x128, .f32⟩
  | 18 => ⟨S320000x128, .i1⟩
  | 19 => ⟨S_, .f32⟩
  | 20 => ⟨S320000x128, .f32⟩
  | 21 => ⟨S320000x128, .f32⟩
  | 22 => ⟨S1x288x128, .f32⟩
  | 23 => ⟨S288x128, .f32⟩
  | 24 => ⟨S128x128, .f32⟩
  | 25 => ⟨S128x128, .f32⟩
  | 26 => ⟨S32x128, .f32⟩
  | 27 => ⟨S1x128, .f32⟩
  | 28 => ⟨S128, .f32⟩
  | 29 => ⟨S1x128, .f32⟩
  | 30 => ⟨S1x128x128, .f32⟩
  | 31 => ⟨S128x128, .f32⟩
  | 32 => ⟨S1x128, .f32⟩
  | 33 => ⟨S128, .f32⟩
  | 34 => ⟨S1x128, .f32⟩
  | 35 => ⟨S320000x128, .f32⟩
  | 36 => ⟨S_, .f32⟩
  | 37 => ⟨S20000x128, .f32⟩
  | 38 => ⟨S320000x1, .i32⟩
  | 39 => ⟨S20000x128, .f32⟩
  | 40 => ⟨S1x256x128, .f32⟩
  | 41 => ⟨S256x128, .f32⟩
  | 42 => ⟨S128x128, .f32⟩
  | 43 => ⟨S128x128, .f32⟩
  | 44 => ⟨S1x128, .f32⟩
  | 45 => ⟨S128, .f32⟩
  | 46 => ⟨S1x128, .f32⟩
  | 47 => ⟨S1x128x128, .f32⟩
  | 48 => ⟨S128x128, .f32⟩
  | 49 => ⟨S1x128, .f32⟩
  | 50 => ⟨S128, .f32⟩
  | 51 => ⟨S1x128, .f32⟩
  | 52 => ⟨S20000x128, .f32⟩
  | 53 => ⟨S_, .i32⟩
  | 54 => ⟨S320000, .i32⟩
  | 55 => ⟨S320000, .i1⟩
  | 56 => ⟨S_, .i32⟩
  | 57 => ⟨S320000, .i32⟩
  | 58 => ⟨S320000, .i32⟩
  | 59 => ⟨S320000, .i32⟩
  | 60 => ⟨S320000x1, .i32⟩
  | 61 => ⟨S1, .i32⟩
  | 62 => ⟨S_, .i32⟩
  | 63 => ⟨S320000x1, .i32⟩
  | 64 => ⟨S320000x1, .i1⟩
  | 65 => ⟨S1x1, .i32⟩
  | 66 => ⟨S320000x1, .i32⟩
  | 67 => ⟨S320000x1, .i1⟩
  | 68 => ⟨S320000x1, .i1⟩
  | 69 => ⟨S_, .i1⟩
  | 70 => ⟨S320000, .i1⟩
  | 71 => ⟨S320000x128, .f32⟩
  | 72 => ⟨S320000x128, .i1⟩
  | 73 => ⟨S_, .f32⟩
  | 74 => ⟨S320000x128, .f32⟩
  | 75 => ⟨S320000x128, .f32⟩
  | 76 => ⟨S_, .i32⟩
  | 77 => ⟨S320000, .i32⟩
  | 78 => ⟨S320000, .i1⟩
  | 79 => ⟨S_, .i32⟩
  | 80 => ⟨S320000, .i32⟩
  | 81 => ⟨S320000, .i32⟩
  | 82 => ⟨S320000, .i32⟩
  | 83 => ⟨S320000x1, .i32⟩
  | 84 => ⟨S1, .i32⟩
  | 85 => ⟨S_, .i32⟩
  | 86 => ⟨S320000x1, .i32⟩
  | 87 => ⟨S320000x1, .i1⟩
  | 88 => ⟨S1x1, .i32⟩
  | 89 => ⟨S320000x1, .i32⟩
  | 90 => ⟨S320000x1, .i1⟩
  | 91 => ⟨S320000x1, .i1⟩
  | 92 => ⟨S_, .i1⟩
  | 93 => ⟨S320000, .i1⟩
  | 94 => ⟨S320000x128, .f32⟩
  | 95 => ⟨S320000x128, .i1⟩
  | 96 => ⟨S_, .f32⟩
  | 97 => ⟨S320000x128, .f32⟩
  | 98 => ⟨S320000x128, .f32⟩
  | 99 => ⟨S1x288x128, .f32⟩
  | 100 => ⟨S288x128, .f32⟩
  | 101 => ⟨S128x128, .f32⟩
  | 102 => ⟨S128x128, .f32⟩
  | 103 => ⟨S32x128, .f32⟩
  | 104 => ⟨S1x128, .f32⟩
  | 105 => ⟨S128, .f32⟩
  | 106 => ⟨S1x128, .f32⟩
  | 107 => ⟨S1x128x128, .f32⟩
  | 108 => ⟨S128x128, .f32⟩
  | 109 => ⟨S1x128, .f32⟩
  | 110 => ⟨S128, .f32⟩
  | 111 => ⟨S1x128, .f32⟩
  | 112 => ⟨S320000x128, .f32⟩
  | 113 => ⟨S_, .f32⟩
  | 114 => ⟨S20000x128, .f32⟩
  | 115 => ⟨S320000x1, .i32⟩
  | 116 => ⟨S20000x128, .f32⟩
  | 117 => ⟨S1x256x128, .f32⟩
  | 118 => ⟨S256x128, .f32⟩
  | 119 => ⟨S128x128, .f32⟩
  | 120 => ⟨S128x128, .f32⟩
  | 121 => ⟨S1x128, .f32⟩
  | 122 => ⟨S128, .f32⟩
  | 123 => ⟨S1x128, .f32⟩
  | 124 => ⟨S1x128x128, .f32⟩
  | 125 => ⟨S128x128, .f32⟩
  | 126 => ⟨S1x128, .f32⟩
  | 127 => ⟨S128, .f32⟩
  | _ => ⟨S20000x64, .f32⟩

abbrev hbmTy0_2 (i : Nat) : BufTy := match i % 128 with
  | 0 => ⟨S1x128, .f32⟩
  | 1 => ⟨S20000x128, .f32⟩
  | 2 => ⟨S1x64, .f32⟩
  | 3 => ⟨S1x1, .f32⟩
  | 4 => ⟨S20000x1, .f32⟩
  | 5 => ⟨S20000, .f32⟩
  | _ => ⟨S20000x64, .f32⟩

abbrev hbmTy (i : Nat) : BufTy := match i / 128 with
  | 0 => hbmTy0_0 i
  | 1 => hbmTy0_1 i
  | 2 => hbmTy0_2 i
  | _ => ⟨S20000x64, .f32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S64x128, .f32⟩
  | .local _ .vmem, ⟨3, _⟩ => ⟨S1x128, .f32⟩
  | .local _ .vmem, ⟨4, _⟩ => ⟨S4000x128, .f32⟩
  | .local _ .vmem, ⟨5, _⟩ => ⟨S4000x128, .f32⟩
  | .local _ .vmem, ⟨6, _⟩ => ⟨S3200x32, .f32⟩
  | .local _ .vmem, ⟨7, _⟩ => ⟨S3200x32, .f32⟩
  | .local _ .vmem, ⟨8, _⟩ => ⟨S32x32, .f32⟩
  | .local _ .vmem, ⟨9, _⟩ => ⟨S1x32, .f32⟩
  | .local _ .vmem, ⟨10, _⟩ => ⟨S3200x32, .f32⟩
  | .local _ .vmem, ⟨11, _⟩ => ⟨S3200x32, .f32⟩
  | .local _ .vmem, ⟨12, _⟩ => ⟨S3200x128, .f32⟩
  | .local _ .vmem, ⟨13, _⟩ => ⟨S3200x128, .f32⟩
  | .local _ .vmem, ⟨14, _⟩ => ⟨S3200x128, .f32⟩
  | .local _ .vmem, ⟨15, _⟩ => ⟨S3200x128, .f32⟩
  | .local _ .vmem, ⟨16, _⟩ => ⟨S3200x32, .f32⟩
  | .local _ .vmem, ⟨17, _⟩ => ⟨S3200x32, .f32⟩
  | .local _ .vmem, ⟨18, _⟩ => ⟨S128x128, .f32⟩
  | .local _ .vmem, ⟨19, _⟩ => ⟨S128x128, .f32⟩
  | .local _ .vmem, ⟨20, _⟩ => ⟨S32x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S3200x128, .f32⟩
  | .local _ .vmem, ⟨25, _⟩ => ⟨S3200x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S128x128, .f32⟩
  | .local _ .vmem, ⟨31, _⟩ => ⟨S128x128, .f32⟩
  | .local _ .vmem, ⟨32, _⟩ => ⟨S1x128, .f32⟩
  | .local _ .vmem, ⟨33, _⟩ => ⟨S128x128, .f32⟩
  | .local _ .vmem, ⟨34, _⟩ => ⟨S1x128, .f32⟩
  | .local _ .vmem, ⟨35, _⟩ => ⟨S4000x128, .f32⟩
  | .local _ .vmem, ⟨36, _⟩ => ⟨S4000x128, .f32⟩
  | .local _ .vmem, ⟨37, _⟩ => ⟨S3200x128, .f32⟩
  | .local _ .vmem, ⟨38, _⟩ => ⟨S3200x128, .f32⟩
  | .local _ .vmem, ⟨39, _⟩ => ⟨S3200x128, .f32⟩
  | .local _ .vmem, ⟨40, _⟩ => ⟨S3200x128, .f32⟩
  | .local _ .vmem, ⟨41, _⟩ => ⟨S3200x32, .f32⟩
  | .local _ .vmem, ⟨42, _⟩ => ⟨S3200x32, .f32⟩
  | .local _ .vmem, ⟨43, _⟩ => ⟨S128x128, .f32⟩
  | .local _ .vmem, ⟨44, _⟩ => ⟨S128x128, .f32⟩
  | .local _ .vmem, ⟨45, _⟩ => ⟨S32x128, .f32⟩
  | .local _ .vmem, ⟨46, _⟩ => ⟨S1x128, .f32⟩
  | .local _ .vmem, ⟨47, _⟩ => ⟨S128x128, .f32⟩
  | .local _ .vmem, ⟨48, _⟩ => ⟨S1x128, .f32⟩
  | .local _ .vmem, ⟨49, _⟩ => ⟨S3200x128, .f32⟩
  | .local _ .vmem, ⟨50, _⟩ => ⟨S3200x128, .f32⟩
  | .local _ .vmem, ⟨51, _⟩ => ⟨S4000x128, .f32⟩
  | .local _ .vmem, ⟨52, _⟩ => ⟨S4000x128, .f32⟩
  | .local _ .vmem, ⟨53, _⟩ => ⟨S4000x128, .f32⟩
  | .local _ .vmem, ⟨54, _⟩ => ⟨S4000x128, .f32⟩
  | .local _ .vmem, ⟨55, _⟩ => ⟨S128x128, .f32⟩
  | .local _ .vmem, ⟨56, _⟩ => ⟨S128x128, .f32⟩
  | .local _ .vmem, ⟨57, _⟩ => ⟨S1x128, .f32⟩
  | .local _ .vmem, ⟨58, _⟩ => ⟨S128x128, .f32⟩
  | .local _ .vmem, ⟨59, _⟩ => ⟨S1x128, .f32⟩
  | .local _ .vmem, ⟨60, _⟩ => ⟨S4000x128, .f32⟩
  | .local _ .vmem, ⟨61, _⟩ => ⟨S4000x128, .f32⟩
  | .local _ .vmem, ⟨62, _⟩ => ⟨S3200x128, .f32⟩
  | .local _ .vmem, ⟨63, _⟩ => ⟨S3200x128, .f32⟩
  | .local _ .vmem, ⟨64, _⟩ => ⟨S3200x128, .f32⟩
  | .local _ .vmem, ⟨65, _⟩ => ⟨S3200x128, .f32⟩
  | .local _ .vmem, ⟨66, _⟩ => ⟨S3200x32, .f32⟩
  | .local _ .vmem, ⟨67, _⟩ => ⟨S3200x32, .f32⟩
  | .local _ .vmem, ⟨68, _⟩ => ⟨S128x128, .f32⟩
  | .local _ .vmem, ⟨69, _⟩ => ⟨S128x128, .f32⟩
  | .local _ .vmem, ⟨70, _⟩ => ⟨S32x128, .f32⟩
  | .local _ .vmem, ⟨71, _⟩ => ⟨S1x128, .f32⟩
  | .local _ .vmem, ⟨72, _⟩ => ⟨S128x128, .f32⟩
  | .local _ .vmem, ⟨73, _⟩ => ⟨S1x128, .f32⟩
  | .local _ .vmem, ⟨74, _⟩ => ⟨S3200x128, .f32⟩
  | .local _ .vmem, ⟨75, _⟩ => ⟨S3200x128, .f32⟩
  | .local _ .vmem, ⟨76, _⟩ => ⟨S4000x128, .f32⟩
  | .local _ .vmem, ⟨77, _⟩ => ⟨S4000x128, .f32⟩
  | .local _ .vmem, ⟨78, _⟩ => ⟨S4000x128, .f32⟩
  | .local _ .vmem, ⟨79, _⟩ => ⟨S4000x128, .f32⟩
  | .local _ .vmem, ⟨80, _⟩ => ⟨S128x128, .f32⟩
  | .local _ .vmem, ⟨81, _⟩ => ⟨S128x128, .f32⟩
  | .local _ .vmem, ⟨82, _⟩ => ⟨S1x128, .f32⟩
  | .local _ .vmem, ⟨83, _⟩ => ⟨S128x128, .f32⟩
  | .local _ .vmem, ⟨84, _⟩ => ⟨S1x128, .f32⟩
  | .local _ .vmem, ⟨85, _⟩ => ⟨S4000x128, .f32⟩
  | .local _ .vmem, ⟨86, _⟩ => ⟨S4000x128, .f32⟩
  | .local _ .vmem, ⟨87, _⟩ => ⟨S4000x128, .f32⟩
  | .local _ .vmem, ⟨88, _⟩ => ⟨S4000x128, .f32⟩
  | .local _ .vmem, ⟨89, _⟩ => ⟨S128x64, .f32⟩
  | .local _ .vmem, ⟨90, _⟩ => ⟨S1x64, .f32⟩
  | .local _ .vmem, ⟨91, _⟩ => ⟨S64x1, .f32⟩
  | .local _ .vmem, ⟨92, _⟩ => ⟨S1x1, .f32⟩
  | .local _ .vmem, ⟨93, _⟩ => ⟨S4000x1, .f32⟩
  | .local _ .vmem, ⟨94, _⟩ => ⟨S4000x1, .f32⟩
  | _, _ => ⟨S20000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | _, _ => false

abbrev semScoped : Fin 0 → Bool
  | ⟨_, h⟩ => absurd h (Nat.not_lt_zero _)

abbrev dmaSemScoped : Fin 95 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | _ => false

abbrev sig : RefSig :=
  ofTc nBuf bufTy 0 95 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_cst : Ref sig .tc := ⟨.hbm, 47, rfl⟩
abbrev main_call0_v15 : Ref sig .tc := ⟨.hbm, 48, rfl⟩
abbrev main_v8 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v9 : Ref sig .tc := ⟨.hbm, 72, rfl⟩
abbrev main_v10 : Ref sig .tc := ⟨.hbm, 73, rfl⟩
abbrev main_v11 : Ref sig .tc := ⟨.hbm, 74, rfl⟩
abbrev main_v12 : Ref sig .tc := ⟨.hbm, 75, rfl⟩
abbrev main_v13 : Ref sig .tc := ⟨.hbm, 76, rfl⟩
abbrev main_v14 : Ref sig .tc := ⟨.hbm, 77, rfl⟩
abbrev main_v15 : Ref sig .tc := ⟨.hbm, 78, rfl⟩
abbrev main_v16 : Ref sig .tc := ⟨.hbm, 79, rfl⟩
abbrev main_v17 : Ref sig .tc := ⟨.hbm, 80, rfl⟩
abbrev main_v18 : Ref sig .tc := ⟨.hbm, 81, rfl⟩
abbrev main_v19 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_cst : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_call2_c : Ref sig .tc := ⟨.hbm, 104, rfl⟩
abbrev main_call2_v0 : Ref sig .tc := ⟨.hbm, 105, rfl⟩
abbrev main_call2_v1 : Ref sig .tc := ⟨.hbm, 106, rfl⟩
abbrev main_call2_c_0 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_v5 : Ref sig .tc := ⟨.hbm, 111, rfl⟩
abbrev main_call2_c_1 : Ref sig .tc := ⟨.hbm, 112, rfl⟩
abbrev main_call2_c_2 : Ref sig .tc := ⟨.hbm, 113, rfl⟩
abbrev main_call2_v6 : Ref sig .tc := ⟨.hbm, 114, rfl⟩
abbrev main_call2_v7 : Ref sig .tc := ⟨.hbm, 115, rfl⟩
abbrev main_call2_v8 : Ref sig .tc := ⟨.hbm, 116, rfl⟩
abbrev main_call2_v9 : Ref sig .tc := ⟨.hbm, 117, rfl⟩
abbrev main_call2_v10 : Ref sig .tc := ⟨.hbm, 118, rfl⟩
abbrev main_call2_v11 : Ref sig .tc := ⟨.hbm, 119, rfl⟩
abbrev main_call2_c_3 : Ref sig .tc := ⟨.hbm, 120, rfl⟩
abbrev main_call2_v12 : Ref sig .tc := ⟨.hbm, 121, rfl⟩
abbrev main_call2_v13 : Ref sig .tc := ⟨.hbm, 122, rfl⟩
abbrev main_call2_v14 : Ref sig .tc := ⟨.hbm, 123, rfl⟩
abbrev main_call2_cst : Ref sig .tc := ⟨.hbm, 124, rfl⟩
abbrev main_call2_v15 : Ref sig .tc := ⟨.hbm, 125, rfl⟩
abbrev main_v40 : Ref sig .tc := ⟨.hbm, 126, rfl⟩
abbrev main_call3_c : Ref sig .tc := ⟨.hbm, 127, rfl⟩
abbrev main_call3_v0 : Ref sig .tc := ⟨.hbm, 128, rfl⟩
abbrev main_call3_v1 : Ref sig .tc := ⟨.hbm, 129, rfl⟩
abbrev main_call3_c_0 : Ref sig .tc := ⟨.hbm, 130, rfl⟩
abbrev main_call3_v2 : Ref sig .tc := ⟨.hbm, 131, rfl⟩
abbrev main_call3_v3 : Ref sig .tc := ⟨.hbm, 132, rfl⟩
abbrev main_call3_v4 : Ref sig .tc := ⟨.hbm, 133, rfl⟩
abbrev main_call3_v5 : Ref sig .tc := ⟨.hbm, 134, rfl⟩
abbrev main_call3_c_1 : Ref sig .tc := ⟨.hbm, 135, rfl⟩
abbrev main_call3_c_2 : Ref sig .tc := ⟨.hbm, 136, rfl⟩
abbrev main_call3_v6 : Ref sig .tc := ⟨.hbm, 137, rfl⟩
abbrev main_call3_v7 : Ref sig .tc := ⟨.hbm, 138, rfl⟩
abbrev main_call3_v8 : Ref sig .tc := ⟨.hbm, 139, rfl⟩
abbrev main_call3_v9 : Ref sig .tc := ⟨.hbm, 140, rfl⟩
abbrev main_call3_v10 : Ref sig .tc := ⟨.hbm, 141, rfl⟩
abbrev main_call3_v11 : Ref sig .tc := ⟨.hbm, 142, rfl⟩
abbrev main_call3_c_3 : Ref sig .tc := ⟨.hbm, 143, rfl⟩
abbrev main_call3_v12 : Ref sig .tc := ⟨.hbm, 144, rfl⟩
abbrev main_call3_v13 : Ref sig .tc := ⟨.hbm, 145, rfl⟩
abbrev main_call3_v14 : Ref sig .tc := ⟨.hbm, 146, rfl⟩
abbrev main_call3_cst : Ref sig .tc := ⟨.hbm, 147, rfl⟩
abbrev main_call3_v15 : Ref sig .tc := ⟨.hbm, 148, rfl⟩
abbrev main_v41 : Ref sig .tc := ⟨.hbm, 149, rfl⟩
abbrev main_v42 : Ref sig .tc := ⟨.hbm, 150, rfl⟩
abbrev main_v43 : Ref sig .tc := ⟨.hbm, 151, rfl⟩
abbrev main_v44 : Ref sig .tc := ⟨.hbm, 152, rfl⟩
abbrev main_v45 : Ref sig .tc := ⟨.hbm, 153, rfl⟩
abbrev main_v46 : Ref sig .tc := ⟨.hbm, 154, rfl⟩
abbrev main_v47 : Ref sig .tc := ⟨.hbm, 155, rfl⟩
abbrev main_v48 : Ref sig .tc := ⟨.hbm, 156, rfl⟩
abbrev main_v49 : Ref sig .tc := ⟨.hbm, 157, rfl⟩
abbrev main_v50 : Ref sig .tc := ⟨.hbm, 158, rfl⟩
abbrev main_v51 : Ref sig .tc := ⟨.hbm, 159, rfl⟩
abbrev main_v52 : Ref sig .tc := ⟨.hbm, 160, rfl⟩
abbrev main_v53 : Ref sig .tc := ⟨.hbm, 161, rfl⟩
abbrev main_v54 : Ref sig .tc := ⟨.hbm, 162, rfl⟩
abbrev main_v55 : Ref sig .tc := ⟨.hbm, 163, rfl⟩
abbrev main_cst_0 : Ref sig .tc := ⟨.hbm, 164, rfl⟩
abbrev main_v56 : Ref sig .tc := ⟨.hbm, 165, rfl⟩
abbrev main_v57 : Ref sig .tc := ⟨.hbm, 166, rfl⟩
abbrev main_v58 : Ref sig .tc := ⟨.hbm, 167, rfl⟩
abbrev main_v59 : Ref sig .tc := ⟨.hbm, 168, rfl⟩
abbrev main_v60 : Ref sig .tc := ⟨.hbm, 169, rfl⟩
abbrev main_v61 : Ref sig .tc := ⟨.hbm, 170, rfl⟩
abbrev main_v62 : Ref sig .tc := ⟨.hbm, 171, rfl⟩
abbrev main_v63 : Ref sig .tc := ⟨.hbm, 172, rfl⟩
abbrev main_v64 : Ref sig .tc := ⟨.hbm, 173, rfl⟩
abbrev main_v65 : Ref sig .tc := ⟨.hbm, 174, rfl⟩
abbrev main_v66 : Ref sig .tc := ⟨.hbm, 175, rfl⟩
abbrev main_v67 : Ref sig .tc := ⟨.hbm, 176, rfl⟩
abbrev main_v68 : Ref sig .tc := ⟨.hbm, 177, rfl⟩
abbrev main_v69 : Ref sig .tc := ⟨.hbm, 178, rfl⟩
abbrev main_v70 : Ref sig .tc := ⟨.hbm, 179, rfl⟩
abbrev main_v71 : Ref sig .tc := ⟨.hbm, 180, rfl⟩
abbrev main_call4_c : Ref sig .tc := ⟨.hbm, 181, rfl⟩
abbrev main_call4_v0 : Ref sig .tc := ⟨.hbm, 182, rfl⟩
abbrev main_call4_v1 : Ref sig .tc := ⟨.hbm, 183, rfl⟩
abbrev main_call4_c_0 : Ref sig .tc := ⟨.hbm, 184, rfl⟩
abbrev main_call4_v2 : Ref sig .tc := ⟨.hbm, 185, rfl⟩
abbrev main_call4_v3 : Ref sig .tc := ⟨.hbm, 186, rfl⟩
abbrev main_call4_v4 : Ref sig .tc := ⟨.hbm, 187, rfl⟩
abbrev main_call4_v5 : Ref sig .tc := ⟨.hbm, 188, rfl⟩
abbrev main_call4_c_1 : Ref sig .tc := ⟨.hbm, 189, rfl⟩
abbrev main_call4_c_2 : Ref sig .tc := ⟨.hbm, 190, rfl⟩
abbrev main_call4_v6 : Ref sig .tc := ⟨.hbm, 191, rfl⟩
abbrev main_call4_v7 : Ref sig .tc := ⟨.hbm, 192, rfl⟩
abbrev main_call4_v8 : Ref sig .tc := ⟨.hbm, 193, rfl⟩
abbrev main_call4_v9 : Ref sig .tc := ⟨.hbm, 194, rfl⟩
abbrev main_call4_v10 : Ref sig .tc := ⟨.hbm, 195, rfl⟩
abbrev main_call4_v11 : Ref sig .tc := ⟨.hbm, 196, rfl⟩
abbrev main_call4_c_3 : Ref sig .tc := ⟨.hbm, 197, rfl⟩
abbrev main_call4_v12 : Ref sig .tc := ⟨.hbm, 198, rfl⟩
abbrev main_call4_v13 : Ref sig .tc := ⟨.hbm, 199, rfl⟩
abbrev main_call4_v14 : Ref sig .tc := ⟨.hbm, 200, rfl⟩
abbrev main_call4_cst : Ref sig .tc := ⟨.hbm, 201, rfl⟩
abbrev main_call4_v15 : Ref sig .tc := ⟨.hbm, 202, rfl⟩
abbrev main_v72 : Ref sig .tc := ⟨.hbm, 203, rfl⟩
abbrev main_call5_c : Ref sig .tc := ⟨.hbm, 204, rfl⟩
abbrev main_call5_v0 : Ref sig .tc := ⟨.hbm, 205, rfl⟩
abbrev main_call5_v1 : Ref sig .tc := ⟨.hbm, 206, rfl⟩
abbrev main_call5_c_0 : Ref sig .tc := ⟨.hbm, 207, rfl⟩
abbrev main_call5_v2 : Ref sig .tc := ⟨.hbm, 208, rfl⟩
abbrev main_call5_v3 : Ref sig .tc := ⟨.hbm, 209, rfl⟩
abbrev main_call5_v4 : Ref sig .tc := ⟨.hbm, 210, rfl⟩
abbrev main_call5_v5 : Ref sig .tc := ⟨.hbm, 211, rfl⟩
abbrev main_call5_c_1 : Ref sig .tc := ⟨.hbm, 212, rfl⟩
abbrev main_call5_c_2 : Ref sig .tc := ⟨.hbm, 213, rfl⟩
abbrev main_call5_v6 : Ref sig .tc := ⟨.hbm, 214, rfl⟩
abbrev main_call5_v7 : Ref sig .tc := ⟨.hbm, 215, rfl⟩
abbrev main_call5_v8 : Ref sig .tc := ⟨.hbm, 216, rfl⟩
abbrev main_call5_v9 : Ref sig .tc := ⟨.hbm, 217, rfl⟩
abbrev main_call5_v10 : Ref sig .tc := ⟨.hbm, 218, rfl⟩
abbrev main_call5_v11 : Ref sig .tc := ⟨.hbm, 219, rfl⟩
abbrev main_call5_c_3 : Ref sig .tc := ⟨.hbm, 220, rfl⟩
abbrev main_call5_v12 : Ref sig .tc := ⟨.hbm, 221, rfl⟩
abbrev main_call5_v13 : Ref sig .tc := ⟨.hbm, 222, rfl⟩
abbrev main_call5_v14 : Ref sig .tc := ⟨.hbm, 223, rfl⟩
abbrev main_call5_cst : Ref sig .tc := ⟨.hbm, 224, rfl⟩
abbrev main_call5_v15 : Ref sig .tc := ⟨.hbm, 225, rfl⟩
abbrev main_v73 : Ref sig .tc := ⟨.hbm, 226, rfl⟩
abbrev main_v74 : Ref sig .tc := ⟨.hbm, 227, rfl⟩
abbrev main_v75 : Ref sig .tc := ⟨.hbm, 228, rfl⟩
abbrev main_v76 : Ref sig .tc := ⟨.hbm, 229, rfl⟩
abbrev main_v77 : Ref sig .tc := ⟨.hbm, 230, rfl⟩
abbrev main_v78 : Ref sig .tc := ⟨.hbm, 231, rfl⟩
abbrev main_v79 : Ref sig .tc := ⟨.hbm, 232, rfl⟩
abbrev main_v80 : Ref sig .tc := ⟨.hbm, 233, rfl⟩
abbrev main_v81 : Ref sig .tc := ⟨.hbm, 234, rfl⟩
abbrev main_v82 : Ref sig .tc := ⟨.hbm, 235, rfl⟩
abbrev main_v83 : Ref sig .tc := ⟨.hbm, 236, rfl⟩
abbrev main_v84 : Ref sig .tc := ⟨.hbm, 237, rfl⟩
abbrev main_v85 : Ref sig .tc := ⟨.hbm, 238, rfl⟩
abbrev main_v86 : Ref sig .tc := ⟨.hbm, 239, rfl⟩
abbrev main_v87 : Ref sig .tc := ⟨.hbm, 240, rfl⟩
abbrev main_cst_1 : Ref sig .tc := ⟨.hbm, 241, rfl⟩
abbrev main_v88 : Ref sig .tc := ⟨.hbm, 242, rfl⟩
abbrev main_v89 : Ref sig .tc := ⟨.hbm, 243, rfl⟩
abbrev main_v90 : Ref sig .tc := ⟨.hbm, 244, rfl⟩
abbrev main_v91 : Ref sig .tc := ⟨.hbm, 245, rfl⟩
abbrev main_v92 : Ref sig .tc := ⟨.hbm, 246, rfl⟩
abbrev main_v93 : Ref sig .tc := ⟨.hbm, 247, rfl⟩
abbrev main_v94 : Ref sig .tc := ⟨.hbm, 248, rfl⟩
abbrev main_v95 : Ref sig .tc := ⟨.hbm, 249, rfl⟩
abbrev main_v96 : Ref sig .tc := ⟨.hbm, 250, rfl⟩
abbrev main_v97 : Ref sig .tc := ⟨.hbm, 251, rfl⟩
abbrev main_v98 : Ref sig .tc := ⟨.hbm, 252, rfl⟩
abbrev main_v99 : Ref sig .tc := ⟨.hbm, 253, rfl⟩
abbrev main_v100 : Ref sig .tc := ⟨.hbm, 254, rfl⟩
abbrev main_v101 : Ref sig .tc := ⟨.hbm, 255, rfl⟩
abbrev main_v102 : Ref sig .tc := ⟨.hbm, 256, rfl⟩
abbrev main_v103 : Ref sig .tc := ⟨.hbm, 257, rfl⟩
abbrev main_v104 : Ref sig .tc := ⟨.hbm, 258, rfl⟩
abbrev main_v105 : Ref sig .tc := ⟨.hbm, 259, rfl⟩
abbrev main_v106 : Ref sig .tc := ⟨.hbm, 260, rfl⟩
abbrev main_v107 : Ref sig .tc := ⟨.hbm, 261, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg8_0 : Ref sig .tc := ⟨.vmem, 23, rfl⟩
abbrev cc2_stg9_0 : Ref sig .tc := ⟨.vmem, 24, rfl⟩
abbrev cc2_stg9_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg7_1 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg1_1 : Ref sig .tc := ⟨.vmem, 40, rfl⟩
abbrev cc4_stg2_0 : Ref sig .tc := ⟨.vmem, 41, rfl⟩
abbrev cc4_stg2_1 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg6_0 : Ref sig .tc := ⟨.vmem, 46, rfl⟩
abbrev cc4_stg7_0 : Ref sig .tc := ⟨.vmem, 47, rfl⟩
abbrev cc4_stg8_0 : Ref sig .tc := ⟨.vmem, 48, rfl⟩
abbrev cc4_stg9_0 : Ref sig .tc := ⟨.vmem, 49, rfl⟩
abbrev cc4_stg9_1 : Ref sig .tc := ⟨.vmem, 50, rfl⟩
abbrev cc5_stg0_0 : Ref sig .tc := ⟨.vmem, 51, rfl⟩
abbrev cc5_stg0_1 : Ref sig .tc := ⟨.vmem, 52, rfl⟩
abbrev cc5_stg1_0 : Ref sig .tc := ⟨.vmem, 53, rfl⟩
abbrev cc5_stg1_1 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg6_0 : Ref sig .tc := ⟨.vmem, 59, rfl⟩
abbrev cc5_stg7_0 : Ref sig .tc := ⟨.vmem, 60, rfl⟩
abbrev cc5_stg7_1 : Ref sig .tc := ⟨.vmem, 61, rfl⟩
abbrev cc6_stg0_0 : Ref sig .tc := ⟨.vmem, 62, rfl⟩
abbrev cc6_stg0_1 : Ref sig .tc := ⟨.vmem, 63, rfl⟩
abbrev cc6_stg1_0 : Ref sig .tc := ⟨.vmem, 64, rfl⟩
abbrev cc6_stg1_1 : Ref sig .tc := ⟨.vmem, 65, rfl⟩
abbrev cc6_stg2_0 : Ref sig .tc := ⟨.vmem, 66, rfl⟩
abbrev cc6_stg2_1 : Ref sig .tc := ⟨.vmem, 67, rfl⟩
abbrev cc6_stg3_0 : Ref sig .tc := ⟨.vmem, 68, rfl⟩
abbrev cc6_stg4_0 : Ref sig .tc := ⟨.vmem, 69, rfl⟩
abbrev cc6_stg5_0 : Ref sig .tc := ⟨.vmem, 70, rfl⟩
abbrev cc6_stg6_0 : Ref sig .tc := ⟨.vmem, 71, rfl⟩
abbrev cc6_stg7_0 : Ref sig .tc := ⟨.vmem, 72, rfl⟩
abbrev cc6_stg8_0 : Ref sig .tc := ⟨.vmem, 73, rfl⟩
abbrev cc6_stg9_0 : Ref sig .tc := ⟨.vmem, 74, rfl⟩
abbrev cc6_stg9_1 : Ref sig .tc := ⟨.vmem, 75, rfl⟩
abbrev cc7_stg0_0 : Ref sig .tc := ⟨.vmem, 76, rfl⟩
abbrev cc7_stg0_1 : Ref sig .tc := ⟨.vmem, 77, rfl⟩
abbrev cc7_stg1_0 : Ref sig .tc := ⟨.vmem, 78, rfl⟩
abbrev cc7_stg1_1 : Ref sig .tc := ⟨.vmem, 79, rfl⟩
abbrev cc7_stg2_0 : Ref sig .tc := ⟨.vmem, 80, rfl⟩
abbrev cc7_stg3_0 : Ref sig .tc := ⟨.vmem, 81, rfl⟩
abbrev cc7_stg4_0 : Ref sig .tc := ⟨.vmem, 82, rfl⟩
abbrev cc7_stg5_0 : Ref sig .tc := ⟨.vmem, 83, rfl⟩
abbrev cc7_stg6_0 : Ref sig .tc := ⟨.vmem, 84, rfl⟩
abbrev cc7_stg7_0 : Ref sig .tc := ⟨.vmem, 85, rfl⟩
abbrev cc7_stg7_1 : Ref sig .tc := ⟨.vmem, 86, rfl⟩
abbrev cc8_stg0_0 : Ref sig .tc := ⟨.vmem, 87, rfl⟩
abbrev cc8_stg0_1 : Ref sig .tc := ⟨.vmem, 88, rfl⟩
abbrev cc8_stg1_0 : Ref sig .tc := ⟨.vmem, 89, rfl⟩
abbrev cc8_stg2_0 : Ref sig .tc := ⟨.vmem, 90, rfl⟩
abbrev cc8_stg3_0 : Ref sig .tc := ⟨.vmem, 91, rfl⟩
abbrev cc8_stg4_0 : Ref sig .tc := ⟨.vmem, 92, rfl⟩
abbrev cc8_stg5_0 : Ref sig .tc := ⟨.vmem, 93, rfl⟩
abbrev cc8_stg5_1 : Ref sig .tc := ⟨.vmem, 94, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem9_0 : DmaSem sig := 24
abbrev cc2_sem9_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem7_1 : DmaSem sig := 36
abbrev cc4_sem0_0 : DmaSem sig := 37
abbrev cc4_sem0_1 : DmaSem sig := 38
abbrev cc4_sem1_0 : DmaSem sig := 39
abbrev cc4_sem1_1 : DmaSem sig := 40
abbrev cc4_sem2_0 : DmaSem sig := 41
abbrev cc4_sem2_1 : DmaSem sig := 42
abbrev cc4_sem3_0 : DmaSem sig := 43
abbrev cc4_sem4_0 : DmaSem sig := 44
abbrev cc4_sem5_0 : DmaSem sig := 45
abbrev cc4_sem6_0 : DmaSem sig := 46
abbrev cc4_sem7_0 : DmaSem sig := 47
abbrev cc4_sem8_0 : DmaSem sig := 48
abbrev cc4_sem9_0 : DmaSem sig := 49
abbrev cc4_sem9_1 : DmaSem sig := 50
abbrev cc5_sem0_0 : DmaSem sig := 51
abbrev cc5_sem0_1 : DmaSem sig := 52
abbrev cc5_sem1_0 : DmaSem sig := 53
abbrev cc5_sem1_1 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem6_0 : DmaSem sig := 59
abbrev cc5_sem7_0 : DmaSem sig := 60
abbrev cc5_sem7_1 : DmaSem sig := 61
abbrev cc6_sem0_0 : DmaSem sig := 62
abbrev cc6_sem0_1 : DmaSem sig := 63
abbrev cc6_sem1_0 : DmaSem sig := 64
abbrev cc6_sem1_1 : DmaSem sig := 65
abbrev cc6_sem2_0 : DmaSem sig := 66
abbrev cc6_sem2_1 : DmaSem sig := 67
abbrev cc6_sem3_0 : DmaSem sig := 68
abbrev cc6_sem4_0 : DmaSem sig := 69
abbrev cc6_sem5_0 : DmaSem sig := 70
abbrev cc6_sem6_0 : DmaSem sig := 71
abbrev cc6_sem7_0 : DmaSem sig := 72
abbrev cc6_sem8_0 : DmaSem sig := 73
abbrev cc6_sem9_0 : DmaSem sig := 74
abbrev cc6_sem9_1 : DmaSem sig := 75
abbrev cc7_sem0_0 : DmaSem sig := 76
abbrev cc7_sem0_1 : DmaSem sig := 77
abbrev cc7_sem1_0 : DmaSem sig := 78
abbrev cc7_sem1_1 : DmaSem sig := 79
abbrev cc7_sem2_0 : DmaSem sig := 80
abbrev cc7_sem3_0 : DmaSem sig := 81
abbrev cc7_sem4_0 : DmaSem sig := 82
abbrev cc7_sem5_0 : DmaSem sig := 83
abbrev cc7_sem6_0 : DmaSem sig := 84
abbrev cc7_sem7_0 : DmaSem sig := 85
abbrev cc7_sem7_1 : DmaSem sig := 86
abbrev cc8_sem0_0 : DmaSem sig := 87
abbrev cc8_sem0_1 : DmaSem sig := 88
abbrev cc8_sem1_0 : DmaSem sig := 89
abbrev cc8_sem2_0 : DmaSem sig := 90
abbrev cc8_sem3_0 : DmaSem sig := 91
abbrev cc8_sem4_0 : DmaSem sig := 92
abbrev cc8_sem5_0 : DmaSem sig := 93
abbrev cc8_sem5_1 : DmaSem sig := 94

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S3200x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3200x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3200x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S3200x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S3200x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S4000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S3200x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S3200x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S3200x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S32x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S3200x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S4000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S3200x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S3200x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S3200x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S32x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S128x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 2 → Memref sig .tc .vmem S3200x128 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S4000x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64x1 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x1 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S4000x1 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  shapeCasts_S128_S1x128 : S128.ShapeCasts S1x128
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  shapeCasts_S32_S1x32 : S32.ShapeCasts S1x32
  inb_S3200x32_S3200x32_0_0 : ∀ a, (![0, 0] : Fin 2 → Nat) a + S3200x32.size a ≤ S3200x32.size a
  h_S3200x32 : 0 < S3200x32.numel
  inb_S32x32_S32x32_0_0 : ∀ a, (![0, 0] : Fin 2 → Nat) a + S32x32.size a ≤ S32x32.size a
  h_S32x32 : 0 < S32x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S3200x32 : S1x32.Broadcasts S3200x32
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x128_0 : S320000.BroadcastsInDim S320000x128 (![0] : Fin 1 → Fin S320000x128.rank)
  bcast_S_S320000x128 : S_.BroadcastsInDim S320000x128 (![] : Fin 0 → Fin S320000x128.rank)
  slices_S3x288x128_S1x288x128_0_0_0 : S3x288x128.Slices ![0, 0, 0] S1x288x128
  shapeCasts_S1x288x128_S288x128 : S1x288x128.ShapeCasts S288x128
  slices_S288x128_S128x128_0_0 : S288x128.Slices ![0, 0] S128x128
  slices_S288x128_S128x128_128_0 : S288x128.Slices ![128, 0] S128x128
  slices_S288x128_S32x128_256_0 : S288x128.Slices ![256, 0] S32x128
  slices_S3x128_S1x128_0_0 : S3x128.Slices ![0, 0] S1x128
  shapeCasts_S1x128_S128 : S1x128.ShapeCasts S128
  slices_S3x128x128_S1x128x128_0_0_0 : S3x128x128.Slices ![0, 0, 0] S1x128x128
  shapeCasts_S1x128x128_S128x128 : S1x128x128.ShapeCasts S128x128
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  shapeCasts_S3200x32_S3200x32 : S3200x32.ShapeCasts S3200x32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  broadcasts_S1x128_S3200x128 : S1x128.Broadcasts S3200x128
  bcast_S_S20000x128 : S_.BroadcastsInDim S20000x128 (![] : Fin 0 → Fin S20000x128.rank)
  slices_S3x256x128_S1x256x128_0_0_0 : S3x256x128.Slices ![0, 0, 0] S1x256x128
  shapeCasts_S1x256x128_S256x128 : S1x256x128.ShapeCasts S256x128
  slices_S256x128_S128x128_0_0 : S256x128.Slices ![0, 0] S128x128
  slices_S256x128_S128x128_128_0 : S256x128.Slices ![128, 0] S128x128
  shapeCasts_S4000x128_S4000x128 : S4000x128.ShapeCasts S4000x128
  slices_S3x288x128_S1x288x128_1_0_0 : S3x288x128.Slices ![1, 0, 0] S1x288x128
  slices_S3x128_S1x128_1_0 : S3x128.Slices ![1, 0] S1x128
  slices_S3x128x128_S1x128x128_1_0_0 : S3x128x128.Slices ![1, 0, 0] S1x128x128
  slices_S3x256x128_S1x256x128_1_0_0 : S3x256x128.Slices ![1, 0, 0] S1x256x128
  slices_S3x288x128_S1x288x128_2_0_0 : S3x288x128.Slices ![2, 0, 0] S1x288x128
  slices_S3x128_S1x128_2_0 : S3x128.Slices ![2, 0] S1x128
  slices_S3x128x128_S1x128x128_2_0_0 : S3x128x128.Slices ![2, 0, 0] S1x128x128
  slices_S3x256x128_S1x256x128_2_0_0 : S3x256x128.Slices ![2, 0, 0] S1x256x128
  shapeCasts_S64_S1x64 : S64.ShapeCasts S1x64
  shapeCasts_S1_S1x1 : S1.ShapeCasts S1x1
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  shapeCasts_S20000x1_S20000 : S20000x1.ShapeCasts S20000
  dot_S4000x64_S64x128_S4000x128_1_0_0_1_n_n_wf : DotDims.WF S4000x64 S64x128 S4000x128 [1] [0] [0] [1] [] []
  dot_S3200x32_S32x32_S3200x32_1_0_0_1_n_n_wf : DotDims.WF S3200x32 S32x32 S3200x32 [1] [0] [0] [1] [] []
  gather_S20000x128_S320000x1_S320000x128_1_0_n_n_0_1_1128_wf : GatherDims.WF S20000x128 S320000x1 S320000x128 [1] [0] [] [0] [] 1 ![1, 128]
  dot_S3200x128_S128x128_S3200x128_1_0_0_1_n_n_wf : DotDims.WF S3200x128 S128x128 S3200x128 [1] [0] [0] [1] [] []
  dot_S3200x32_S32x128_S3200x128_1_0_0_1_n_n_wf : DotDims.WF S3200x32 S32x128 S3200x128 [1] [0] [0] [1] [] []
  scatter_S20000x128_S320000x1_S320000x128_1_0_0_1_wf : ScatterDims.WF S20000x128 S320000x1 S320000x128 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  dot_S4000x64_S64x1_S4000x1_1_0_0_1_n_n_wf : DotDims.WF S4000x64 S64x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S20000x64.size a
  hwx0_0 : ∀ i : grid0.Coords, EltTy.bits .f32 = 32 ∨ (Rect.block (s := S20000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S20000x128.size a
  hwx0_3 : ∀ i : grid0.Coords, EltTy.bits .f32 = 32 ∨ (Rect.block (s := S20000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x32.size a ≤ S320000x32.size a
  hwx1_0 : ∀ i : grid1.Coords, EltTy.bits .f32 = 32 ∨ (Rect.block (s := S320000x32) S3200x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .f32 = 32 ∨ (Rect.block (s := S32x32) S32x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3200x32.size a ≤ S320000x32.size a
  hwx1_3 : ∀ i : grid1.Coords, EltTy.bits .f32 = 32 ∨ (Rect.block (s := S320000x32) S3200x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3200x128.size a ≤ S320000x128.size a
  hwx2_0 : ∀ i : grid2.Coords, EltTy.bits .f32 = 32 ∨ (Rect.block (s := S320000x128) S3200x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3200x128.size a ≤ S320000x128.size a
  hwx2_1 : ∀ i : grid2.Coords, EltTy.bits .f32 = 32 ∨ (Rect.block (s := S320000x128) S3200x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3200x32.size a ≤ S320000x32.size a
  hwx2_2 : ∀ i : grid2.Coords, EltTy.bits .f32 = 32 ∨ (Rect.block (s := S320000x32) S3200x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x128.size a ≤ S32x128.size a
  hwx2_5 : ∀ i : grid2.Coords, EltTy.bits .f32 = 32 ∨ (Rect.block (s := S32x128) S32x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S3200x128.size a ≤ S320000x128.size a
  hwx2_9 : ∀ i : grid2.Coords, EltTy.bits .f32 = 32 ∨ (Rect.block (s := S320000x128) S3200x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S20000x128.size a
  hwx3_0 : ∀ i : grid3.Coords, EltTy.bits .f32 = 32 ∨ (Rect.block (s := S20000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S20000x128.size a
  hwx3_1 : ∀ i : grid3.Coords, EltTy.bits .f32 = 32 ∨ (Rect.block (s := S20000x128) S4000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4000x128.size a ≤ S20000x128.size a
  hwx3_7 : ∀ i : grid3.Coords, EltTy.bits .f32 = 32 ∨ (Rect.block (s := S20000x128) S4000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S3200x128.size a ≤ S320000x128.size a
  hwx4_0 : ∀ i : grid4.Coords, EltTy.bits .f32 = 32 ∨ (Rect.block (s := S320000x128) S3200x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S3200x128.size a ≤ S320000x128.size a
  hwx4_1 : ∀ i : grid4.Coords, EltTy.bits .f32 = 32 ∨ (Rect.block (s := S320000x128) S3200x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S3200x32.size a ≤ S320000x32.size a
  hwx4_2 : ∀ i : grid4.Coords, EltTy.bits .f32 = 32 ∨ (Rect.block (s := S320000x32) S3200x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S32x128.size a ≤ S32x128.size a
  hwx4_5 : ∀ i : grid4.Coords, EltTy.bits .f32 = 32 ∨ (Rect.block (s := S32x128) S32x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x128.size a ≤ S128x128.size a
  hwx4_7 : ∀ i : grid4.Coords, EltTy.bits .f32 = 32 ∨ (Rect.block (s := S128x128) S128x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S3200x128.size a ≤ S320000x128.size a
  hwx4_9 : ∀ i : grid4.Coords, EltTy.bits .f32 = 32 ∨ (Rect.block (s := S320000x128) S3200x128.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S20000x128.size a
  hwx5_0 : ∀ i : grid5.Coords, EltTy.bits .f32 = 32 ∨ (Rect.block (s := S20000x128) S4000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x128.size a ≤ S20000x128.size a
  hwx5_1 : ∀ i : grid5.Coords, EltTy.bits .f32 = 32 ∨ (Rect.block (s := S20000x128) S4000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S4000x128.size a ≤ S20000x128.size a
  hwx5_7 : ∀ i : grid5.Coords, EltTy.bits .f32 = 32 ∨ (Rect.block (s := S20000x128) S4000x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S3200x128.size a ≤ S320000x128.size a
  hwx6_0 : ∀ i : grid6.Coords, EltTy.bits .f32 = 32 ∨ (Rect.block (s := S320000x128) S3200x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S3200x128.size a ≤ S320000x128.size a
  hwx6_1 : ∀ i : grid6.Coords, EltTy.bits .f32 = 32 ∨ (Rect.block (s := S320000x128) S3200x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S3200x32.size a ≤ S320000x32.size a
  hwx6_2 : ∀ i : grid6.Coords, EltTy.bits .f32 = 32 ∨ (Rect.block (s := S320000x32) S3200x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S32x128.size a ≤ S32x128.size a
  hwx6_5 : ∀ i : grid6.Coords, EltTy.bits .f32 = 32 ∨ (Rect.block (s := S32x128) S32x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S128x128.size a ≤ S128x128.size a
  hwx6_7 : ∀ i : grid6.Coords, EltTy.bits .f32 = 32 ∨ (Rect.block (s := S128x128) S128x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x128.size a ≤ S1x128.size a
  hwx6_8 : ∀ i : grid6.Coords, EltTy.bits .f32 = 32 ∨ (Rect.block (s := S1x128) S1x128.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S3200x128.size a ≤ S320000x128.size a
  hwx6_9 : ∀ i : grid6.Coords, EltTy.bits .f32 = 32 ∨ (Rect.block (s := S320000x128) S3200x128.size (cc6_transform_9 i) (hinb6_9 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x128.size a ≤ S20000x128.size a
  hwx7_0 : ∀ i : grid7.Coords, EltTy.bits .f32 = 32 ∨ (Rect.block (s := S20000x128) S4000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4000x128.size a ≤ S20000x128.size a
  hwx7_1 : ∀ i : grid7.Coords, EltTy.bits .f32 = 32 ∨ (Rect.block (s := S20000x128) S4000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x128.size a ≤ S128x128.size a
  hwx7_5 : ∀ i : grid7.Coords, EltTy.bits .f32 = 32 ∨ (Rect.block (s := S128x128) S128x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S4000x128.size a ≤ S20000x128.size a
  hwx7_7 : ∀ i : grid7.Coords, EltTy.bits .f32 = 32 ∨ (Rect.block (s := S20000x128) S4000x128.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x128.size a ≤ S20000x128.size a
  hwx8_0 : ∀ i : grid8.Coords, EltTy.bits .f32 = 32 ∨ (Rect.block (s := S20000x128) S4000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x64.size a ≤ S128x64.size a
  hwx8_1 : ∀ i : grid8.Coords, EltTy.bits .f32 = 32 ∨ (Rect.block (s := S128x64) S128x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x1.size a ≤ S64x1.size a
  hwx8_3 : ∀ i : grid8.Coords, EltTy.bits .f32 = 32 ∨ (Rect.block (s := S64x1) S64x1.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x1.size a ≤ S1x1.size a
  hwx8_4 : ∀ i : grid8.Coords, EltTy.bits .f32 = 32 ∨ (Rect.block (s := S1x1) S1x1.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S4000x1.size a ≤ S20000x1.size a
  hwx8_5 : ∀ i : grid8.Coords, EltTy.bits .f32 = 32 ∨ (Rect.block (s := S20000x1) S4000x1.size (cc8_transform_5 i) (hinb8_5 i)).WholeWords (EltTy.packing .f32)

variable [Facts₀]

def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S3200x32_S32x32_S3200x32_1_0_0_1_n_n : DotDims S3200x32 S32x32 S3200x32 where
  lhsContracting := [1]
  rhsContracting := [0]
  lhsNonContracting := [0]
  rhsNonContracting := [1]
  lhsBatch := []
  rhsBatch := []
  wf := dot_S3200x32_S32x32_S3200x32_1_0_0_1_n_n_wf
def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def dot_S3200x32_S32x128_S3200x128_1_0_0_1_n_n : DotDims S3200x32 S32x128 S3200x128 where
  lhsContracting := [1]
  rhsContracting := [0]
  lhsNonContracting := [0]
  rhsNonContracting := [1]
  lhsBatch := []
  rhsBatch := []
  wf := dot_S3200x32_S32x128_S3200x128_1_0_0_1_n_n_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S3200x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S3200x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S3200x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S3200x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S3200x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v12) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v13) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v14) S32x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v17) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v19) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v22) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v23) S3200x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v5) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v29) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v30) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v33) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v35) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v38) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v39) S4000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v40) S3200x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41) S3200x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v7) S3200x32.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v44) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v45) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v46) S32x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v49) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v51) S128x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v54) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v55) S3200x128.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v39) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v58) S4000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v61) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v62) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v65) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v67) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v70) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v71) S4000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v72) S3200x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v73) S3200x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v7) S3200x32.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v76) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v77) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v78) S32x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v81) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v83) S128x128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v86) S1x128.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v87) S3200x128.size cc6_transform_9 reads6_9 true false 2 stage6_9 sem6_9
    hrank6 hreads6_9 hinb6_9 nbuf6_9 (Memref.isWhole_whole _) hwx6_9 hstage6_9

abbrev win6 : Fin 10 → Pipeline.Window sig grid6 := fun | 0 => win6_0 | 1 => win6_1 | 2 => win6_2 | 3 => win6_3 | 4 => win6_4 | 5 => win6_5 | 6 => win6_6 | 7 => win6_7 | 8 => win6_8 | 9 => win6_9 | ⟨_ + 10, h⟩ => absurd h (Nat.not_lt.2 (Nat.le_add_left _ _))
abbrev spec6 : Fin 10 → Pipeline.WinSpec sig grid6.rank := fun w => (win6 w).toWinSpec

abbrev win7_0 : Pipeline.Window sig grid7 :=
  Pipeline.Window.ofSpec (Memref.whole main_v71) S4000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v90) S4000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v93) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v94) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v97) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v99) S128x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v102) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v103) S4000x128.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_v103) S4000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg14) S128x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v104) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg16) S64x1.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v105) S1x1.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v106) S4000x1.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S20000x64 : Shape := ⟨2, ![20000, 64]⟩
abbrev S320000x32 : Shape := ⟨2, ![320000, 32]⟩
abbrev S64x128 : Shape := ⟨2, ![64, 128]⟩
abbrev S128 : Shape := ⟨1, ![128]⟩
abbrev S32x32 : Shape := ⟨2, ![32, 32]⟩
abbrev S32 : Shape := ⟨1, ![32]⟩
abbrev S3x288x128 : Shape := ⟨3, ![3, 288, 128]⟩
abbrev S3x128 : Shape := ⟨2, ![3, 128]⟩
abbrev S3x128x128 : Shape := ⟨3, ![3, 128, 128]⟩
abbrev S3x256x128 : Shape := ⟨3, ![3, 256, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2x320000 : Shape := ⟨2, ![2, 320000]⟩
abbrev S1x320000 : Shape := ⟨2, ![1, 320000]⟩
abbrev S320000 : Shape := ⟨1, ![320000]⟩
abbrev S20000x128 : Shape := ⟨2, ![20000, 128]⟩
abbrev S1x128 : Shape := ⟨2, ![1, 128]⟩
abbrev S1x32 : Shape := ⟨2, ![1, 32]⟩
abbrev S_ : Shape := ⟨0, ![]⟩
abbrev S320000x1 : Shape := ⟨2, ![320000, 1]⟩
abbrev S320000x128 : Shape := ⟨2, ![320000, 128]⟩
abbrev S320000x288 : Shape := ⟨2, ![320000, 288]⟩
abbrev S1x288x128 : Shape := ⟨3, ![1, 288, 128]⟩
abbrev S288x128 : Shape := ⟨2, ![288, 128]⟩
abbrev S1x128x128 : Shape := ⟨3, ![1, 128, 128]⟩
abbrev S128x128 : Shape := ⟨2, ![128, 128]⟩
abbrev S20000x256 : Shape := ⟨2, ![20000, 256]⟩
abbrev S1x256x128 : Shape := ⟨3, ![1, 256, 128]⟩
abbrev S256x128 : Shape := ⟨2, ![256, 128]⟩
abbrev S1x64 : Shape := ⟨2, ![1, 64]⟩
abbrev S20000x1 : Shape := ⟨2, ![20000, 1]⟩
abbrev S1x1 : Shape := ⟨2, ![1, 1]⟩
abbrev S20000 : Shape := ⟨1, ![20000]⟩

abbrev nBuf : Space → Nat
  | .hbm => 247
  | .vmem => 0
  | .smem => 0
  | _ => 0

abbrev hbmTy0_0 (i : Nat) : BufTy := match i % 128 with
  | 0 => ⟨S20000x64, .f32⟩
  | 1 => ⟨S320000x32, .f32⟩
  | 2 => ⟨S64x128, .f32⟩
  | 3 => ⟨S128, .f32⟩
  | 4 => ⟨S32x32, .f32⟩
  | 5 => ⟨S32, .f32⟩
  | 6 => ⟨S3x288x128, .f32⟩
  | 7 => ⟨S3x128, .f32⟩
  | 8 => ⟨S3x128x128, .f32⟩
  | 9 => ⟨S3x128, .f32⟩
  | 10 => ⟨S3x256x128, .f32⟩
  | 11 => ⟨S3x128, .f32⟩
  | 12 => ⟨S3x128x128, .f32⟩
  | 13 => ⟨S3x128, .f32⟩
  | 14 => ⟨S128x64, .f32⟩
  | 15 => ⟨S64, .f32⟩
  | 16 => ⟨S64x1, .f32⟩
  | 17 => ⟨S1, .f32⟩
  | 18 => ⟨S2x320000, .i32⟩
  | 19 => ⟨S1x320000, .i32⟩
  | 20 => ⟨S320000, .i32⟩
  | 21 => ⟨S1x320000, .i32⟩
  | 22 => ⟨S320000, .i32⟩
  | 23 => ⟨S20000x128, .f32⟩
  | 24 => ⟨S1x128, .f32⟩
  | 25 => ⟨S20000x128, .f32⟩
  | 26 => ⟨S20000x128, .f32⟩
  | 27 => ⟨S320000x32, .f32⟩
  | 28 => ⟨S1x32, .f32⟩
  | 29 => ⟨S320000x32, .f32⟩
  | 30 => ⟨S320000x32, .f32⟩
  | 31 => ⟨S_, .i32⟩
  | 32 => ⟨S320000, .i32⟩
  | 33 => ⟨S320000, .i1⟩
  | 34 => ⟨S_, .i32⟩
  | 35 => ⟨S320000, .i32⟩
  | 36 => ⟨S320000, .i32⟩
  | 37 => ⟨S320000, .i32⟩
  | 38 => ⟨S320000x1, .i32⟩
  | 39 => ⟨S320000x128, .f32⟩
  | 40 => ⟨S_, .i32⟩
  | 41 => ⟨S320000, .i32⟩
  | 42 => ⟨S320000, .i1⟩
  | 43 => ⟨S_, .i32⟩
  | 44 => ⟨S320000, .i32⟩
  | 45 => ⟨S320000, .i32⟩
  | 46 => ⟨S320000, .i32⟩
  | 47 => ⟨S320000x1, .i32⟩
  | 48 => ⟨S320000x128, .f32⟩
  | 49 => ⟨S320000x288, .f32⟩
  | 50 => ⟨S1x288x128, .f32⟩
  | 51 => ⟨S288x128, .f32⟩
  | 52 => ⟨S320000x128, .f32⟩
  | 53 => ⟨S1x128, .f32⟩
  | 54 => ⟨S128, .f32⟩
  | 55 => ⟨S1x128, .f32⟩
  | 56 => ⟨S320000x128, .f32⟩
  | 57 => ⟨S320000x128, .f32⟩
  | 58 => ⟨S_, .f32⟩
  | 59 => ⟨S320000x128, .f32⟩
  | 60 => ⟨S320000x128, .f32⟩
  | 61 => ⟨S1x128x128, .f32⟩
  | 62 => ⟨S128x128, .f32⟩
  | 63 => ⟨S320000x128, .f32⟩
  | 64 => ⟨S1x128, .f32⟩
  | 65 => ⟨S128, .f32⟩
  | 66 => ⟨S1x128, .f32⟩
  | 67 => ⟨S320000x128, .f32⟩
  | 68 => ⟨S320000x128, .f32⟩
  | 69 => ⟨S_, .f32⟩
  | 70 => ⟨S320000x128, .f32⟩
  | 71 => ⟨S320000x128, .f32⟩
  | 72 => ⟨S_, .f32⟩
  | 73 => ⟨S20000x128, .f32⟩
  | 74 => ⟨S320000x1, .i32⟩
  | 75 => ⟨S20000x128, .f32⟩
  | 76 => ⟨S20000x256, .f32⟩
  | 77 => ⟨S1x256x128, .f32⟩
  | 78 => ⟨S256x128, .f32⟩
  | 79 => ⟨S20000x128, .f32⟩
  | 80 => ⟨S1x128, .f32⟩
  | 81 => ⟨S128, .f32⟩
  | 82 => ⟨S1x128, .f32⟩
  | 83 => ⟨S20000x128, .f32⟩
  | 84 => ⟨S20000x128, .f32⟩
  | 85 => ⟨S_, .f32⟩
  | 86 => ⟨S20000x128, .f32⟩
  | 87 => ⟨S20000x128, .f32⟩
  | 88 => ⟨S1x128x128, .f32⟩
  | 89 => ⟨S128x128, .f32⟩
  | 90 => ⟨S20000x128, .f32⟩
  | 91 => ⟨S1x128, .f32⟩
  | 92 => ⟨S128, .f32⟩
  | 93 => ⟨S1x128, .f32⟩
  | 94 => ⟨S20000x128, .f32⟩
  | 95 => ⟨S20000x128, .f32⟩
  | 96 => ⟨S_, .f32⟩
  | 97 => ⟨S20000x128, .f32⟩
  | 98 => ⟨S20000x128, .f32⟩
  | 99 => ⟨S_, .i32⟩
  | 100 => ⟨S320000, .i32⟩
  | 101 => ⟨S320000, .i1⟩
  | 102 => ⟨S_, .i32⟩
  | 103 => ⟨S320000, .i32⟩
  | 104 => ⟨S320000, .i32⟩
  | 105 => ⟨S320000, .i32⟩
  | 106 => ⟨S320000x1, .i32⟩
  | 107 => ⟨S320000x128, .f32⟩
  | 108 => ⟨S_, .i32⟩
  | 109 => ⟨S320000, .i32⟩
  | 110 => ⟨S320000, .i1⟩
  | 111 => ⟨S_, .i32⟩
  | 112 => ⟨S320000, .i32⟩
  | 113 => ⟨S320000, .i32⟩
  | 114 => ⟨S320000, .i32⟩
  | 115 => ⟨S320000x1, .i32⟩
  | 116 => ⟨S320000x128, .f32⟩
  | 117 => ⟨S320000x288, .f32⟩
  | 118 => ⟨S1x288x128, .f32⟩
  | 119 => ⟨S288x128, .f32⟩
  | 120 => ⟨S320000x128, .f32⟩
  | 121 => ⟨S1x128, .f32⟩
  | 122 => ⟨S128, .f32⟩
  | 123 => ⟨S1x128, .f32⟩
  | 124 => ⟨S320000x128, .f32⟩
  | 125 => ⟨S320000x128, .f32⟩
  | 126 => ⟨S_, .f32⟩
  | 127 => ⟨S320000x128, .f32⟩
  | _ => ⟨S20000x64, .f32⟩

abbrev hbmTy0_1 (i : Nat) : BufTy := match i % 128 with
  | 0 => ⟨S320000x128, .f32⟩
  | 1 => ⟨S1x128x128, .f32⟩
  | 2 => ⟨S128x128, .f32⟩
  | 3 => ⟨S320000x128, .f32⟩
  | 4 => ⟨S1x128, .f32⟩
  | 5 => ⟨S128, .f32⟩
  | 6 => ⟨S1x128, .f32⟩
  | 7 => ⟨S320000x128, .f32⟩
  | 8 => ⟨S320000x128, .f32⟩
  | 9 => ⟨S_, .f32⟩
  | 10 => ⟨S320000x128, .f32⟩
  | 11 => ⟨S320000x128, .f32⟩
  | 12 => ⟨S_, .f32⟩
  | 13 => ⟨S20000x128, .f32⟩
  | 14 => ⟨S320000x1, .i32⟩
  | 15 => ⟨S20000x128, .f32⟩
  | 16 => ⟨S20000x256, .f32⟩
  | 17 => ⟨S1x256x128, .f32⟩
  | 18 => ⟨S256x128, .f32⟩
  | 19 => ⟨S20000x128, .f32⟩
  | 20 => ⟨S1x128, .f32⟩
  | 21 => ⟨S128, .f32⟩
  | 22 => ⟨S1x128, .f32⟩
  | 23 => ⟨S20000x128, .f32⟩
  | 24 => ⟨S20000x128, .f32⟩
  | 25 => ⟨S_, .f32⟩
  | 26 => ⟨S20000x128, .f32⟩
  | 27 => ⟨S20000x128, .f32⟩
  | 28 => ⟨S1x128x128, .f32⟩
  | 29 => ⟨S128x128, .f32⟩
  | 30 => ⟨S20000x128, .f32⟩
  | 31 => ⟨S1x128, .f32⟩
  | 32 => ⟨S128, .f32⟩
  | 33 => ⟨S1x128, .f32⟩
  | 34 => ⟨S20000x128, .f32⟩
  | 35 => ⟨S20000x128, .f32⟩
  | 36 => ⟨S_, .f32⟩
  | 37 => ⟨S20000x128, .f32⟩
  | 38 => ⟨S20000x128, .f32⟩
  | 39 => ⟨S_, .i32⟩
  | 40 => ⟨S320000, .i32⟩
  | 41 => ⟨S320000, .i1⟩
  | 42 => ⟨S_, .i32⟩
  | 43 => ⟨S320000, .i32⟩
  | 44 => ⟨S320000, .i32⟩
  | 45 => ⟨S320000, .i32⟩
  | 46 => ⟨S320000x1, .i32⟩
  | 47 => ⟨S320000x128, .f32⟩
  | 48 => ⟨S_, .i32⟩
  | 49 => ⟨S320000, .i32⟩
  | 50 => ⟨S320000, .i1⟩
  | 51 => ⟨S_, .i32⟩
  | 52 => ⟨S320000, .i32⟩
  | 53 => ⟨S320000, .i32⟩
  | 54 => ⟨S320000, .i32⟩
  | 55 => ⟨S320000x1, .i32⟩
  | 56 => ⟨S320000x128, .f32⟩
  | 57 => ⟨S320000x288, .f32⟩
  | 58 => ⟨S1x288x128, .f32⟩
  | 59 => ⟨S288x128, .f32⟩
  | 60 => ⟨S320000x128, .f32⟩
  | 61 => ⟨S1x128, .f32⟩
  | 62 => ⟨S128, .f32⟩
  | 63 => ⟨S1x128, .f32⟩
  | 64 => ⟨S320000x128, .f32⟩
  | 65 => ⟨S320000x128, .f32⟩
  | 66 => ⟨S_, .f32⟩
  | 67 => ⟨S320000x128, .f32⟩
  | 68 => ⟨S320000x128, .f32⟩
  | 69 => ⟨S1x128x128, .f32⟩
  | 70 => ⟨S128x128, .f32⟩
  | 71 => ⟨S320000x128, .f32⟩
  | 72 => ⟨S1x128, .f32⟩
  | 73 => ⟨S128, .f32⟩
  | 74 => ⟨S1x128, .f32⟩
  | 75 => ⟨S320000x128, .f32⟩
  | 76 => ⟨S320000x128, .f32⟩
  | 77 => ⟨S_, .f32⟩
  | 78 => ⟨S320000x128, .f32⟩
  | 79 => ⟨S320000x128, .f32⟩
  | 80 => ⟨S_, .f32⟩
  | 81 => ⟨S20000x128, .f32⟩
  | 82 => ⟨S320000x1, .i32⟩
  | 83 => ⟨S20000x128, .f32⟩
  | 84 => ⟨S20000x256, .f32⟩
  | 85 => ⟨S1x256x128, .f32⟩
  | 86 => ⟨S256x128, .f32⟩
  | 87 => ⟨S20000x128, .f32⟩
  | 88 => ⟨S1x128, .f32⟩
  | 89 => ⟨S128, .f32⟩
  | 90 => ⟨S1x128, .f32⟩
  | 91 => ⟨S20000x128, .f32⟩
  | 92 => ⟨S20000x128, .f32⟩
  | 93 => ⟨S_, .f32⟩
  | 94 => ⟨S20000x128, .f32⟩
  | 95 => ⟨S20000x128, .f32⟩
  | 96 => ⟨S1x128x128, .f32⟩
  | 97 => ⟨S128x128, .f32⟩
  | 98 => ⟨S20000x128, .f32⟩
  | 99 => ⟨S1x128, .f32⟩
  | 100 => ⟨S128, .f32⟩
  | 101 => ⟨S1x128, .f32⟩
  | 102 => ⟨S20000x128, .f32⟩
  | 103 => ⟨S20000x128, .f32⟩
  | 104 => ⟨S_, .f32⟩
  | 105 => ⟨S20000x128, .f32⟩
  | 106 => ⟨S20000x128, .f32⟩
  | 107 => ⟨S20000x64, .f32⟩
  | 108 => ⟨S1x64, .f32⟩
  | 109 => ⟨S20000x64, .f32⟩
  | 110 => ⟨S20000x64, .f32⟩
  | 111 => ⟨S_, .f32⟩
  | 112 => ⟨S20000x64, .f32⟩
  | 113 => ⟨S20000x64, .f32⟩
  | 114 => ⟨S20000x1, .f32⟩
  | 115 => ⟨S1x1, .f32⟩
  | 116 => ⟨S20000x1, .f32⟩
  | 117 => ⟨S20000x1, .f32⟩
  | 118 => ⟨S20000, .f32⟩
  | _ => ⟨S20000x64, .f32⟩

abbrev hbmTy (i : Nat) : BufTy := match i / 128 with
  | 0 => hbmTy0_0 i
  | 1 => hbmTy0_1 i
  | _ => ⟨S20000x64, .f32⟩

abbrev bufTy : (tb : Table) → Fin (tcTables nBuf tb) → BufTy
  | .hbm, ⟨i, _⟩ => hbmTy i
  | _, _ => ⟨S20000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_1 : Ref sig .tc := ⟨.hbm, 40, rfl⟩
abbrev main_v19 : Ref sig .tc := ⟨.hbm, 41, rfl⟩
abbrev main_v20 : Ref sig .tc := ⟨.hbm, 42, rfl⟩
abbrev main_c_2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_call0_cst : Ref sig .tc := ⟨.hbm, 58, rfl⟩
abbrev main_call0_v0 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_call1_cst : Ref sig .tc := ⟨.hbm, 69, rfl⟩
abbrev main_call1_v0 : Ref sig .tc := ⟨.hbm, 70, rfl⟩
abbrev main_v44 : Ref sig .tc := ⟨.hbm, 71, rfl⟩
abbrev main_cst : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_call2_cst : Ref sig .tc := ⟨.hbm, 85, rfl⟩
abbrev main_call2_v0 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_call3_cst : Ref sig .tc := ⟨.hbm, 96, rfl⟩
abbrev main_call3_v0 : Ref sig .tc := ⟨.hbm, 97, rfl⟩
abbrev main_v66 : Ref sig .tc := ⟨.hbm, 98, rfl⟩
abbrev main_c_3 : Ref sig .tc := ⟨.hbm, 99, rfl⟩
abbrev main_v67 : Ref sig .tc := ⟨.hbm, 100, rfl⟩
abbrev main_v68 : Ref sig .tc := ⟨.hbm, 101, rfl⟩
abbrev main_c_4 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c_5 : Ref sig .tc := ⟨.hbm, 108, rfl⟩
abbrev main_v74 : Ref sig .tc := ⟨.hbm, 109, rfl⟩
abbrev main_v75 : Ref sig .tc := ⟨.hbm, 110, rfl⟩
abbrev main_c_6 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_call4_cst : Ref sig .tc := ⟨.hbm, 126, rfl⟩
abbrev main_call4_v0 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_call5_cst : Ref sig .tc := ⟨.hbm, 137, rfl⟩
abbrev main_call5_v0 : Ref sig .tc := ⟨.hbm, 138, rfl⟩
abbrev main_v99 : Ref sig .tc := ⟨.hbm, 139, rfl⟩
abbrev main_cst_7 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_call6_cst : Ref sig .tc := ⟨.hbm, 153, rfl⟩
abbrev main_call6_v0 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_call7_cst : Ref sig .tc := ⟨.hbm, 164, rfl⟩
abbrev main_call7_v0 : Ref sig .tc := ⟨.hbm, 165, rfl⟩
abbrev main_v121 : Ref sig .tc := ⟨.hbm, 166, rfl⟩
abbrev main_c_8 : Ref sig .tc := ⟨.hbm, 167, rfl⟩
abbrev main_v122 : Ref sig .tc := ⟨.hbm, 168, rfl⟩
abbrev main_v123 : Ref sig .tc := ⟨.hbm, 169, rfl⟩
abbrev main_c_9 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_c_10 : Ref sig .tc := ⟨.hbm, 176, rfl⟩
abbrev main_v129 : Ref sig .tc := ⟨.hbm, 177, rfl⟩
abbrev main_v130 : Ref sig .tc := ⟨.hbm, 178, rfl⟩
abbrev main_c_11 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_call8_cst : Ref sig .tc := ⟨.hbm, 194, rfl⟩
abbrev main_call8_v0 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_call9_cst : Ref sig .tc := ⟨.hbm, 205, rfl⟩
abbrev main_call9_v0 : Ref sig .tc := ⟨.hbm, 206, rfl⟩
abbrev main_v154 : Ref sig .tc := ⟨.hbm, 207, rfl⟩
abbrev main_cst_12 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_call10_cst : Ref sig .tc := ⟨.hbm, 221, rfl⟩
abbrev main_call10_v0 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_call11_cst : Ref sig .tc := ⟨.hbm, 232, rfl⟩
abbrev main_call11_v0 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_call12_cst : Ref sig .tc := ⟨.hbm, 239, rfl⟩
abbrev main_call12_v0 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S32_S1x32_1 : S32.BroadcastsInDim S1x32 (![1] : Fin 1 → Fin S1x32.rank)
  bcast_S1x32_S320000x32_0_1 : S1x32.BroadcastsInDim S320000x32 (![0, 1] : Fin 2 → Fin S320000x32.rank)
  bcast_S_S320000 : S_.BroadcastsInDim S320000 (![] : Fin 0 → Fin S320000.rank)
  bcast_S320000_S320000x1_0 : S320000.BroadcastsInDim S320000x1 (![0] : Fin 1 → Fin S320000x1.rank)
  concatenates_S320000x128_S320000x128_S320000x32_S320000x288_d1 : Shape.Concatenates [S320000x128, S320000x128, S320000x32] S320000x288 1
  slices_S3x288x128_S1x288x128_0_0_0 : S3x288x128.Slices ![0, 0, 0] S1x288x128
  shapeCasts_S1x288x128_S288x128 : S1x288x128.ShapeCasts S288x128
  slices_S3x128_S1x128_0_0 : S3x128.Slices ![0, 0] S1x128
  shapeCasts_S1x128_S128 : S1x128.ShapeCasts S128
  bcast_S1x128_S320000x128_0_1 : S1x128.BroadcastsInDim S320000x128 (![0, 1] : Fin 2 → Fin S320000x128.rank)
  bcast_S_S320000x128 : S_.BroadcastsInDim S320000x128 (![] : Fin 0 → Fin S320000x128.rank)
  slices_S3x128x128_S1x128x128_0_0_0 : S3x128x128.Slices ![0, 0, 0] S1x128x128
  shapeCasts_S1x128x128_S128x128 : S1x128x128.ShapeCasts S128x128
  bcast_S_S20000x128 : S_.BroadcastsInDim S20000x128 (![] : Fin 0 → Fin S20000x128.rank)
  concatenates_S20000x128_S20000x128_S20000x256_d1 : Shape.Concatenates [S20000x128, S20000x128] S20000x256 1
  slices_S3x256x128_S1x256x128_0_0_0 : S3x256x128.Slices ![0, 0, 0] S1x256x128
  shapeCasts_S1x256x128_S256x128 : S1x256x128.ShapeCasts S256x128
  slices_S3x288x128_S1x288x128_1_0_0 : S3x288x128.Slices ![1, 0, 0] S1x288x128
  slices_S3x128_S1x128_1_0 : S3x128.Slices ![1, 0] S1x128
  slices_S3x128x128_S1x128x128_1_0_0 : S3x128x128.Slices ![1, 0, 0] S1x128x128
  slices_S3x256x128_S1x256x128_1_0_0 : S3x256x128.Slices ![1, 0, 0] S1x256x128
  slices_S3x288x128_S1x288x128_2_0_0 : S3x288x128.Slices ![2, 0, 0] S1x288x128
  slices_S3x128_S1x128_2_0 : S3x128.Slices ![2, 0] S1x128
  slices_S3x128x128_S1x128x128_2_0_0 : S3x128x128.Slices ![2, 0, 0] S1x128x128
  slices_S3x256x128_S1x256x128_2_0_0 : S3x256x128.Slices ![2, 0, 0] S1x256x128
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  bcast_S_S20000x64 : S_.BroadcastsInDim S20000x64 (![] : Fin 0 → Fin S20000x64.rank)
  bcast_S1_S1x1_1 : S1.BroadcastsInDim S1x1 (![1] : Fin 1 → Fin S1x1.rank)
  bcast_S1x1_S20000x1_0_1 : S1x1.BroadcastsInDim S20000x1 (![0, 1] : Fin 2 → Fin S20000x1.rank)
  shapeCasts_S20000x1_S20000 : S20000x1.ShapeCasts S20000
  dot_S20000x64_S64x128_S20000x128_1_0_0_1_n_n_wf : DotDims.WF S20000x64 S64x128 S20000x128 [1] [0] [0] [1] [] []
  dot_S320000x32_S32x32_S320000x32_1_0_0_1_n_n_wf : DotDims.WF S320000x32 S32x32 S320000x32 [1] [0] [0] [1] [] []
  gather_S20000x128_S320000x1_S320000x128_1_0_n_n_0_1_1128_wf : GatherDims.WF S20000x128 S320000x1 S320000x128 [1] [0] [] [0] [] 1 ![1, 128]
  dot_S320000x288_S288x128_S320000x128_1_0_0_1_n_n_wf : DotDims.WF S320000x288 S288x128 S320000x128 [1] [0] [0] [1] [] []
  dot_S320000x128_S128x128_S320000x128_1_0_0_1_n_n_wf : DotDims.WF S320000x128 S128x128 S320000x128 [1] [0] [0] [1] [] []
  scatter_S20000x128_S320000x1_S320000x128_1_0_0_1_wf : ScatterDims.WF S20000x128 S320000x1 S320000x128 [1] [0] [0] 1
  dot_S20000x256_S256x128_S20000x128_1_0_0_1_n_n_wf : DotDims.WF S20000x256 S256x128 S20000x128 [1] [0] [0] [1] [] []
  dot_S20000x128_S128x128_S20000x128_1_0_0_1_n_n_wf : DotDims.WF S20000x128 S128x128 S20000x128 [1] [0] [0] [1] [] []
  dot_S20000x128_S128x64_S20000x64_1_0_0_1_n_n_wf : DotDims.WF S20000x128 S128x64 S20000x64 [1] [0] [0] [1] [] []
  dot_S20000x64_S64x1_S20000x1_1_0_0_1_n_n_wf : DotDims.WF S20000x64 S64x1 S20000x1 [1] [0] [0] [1] [] []

variable [Facts₀]

def dot_S20000x64_S64x128_S20000x128_1_0_0_1_n_n : DotDims S20000x64 S64x128 S20000x128 where
  lhsContracting := [1]
  rhsContracting := [0]
  lhsNonContracting := [0]
  rhsNonContracting := [1]
  lhsBatch := []
  rhsBatch := []
  wf := dot_S20000x64_S64x128_S20000x128_1_0_0_1_n_n_wf
def dot_S320000x32_S32x32_S320000x32_1_0_0_1_n_n : DotDims S320000x32 S32x32 S320000x32 where
  lhsContracting := [1]
  rhsContracting := [0]
  lhsNonContracting := [0]
  rhsNonContracting := [1]
  lhsBatch := []
  rhsBatch := []
  wf := dot_S320000x32_S32x32_S320000x32_1_0_0_1_n_n_wf
def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def dot_S320000x288_S288x128_S320000x128_1_0_0_1_n_n : DotDims S320000x288 S288x128 S320000x128 where
  lhsContracting := [1]
  rhsContracting := [0]
  lhsNonContracting := [0]
  rhsNonContracting := [1]
  lhsBatch := []
  rhsBatch := []
  wf := dot_S320000x288_S288x128_S320000x128_1_0_0_1_n_n_wf
def dot_S320000x128_S128x128_S320000x128_1_0_0_1_n_n : DotDims S320000x128 S128x128 S320000x128 where
  lhsContracting := [1]
  rhsContracting := [0]
  lhsNonContracting := [0]
  rhsNonContracting := [1]
  lhsBatch := []
  rhsBatch := []
  wf := dot_S320000x128_S128x128_S320000x128_1_0_0_1_n_n_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf
def dot_S20000x64_S64x1_S20000x1_1_0_0_1_n_n : DotDims S20000x64 S64x1 S20000x1 where
  lhsContracting := [1]
  rhsContracting := [0]
  lhsNonContracting := [0]
  rhsNonContracting := [1]
  lhsBatch := []
  rhsBatch := []
  wf := dot_S20000x64_S64x1_S20000x1_1_0_0_1_n_n_wf

class Facts : Prop extends Facts₀ where

variable [Facts]
-- ==== Proof.Take.lean ====
/-
  READING A NODE ARRAY AT THE EDGES' ENDS, THE KERNEL'S WAY. The kernel reads row `idx e` of the node array for every
  edge `e` with a negative number counted from the end, and fills the row with a not-a-number pattern where the (wrapped)
  number is not a row of the array; the gather itself clamps. Where every node number is in range the fill never
  happens and the result is the plain gather of the wrapped numbers, which is what the reference computes.
  The precondition says exactly that: every entry of the edge list is at least 0 and less than 20000.
-/
import proofs.«404104_j10677288698628_1_alg».proof.Defs
import proofs.«404104_j10677288698628_1_alg».proof.Proof.Gen.KernelIdeal
import Idealize.ShloMosaic.Lib.ValueIdx
import Idealize.ShloMosaic.Lib.ReduceAll
import Idealize.ShloMosaic.Lib.StableHlo.Predicate

set_option maxRecDepth 16384

noncomputable section

namespace Cert.KernelIdeal.Take

open Cert.KernelIdeal Cert.KernelIdeal.Gen Idealize.ShloMosaic Idealize.ShloMosaic.TcCoe Idealize.SL.Sem Idealize.ShloMosaic.ValueIdx

/-! ### Words -/

/-- A fold by `and` from 1 over ones is 1. -/
theorem foldl_andi_ones {ι : Type} (x : ι → BitVec 1) (hx : ∀ i, x i = 1#1) :
    ∀ l : List ι, l.foldl (fun r i => IntOp.andi r (x i)) 1#1 = 1#1
  | [] => rfl
  | a :: l => by
    have h1 : IntOp.andi (1#1 : BitVec 1) 1#1 = 1#1 := by decide
    rw [List.foldl_cons, hx a, h1]
    exact foldl_andi_ones x hx l

/-- A reduction by `and` from the constant 1 of an array of ones is 1 everywhere. -/
theorem reduce_andi_ones {s t u : Shape} {axes : List (Fin s.rank)} (x : s.Idx → BitVec 1) (hx : ∀ i, x i = 1#1)
    (h : s.ReducesTo axes t) (hu : 0 < u.numel) (j : t.Idx) :
    Host.reduce IntOp.andi x (constantI u 1 1#1) h hu j = 1#1 := by
  rw [Host.reduce_eq_foldl]
  exact foldl_andi_ones x hx _

/-- A node number in range is not negative, so counting from the end leaves it as it is. -/
theorem wrap_word (x : BitVec 32) (h0 : 0 ≤ x.toInt) :
    Scalar.select (IntOp.cmpi .slt x 0#32) (IntOp.addi x 20000#32) x = x := by
  have hz : (0#32 : BitVec 32).toInt = 0 := by decide
  have hc : IntOp.cmpi .slt x 0#32 = 0#1 := by
    unfold IntOp.cmpi
    simp only [BitVec.slt, hz]
    rw [decide_eq_false (by omega)]
    rfl
  rw [hc]
  rfl

/-- A node number in range passes both range tests. -/
theorem inb_word (x : BitVec 32) (h0 : 0 ≤ x.toInt) (h1 : x.toInt < 20000) :
    IntOp.andi (IntOp.cmpi .sge x 0#32) (IntOp.cmpi .sle x 19999#32) = 1#1 := by
  have hz : (0#32 : BitVec 32).toInt = 0 := by decide
  have hn : (19999#32 : BitVec 32).toInt = 19999 := by decide
  have ha : IntOp.cmpi .sge x 0#32 = 1#1 := by
    unfold IntOp.cmpi
    simp only [BitVec.sle, hz]
    rw [decide_eq_true (by omega)]
    rfl
  have hb : IntOp.cmpi .sle x 19999#32 = 1#1 := by
    unfold IntOp.cmpi
    simp only [BitVec.sle, hn]
    rw [decide_eq_true (by omega)]
    rfl
  rw [ha, hb]
  decide

/-- The range tests read back: a word that passes the signed test against 0 is not negative. -/
theorem sge_zero_word (x : BitVec 32) (h : IntOp.cmpi .sge x 0#32 = 1#1) : (0 : Int) ≤ x.toInt := by
  have hz : (0#32 : BitVec 32).toInt = 0 := by decide
  unfold IntOp.cmpi at h
  have h' := (StableHlo.Predicate.ofBool_eq_one_iff _).1 h
  simp only [BitVec.sle, hz, decide_eq_true_eq] at h'
  exact h'

/-- A word that passes the signed test against 20000 is below it. -/
theorem slt_word (x : BitVec 32) (h : IntOp.cmpi .slt x 20000#32 = 1#1) : x.toInt < 20000 := by
  have hn : (20000#32 : BitVec 32).toInt = 20000 := by decide
  unfold IntOp.cmpi at h
  have h' := (StableHlo.Predicate.ofBool_eq_one_iff _).1 h
  simp only [BitVec.slt, hn, decide_eq_true_eq] at h'
  exact h'

/-- A negative node number counts from the end of the 20000 rows. -/
def wrap (idx : IVec S320000 32) : IVec S320000 32 :=
  select (cmpi .slt idx (broadcastInDim S320000 ![] bcast_S_S320000 (constantI S_ 32 0#32)))
    (addi idx (broadcastInDim S320000 ![] bcast_S_S320000 (constantI S_ 32 20000#32))) idx

/-- The node numbers as a column, the form the gather and the scatter take them in. -/
def col (idx : IVec S320000 32) : IVec S320000x1 32 := broadcastInDim S320000x1 ![0] bcast_S320000_S320000x1_0 idx

/-- One where the wrapped number is a row of the array (at least 0 and at most 19999). -/
def inb (idx : IVec S320000 32) : IVec S320000 1 :=
  Host.reduce IntOp.andi
    (andi (cmpi .sge (col (wrap idx)) (broadcastInDim S320000x1 ![] bcast_S_S320000x1 (constantI S_ 32 0#32)))
      (cmpi .sle (col (wrap idx)) (broadcastInDim S320000x1 ![0, 1] bcast_S1x1_S320000x1_0_1
        (broadcastInDim S1x1 ![1] bcast_S1_S1x1_1 (constantI S1 32 19999#32)))))
    (constantI S_ 1 1#1) reducesTo_S320000x1_S320000_d1 h_S_

/-- The rows of `h` at the wrapped numbers (the gather clamps a number that is out of range). -/
def rowsAt (h : FVec Ideal S20000x128 .f32) (idx : IVec S320000 32) : FVec Ideal S320000x128 .f32 :=
  Host.gather gather_S20000x128_S320000x1_S320000x128_1_0_n_n_0_1_1128 h (col (wrap idx))

/-- The kernel's read: the gathered row where the number is in range, the fill pattern elsewhere. -/
def takeFill (h : FVec Ideal S20000x128 .f32) (idx : IVec S320000 32) : FVec Ideal S320000x128 .f32 :=
  select (broadcastInDim S320000x128 ![0] bcast_S320000_S320000x128_0 (inb idx)) (rowsAt h idx)
    (broadcastInDim S320000x128 ![] bcast_S_S320000x128 (constant S_ .f32 0x7FC00000#32))

/-- The edges' sources: row 0 of the edge list. -/
def srcIdx (ei : IVec S2x320000 32) : IVec S320000 32 :=
  shapeCast S320000 (extractStridedSlice S1x320000 ![0, 0] ei slices_S2x320000_S1x320000_0_0) shapeCasts_S1x320000_S320000
/-- The edges' targets: row 1 of the edge list. -/
def dstIdx (ei : IVec S2x320000 32) : IVec S320000 32 :=
  shapeCast S320000 (extractStridedSlice S1x320000 ![1, 0] ei slices_S2x320000_S1x320000_1_0) shapeCasts_S1x320000_S320000

/-- Every entry of the edge list is a node number: at least 0 and less than 20000, as signed 32-bit integers. -/
def InRange (ei : IVec S2x320000 32) : Prop :=
  ∀ j : S2x320000.Idx, (0 : Int) ≤ (ei j).toInt ∧ (ei j).toInt < 20000

/-! ### The mask is all ones, so the fill never happens -/

/-- With every number in range the mask is one at every edge. -/
theorem inb_ones (idx : IVec S320000 32) (hr : ∀ j, (0 : Int) ≤ (idx j).toInt ∧ (idx j).toInt < 20000)
    (j : S320000.Idx) : inb idx j = 1#1 := by
  unfold inb
  refine reduce_andi_ones _ (fun i => ?_) _ _ j
  obtain ⟨k, hk⟩ : ∃ k, col (wrap idx) i = wrap idx k := ⟨_, rfl⟩
  have hw : wrap idx k = idx k := wrap_word (idx k) (hr k).1
  show IntOp.andi (IntOp.cmpi .sge (col (wrap idx) i) 0#32) (IntOp.cmpi .sle (col (wrap idx) i) 19999#32) = 1#1
  rw [hk, hw]
  exact inb_word _ (hr k).1 (hr k).2

/-- A select whose mask is one everywhere is its first branch. -/
theorem select_ones {s : Shape} {α : Type} (c : IVec s 1) (a b : s.Idx → α) (hc : ∀ i, c i = 1#1) : select c a b = a := by
  funext i
  show Scalar.select (c i) (a i) (b i) = a i
  rw [hc i]
  exact if_pos rfl

/-- With every number in range the kernel's read is the plain gather. -/
theorem takeFill_of_range (h : FVec Ideal S20000x128 .f32) (idx : IVec S320000 32)
    (hr : ∀ j, (0 : Int) ≤ (idx j).toInt ∧ (idx j).toInt < 20000) : takeFill h idx = rowsAt h idx := by
  unfold takeFill
  exact select_ones _ _ _ (fun p => inb_ones idx hr _)

/-- With every node number in range the kernel's read of the targets' rows is the plain gather. -/
theorem takeFill_dst (h : FVec Ideal S20000x128 .f32) (ei : IVec S2x320000 32) (hr : InRange ei) :
    takeFill h (dstIdx ei) = rowsAt h (dstIdx ei) :=
  takeFill_of_range h (dstIdx ei) (fun _ => hr _)

/-- The same for the sources' rows. -/
theorem takeFill_src (h : FVec Ideal S20000x128 .f32) (ei : IVec S2x320000 32) (hr : InRange ei) :
    takeFill h (srcIdx ei) = rowsAt h (srcIdx ei) :=
  takeFill_of_range h (srcIdx ei) (fun _ => hr _)

variable [Cert.Pre_finite_inputs.Facts]

/-- The precondition's last two conjuncts say that every entry of the edge list is in range. -/
theorem range_of_pre (m : (ℓ : Loc nD τ sig) → Buf (Elt Ideal) ℓ) (hpre : Cert.Pre_KernelIdeal m) (c : Dev nD) :
    InRange (m ((c.tc : Thread nD τ).loc main_arg18)) := by
  haveI : Subsingleton Cert.Pre_finite_inputs.S_.Idx := ⟨fun a b => funext fun d => d.elim0⟩
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h
  obtain ⟨h92, h95⟩ := IntOp.andi_eq_one.1 h
  obtain ⟨-, h91⟩ := IntOp.andi_eq_one.1 h92
  intro j
  have a := Host.reduce_andi_all _ _ _ _ _ h91 j
  have b := Host.reduce_andi_all _ _ _ _ _ h95 j
  exact ⟨sge_zero_word _ a, slt_word _ b⟩

end Cert.KernelIdeal.Take

end
-- ==== Proof.LibContract.lean ====
/-
  A matrix product with ONE contracted axis, read at an output index over the extended reals.

  The matrix unit's product into a zero accumulator is, at an output index j, the sum over the contraction
  index of the products of the two operands at the operand indices the dimension numbers give. When a single
  axis is contracted, of extent K, the contraction index is that axis's coordinate, and the sum is a sum over
  `Fin K`. The caller names the operand index at coordinate k on each side.
-/
import Idealize.ShloMosaic.PureOps.Ideal
import Idealize.ShloMosaic.PureOps.Ideal.Laws
import Idealize.ShloMosaic.Lib.ValueIdx

noncomputable section

open scoped BigOperators

namespace Idealize.ShloMosaic.Contract

open Idealize.ShloMosaic Idealize.ShloMosaic.ValueIdx

/-- With no batch axes and ONE free (non-contracted) axis on the left operand, the left operand's index on that axis
    is the output index's first coordinate. (The library has the companion fact for the contracted axis,
    `DotDims.lhsIdx_val_of_single`; this is proved the same way: the position of the axis in a one-element list is 0.) -/
theorem lhsIdx_val_of_free {sl sr so : Shape} (d : DotDims sl sr so) {nl : Fin sl.rank} (hb : d.lhsBatch = [])
    (hn : d.lhsNonContracting = [nl]) (h0 : 0 < so.rank) (j : so.Idx) (k : d.contr.Idx) :
    (d.lhsIdx j k nl).val = (j ⟨0, h0⟩).val := by
  have hmem : nl ∈ d.lhsNonContracting := by rw [hn]; exact List.mem_singleton.mpr rfl
  unfold DotDims.lhsIdx
  rw [dif_neg (by rw [hb]; exact List.not_mem_nil), dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axes, one free axis on the left and ONE free axis on the right operand, the right operand's index
    on its free axis is the output index's second coordinate. -/
theorem rhsIdx_val_of_free {sl sr so : Shape} (d : DotDims sl sr so) {nl : Fin sl.rank} {nr : Fin sr.rank}
    (hbl : d.lhsBatch = []) (hbr : d.rhsBatch = []) (hnl : d.lhsNonContracting = [nl]) (hnr : d.rhsNonContracting = [nr])
    (h1 : 1 < so.rank) (j : so.Idx) (k : d.contr.Idx) :
    (d.rhsIdx j k nr).val = (j ⟨1, h1⟩).val := by
  have hmem : nr ∈ d.rhsNonContracting := by rw [hnr]; exact List.mem_singleton.mpr rfl
  unfold DotDims.rhsIdx
  rw [dif_neg (by rw [hbr]; exact List.not_mem_nil), dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hbl, hnl, hnr])

/-- A product into the zero accumulator with one contracted axis of extent `K`, at output index `j`: the sum over
    `k : Fin K` of the left operand at `li k` times the right operand at `ri k`, where `li k` and `ri k` are the
    operand indices of contraction coordinate `k`. -/
theorem matmul_zero_single {sl sr so : Shape} {φ₁ φ₂ : FTy} (d : DotDims sl sr so) (prec : Option ContractPrecision) (K : Nat)
    (hr : d.contr.rank = 1) (hs : d.contr.size ⟨0, by omega⟩ = K)
    (L : FVec Ideal sl φ₁) (R : FVec Ideal sr φ₂) (j : so.Idx) (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    FloatOps.matmul d prec L R (constant so .f32 0x00000000#32) j = ∑ k : Fin K, L (li k) * R (ri k) := by
  rw [Ideal.matmul_constant_zero_apply, ← Equiv.sum_comp (contrEquiv1 d K hr hs).symm]
  exact Finset.sum_congr rfl fun k _ => by rw [hl k, hrr k]

/-- ROWS TIMES COLUMNS: a product of an `A × K` by a `K × B` matrix into the zero accumulator (left axis 1 against right
    axis 0, no batch axes), at entry `(p, h)`: the sum over `k` of `L[p,k] · R[k,h]`. At a literal dimension record every
    hypothesis is `rfl`. -/
theorem matmul_zero_rows_cols {A K B : Nat} {φ₁ φ₂ : FTy}
    (d : DotDims (⟨2, ![A, K]⟩ : Shape) (⟨2, ![K, B]⟩ : Shape) (⟨2, ![A, B]⟩ : Shape)) (prec : Option ContractPrecision)
    (hr : d.contr.rank = 1) (hs : d.contr.size ⟨0, by omega⟩ = K)
    (hbl : d.lhsBatch = []) (hbr : d.rhsBatch = []) (hnl : d.lhsNonContracting = [0]) (hnr : d.rhsNonContracting = [1])
    (hcl : d.lhsContracting = [1]) (hcr : d.rhsContracting = [0])
    (L : FVec Ideal (⟨2, ![A, K]⟩ : Shape) φ₁) (R : FVec Ideal (⟨2, ![K, B]⟩ : Shape) φ₂) (p : Fin A) (h : Fin B) :
    FloatOps.matmul d prec L R (constant (⟨2, ![A, B]⟩ : Shape) .f32 0x00000000#32) (ix2 p h)
      = ∑ k : Fin K, L (ix2 p k) * R (ix2 k h) := by
  refine matmul_zero_single d prec K hr hs L R (ix2 p h) (fun k => ix2 p k) (fun k => ix2 k h) (fun k => ?_) (fun k => ?_)
  · have hk := contrEquiv1_symm_val d K hr hs k
    exact funext fun a => Fin.ext (by
      match a with
      | ⟨0, _⟩ => exact lhsIdx_val_of_free d hbl hnl Nat.zero_lt_two _ _
      | ⟨1, _⟩ => exact (d.lhsIdx_val_of_single hcl _ _).trans hk)
  · have hk := contrEquiv1_symm_val d K hr hs k
    exact funext fun a => Fin.ext (by
      match a with
      | ⟨0, _⟩ => exact (d.rhsIdx_val_of_single hcr _ _).trans hk
      | ⟨1, _⟩ => exact rhsIdx_val_of_free d hbl hbr hnl hnr Nat.one_lt_two _ _)

/-- COLUMNS TIMES COLUMNS: a product of a `K × A` by a `K × B` matrix into the zero accumulator, contracting the FIRST
    axis of both (the left operand used transposed), at entry `(p, h)`: the sum over `k` of `L[k,p] · R[k,h]`. -/
theorem matmul_zero_cols_cols {A K B : Nat} {φ₁ φ₂ : FTy}
    (d : DotDims (⟨2, ![K, A]⟩ : Shape) (⟨2, ![K, B]⟩ : Shape) (⟨2, ![A, B]⟩ : Shape)) (prec : Option ContractPrecision)
    (hr : d.contr.rank = 1) (hs : d.contr.size ⟨0, by omega⟩ = K)
    (hbl : d.lhsBatch = []) (hbr : d.rhsBatch = []) (hnl : d.lhsNonContracting = [1]) (hnr : d.rhsNonContracting = [1])
    (hcl : d.lhsContracting = [0]) (hcr : d.rhsContracting = [0])
    (L : FVec Ideal (⟨2, ![K, A]⟩ : Shape) φ₁) (R : FVec Ideal (⟨2, ![K, B]⟩ : Shape) φ₂) (p : Fin A) (h : Fin B) :
    FloatOps.matmul d prec L R (constant (⟨2, ![A, B]⟩ : Shape) .f32 0x00000000#32) (ix2 p h)
      = ∑ k : Fin K, L (ix2 k p) * R (ix2 k h) := by
  refine matmul_zero_single d prec K hr hs L R (ix2 p h) (fun k => ix2 k p) (fun k => ix2 k h) (fun k => ?_) (fun k => ?_)
  · have hk := contrEquiv1_symm_val d K hr hs k
    exact funext fun a => Fin.ext (by
      match a with
      | ⟨0, _⟩ => exact (d.lhsIdx_val_of_single hcl _ _).trans hk
      | ⟨1, _⟩ => exact lhsIdx_val_of_free d hbl hnl Nat.zero_lt_two _ _)
  · have hk := contrEquiv1_symm_val d K hr hs k
    exact funext fun a => Fin.ext (by
      match a with
      | ⟨0, _⟩ => exact (d.rhsIdx_val_of_single hcr _ _).trans hk
      | ⟨1, _⟩ => exact rhsIdx_val_of_free d hbl hbr hnl hnr Nat.one_lt_two _ _)

/-- The host's product with one contracted axis, the same way. -/
theorem dotGeneral_single {sl sr so : Shape} {φ₁ φ₂ : FTy} (d : DotDims sl sr so) (prec : Option ContractPrecision)
    (sched : HostSchedule) (K : Nat)
    (hr : d.contr.rank = 1) (hs : d.contr.size ⟨0, by omega⟩ = K)
    (L : FVec Ideal sl φ₁) (R : FVec Ideal sr φ₂) (j : so.Idx) (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    FloatOps.dotGeneral d prec sched L R j = ∑ k : Fin K, L (li k) * R (ri k) := by
  rw [Ideal.dotGeneral_apply, ← Equiv.sum_comp (contrEquiv1 d K hr hs).symm]
  exact Finset.sum_congr rfl fun k _ => by rw [hl k, hrr k]

/-- The host's product of an `A × K` by a `K × B` matrix (left axis 1 against right axis 0), at entry `(p, h)`. -/
theorem dotGeneral_rows_cols {A K B : Nat} {φ₁ φ₂ : FTy}
    (d : DotDims (⟨2, ![A, K]⟩ : Shape) (⟨2, ![K, B]⟩ : Shape) (⟨2, ![A, B]⟩ : Shape)) (prec : Option ContractPrecision)
    (sched : HostSchedule)
    (hr : d.contr.rank = 1) (hs : d.contr.size ⟨0, by omega⟩ = K)
    (hbl : d.lhsBatch = []) (hbr : d.rhsBatch = []) (hnl : d.lhsNonContracting = [0]) (hnr : d.rhsNonContracting = [1])
    (hcl : d.lhsContracting = [1]) (hcr : d.rhsContracting = [0])
    (L : FVec Ideal (⟨2, ![A, K]⟩ : Shape) φ₁) (R : FVec Ideal (⟨2, ![K, B]⟩ : Shape) φ₂) (p : Fin A) (h : Fin B) :
    FloatOps.dotGeneral d prec sched L R (ix2 p h) = ∑ k : Fin K, L (ix2 p k) * R (ix2 k h) := by
  refine dotGeneral_single d prec sched K hr hs L R (ix2 p h) (fun k => ix2 p k) (fun k => ix2 k h) (fun k => ?_) (fun k => ?_)
  · have hk := contrEquiv1_symm_val d K hr hs k
    exact funext fun a => Fin.ext (by
      match a with
      | ⟨0, _⟩ => exact lhsIdx_val_of_free d hbl hnl Nat.zero_lt_two _ _
      | ⟨1, _⟩ => exact (d.lhsIdx_val_of_single hcl _ _).trans hk)
  · have hk := contrEquiv1_symm_val d K hr hs k
    exact funext fun a => Fin.ext (by
      match a with
      | ⟨0, _⟩ => exact (d.rhsIdx_val_of_single hcr _ _).trans hk
      | ⟨1, _⟩ => exact rhsIdx_val_of_free d hbl hbr hnl hnr Nat.one_lt_two _ _)

end Idealize.ShloMosaic.Contract

end
-- ==== Proof.LibGatherRow.lean ====
/-
  `stablehlo.gather` of whole ROWS of a rank-2 table at a column of start indices, read at an index.

  What `table[idx]` of a table `[N, D]` at an integer vector `idx : [R]` lowers to: a gather with offset_dims `[1]`,
  collapsed_slice_dims `[0]`, start_index_map `[0]`, slice_sizes `[1, D]` and index_vector_dim 1 over the indices as
  `[R, 1]`. Result element `(e, j)` is the table's entry in column `j` of the row whose number is the start index
  `idx[e, 0]` read as a signed integer and clamped into `[0, N − 1]` (every start index is clamped so that the slice
  fits). The row read depends on the indices and on `e` only, never on the table: a gather of rows commutes with every
  function applied row by row.
-/
import Idealize.ShloMosaic.PureOps
import Idealize.ShloMosaic.Lib.ValueIdx

noncomputable section

namespace Idealize.ShloMosaic.GatherRow

open Idealize.ShloMosaic Idealize.ShloMosaic.ValueIdx

variable {α : Type}

/-- Those dimension numbers for a table `[N, D]`, start indices `[R, 1]` and result `[R, D]`; their conditions are
    decided on a program's literal shapes. -/
abbrev dims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The table row that result row `e` reads: the start index `idx[e, 0]`, signed, clamped into `[0, N − 1]`. -/
def sel {N R w : Nat} (hN : 0 < N) (idx : IVec ⟨2, ![R, 1]⟩ w) (e : Fin R) : Fin N :=
  ⟨min (idx (ix2 e (0 : Fin 1))).toInt.toNat (N - 1), by omega⟩

/-- The start-indices index at which result index `y` reads its one start component: `[y 0, 0]` (the batch
    coordinate of `y` on axis 0, and `0` on the size-1 index-vector axis). -/
theorem siIdx_row {N D R : Nat}
    (wf : GatherDims.WF ⟨2, ![N, D]⟩ ⟨2, ![R, 1]⟩ ⟨2, ![R, D]⟩ [1] [0] [] [0] [] 1 ![1, D])
    (y : (⟨2, ![R, D]⟩ : Shape).Idx) (c : Fin (dims N D R wf).startIndexMap.length) :
    (dims N D R wf).siIdx y c = ix2 (⟨(y 0).val, (y 0).isLt⟩ : Fin R) (0 : Fin 1) := by
  funext b
  refine Fin.ext ?_
  match b with
  | ⟨0, _⟩ => rfl
  | ⟨1, _⟩ =>
    show c.val = 0
    have := c.isLt
    simp only [List.length_singleton] at this
    omega

/-- Operand axis 1 is a kept axis of the row gather: neither collapsed nor batching. -/
theorem one_mem_sKept {N D R : Nat}
    (wf : GatherDims.WF ⟨2, ![N, D]⟩ ⟨2, ![R, 1]⟩ ⟨2, ![R, D]⟩ [1] [0] [] [0] [] 1 ![1, D]) :
    (1 : Fin 2) ∈ (dims N D R wf).sKept :=
  (GatherDims.mem_sKept _ _).mpr ⟨(by decide : (1 : Fin 2) ∉ [0]), List.not_mem_nil⟩

/-- THE GATHER READ AT `(e, j)`: the table at row `sel idx e` and column `j`. -/
theorem gather_row_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (dims N D R wf) x idx y
      = x (ix2 (sel hN idx ⟨(y 0).val, (y 0).isLt⟩) (⟨(y 1).val, (y 1).isLt⟩ : Fin D)) := by
  unfold Host.gather
  congr 1
  funext a
  refine Fin.ext ?_
  match a with
  | ⟨0, _⟩ =>
    -- axis 0 is in the start index map and collapsed: the coordinate is the clamped start alone
    show (dims N D R wf).start y idx 0 + (dims N D R wf).batchCoord y 0 + (dims N D R wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims N D R wf).startIndexMap from List.mem_singleton.mpr rfl), siIdx_row]
    rfl
  | ⟨1, _⟩ =>
    -- axis 1 is outside the start index map and kept: the coordinate is the result's offset coordinate alone
    show (dims N D R wf).start y idx 1 + (dims N D R wf).batchCoord y 1 + (dims N D R wf).offCoord y 1 = (y 1).val
    rw [GatherDims.batchCoord_eq_zero _ _ _ List.not_mem_nil]
    unfold GatherDims.start GatherDims.offCoord
    rw [dif_neg (show ¬ (1 : Fin 2) ∈ (dims N D R wf).startIndexMap from (by decide : (1 : Fin 2) ∉ [0])),
      dif_pos (one_mem_sKept wf)]
    simp only [Nat.zero_add]
    rfl

end Idealize.ShloMosaic.GatherRow

end
-- ==== Proof.LibRowOps.lean ====
/-
  Matrices of extended reals read ROW BY ROW, and the printed operations that act on rows.

  A multilayer perceptron acts on each row of its input matrix by itself: entry (p, h) of the result depends on row p of
  the input (and on the whole weight matrix and bias) only. This file names that structure. `rows1 f X` is the matrix
  whose row p is `f` of row p of `X` (`rows2`, `rows3`: of the rows p of two or three matrices with the same number of
  rows); `dense W b` is the affine map x ↦ x·W + b on a row; `relu` the positive part of a row; `cat2`, `cat3`, `cat5`
  put rows side by side; `lo` and `hi` cut a row in two.
  Then each printed operation is identified with its row form, as a whole array: a matrix product into the zero
  accumulator followed by a broadcast bias (the kernel's spelling: a cast to one row and a broadcast over the rows; the
  host's: two `broadcast_in_dim`), with and without the positive part; a concatenation of two, three or five matrices along
  the column axis; a unit-stride slice of columns; a gather of whole rows.
  Nothing here needs finiteness: sums and products of extended reals are only regrouped, never distributed or cancelled.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«404104_j10677288698628_1_alg».proof.Proof.LibContract
import proofs.«404104_j10677288698628_1_alg».proof.Proof.LibGatherRow

noncomputable section

open scoped BigOperators

namespace Idealize.ShloMosaic.RowOps

open Idealize.ShloMosaic Idealize.ShloMosaic.ValueIdx

/-- An `A × B` matrix of extended reals. -/
abbrev Mat (A B : Nat) : Type := FVec Ideal (⟨2, ![A, B]⟩ : Shape) .f32
/-- A vector of `B` extended reals, as a rank-1 array. -/
abbrev Arr (B : Nat) : Type := FVec Ideal (⟨1, ![B]⟩ : Shape) .f32

/-- Row `p` of a matrix. -/
def row {A C : Nat} (X : Mat A C) (p : Fin A) : Fin C → EReal := fun k => X (ix2 p k)

/-- The affine map of a layer on one row: `(x·W + b)[h] = Σₖ x[k]·W[k,h] + b[h]`. -/
def dense {K B : Nat} (W : Mat K B) (b : Arr B) (x : Fin K → EReal) : Fin B → EReal :=
  fun h => (∑ k : Fin K, x k * W (ix2 k h)) + b (ix1 h)

/-- The positive part of a row. -/
def relu {B : Nat} (y : Fin B → EReal) : Fin B → EReal := fun h => max (y h) 0

/-- Two rows side by side, as a row of length `n` (`n = a + b` wherever it is used). -/
def cat2 {a b n : Nat} (x : Fin a → EReal) (y : Fin b → EReal) : Fin n → EReal :=
  fun k => if h : k.val < a then x ⟨k.val, h⟩ else if h2 : k.val - a < b then y ⟨k.val - a, h2⟩ else 0

/-- Three rows side by side. -/
def cat3 {a b c n : Nat} (x : Fin a → EReal) (y : Fin b → EReal) (z : Fin c → EReal) : Fin n → EReal :=
  cat2 x (cat2 (n := b + c) y z)

/-- Five rows side by side. -/
def cat5 {a b c d e n : Nat} (x : Fin a → EReal) (y : Fin b → EReal) (z : Fin c → EReal) (u : Fin d → EReal)
    (v : Fin e → EReal) : Fin n → EReal :=
  cat2 x (cat2 (n := b + (c + (d + e))) y (cat2 (n := c + (d + e)) z (cat2 (n := d + e) u v)))

/-- The first `a` entries of a row of length `n`. -/
def lo {n : Nat} (a : Nat) (ha : a ≤ n) (x : Fin n → EReal) : Fin a → EReal := fun k => x ⟨k.val, by omega⟩
/-- The `b` entries of a row from position `a` on. -/
def hi {n : Nat} (a b : Nat) (hab : a + b ≤ n) (x : Fin n → EReal) : Fin b → EReal := fun k => x ⟨a + k.val, by omega⟩

/-- The matrix whose row `p` is `f` of row `p` of `X`. -/
def rows1 {A C D : Nat} (f : (Fin C → EReal) → Fin D → EReal) (X : Mat A C) : Mat A D :=
  fun j => f (row X ⟨(j 0).val, idx2_lt0 j⟩) ⟨(j 1).val, idx2_lt1 j⟩
/-- The matrix whose row `p` is `f` of the rows `p` of `X` and `Y`. -/
def rows2 {A C₁ C₂ D : Nat} (f : (Fin C₁ → EReal) → (Fin C₂ → EReal) → Fin D → EReal) (X : Mat A C₁) (Y : Mat A C₂) :
    Mat A D :=
  fun j => f (row X ⟨(j 0).val, idx2_lt0 j⟩) (row Y ⟨(j 0).val, idx2_lt0 j⟩) ⟨(j 1).val, idx2_lt1 j⟩
/-- The matrix whose row `p` is `f` of the rows `p` of `X`, `Y` and `Z`. -/
def rows3 {A C₁ C₂ C₃ D : Nat} (f : (Fin C₁ → EReal) → (Fin C₂ → EReal) → (Fin C₃ → EReal) → Fin D → EReal)
    (X : Mat A C₁) (Y : Mat A C₂) (Z : Mat A C₃) : Mat A D :=
  fun j => f (row X ⟨(j 0).val, idx2_lt0 j⟩) (row Y ⟨(j 0).val, idx2_lt0 j⟩) (row Z ⟨(j 0).val, idx2_lt0 j⟩)
    ⟨(j 1).val, idx2_lt1 j⟩

theorem rows1_apply {A C D : Nat} (f : (Fin C → EReal) → Fin D → EReal) (X : Mat A C) (p : Fin A) (h : Fin D) :
    rows1 f X (ix2 p h) = f (row X p) h := rfl
theorem rows2_apply {A C₁ C₂ D : Nat} (f : (Fin C₁ → EReal) → (Fin C₂ → EReal) → Fin D → EReal) (X : Mat A C₁)
    (Y : Mat A C₂) (p : Fin A) (h : Fin D) : rows2 f X Y (ix2 p h) = f (row X p) (row Y p) h := rfl
theorem rows3_apply {A C₁ C₂ C₃ D : Nat} (f : (Fin C₁ → EReal) → (Fin C₂ → EReal) → (Fin C₃ → EReal) → Fin D → EReal)
    (X : Mat A C₁) (Y : Mat A C₂) (Z : Mat A C₃) (p : Fin A) (h : Fin D) :
    rows3 f X Y Z (ix2 p h) = f (row X p) (row Y p) (row Z p) h := rfl

/-- Two matrices are equal when their entries at every `(p, h)` are. -/
theorem mat_ext {A B : Nat} {X Y : Mat A B} (h : ∀ (p : Fin A) (q : Fin B), X (ix2 p q) = Y (ix2 p q)) : X = Y :=
  funext fun j => by rw [eq_ix2 j]; exact h _ _

/-- Row `p` of a row-wise matrix is the function of row `p`. -/
theorem row_rows1 {A C D : Nat} (f : (Fin C → EReal) → Fin D → EReal) (X : Mat A C) (p : Fin A) :
    row (rows1 f X) p = f (row X p) := rfl
theorem row_rows2 {A C₁ C₂ D : Nat} (f : (Fin C₁ → EReal) → (Fin C₂ → EReal) → Fin D → EReal) (X : Mat A C₁)
    (Y : Mat A C₂) (p : Fin A) : row (rows2 f X Y) p = f (row X p) (row Y p) := rfl
theorem row_rows3 {A C₁ C₂ C₃ D : Nat} (f : (Fin C₁ → EReal) → (Fin C₂ → EReal) → (Fin C₃ → EReal) → Fin D → EReal)
    (X : Mat A C₁) (Y : Mat A C₂) (Z : Mat A C₃) (p : Fin A) :
    row (rows3 f X Y Z) p = f (row X p) (row Y p) (row Z p) := rfl

/-- The matrix whose row `p` is `f` of the rows `p` of five matrices. -/
def rows5 {A C₁ C₂ C₃ C₄ C₅ D : Nat}
    (f : (Fin C₁ → EReal) → (Fin C₂ → EReal) → (Fin C₃ → EReal) → (Fin C₄ → EReal) → (Fin C₅ → EReal) → Fin D → EReal)
    (X₁ : Mat A C₁) (X₂ : Mat A C₂) (X₃ : Mat A C₃) (X₄ : Mat A C₄) (X₅ : Mat A C₅) : Mat A D :=
  fun j => f (row X₁ ⟨(j 0).val, idx2_lt0 j⟩) (row X₂ ⟨(j 0).val, idx2_lt0 j⟩) (row X₃ ⟨(j 0).val, idx2_lt0 j⟩)
    (row X₄ ⟨(j 0).val, idx2_lt0 j⟩) (row X₅ ⟨(j 0).val, idx2_lt0 j⟩) ⟨(j 1).val, idx2_lt1 j⟩

/-- The matrix whose row `e` is row `σ e` of `X`. -/
def selRows {N R D : Nat} (σ : Fin R → Fin N) (X : Mat N D) : Mat R D :=
  fun j => X (ix2 (σ ⟨(j 0).val, idx2_lt0 j⟩) (⟨(j 1).val, idx2_lt1 j⟩ : Fin D))

theorem row_selRows {N R D : Nat} (σ : Fin R → Fin N) (X : Mat N D) (e : Fin R) : row (selRows σ X) e = row X (σ e) := rfl

/-! ## Cutting a row that was put together -/

theorem hi_cat2_left {a b n : Nat} (hab : 0 + a ≤ n) (x : Fin a → EReal) (y : Fin b → EReal) :
    hi 0 a hab (cat2 (n := n) x y) = x := by
  funext k
  unfold hi cat2
  have hk : (0 + k.val) < a := by have := k.isLt; omega
  simp only [dif_pos hk]
  exact congrArg x (Fin.ext (by simp))

theorem hi_cat2_right {a b n : Nat} (hab : a + b ≤ n) (x : Fin a → EReal) (y : Fin b → EReal) :
    hi a b hab (cat2 (n := n) x y) = y := by
  funext k
  unfold hi cat2
  have hk : ¬ (a + k.val) < a := by omega
  have hk2 : (a + k.val) - a < b := by have := k.isLt; omega
  simp only [dif_neg hk, dif_pos hk2]
  exact congrArg y (Fin.ext (by simp))

end Idealize.ShloMosaic.RowOps

end
-- ==== Proof.Rows.lean ====
/-
  THE NETWORK, ROW BY ROW. Every dense stage of the message-passing network acts on each row of its input by itself:
  a node's features, an edge's features, the message of an edge and the update of a node are each a function of the
  rows with the same number in the stage's inputs and of the stage's weights. This file names those row functions.
  An edge's message is two layers applied to the target's row, the source's row and the edge's row side by side; a
  node's update is two layers applied to the node's row and its aggregated messages side by side; a node's logit is two
  layers of which the second has no positive part and one output column.
-/
import proofs.«404104_j10677288698628_1_alg».proof.Proof.LibRowOps

noncomputable section

namespace Gnn

open Idealize.ShloMosaic Idealize.ShloMosaic.ValueIdx Idealize.ShloMosaic.RowOps

/-- The message of one edge: the first layer sees the target's row `x`, the source's row `y` and the edge's row `z`
    side by side (288 entries), both layers keep the positive part. -/
def msgRow (W1 : Mat 288 128) (b1 : Arr 128) (W2 : Mat 128 128) (b2 : Arr 128)
    (x y : Fin 128 → EReal) (z : Fin 32 → EReal) : Fin 128 → EReal :=
  relu (dense W2 b2 (relu (dense W1 b1 (cat3 (n := 288) x y z))))

/-- The update of one node: the first layer sees the node's row `x` and its aggregated messages `a` side by side
    (256 entries), both layers keep the positive part. -/
def updRow (U1 : Mat 256 128) (c1 : Arr 128) (U2 : Mat 128 128) (c2 : Arr 128)
    (x a : Fin 128 → EReal) : Fin 128 → EReal :=
  relu (dense U2 c2 (relu (dense U1 c1 (cat2 (n := 256) x a))))

/-- The logit of one node: a layer with its positive part, then a layer with one output and none. -/
def tokRow (T1 : Mat 128 64) (d1 : Arr 64) (T2 : Mat 64 1) (d2 : Arr 1) (x : Fin 128 → EReal) : Fin 1 → EReal :=
  dense T2 d2 (relu (dense T1 d1 x))

/-- A first layer that sees three rows side by side is the sum of three products, one per row, against the three
    bands of rows of its weight matrix: a sum over `a + (b + c)` indices is the sum of its three stretches. Only the
    grouping of a sum changes, which holds on all extended reals. -/
theorem dense_cat3 {a b c n B : Nat} (hn : a + (b + c) = n) (W : Mat n B) (bias : Arr B)
    (x : Fin a → EReal) (y : Fin b → EReal) (z : Fin c → EReal) (h : Fin B) :
    dense W bias (cat3 (n := n) x y z) h
      = (∑ k : Fin a, x k * W (ix2 (⟨k.val, by omega⟩ : Fin n) h))
        + (∑ k : Fin b, y k * W (ix2 (⟨a + k.val, by omega⟩ : Fin n) h))
        + (∑ k : Fin c, z k * W (ix2 (⟨a + b + k.val, by omega⟩ : Fin n) h))
        + bias (ix1 h) := by
  subst hn
  unfold dense
  congr 1
  rw [Fin.sum_univ_add, Fin.sum_univ_add, ← add_assoc]
  congr 1
  congr 1
  · refine Finset.sum_congr rfl fun k _ => ?_
    have hc : cat3 (n := a + (b + c)) x y z (Fin.castAdd (b + c) k) = x k := by
      unfold cat3 cat2
      have hk : (Fin.castAdd (b + c) k).val < a := by simp
      rw [dif_pos hk]
      rfl
    rw [hc]
    rfl
  · refine Finset.sum_congr rfl fun k _ => ?_
    have hc : cat3 (n := a + (b + c)) x y z (Fin.natAdd a (Fin.castAdd c k)) = y k := by
      unfold cat3
      unfold cat2
      have hk : ¬ (Fin.natAdd a (Fin.castAdd c k)).val < a := by simp
      have hk2 : (Fin.natAdd a (Fin.castAdd c k)).val - a < b + c := by
        have := k.isLt
        simp
        omega
      rw [dif_neg hk, dif_pos hk2]
      have hk3 : (Fin.natAdd a (Fin.castAdd c k)).val - a < b := by simp
      rw [dif_pos hk3]
      exact congrArg y (Fin.ext (by simp))
    rw [hc]
    rfl
  · refine Finset.sum_congr rfl fun k _ => ?_
    have hc : cat3 (n := a + (b + c)) x y z (Fin.natAdd a (Fin.natAdd b k)) = z k := by
      unfold cat3
      unfold cat2
      have hk : ¬ (Fin.natAdd a (Fin.natAdd b k)).val < a := by simp
      have hk2 : (Fin.natAdd a (Fin.natAdd b k)).val - a < b + c := by
        have := k.isLt
        simp
      rw [dif_neg hk, dif_pos hk2]
      have hk3 : ¬ (Fin.natAdd a (Fin.natAdd b k)).val - a < b := by simp
      have hk4 : (Fin.natAdd a (Fin.natAdd b k)).val - a - b < c := by
        have := k.isLt
        simp
      rw [dif_neg hk3, dif_pos hk4]
      exact congrArg z (Fin.ext (by simp))
    rw [hc]
    exact congrArg (fun i => z k * W (ix2 i h)) (Fin.ext (by simp [Nat.add_assoc]))

/-- The same for two rows side by side. -/
theorem dense_cat2 {a b n B : Nat} (hn : a + b = n) (W : Mat n B) (bias : Arr B)
    (x : Fin a → EReal) (y : Fin b → EReal) (h : Fin B) :
    dense W bias (cat2 (n := n) x y) h
      = (∑ k : Fin a, x k * W (ix2 (⟨k.val, by omega⟩ : Fin n) h))
        + (∑ k : Fin b, y k * W (ix2 (⟨a + k.val, by omega⟩ : Fin n) h))
        + bias (ix1 h) := by
  subst hn
  unfold dense
  congr 1
  rw [Fin.sum_univ_add]
  congr 1
  · refine Finset.sum_congr rfl fun k _ => ?_
    have hc : cat2 (n := a + b) x y (Fin.castAdd b k) = x k := by
      unfold cat2
      have hk : (Fin.castAdd b k).val < a := by simp
      rw [dif_pos hk]
      rfl
    rw [hc]
    rfl
  · refine Finset.sum_congr rfl fun k _ => ?_
    have hc : cat2 (n := a + b) x y (Fin.natAdd a k) = y k := by
      unfold cat2
      have hk : ¬ (Fin.natAdd a k).val < a := by simp
      have hk2 : (Fin.natAdd a k).val - a < b := by simp
      rw [dif_neg hk, dif_pos hk2]
      exact congrArg y (Fin.ext (by simp))
    rw [hc]
    rfl

end Gnn

end
-- ==== Proof.Net.lean ====
/-
  THE NETWORK AS ONE FUNCTION OF ITS INPUT ARRAYS.
  A round of message passing takes the nodes' rows `h` (20000 × 128) and the edges' rows `e` (320000 × 32): every edge's
  message is the message function of its target's row, its source's row and its own row; the messages are summed per
  target node; every node's new row is the update function of its row and its sum. How a node array is read at the edges'
  targets (`gd`) and sources (`gs`) and how the edges' rows are summed per target (`agg`) are PARAMETERS here: both
  programs use the same three maps, and nothing below depends on what they are. The network is the two input projections,
  three rounds with their own weights, and the logit map of the final rows.
-/
import proofs.«404104_j10677288698628_1_alg».proof.Proof.Rows

noncomputable section

namespace Gnn

open Idealize.ShloMosaic Idealize.ShloMosaic.ValueIdx Idealize.ShloMosaic.RowOps

/-- One round of message passing with the weights `W1 b1 W2 b2` of the message layers and `U1 c1 U2 c2` of the update layers. -/
def round (gd gs : Mat 20000 128 → Mat 320000 128) (agg : Mat 320000 128 → Mat 20000 128) (e : Mat 320000 32)
    (W1 : Mat 288 128) (b1 : Arr 128) (W2 : Mat 128 128) (b2 : Arr 128)
    (U1 : Mat 256 128) (c1 : Arr 128) (U2 : Mat 128 128) (c2 : Arr 128) (h : Mat 20000 128) : Mat 20000 128 :=
  rows2 (updRow U1 c1 U2 c2) h (agg (rows3 (msgRow W1 b1 W2 b2) (gd h) (gs h) e))

/-- The nodes' projection: every node's 64 features through one affine layer. -/
def nodes0 (Wn : Mat 64 128) (bn : Arr 128) (x : Mat 20000 64) : Mat 20000 128 := rows1 (dense Wn bn) x

/-- The edges' projection: every edge's 32 features through one affine layer. -/
def edges0 (We : Mat 32 32) (be : Arr 32) (ea : Mat 320000 32) : Mat 320000 32 := rows1 (dense We be) ea

/-- Every node's logit (one column) from its final row. -/
def logit (T1 : Mat 128 64) (d1 : Arr 64) (T2 : Mat 64 1) (d2 : Arr 1) (h : Mat 20000 128) : Mat 20000 1 :=
  rows1 (tokRow T1 d1 T2 d2) h

end Gnn

end
-- ==== Proof.KChainDefs.lean ====
/-
  THE KERNEL PROGRAM'S PIECES AS FUNCTIONS OF THE LAUNCH MEMORY: the edge list's two rows, the three maps every round
  uses (a node array read at the edges' targets and sources, the edges' rows summed per target) and each round's
  weights, spelt as the host operations of the program compute them from the argument arrays.
-/
import proofs.«404104_j10677288698628_1_alg».proof.Proof.Gen.KernelIdeal.Frame
import proofs.«404104_j10677288698628_1_alg».proof.Proof.Take
import proofs.«404104_j10677288698628_1_alg».proof.Proof.Net

set_option maxRecDepth 16384

noncomputable section

namespace Cert.KernelIdeal.Chain

open Cert.KernelIdeal Cert.KernelIdeal.Gen Idealize.ShloMosaic Idealize.ShloMosaic.TcCoe Idealize.SL.Sem
open Idealize.ShloMosaic.ValueIdx Idealize.ShloMosaic.RowOps

variable (m : (ℓ : Loc nD τ sig) → Buf (Elt Ideal) ℓ) (c : Dev nD)

/-- The edge list as launched. -/
abbrev edges : IVec S2x320000 32 := m ((c.tc : Thread nD τ).loc main_arg18)

/-- A node array read at every edge's target. -/
def gdK : Mat 20000 128 → Mat 320000 128 := fun h => Take.rowsAt h (Take.dstIdx (edges m c))
/-- A node array read at every edge's source. -/
def gsK : Mat 20000 128 → Mat 320000 128 := fun h => Take.rowsAt h (Take.srcIdx (edges m c))
/-- The edges' rows summed per target node: a scatter-add into zeros. -/
def aggK : Mat 320000 128 → Mat 20000 128 := fun u =>
  Host.scatterAdd scatter_S20000x128_S320000x1_S320000x128_1_0_0_1
    (broadcastInDim S20000x128 ![] bcast_S_S20000x128 (constant (F := Ideal) S_ .f32 0x00000000#32))
    (Take.col (Take.dstIdx (edges m c))) u

/-- Round 1's weights, cut out of the stacked weight arrays as the host operations cut them. -/
def W1L0 : Mat 288 128 := shapeCast S288x128 (extractStridedSlice S1x288x128 ![0, 0, 0] (m ((c.tc : Thread nD τ).loc main_arg6)) slices_S3x288x128_S1x288x128_0_0_0) shapeCasts_S1x288x128_S288x128
def b1L0 : Arr 128 := shapeCast S128 (extractStridedSlice S1x128 ![0, 0] (m ((c.tc : Thread nD τ).loc main_arg7)) slices_S3x128_S1x128_0_0) shapeCasts_S1x128_S128
def W2L0 : Mat 128 128 := shapeCast S128x128 (extractStridedSlice S1x128x128 ![0, 0, 0] (m ((c.tc : Thread nD τ).loc main_arg8)) slices_S3x128x128_S1x128x128_0_0_0) shapeCasts_S1x128x128_S128x128
def b2L0 : Arr 128 := shapeCast S128 (extractStridedSlice S1x128 ![0, 0] (m ((c.tc : Thread nD τ).loc main_arg9)) slices_S3x128_S1x128_0_0) shapeCasts_S1x128_S128
def U1L0 : Mat 256 128 := shapeCast S256x128 (extractStridedSlice S1x256x128 ![0, 0, 0] (m ((c.tc : Thread nD τ).loc main_arg10)) slices_S3x256x128_S1x256x128_0_0_0) shapeCasts_S1x256x128_S256x128
def c1L0 : Arr 128 := shapeCast S128 (extractStridedSlice S1x128 ![0, 0] (m ((c.tc : Thread nD τ).loc main_arg11)) slices_S3x128_S1x128_0_0) shapeCasts_S1x128_S128
def U2L0 : Mat 128 128 := shapeCast S128x128 (extractStridedSlice S1x128x128 ![0, 0, 0] (m ((c.tc : Thread nD τ).loc main_arg12)) slices_S3x128x128_S1x128x128_0_0_0) shapeCasts_S1x128x128_S128x128
def c2L0 : Arr 128 := shapeCast S128 (extractStridedSlice S1x128 ![0, 0] (m ((c.tc : Thread nD τ).loc main_arg13)) slices_S3x128_S1x128_0_0) shapeCasts_S1x128_S128

/-- Round 2's weights, cut out of the stacked weight arrays as the host operations cut them. -/
def W1L1 : Mat 288 128 := shapeCast S288x128 (extractStridedSlice S1x288x128 ![1, 0, 0] (m ((c.tc : Thread nD τ).loc main_arg6)) slices_S3x288x128_S1x288x128_1_0_0) shapeCasts_S1x288x128_S288x128
def b1L1 : Arr 128 := shapeCast S128 (extractStridedSlice S1x128 ![1, 0] (m ((c.tc : Thread nD τ).loc main_arg7)) slices_S3x128_S1x128_1_0) shapeCasts_S1x128_S128
def W2L1 : Mat 128 128 := shapeCast S128x128 (extractStridedSlice S1x128x128 ![1, 0, 0] (m ((c.tc : Thread nD τ).loc main_arg8)) slices_S3x128x128_S1x128x128_1_0_0) shapeCasts_S1x128x128_S128x128
def b2L1 : Arr 128 := shapeCast S128 (extractStridedSlice S1x128 ![1, 0] (m ((c.tc : Thread nD τ).loc main_arg9)) slices_S3x128_S1x128_1_0) shapeCasts_S1x128_S128
def U1L1 : Mat 256 128 := shapeCast S256x128 (extractStridedSlice S1x256x128 ![1, 0, 0] (m ((c.tc : Thread nD τ).loc main_arg10)) slices_S3x256x128_S1x256x128_1_0_0) shapeCasts_S1x256x128_S256x128
def c1L1 : Arr 128 := shapeCast S128 (extractStridedSlice S1x128 ![1, 0] (m ((c.tc : Thread nD τ).loc main_arg11)) slices_S3x128_S1x128_1_0) shapeCasts_S1x128_S128
def U2L1 : Mat 128 128 := shapeCast S128x128 (extractStridedSlice S1x128x128 ![1, 0, 0] (m ((c.tc : Thread nD τ).loc main_arg12)) slices_S3x128x128_S1x128x128_1_0_0) shapeCasts_S1x128x128_S128x128
def c2L1 : Arr 128 := shapeCast S128 (extractStridedSlice S1x128 ![1, 0] (m ((c.tc : Thread nD τ).loc main_arg13)) slices_S3x128_S1x128_1_0) shapeCasts_S1x128_S128

/-- Round 3's weights, cut out of the stacked weight arrays as the host operations cut them. -/
def W1L2 : Mat 288 128 := shapeCast S288x128 (extractStridedSlice S1x288x128 ![2, 0, 0] (m ((c.tc : Thread nD τ).loc main_arg6)) slices_S3x288x128_S1x288x128_2_0_0) shapeCasts_S1x288x128_S288x128
def b1L2 : Arr 128 := shapeCast S128 (extractStridedSlice S1x128 ![2, 0] (m ((c.tc : Thread nD τ).loc main_arg7)) slices_S3x128_S1x128_2_0) shapeCasts_S1x128_S128
def W2L2 : Mat 128 128 := shapeCast S128x128 (extractStridedSlice S1x128x128 ![2, 0, 0] (m ((c.tc : Thread nD τ).loc main_arg8)) slices_S3x128x128_S1x128x128_2_0_0) shapeCasts_S1x128x128_S128x128
def b2L2 : Arr 128 := shapeCast S128 (extractStridedSlice S1x128 ![2, 0] (m ((c.tc : Thread nD τ).loc main_arg9)) slices_S3x128_S1x128_2_0) shapeCasts_S1x128_S128
def U1L2 : Mat 256 128 := shapeCast S256x128 (extractStridedSlice S1x256x128 ![2, 0, 0] (m ((c.tc : Thread nD τ).loc main_arg10)) slices_S3x256x128_S1x256x128_2_0_0) shapeCasts_S1x256x128_S256x128
def c1L2 : Arr 128 := shapeCast S128 (extractStridedSlice S1x128 ![2, 0] (m ((c.tc : Thread nD τ).loc main_arg11)) slices_S3x128_S1x128_2_0) shapeCasts_S1x128_S128
def U2L2 : Mat 128 128 := shapeCast S128x128 (extractStridedSlice S1x128x128 ![2, 0, 0] (m ((c.tc : Thread nD τ).loc main_arg12)) slices_S3x128x128_S1x128x128_2_0_0) shapeCasts_S1x128x128_S128x128
def c2L2 : Arr 128 := shapeCast S128 (extractStridedSlice S1x128 ![2, 0] (m ((c.tc : Thread nD τ).loc main_arg13)) slices_S3x128_S1x128_2_0) shapeCasts_S1x128_S128

/-- The weight arguments (rounds and logit stage) hold their launch contents in the valuation `W`: no host operation and no
    region writes an argument array. -/
def ArgsAt (W : Valuation τ sig (Elt Ideal)) : Prop :=
  W (Proc.devRef .tc main_arg6) = m ((c.tc : Thread nD τ).loc main_arg6)
  ∧ W (Proc.devRef .tc main_arg7) = m ((c.tc : Thread nD τ).loc main_arg7)
  ∧ W (Proc.devRef .tc main_arg8) = m ((c.tc : Thread nD τ).loc main_arg8)
  ∧ W (Proc.devRef .tc main_arg9) = m ((c.tc : Thread nD τ).loc main_arg9)
  ∧ W (Proc.devRef .tc main_arg10) = m ((c.tc : Thread nD τ).loc main_arg10)
  ∧ W (Proc.devRef .tc main_arg11) = m ((c.tc : Thread nD τ).loc main_arg11)
  ∧ W (Proc.devRef .tc main_arg12) = m ((c.tc : Thread nD τ).loc main_arg12)
  ∧ W (Proc.devRef .tc main_arg13) = m ((c.tc : Thread nD τ).loc main_arg13)
  ∧ W (Proc.devRef .tc main_arg14) = m ((c.tc : Thread nD τ).loc main_arg14)
  ∧ W (Proc.devRef .tc main_arg15) = m ((c.tc : Thread nD τ).loc main_arg15)
  ∧ W (Proc.devRef .tc main_arg16) = m ((c.tc : Thread nD τ).loc main_arg16)
  ∧ W (Proc.devRef .tc main_arg17) = m ((c.tc : Thread nD τ).loc main_arg17)

end Cert.KernelIdeal.Chain

end
-- ==== Proof.LibRowDense.lean ====
/-
  A LAYER OF A PERCEPTRON, as the kernel and as the host spell it, is row by row the affine map `dense W b` (with or
  without the positive part `relu`): the matrix product into the zero accumulator is the sum over the contracted axis, the
  bias reaches every row by a cast and a broadcast (kernel) or by two `broadcast_in_dim` (host), and the maximum with a
  broadcast zero is the positive part. Also: a layer whose input row ends in zeros only sees the first rows of its matrix.
-/
import proofs.«404104_j10677288698628_1_alg».proof.Proof.LibRowOps

noncomputable section

open scoped BigOperators

namespace Idealize.ShloMosaic.RowOps

open Idealize.ShloMosaic Idealize.ShloMosaic.ValueIdx

/-! ## The printed operations in row form -/

/-- A dimension record says "rows times columns": one contracted axis, the left operand's columns against the right
    operand's rows, no batch axes. At a literal record every part is `rfl`. -/
def IsRowsCols {A K B : Nat} (d : DotDims (⟨2, ![A, K]⟩ : Shape) (⟨2, ![K, B]⟩ : Shape) (⟨2, ![A, B]⟩ : Shape)) : Prop :=
  ∃ hr : d.contr.rank = 1, d.contr.size ⟨0, by omega⟩ = K ∧ d.lhsBatch = [] ∧ d.rhsBatch = [] ∧ d.lhsNonContracting = [0]
    ∧ d.rhsNonContracting = [1] ∧ d.lhsContracting = [1] ∧ d.rhsContracting = [0]

/-- THE KERNEL'S LAYER WITH ITS POSITIVE PART: a product into the zero accumulator, plus the bias cast to one row and
    broadcast over the rows, then the maximum with zero, is row by row `relu ∘ dense W b`. -/
theorem kdense_relu {A K B : Nat} (d : DotDims (⟨2, ![A, K]⟩ : Shape) (⟨2, ![K, B]⟩ : Shape) (⟨2, ![A, B]⟩ : Shape))
    (hd : IsRowsCols d) (X : Mat A K) (W : Mat K B) (b : Arr B)
    (hc : (⟨1, ![B]⟩ : Shape).ShapeCasts ⟨2, ![1, B]⟩) (hb : (⟨2, ![1, B]⟩ : Shape).Broadcasts ⟨2, ![A, B]⟩) :
    maximumf (addf (matmul d none X W (constant (F := Ideal) (⟨2, ![A, B]⟩ : Shape) .f32 0x00000000#32))
        (broadcastTo (⟨2, ![A, B]⟩ : Shape) (shapeCast (⟨2, ![1, B]⟩ : Shape) b hc) hb))
      (broadcast (⟨2, ![A, B]⟩ : Shape) (Scalar.ofBits (F := Ideal) .f32 0x00000000#32))
    = rows1 (fun x => relu (dense W b x)) X := by
  obtain ⟨hr, hs, hbl, hbr, hnl, hnr, hcl, hcr⟩ := hd
  refine mat_ext fun p h => ?_
  rw [maximumf_apply, addf_apply, broadcast_apply, broadcastTo_1b_ab_apply, shapeCast_a_1a_apply, rows1_apply]
  show max (FloatOps.matmul d none X W (constant (⟨2, ![A, B]⟩ : Shape) .f32 0x00000000#32) (ix2 p h) + b (ix1 h))
      (Ideal.ofBits .f32 0x00000000#32) = _
  rw [Contract.matmul_zero_rows_cols d none hr hs hbl hbr hnl hnr hcl hcr, Ideal.ofBits_zero_f32]
  rfl

/-- The kernel's layer without the positive part. -/
theorem kdense {A K B : Nat} (d : DotDims (⟨2, ![A, K]⟩ : Shape) (⟨2, ![K, B]⟩ : Shape) (⟨2, ![A, B]⟩ : Shape))
    (hd : IsRowsCols d) (X : Mat A K) (W : Mat K B) (b : Arr B)
    (hc : (⟨1, ![B]⟩ : Shape).ShapeCasts ⟨2, ![1, B]⟩) (hb : (⟨2, ![1, B]⟩ : Shape).Broadcasts ⟨2, ![A, B]⟩) :
    addf (matmul d none X W (constant (F := Ideal) (⟨2, ![A, B]⟩ : Shape) .f32 0x00000000#32))
        (broadcastTo (⟨2, ![A, B]⟩ : Shape) (shapeCast (⟨2, ![1, B]⟩ : Shape) b hc) hb)
    = rows1 (fun x => dense W b x) X := by
  obtain ⟨hr, hs, hbl, hbr, hnl, hnr, hcl, hcr⟩ := hd
  refine mat_ext fun p h => ?_
  rw [addf_apply, broadcastTo_1b_ab_apply, shapeCast_a_1a_apply, rows1_apply]
  show FloatOps.matmul d none X W (constant (⟨2, ![A, B]⟩ : Shape) .f32 0x00000000#32) (ix2 p h) + b (ix1 h) = _
  rw [Contract.matmul_zero_rows_cols d none hr hs hbl hbr hnl hnr hcl hcr]
  rfl

/-- THE HOST'S LAYER WITH ITS POSITIVE PART: `dot_general`, plus the bias broadcast in two steps, then the maximum with a
    broadcast zero, is row by row `relu ∘ dense W b`. -/
theorem hdense_relu {A K B : Nat} (d : DotDims (⟨2, ![A, K]⟩ : Shape) (⟨2, ![K, B]⟩ : Shape) (⟨2, ![A, B]⟩ : Shape))
    (hd : IsRowsCols d) (X : Mat A K) (W : Mat K B) (b : Arr B)
    (h1 : (⟨1, ![B]⟩ : Shape).BroadcastsInDim (⟨2, ![1, B]⟩ : Shape) ![1])
    (h2 : (⟨2, ![1, B]⟩ : Shape).BroadcastsInDim (⟨2, ![A, B]⟩ : Shape) ![0, 1])
    (h0 : (⟨0, ![]⟩ : Shape).BroadcastsInDim (⟨2, ![A, B]⟩ : Shape) ![]) :
    maximumf (addf (Host.dotGeneral d none X W)
        (broadcastInDim (⟨2, ![A, B]⟩ : Shape) ![0, 1] h2 (broadcastInDim (⟨2, ![1, B]⟩ : Shape) ![1] h1 b)))
      (broadcastInDim (⟨2, ![A, B]⟩ : Shape) ![] h0 (constant (F := Ideal) (⟨0, ![]⟩ : Shape) .f32 0x00000000#32))
    = rows1 (fun x => relu (dense W b x)) X := by
  obtain ⟨hr, hs, hbl, hbr, hnl, hnr, hcl, hcr⟩ := hd
  refine mat_ext fun p h => ?_
  have e2 : ∀ v : FVec Ideal (⟨2, ![1, B]⟩ : Shape) .f32,
      broadcastInDim (⟨2, ![A, B]⟩ : Shape) ![0, 1] h2 v (ix2 p h) = v (ix2 (0 : Fin 1) h) := fun v =>
    broadcastInDim_apply ![0, 1] h2 v (ix2 p h) (ix2 (0 : Fin 1) h) fun a => by
      match a with
      | ⟨0, _⟩ => rfl
      | ⟨1, _⟩ =>
        show h.val = if B = 1 then 0 else h.val
        split
        · have := h.isLt; omega
        · rfl
  have e1 : broadcastInDim (⟨2, ![1, B]⟩ : Shape) ![1] h1 b (ix2 (0 : Fin 1) h) = b (ix1 h) :=
    broadcastInDim_apply ![1] h1 b (ix2 (0 : Fin 1) h) (ix1 h) fun a => by
      match a with
      | ⟨0, _⟩ =>
        show h.val = if B = 1 then 0 else h.val
        split
        · have := h.isLt; omega
        · rfl
  have e0 : broadcastInDim (⟨2, ![A, B]⟩ : Shape) ![] h0 (constant (F := Ideal) (⟨0, ![]⟩ : Shape) .f32 0x00000000#32)
      (ix2 p h) = 0 := by
    rw [broadcastInDim_apply ![] h0 _ (ix2 p h) ix0 fun a => a.elim0, constant_apply, Ideal.ofBits_zero_f32]
  rw [maximumf_apply, addf_apply, e2, e1, e0, rows1_apply]
  show max (FloatOps.dotGeneral d none .single X W (ix2 p h) + b (ix1 h)) 0 = _
  rw [Contract.dotGeneral_rows_cols d none .single hr hs hbl hbr hnl hnr hcl hcr]
  rfl

/-- The host's layer without the positive part. -/
theorem hdense {A K B : Nat} (d : DotDims (⟨2, ![A, K]⟩ : Shape) (⟨2, ![K, B]⟩ : Shape) (⟨2, ![A, B]⟩ : Shape))
    (hd : IsRowsCols d) (X : Mat A K) (W : Mat K B) (b : Arr B)
    (h1 : (⟨1, ![B]⟩ : Shape).BroadcastsInDim (⟨2, ![1, B]⟩ : Shape) ![1])
    (h2 : (⟨2, ![1, B]⟩ : Shape).BroadcastsInDim (⟨2, ![A, B]⟩ : Shape) ![0, 1]) :
    addf (Host.dotGeneral d none X W)
        (broadcastInDim (⟨2, ![A, B]⟩ : Shape) ![0, 1] h2 (broadcastInDim (⟨2, ![1, B]⟩ : Shape) ![1] h1 b))
    = rows1 (fun x => dense W b x) X := by
  obtain ⟨hr, hs, hbl, hbr, hnl, hnr, hcl, hcr⟩ := hd
  refine mat_ext fun p h => ?_
  have e2 : ∀ v : FVec Ideal (⟨2, ![1, B]⟩ : Shape) .f32,
      broadcastInDim (⟨2, ![A, B]⟩ : Shape) ![0, 1] h2 v (ix2 p h) = v (ix2 (0 : Fin 1) h) := fun v =>
    broadcastInDim_apply ![0, 1] h2 v (ix2 p h) (ix2 (0 : Fin 1) h) fun a => by
      match a with
      | ⟨0, _⟩ => rfl
      | ⟨1, _⟩ =>
        show h.val = if B = 1 then 0 else h.val
        split
        · have := h.isLt; omega
        · rfl
  have e1 : broadcastInDim (⟨2, ![1, B]⟩ : Shape) ![1] h1 b (ix2 (0 : Fin 1) h) = b (ix1 h) :=
    broadcastInDim_apply ![1] h1 b (ix2 (0 : Fin 1) h) (ix1 h) fun a => by
      match a with
      | ⟨0, _⟩ =>
        show h.val = if B = 1 then 0 else h.val
        split
        · have := h.isLt; omega
        · rfl
  rw [addf_apply, e2, e1, rows1_apply]
  show FloatOps.dotGeneral d none .single X W (ix2 p h) + b (ix1 h) = _
  rw [Contract.dotGeneral_rows_cols d none .single hr hs hbl hbr hnl hnr hcl hcr]
  rfl

/-- A layer fed three rows side by side of which the last two are zero is the layer of the first row alone with the
    weight matrix cut to its first rows: the other terms of every sum are `0 · w = 0`, which holds for every extended
    real `w`. -/
theorem dense_cat3_zero {a b c n B : Nat} (hn : a + (b + c) = n) (W : Mat n B) (W₀ : Mat a B) (bias : Arr B)
    (hW : ∀ (k : Fin a) (q : Fin B), W₀ (ix2 k q) = W (ix2 (⟨k.val, by omega⟩ : Fin n) q)) (x : Fin a → EReal) :
    dense W bias (cat3 (n := n) x (fun _ : Fin b => (0 : EReal)) (fun _ : Fin c => (0 : EReal))) = dense W₀ bias x := by
  subst hn
  funext h
  unfold dense
  congr 1
  rw [Fin.sum_univ_add]
  have hz : ∑ i : Fin (b + c), cat3 (n := a + (b + c)) x (fun _ : Fin b => (0 : EReal)) (fun _ : Fin c => (0 : EReal))
      (Fin.natAdd a i) * W (ix2 (Fin.natAdd a i) h) = 0 := by
    refine Finset.sum_eq_zero fun i _ => ?_
    have hc : cat3 (n := a + (b + c)) x (fun _ : Fin b => (0 : EReal)) (fun _ : Fin c => (0 : EReal)) (Fin.natAdd a i)
        = 0 := by
      unfold cat3 cat2
      have hk : ¬ (Fin.natAdd a i).val < a := by simp
      rw [dif_neg hk]
      split
      · split
        · rfl
        · split <;> rfl
      · rfl
    rw [hc, zero_mul]
  rw [hz, add_zero]
  refine Finset.sum_congr rfl fun k _ => ?_
  have hc : cat3 (n := a + (b + c)) x (fun _ : Fin b => (0 : EReal)) (fun _ : Fin c => (0 : EReal)) (Fin.castAdd (b + c) k)
      = x k := by
    unfold cat3 cat2
    have hk : (Fin.castAdd (b + c) k).val < a := by simp
    rw [dif_pos hk]
    rfl
  rw [hc, hW]
  rfl

end Idealize.ShloMosaic.RowOps

end
-- ==== Proof.KBodyLin.lean ====
/-
  THE TWO INPUT PROJECTIONS AND THE LOGIT STAGE, BLOCK BY BLOCK: what the kernel body leaves in its output block is,
  row by row, the affine map of the block's rows (projections), or the two-layer logit map (last stage).
-/
import proofs.«404104_j10677288698628_1_alg».proof.Proof.Gen.KernelIdeal.Frame
import proofs.«404104_j10677288698628_1_alg».proof.Proof.LibRowDense
import proofs.«404104_j10677288698628_1_alg».proof.Proof.Rows

set_option maxRecDepth 16384

noncomputable section

namespace Cert.KernelIdeal.Body

open Cert.KernelIdeal Cert.KernelIdeal.Gen Idealize.ShloMosaic Idealize.ShloMosaic.TcCoe Idealize.SL.Sem
open Idealize.ShloMosaic.ValueIdx Idealize.ShloMosaic.RowOps

/-- The offsets of a whole rank-2 block are zero on both axes. -/
private theorem zeros2 : (![0, 0] : Fin 2 → Nat) = fun _ => 0 := funext fun a => by fin_cases a <;> rfl

/-- On the extended reals a change of number format is the identity, so the product of two operands taken to the
    short format is the product of the operands themselves. -/
private theorem matmul_short {sl sr so : Shape} (d : DotDims sl sr so) (X : FVec Ideal sl .f32) (W : FVec Ideal sr .f32)
    (acc : FVec Ideal so .f32) (h1 h2 : FTy.bits .bf16 < FTy.bits .f32) :
    matmul d none (truncf .bf16 X h1) (truncf .bf16 W h2) acc = matmul d none X W acc := rfl

/-- Node projection: the body's block is row by row `x ↦ x·W + b`. -/
theorem lin0_body (x0 : Mat 4000 64) (W : Mat 64 128) (b : Arr 128) :
    out0_3 (F := Ideal) x0 W (shapeCast S1x128 b shapeCasts_S128_S1x128) = rows1 (dense W b) x0 := by
  unfold out0_3
  rw [View.canon_unit_zero zeros2]
  simp only [View.ld_unit_zero (S := S4000x64) zeros2, View.ld_unit_zero (S := S64x128) zeros2,
    View.ld_unit_zero (S := S1x128) zeros2]
  unfold k0_pay1
  dsimp only
  rw [shapeCast_self, matmul_short]
  exact kdense dot_S4000x64_S64x128_S4000x128_1_0_0_1_n_n ⟨rfl, rfl, rfl, rfl, rfl, rfl, rfl, rfl⟩ x0 W b
    shapeCasts_S128_S1x128 broadcasts_S1x128_S4000x128

/-- Edge projection: the same at the edge sizes. -/
theorem lin1_body (x0 : Mat 3200 32) (W : Mat 32 32) (b : Arr 32) :
    out1_3 (F := Ideal) x0 W (shapeCast S1x32 b shapeCasts_S32_S1x32) = rows1 (dense W b) x0 := by
  unfold out1_3
  rw [View.canon_unit_zero zeros2]
  simp only [View.ld_unit_zero (S := S3200x32) zeros2, View.ld_unit_zero (S := S32x32) zeros2,
    View.ld_unit_zero (S := S1x32) zeros2]
  unfold k1_pay1
  dsimp only
  rw [shapeCast_self, matmul_short]
  exact kdense dot_S3200x32_S32x32_S3200x32_1_0_0_1_n_n ⟨rfl, rfl, rfl, rfl, rfl, rfl, rfl, rfl⟩ x0 W b
    shapeCasts_S32_S1x32 broadcasts_S1x32_S3200x32

/-- Logit stage: the body's block is row by row the two-layer logit map. -/
theorem tok_body (x0 : Mat 4000 128) (T1 : Mat 128 64) (d1 : Arr 64) (T2 : Mat 64 1) (d2 : Arr 1) :
    out8_5 (F := Ideal) x0 T1 (shapeCast S1x64 d1 shapeCasts_S64_S1x64) T2 (shapeCast S1x1 d2 shapeCasts_S1_S1x1)
      = rows1 (Gnn.tokRow T1 d1 T2 d2) x0 := by
  unfold out8_5
  rw [View.canon_unit_zero zeros2]
  simp only [View.ld_unit_zero (S := S4000x128) zeros2, View.ld_unit_zero (S := S128x64) zeros2,
    View.ld_unit_zero (S := S1x64) zeros2, View.ld_unit_zero (S := S64x1) zeros2, View.ld_unit_zero (S := S1x1) zeros2]
  unfold k8_pay1
  dsimp only
  rw [shapeCast_self, shapeCast_self, shapeCast_self, matmul_short, matmul_short]
  rw [kdense_relu dot_S4000x128_S128x64_S4000x64_1_0_0_1_n_n ⟨rfl, rfl, rfl, rfl, rfl, rfl, rfl, rfl⟩ x0 T1 d1
    shapeCasts_S64_S1x64 broadcasts_S1x64_S4000x64]
  refine (kdense dot_S4000x64_S64x1_S4000x1_1_0_0_1_n_n ⟨rfl, rfl, rfl, rfl, rfl, rfl, rfl, rfl⟩
    (rows1 (fun x => relu (dense T1 d1 x)) x0) T2 d2 shapeCasts_S1_S1x1 broadcasts_S1x1_S4000x1).trans ?_
  rfl

end Cert.KernelIdeal.Body

end
-- ==== Proof.KRegion0.lean ====
/-
  REGION 0 AS A WHOLE: the output's blocks are the row blocks of the array, each written by the point with the same
  number, and a row-wise map of a row block is the row block of the row-wise map; so the array ends holding the affine
  map of every row of the input array.
-/
import proofs.«404104_j10677288698628_1_alg».proof.Proof.KBodyLin

set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx Idealize.ShloMosaic.RowOps

variable (V : (c : Dev nD) → (b : Ref sig .tc) → Buf (Elt Ideal) ((c : Thread nD τ).loc b))

/-- A row-wise map of a block of rows is the same block of rows of the row-wise map of the whole array: if the block
    `XB` reads `X` through `e'`, and `e`, `e'` both shift the row number by `o` and keep the column, then entry `y` of
    the row-wise map of the block is entry `e y` of the row-wise map of the array. -/
theorem rows1_blk0 {A R C D : Nat} (f : (Fin C → EReal) → Fin D → EReal) (X : Mat A C) (XB : Mat R C) (o : Nat)
    (e : (⟨2, ![R, D]⟩ : Shape).Idx → (⟨2, ![A, D]⟩ : Shape).Idx)
    (e' : (⟨2, ![R, C]⟩ : Shape).Idx → (⟨2, ![A, C]⟩ : Shape).Idx)
    (hXB : ∀ y, XB y = X (e' y))
    (he : ∀ y, ((e y) 0).val = o + (y 0).val ∧ ((e y) 1).val = (y 1).val)
    (he' : ∀ y, ((e' y) 0).val = o + (y 0).val ∧ ((e' y) 1).val = (y 1).val)
    (y : (⟨2, ![R, D]⟩ : Shape).Idx) :
    rows1 f XB y = rows1 f X (e y) := by
  unfold rows1
  have h1 : (⟨(y 1).val, idx2_lt1 y⟩ : Fin D) = ⟨((e y) 1).val, idx2_lt1 (e y)⟩ := Fin.ext (he y).2.symm
  have h0 : row XB ⟨(y 0).val, idx2_lt0 y⟩ = row X ⟨((e y) 0).val, idx2_lt0 (e y)⟩ := by
    funext k
    unfold row
    rw [hXB]
    refine congrArg X ?_
    funext a; apply Fin.ext
    match a with
    | ⟨0, _⟩ =>
      show ((e' (ix2 (⟨(y 0).val, idx2_lt0 y⟩ : Fin R) k)) 0).val = ((e y) 0).val
      rw [(he' _).1, (he y).1]; rfl
    | ⟨1, _⟩ =>
      show ((e' (ix2 (⟨(y 0).val, idx2_lt0 y⟩ : Fin R) k)) 1).val = k.val
      rw [(he' _).2]; rfl
  rw [h0, h1]

/-- The printed index maps, decided once over the grid: the row-tiled input and the output have block index `(t, 0)` at
    point `t`, the weight and the bias `(0, 0)`. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The weight's block is the whole weight array at every point: the block is the full rectangle at offset 0. -/
theorem wblk0_1 (c : Dev nD) (t : Fin cfg0.N) : iblk0 V c 1 t = V c main_arg2 := by
  obtain ⟨-, -, e2, e3, -, -, -, -⟩ := idx0 t
  funext y
  show V c main_arg2 (((cfg0.win 1).blk t).view.emb y) = V c main_arg2 y
  refine congrArg (V c main_arg2) ?_
  funext a; apply Fin.ext
  match a with
  | ⟨0, _⟩ => show win0_1.index t (0 : Fin 2) * 64 + 1 * (y 0).val = (y 0).val; omega
  | ⟨1, _⟩ => show win0_1.index t (1 : Fin 2) * 128 + 1 * (y 1).val = (y 1).val; omega

/-- So is the bias's. -/
theorem wblk0_2 (c : Dev nD) (t : Fin cfg0.N) : iblk0 V c 2 t = V c main_v4 := by
  obtain ⟨-, -, -, -, e4, e5, -, -⟩ := idx0 t
  funext y
  show V c main_v4 (((cfg0.win 2).blk t).view.emb y) = V c main_v4 y
  refine congrArg (V c main_v4) ?_
  funext a; apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- WHAT POINT `t` WRITES BACK is block `t` of the row-wise affine map of the input array: the body maps the rows of the
    input's block, and entry `(y₀, y₁)` of block `t` is entry `(4000·t + y₀, y₁)` of its array, for the input and the
    output alike. -/
theorem flushed0 (c : Dev nD) (b : Arr 128) (hb : V c main_v4 = shapeCast S1x128 b shapeCasts_S128_S1x128)
    (t : Fin cfg0.N) :
    (dat0 V c).flushed 3 t
      = ((cfg0.win 3).blk t).view.read (Elt Ideal) (rows1 (dense (V c main_arg2) b) (V c main_arg0)) := by
  show (cfg0.win 3).cut (grid0.coords t) ((dat0 V c).after 3 t) = _
  rw [after0_3, wblk0_1, wblk0_2, hb]
  refine (Body.lin0_body (iblk0 V c 0 t) (V c main_arg2) b).trans ?_
  obtain ⟨e0, e1, -, -, -, -, e6, e7⟩ := idx0 t
  funext y
  exact rows1_blk0 (dense (V c main_arg2) b) (V c main_arg0) (iblk0 V c 0 t) (t.val * 4000)
    ((cfg0.win 3).blk t).view.emb ((cfg0.win 0).blk t).view.emb (fun _ => rfl)
    (fun y => ⟨by show win0_3.index t (0 : Fin 2) * 4000 + 1 * (y 0).val = t.val * 4000 + (y 0).val; omega,
      by show win0_3.index t (1 : Fin 2) * 128 + 1 * (y 1).val = (y 1).val; omega⟩)
    (fun y => ⟨by show win0_0.index t (0 : Fin 2) * 4000 + 1 * (y 0).val = t.val * 4000 + (y 0).val; omega,
      by show win0_0.index t (1 : Fin 2) * 64 + 1 * (y 1).val = (y 1).val; omega⟩) y

/-- An index of the output array is in point `t`'s block iff each coordinate is in the block's range on its axis. -/
theorem mem_blk0 (t : Fin cfg0.N) (i : S20000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v5).slice (win0_3.rect t)).set ↔ _
  rw [View.set_slice_whole, Rect.mem_set_unit]
  exact Iff.rfl

/-- Every index of the output array is in some point's block: row `r` in the block of point `r / 4000`. -/
theorem cover0 (i : S20000x128.Idx) :
    ∃ t : Fin cfg0.N, (cfg0.win 3).flush t = true ∧ i ∈ ((cfg0.win 3).blk t).view.set := by
  have hi0 : (i 0).val < 20000 := (i 0).isLt
  have hi1 : (i 1).val < 128 := (i 1).isLt
  obtain ⟨t, ht⟩ : ∃ t : Fin cfg0.N, t.val = (i 0).val / 4000 :=
    ⟨⟨(i 0).val / 4000, by rw [show cfg0.N = 5 from N_0]; omega⟩, rfl⟩
  obtain ⟨-, -, -, -, -, -, e6, e7⟩ := idx0 t
  refine ⟨t, flush0_3 t, ?_⟩
  rw [mem_blk0]
  intro a
  match a with
  | ⟨0, _⟩ =>
    show win0_3.index t (0 : Fin 2) * 4000 ≤ (i 0).val ∧ (i 0).val < win0_3.index t (0 : Fin 2) * 4000 + 4000
    omega
  | ⟨1, _⟩ =>
    show win0_3.index t (1 : Fin 2) * 128 ≤ (i 1).val ∧ (i 1).val < win0_3.index t (1 : Fin 2) * 128 + 128
    omega

/-- The projection's array after the region, from the arrays as the region finds them. -/
theorem region0_value (c : Dev nD) (b : Arr 128)
    (hb : V c main_v4 = shapeCast S1x128 b shapeCasts_S128_S1x128) :
    (dat0 V c).arrAt 3 cfg0.N = rows1 (dense (V c main_arg2) b) (V c main_arg0) :=
  (dat0 V c).arrAt_eq_of_cover 3 _ (fun t _ => flushed0 V c b hb t) cover0

end Cert.KernelIdeal.Region

end
-- ==== Proof.KRegion1.lean ====
/-
  REGION 1 AS A WHOLE: the output's blocks are the row blocks of the array, each written by the point with the same
  number, and a row-wise map of a row block is the row block of the row-wise map; so the array ends holding the affine
  map of every row of the input array.
-/
import proofs.«404104_j10677288698628_1_alg».proof.Proof.KBodyLin

set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx Idealize.ShloMosaic.RowOps

variable (V : (c : Dev nD) → (b : Ref sig .tc) → Buf (Elt Ideal) ((c : Thread nD τ).loc b))

/-- A row-wise map of a block of rows is the same block of rows of the row-wise map of the whole array: if the block
    `XB` reads `X` through `e'`, and `e`, `e'` both shift the row number by `o` and keep the column, then entry `y` of
    the row-wise map of the block is entry `e y` of the row-wise map of the array. -/
theorem rows1_blk1 {A R C D : Nat} (f : (Fin C → EReal) → Fin D → EReal) (X : Mat A C) (XB : Mat R C) (o : Nat)
    (e : (⟨2, ![R, D]⟩ : Shape).Idx → (⟨2, ![A, D]⟩ : Shape).Idx)
    (e' : (⟨2, ![R, C]⟩ : Shape).Idx → (⟨2, ![A, C]⟩ : Shape).Idx)
    (hXB : ∀ y, XB y = X (e' y))
    (he : ∀ y, ((e y) 0).val = o + (y 0).val ∧ ((e y) 1).val = (y 1).val)
    (he' : ∀ y, ((e' y) 0).val = o + (y 0).val ∧ ((e' y) 1).val = (y 1).val)
    (y : (⟨2, ![R, D]⟩ : Shape).Idx) :
    rows1 f XB y = rows1 f X (e y) := by
  unfold rows1
  have h1 : (⟨(y 1).val, idx2_lt1 y⟩ : Fin D) = ⟨((e y) 1).val, idx2_lt1 (e y)⟩ := Fin.ext (he y).2.symm
  have h0 : row XB ⟨(y 0).val, idx2_lt0 y⟩ = row X ⟨((e y) 0).val, idx2_lt0 (e y)⟩ := by
    funext k
    unfold row
    rw [hXB]
    refine congrArg X ?_
    funext a; apply Fin.ext
    match a with
    | ⟨0, _⟩ =>
      show ((e' (ix2 (⟨(y 0).val, idx2_lt0 y⟩ : Fin R) k)) 0).val = ((e y) 0).val
      rw [(he' _).1, (he y).1]; rfl
    | ⟨1, _⟩ =>
      show ((e' (ix2 (⟨(y 0).val, idx2_lt0 y⟩ : Fin R) k)) 1).val = k.val
      rw [(he' _).2]; rfl
  rw [h0, h1]

/-- The printed index maps, decided once over the grid: the row-tiled input and the output have block index `(t, 0)` at
    point `t`, the weight and the bias `(0, 0)`. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The weight's block is the whole weight array at every point: the block is the full rectangle at offset 0. -/
theorem wblk1_1 (c : Dev nD) (t : Fin cfg1.N) : iblk1 V c 1 t = V c main_arg4 := by
  obtain ⟨-, -, e2, e3, -, -, -, -⟩ := idx1 t
  funext y
  show V c main_arg4 (((cfg1.win 1).blk t).view.emb y) = V c main_arg4 y
  refine congrArg (V c main_arg4) ?_
  funext a; apply Fin.ext
  match a with
  | ⟨0, _⟩ => show win1_1.index t (0 : Fin 2) * 32 + 1 * (y 0).val = (y 0).val; omega
  | ⟨1, _⟩ => show win1_1.index t (1 : Fin 2) * 32 + 1 * (y 1).val = (y 1).val; omega

/-- So is the bias's. -/
theorem wblk1_2 (c : Dev nD) (t : Fin cfg1.N) : iblk1 V c 2 t = V c main_v6 := by
  obtain ⟨-, -, -, -, e4, e5, -, -⟩ := idx1 t
  funext y
  show V c main_v6 (((cfg1.win 2).blk t).view.emb y) = V c main_v6 y
  refine congrArg (V c main_v6) ?_
  funext a; apply Fin.ext
  match a with
  | ⟨0, _⟩ => show win1_2.index t (0 : Fin 2) * 1 + 1 * (y 0).val = (y 0).val; omega
  | ⟨1, _⟩ => show win1_2.index t (1 : Fin 2) * 32 + 1 * (y 1).val = (y 1).val; omega

/-- WHAT POINT `t` WRITES BACK is block `t` of the row-wise affine map of the input array: the body maps the rows of the
    input's block, and entry `(y₀, y₁)` of block `t` is entry `(3200·t + y₀, y₁)` of its array, for the input and the
    output alike. -/
theorem flushed1 (c : Dev nD) (b : Arr 32) (hb : V c main_v6 = shapeCast S1x32 b shapeCasts_S32_S1x32)
    (t : Fin cfg1.N) :
    (dat1 V c).flushed 3 t
      = ((cfg1.win 3).blk t).view.read (Elt Ideal) (rows1 (dense (V c main_arg4) b) (V c main_arg1)) := by
  show (cfg1.win 3).cut (grid1.coords t) ((dat1 V c).after 3 t) = _
  rw [after1_3, wblk1_1, wblk1_2, hb]
  refine (Body.lin1_body (iblk1 V c 0 t) (V c main_arg4) b).trans ?_
  obtain ⟨e0, e1, -, -, -, -, e6, e7⟩ := idx1 t
  funext y
  exact rows1_blk1 (dense (V c main_arg4) b) (V c main_arg1) (iblk1 V c 0 t) (t.val * 3200)
    ((cfg1.win 3).blk t).view.emb ((cfg1.win 0).blk t).view.emb (fun _ => rfl)
    (fun y => ⟨by show win1_3.index t (0 : Fin 2) * 3200 + 1 * (y 0).val = t.val * 3200 + (y 0).val; omega,
      by show win1_3.index t (1 : Fin 2) * 32 + 1 * (y 1).val = (y 1).val; omega⟩)
    (fun y => ⟨by show win1_0.index t (0 : Fin 2) * 3200 + 1 * (y 0).val = t.val * 3200 + (y 0).val; omega,
      by show win1_0.index t (1 : Fin 2) * 32 + 1 * (y 1).val = (y 1).val; omega⟩) y

/-- An index of the output array is in point `t`'s block iff each coordinate is in the block's range on its axis. -/
theorem mem_blk1 (t : Fin cfg1.N) (i : S320000x32.Idx) :
    i ∈ ((cfg1.win 3).blk t).view.set ↔ ∀ a : Fin 2, win1_3.index t a * S3200x32.size a ≤ (i a).val
      ∧ (i a).val < win1_3.index t a * S3200x32.size a + S3200x32.size a := by
  show i ∈ ((View.whole main_v7).slice (win1_3.rect t)).set ↔ _
  rw [View.set_slice_whole, Rect.mem_set_unit]
  exact Iff.rfl

/-- Every index of the output array is in some point's block: row `r` in the block of point `r / 3200`. -/
theorem cover1 (i : S320000x32.Idx) :
    ∃ t : Fin cfg1.N, (cfg1.win 3).flush t = true ∧ i ∈ ((cfg1.win 3).blk t).view.set := by
  have hi0 : (i 0).val < 320000 := (i 0).isLt
  have hi1 : (i 1).val < 32 := (i 1).isLt
  obtain ⟨t, ht⟩ : ∃ t : Fin cfg1.N, t.val = (i 0).val / 3200 :=
    ⟨⟨(i 0).val / 3200, by rw [show cfg1.N = 100 from N_1]; omega⟩, rfl⟩
  obtain ⟨-, -, -, -, -, -, e6, e7⟩ := idx1 t
  refine ⟨t, flush1_3 t, ?_⟩
  rw [mem_blk1]
  intro a
  match a with
  | ⟨0, _⟩ =>
    show win1_3.index t (0 : Fin 2) * 3200 ≤ (i 0).val ∧ (i 0).val < win1_3.index t (0 : Fin 2) * 3200 + 3200
    omega
  | ⟨1, _⟩ =>
    show win1_3.index t (1 : Fin 2) * 32 ≤ (i 1).val ∧ (i 1).val < win1_3.index t (1 : Fin 2) * 32 + 32
    omega

/-- The projection's array after the region, from the arrays as the region finds them. -/
theorem region1_value (c : Dev nD) (b : Arr 32)
    (hb : V c main_v6 = shapeCast S1x32 b shapeCasts_S32_S1x32) :
    (dat1 V c).arrAt 3 cfg1.N = rows1 (dense (V c main_arg4) b) (V c main_arg1) :=
  (dat1 V c).arrAt_eq_of_cover 3 _ (fun t _ => flushed1 V c b hb t) cover1

end Cert.KernelIdeal.Region

end
-- ==== Proof.KHead.lean ====
/-
  THE HEAD OF THE KERNEL PROGRAM: the edge list is cut into its two rows, the two projection regions run. At the second
  region's exit the sources' and the targets' numbers, the projected edges' rows and the projected nodes' rows are in
  their buffers, and the weight arguments are as launched. Each fact is read off the program's fold of boundary
  contents: a host operation's result is its function of its operands' contents, a buffer no operation writes and no
  region has for a window is where it was, and a region's output array holds the region's value.
-/
import proofs.«404104_j10677288698628_1_alg».proof.Proof.KChainDefs
import proofs.«404104_j10677288698628_1_alg».proof.Proof.KRegion0
import proofs.«404104_j10677288698628_1_alg».proof.Proof.KRegion1

set_option maxRecDepth 16384

noncomputable section

namespace Cert.KernelIdeal.Chain

open Cert.KernelIdeal Cert.KernelIdeal.Gen Idealize.ShloMosaic Idealize.ShloMosaic.TcCoe Idealize.SL.Sem
open Idealize.ShloMosaic.ValueIdx Idealize.ShloMosaic.RowOps

variable (m : (ℓ : Loc nD τ sig) → Buf (Elt Ideal) ℓ) (ρ : Dev nD → PrngReg) (c : Dev nD)

/-! ## After the first host operations: the edge list's rows, the nodes' bias as one row -/

private theorem w1_v1 : W1 m ρ c (Proc.devRef .tc main_v1) = Take.srcIdx (edges m c) := by
  show StableHlo.after hostOps0 (W0 m ρ c) (Proc.devRef .tc main_v1) = _
  after_results
  rfl

private theorem w1_v3 : W1 m ρ c (Proc.devRef .tc main_v3) = Take.dstIdx (edges m c) := by
  show StableHlo.after hostOps0 (W0 m ρ c) (Proc.devRef .tc main_v3) = _
  after_results
  rfl

private theorem w1_v4 : V1 m ρ c main_v4 = shapeCast S1x128 (m ((c.tc : Thread nD τ).loc main_arg3)) shapeCasts_S128_S1x128 := by
  show StableHlo.after hostOps0 (W0 m ρ c) (Proc.devRef .tc main_v4) = _
  after_results
  rfl

private theorem w1_arg0 : V1 m ρ c main_arg0 = m ((c.tc : Thread nD τ).loc main_arg0) := by
  show StableHlo.after hostOps0 (W0 m ρ c) (Proc.devRef .tc main_arg0) = _
  after_results

private theorem w1_arg2 : V1 m ρ c main_arg2 = m ((c.tc : Thread nD τ).loc main_arg2) := by
  show StableHlo.after hostOps0 (W0 m ρ c) (Proc.devRef .tc main_arg2) = _
  after_results

/-! ## After the nodes' projection -/

private theorem w2_v5 : W2 m ρ c (Proc.devRef .tc main_v5) = Gnn.nodes0 (m ((c.tc : Thread nD τ).loc main_arg2)) (m ((c.tc : Thread nD τ).loc main_arg3)) (m ((c.tc : Thread nD τ).loc main_arg0)) := by
  refine (W2_arr m ρ c 3).trans ?_
  rw [Region.region0_value (V1 m ρ) c (m ((c.tc : Thread nD τ).loc main_arg3)) (w1_v4 m ρ c), w1_arg0, w1_arg2]
  rfl

private theorem w2_v1 : W2 m ρ c (Proc.devRef .tc main_v1) = Take.srcIdx (edges m c) :=
  (W2_of_ne m ρ c main_v1 (by decide)).trans (w1_v1 m ρ c)

private theorem w2_v3 : W2 m ρ c (Proc.devRef .tc main_v3) = Take.dstIdx (edges m c) :=
  (W2_of_ne m ρ c main_v3 (by decide)).trans (w1_v3 m ρ c)

private theorem w2_arg (k : Ref sig .tc) (hk : ∀ w, Pipeline.arrRef spec0 w ≠ k)
    (h0 : StableHlo.after hostOps0 (W0 m ρ c) (Proc.devRef .tc k) = W0 m ρ c (Proc.devRef .tc k)) :
    W2 m ρ c (Proc.devRef .tc k) = W0 m ρ c (Proc.devRef .tc k) :=
  (W2_of_ne m ρ c k hk).trans h0

/-! ## After the edges' bias is laid out as one row -/

private theorem w3_v6 : V3 m ρ c main_v6 = shapeCast S1x32 (m ((c.tc : Thread nD τ).loc main_arg5)) shapeCasts_S32_S1x32 := by
  show StableHlo.after hostOps1 (W2 m ρ c) (Proc.devRef .tc main_v6) = _
  after_results
  rw [w2_arg m ρ c main_arg5 (by decide) (by after_results)]
  rfl

private theorem w3_arg1 : V3 m ρ c main_arg1 = m ((c.tc : Thread nD τ).loc main_arg1) := by
  show StableHlo.after hostOps1 (W2 m ρ c) (Proc.devRef .tc main_arg1) = _
  after_results
  exact w2_arg m ρ c main_arg1 (by decide) (by after_results)

private theorem w3_arg4 : V3 m ρ c main_arg4 = m ((c.tc : Thread nD τ).loc main_arg4) := by
  show StableHlo.after hostOps1 (W2 m ρ c) (Proc.devRef .tc main_arg4) = _
  after_results
  exact w2_arg m ρ c main_arg4 (by decide) (by after_results)

private theorem w3_keep (k : Ref sig .tc)
    (h1 : StableHlo.after hostOps1 (W2 m ρ c) (Proc.devRef .tc k) = W2 m ρ c (Proc.devRef .tc k)) :
    W3 m ρ c (Proc.devRef .tc k) = W2 m ρ c (Proc.devRef .tc k) := h1

/-! ## After the edges' projection -/

private theorem w4_v7 : W4 m ρ c (Proc.devRef .tc main_v7) = Gnn.edges0 (m ((c.tc : Thread nD τ).loc main_arg4)) (m ((c.tc : Thread nD τ).loc main_arg5)) (m ((c.tc : Thread nD τ).loc main_arg1)) := by
  refine (W4_arr m ρ c 3).trans ?_
  rw [Region.region1_value (V3 m ρ) c (m ((c.tc : Thread nD τ).loc main_arg5)) (w3_v6 m ρ c), w3_arg1, w3_arg4]
  rfl

private theorem w4_v1 : W4 m ρ c (Proc.devRef .tc main_v1) = Take.srcIdx (edges m c) :=
  (W4_of_ne m ρ c main_v1 (by decide)).trans ((w3_keep m ρ c main_v1 (by after_results)).trans (w2_v1 m ρ c))

private theorem w4_v3 : W4 m ρ c (Proc.devRef .tc main_v3) = Take.dstIdx (edges m c) :=
  (W4_of_ne m ρ c main_v3 (by decide)).trans ((w3_keep m ρ c main_v3 (by after_results)).trans (w2_v3 m ρ c))

private theorem w4_v5 : W4 m ρ c (Proc.devRef .tc main_v5) = Gnn.nodes0 (m ((c.tc : Thread nD τ).loc main_arg2)) (m ((c.tc : Thread nD τ).loc main_arg3)) (m ((c.tc : Thread nD τ).loc main_arg0)) :=
  (W4_of_ne m ρ c main_v5 (by decide)).trans ((w3_keep m ρ c main_v5 (by after_results)).trans (w2_v5 m ρ c))

private theorem w4_arg6 : W4 m ρ c (Proc.devRef .tc main_arg6) = m ((c.tc : Thread nD τ).loc main_arg6) :=
  (W4_of_ne m ρ c main_arg6 (by decide)).trans
    ((show StableHlo.after hostOps1 (W2 m ρ c) (Proc.devRef .tc main_arg6) = W2 m ρ c (Proc.devRef .tc main_arg6) by after_results).trans
      ((W2_of_ne m ρ c main_arg6 (by decide)).trans
        (show StableHlo.after hostOps0 (W0 m ρ c) (Proc.devRef .tc main_arg6) = m ((c.tc : Thread nD τ).loc main_arg6) by after_results)))

private theorem w4_arg7 : W4 m ρ c (Proc.devRef .tc main_arg7) = m ((c.tc : Thread nD τ).loc main_arg7) :=
  (W4_of_ne m ρ c main_arg7 (by decide)).trans
    ((show StableHlo.after hostOps1 (W2 m ρ c) (Proc.devRef .tc main_arg7) = W2 m ρ c (Proc.devRef .tc main_arg7) by after_results).trans
      ((W2_of_ne m ρ c main_arg7 (by decide)).trans
        (show StableHlo.after hostOps0 (W0 m ρ c) (Proc.devRef .tc main_arg7) = m ((c.tc : Thread nD τ).loc main_arg7) by after_results)))

private theorem w4_arg8 : W4 m ρ c (Proc.devRef .tc main_arg8) = m ((c.tc : Thread nD τ).loc main_arg8) :=
  (W4_of_ne m ρ c main_arg8 (by decide)).trans
    ((show StableHlo.after hostOps1 (W2 m ρ c) (Proc.devRef .tc main_arg8) = W2 m ρ c (Proc.devRef .tc main_arg8) by after_results).trans
      ((W2_of_ne m ρ c main_arg8 (by decide)).trans
        (show StableHlo.after hostOps0 (W0 m ρ c) (Proc.devRef .tc main_arg8) = m ((c.tc : Thread nD τ).loc main_arg8) by after_results)))

private theorem w4_arg9 : W4 m ρ c (Proc.devRef .tc main_arg9) = m ((c.tc : Thread nD τ).loc main_arg9) :=
  (W4_of_ne m ρ c main_arg9 (by decide)).trans
    ((show StableHlo.after hostOps1 (W2 m ρ c) (Proc.devRef .tc main_arg9) = W2 m ρ c (Proc.devRef .tc main_arg9) by after_results).trans
      ((W2_of_ne m ρ c main_arg9 (by decide)).trans
        (show StableHlo.after hostOps0 (W0 m ρ c) (Proc.devRef .tc main_arg9) = m ((c.tc : Thread nD τ).loc main_arg9) by after_results)))

private theorem w4_arg10 : W4 m ρ c (Proc.devRef .tc main_arg10) = m ((c.tc : Thread nD τ).loc main_arg10) :=
  (W4_of_ne m ρ c main_arg10 (by decide)).trans
    ((show StableHlo.after hostOps1 (W2 m ρ c) (Proc.devRef .tc main_arg10) = W2 m ρ c (Proc.devRef .tc main_arg10) by after_results).trans
      ((W2_of_ne m ρ c main_arg10 (by decide)).trans
        (show StableHlo.after hostOps0 (W0 m ρ c) (Proc.devRef .tc main_arg10) = m ((c.tc : Thread nD τ).loc main_arg10) by after_results)))

private theorem w4_arg11 : W4 m ρ c (Proc.devRef .tc main_arg11) = m ((c.tc : Thread nD τ).loc main_arg11) :=
  (W4_of_ne m ρ c main_arg11 (by decide)).trans
    ((show StableHlo.after hostOps1 (W2 m ρ c) (Proc.devRef .tc main_arg11) = W2 m ρ c (Proc.devRef .tc main_arg11) by after_results).trans
      ((W2_of_ne m ρ c main_arg11 (by decide)).trans
        (show StableHlo.after hostOps0 (W0 m ρ c) (Proc.devRef .tc main_arg11) = m ((c.tc : Thread nD τ).loc main_arg11) by after_results)))

private theorem w4_arg12 : W4 m ρ c (Proc.devRef .tc main_arg12) = m ((c.tc : Thread nD τ).loc main_arg12) :=
  (W4_of_ne m ρ c main_arg12 (by decide)).trans
    ((show StableHlo.after hostOps1 (W2 m ρ c) (Proc.devRef .tc main_arg12) = W2 m ρ c (Proc.devRef .tc main_arg12) by after_results).trans
      ((W2_of_ne m ρ c main_arg12 (by decide)).trans
        (show StableHlo.after hostOps0 (W0 m ρ c) (Proc.devRef .tc main_arg12) = m ((c.tc : Thread nD τ).loc main_arg12) by after_results)))

private theorem w4_arg13 : W4 m ρ c (Proc.devRef .tc main_arg13) = m ((c.tc : Thread nD τ).loc main_arg13) :=
  (W4_of_ne m ρ c main_arg13 (by decide)).trans
    ((show StableHlo.after hostOps1 (W2 m ρ c) (Proc.devRef .tc main_arg13) = W2 m ρ c (Proc.devRef .tc main_arg13) by after_results).trans
      ((W2_of_ne m ρ c main_arg13 (by decide)).trans
        (show StableHlo.after hostOps0 (W0 m ρ c) (Proc.devRef .tc main_arg13) = m ((c.tc : Thread nD τ).loc main_arg13) by after_results)))

private theorem w4_arg14 : W4 m ρ c (Proc.devRef .tc main_arg14) = m ((c.tc : Thread nD τ).loc main_arg14) :=
  (W4_of_ne m ρ c main_arg14 (by decide)).trans
    ((show StableHlo.after hostOps1 (W2 m ρ c) (Proc.devRef .tc main_arg14) = W2 m ρ c (Proc.devRef .tc main_arg14) by after_results).trans
      ((W2_of_ne m ρ c main_arg14 (by decide)).trans
        (show StableHlo.after hostOps0 (W0 m ρ c) (Proc.devRef .tc main_arg14) = m ((c.tc : Thread nD τ).loc main_arg14) by after_results)))

private theorem w4_arg15 : W4 m ρ c (Proc.devRef .tc main_arg15) = m ((c.tc : Thread nD τ).loc main_arg15) :=
  (W4_of_ne m ρ c main_arg15 (by decide)).trans
    ((show StableHlo.after hostOps1 (W2 m ρ c) (Proc.devRef .tc main_arg15) = W2 m ρ c (Proc.devRef .tc main_arg15) by after_results).trans
      ((W2_of_ne m ρ c main_arg15 (by decide)).trans
        (show StableHlo.after hostOps0 (W0 m ρ c) (Proc.devRef .tc main_arg15) = m ((c.tc : Thread nD τ).loc main_arg15) by after_results)))

private theorem w4_arg16 : W4 m ρ c (Proc.devRef .tc main_arg16) = m ((c.tc : Thread nD τ).loc main_arg16) :=
  (W4_of_ne m ρ c main_arg16 (by decide)).trans
    ((show StableHlo.after hostOps1 (W2 m ρ c) (Proc.devRef .tc main_arg16) = W2 m ρ c (Proc.devRef .tc main_arg16) by after_results).trans
      ((W2_of_ne m ρ c main_arg16 (by decide)).trans
        (show StableHlo.after hostOps0 (W0 m ρ c) (Proc.devRef .tc main_arg16) = m ((c.tc : Thread nD τ).loc main_arg16) by after_results)))

private theorem w4_arg17 : W4 m ρ c (Proc.devRef .tc main_arg17) = m ((c.tc : Thread nD τ).loc main_arg17) :=
  (W4_of_ne m ρ c main_arg17 (by decide)).trans
    ((show StableHlo.after hostOps1 (W2 m ρ c) (Proc.devRef .tc main_arg17) = W2 m ρ c (Proc.devRef .tc main_arg17) by after_results).trans
      ((W2_of_ne m ρ c main_arg17 (by decide)).trans
        (show StableHlo.after hostOps0 (W0 m ρ c) (Proc.devRef .tc main_arg17) = m ((c.tc : Thread nD τ).loc main_arg17) by after_results)))

theorem head_chain :
    W4 m ρ c (Proc.devRef .tc main_v1) = Take.srcIdx (edges m c)
      ∧ W4 m ρ c (Proc.devRef .tc main_v3) = Take.dstIdx (edges m c)
      ∧ W4 m ρ c (Proc.devRef .tc main_v7) = Gnn.edges0 (m ((c.tc : Thread nD τ).loc main_arg4)) (m ((c.tc : Thread nD τ).loc main_arg5)) (m ((c.tc : Thread nD τ).loc main_arg1))
      ∧ W4 m ρ c (Proc.devRef .tc main_v5) = Gnn.nodes0 (m ((c.tc : Thread nD τ).loc main_arg2)) (m ((c.tc : Thread nD τ).loc main_arg3)) (m ((c.tc : Thread nD τ).loc main_arg0))
      ∧ ArgsAt m c (W4 m ρ c) :=
  ⟨w4_v1 m ρ c, w4_v3 m ρ c, w4_v7 m ρ c, w4_v5 m ρ c,
    w4_arg6 m ρ c, w4_arg7 m ρ c, w4_arg8 m ρ c, w4_arg9 m ρ c, w4_arg10 m ρ c, w4_arg11 m ρ c, w4_arg12 m ρ c, w4_arg13 m ρ c, w4_arg14 m ρ c, w4_arg15 m ρ c, w4_arg16 m ρ c, w4_arg17 m ρ c⟩

end Cert.KernelIdeal.Chain

end
-- ==== Proof.LibRowLayout.lean ====
/-
  CONCATENATIONS ALONG THE COLUMN AXIS, COLUMN SLICES AND ROW GATHERS, row by row: a concatenation of matrices with the
  same number of rows puts their rows side by side (`cat2`, `cat3`, `cat5`); a unit-stride slice of columns cuts every row
  (`hi`); a gather of whole rows selects rows (`selRows`).
-/
import proofs.«404104_j10677288698628_1_alg».proof.Proof.LibRowOps

noncomputable section

open scoped BigOperators

namespace Idealize.ShloMosaic.RowOps

open Idealize.ShloMosaic Idealize.ShloMosaic.ValueIdx

/-- Two matrices side by side. -/
theorem concat2_rows {A a b n : Nat} (X : Mat A a) (Y : Mat A b)
    (h : Shape.Concatenates [(⟨2, ![A, a]⟩ : Shape), (⟨2, ![A, b]⟩ : Shape)] (⟨2, ![A, n]⟩ : Shape) 1) :
    concatenate (⟨2, ![A, n]⟩ : Shape) 1 [⟨(⟨2, ![A, a]⟩ : Shape), X⟩, ⟨(⟨2, ![A, b]⟩ : Shape), Y⟩] h
      = rows2 (fun x y => cat2 x y) X Y := by
  -- the two widths add up to the result's
  have hn : a + b = n := by
    have hs := h.2.2
    simpa using hs
  refine mat_ext fun p k => ?_
  rw [rows2_apply]
  by_cases hk : k.val < a
  · -- a column of the first matrix
    rw [concatenate_pair_apply_left (1 : Fin 2) X Y h (ix2 p k) rfl (ix2 p ⟨k.val, hk⟩)
      (fun d => by match d with | ⟨0, _⟩ => rfl | ⟨1, _⟩ => rfl)]
    unfold cat2
    rw [dif_pos hk]
    rfl
  · -- a column of the second matrix, the first width less
    have hk2 : k.val - a < b := by have := k.isLt; omega
    rw [concatenate_pair_apply_right (1 : Fin 2) X Y h (ix2 p k) rfl rfl (ix2 p ⟨k.val - a, hk2⟩)
      (fun d hd => by match d, hd with | ⟨0, _⟩, _ => rfl | ⟨1, _⟩, hd => exact absurd rfl hd)
      (by show (k.val - a) + a = k.val; omega)]
    unfold cat2
    rw [dif_neg hk, dif_pos hk2]
    rfl

/-- Three matrices side by side. -/
theorem concat3_rows {A a b c n : Nat} (X : Mat A a) (Y : Mat A b) (Z : Mat A c)
    (h : Shape.Concatenates [(⟨2, ![A, a]⟩ : Shape), (⟨2, ![A, b]⟩ : Shape), (⟨2, ![A, c]⟩ : Shape)] (⟨2, ![A, n]⟩ : Shape) 1) :
    concatenate (⟨2, ![A, n]⟩ : Shape) 1
        [⟨(⟨2, ![A, a]⟩ : Shape), X⟩, ⟨(⟨2, ![A, b]⟩ : Shape), Y⟩, ⟨(⟨2, ![A, c]⟩ : Shape), Z⟩] h
      = rows3 (fun x y z => cat3 x y z) X Y Z := by
  -- the three widths add up to the result's
  have hn : a + (b + c) = n := by
    have hs := h.2.2
    simpa using hs
  refine mat_ext fun p k => ?_
  rw [rows3_apply]
  unfold cat3
  have hkn := k.isLt
  have HP := concatenate_apply_piece (t := (⟨2, ![A, n]⟩ : Shape)) (1 : Fin 2)
    [⟨(⟨2, ![A, a]⟩ : Shape), X⟩, ⟨(⟨2, ![A, b]⟩ : Shape), Y⟩, ⟨(⟨2, ![A, c]⟩ : Shape), Z⟩] h (ix2 p k)
  by_cases hk : k.val < a
  · -- a column of the first matrix
    refine (HP 0 (by simp) _ X rfl rfl 0 rfl (ix2 p ⟨k.val, hk⟩)
      (fun d hd => by match d, hd with | ⟨0, _⟩, _ => rfl | ⟨1, _⟩, hd => exact absurd rfl hd)
      (by show 0 + k.val = k.val; omega)).trans ?_
    unfold cat2
    rw [dif_pos hk]
    rfl
  · have hk2 : k.val - a < b + c := by omega
    by_cases hkb : k.val - a < b
    · -- a column of the second matrix
      refine (HP 1 (by simp) _ Y rfl rfl a rfl (ix2 p ⟨k.val - a, hkb⟩)
        (fun d hd => by match d, hd with | ⟨0, _⟩, _ => rfl | ⟨1, _⟩, hd => exact absurd rfl hd)
        (by show a + (k.val - a) = k.val; omega)).trans ?_
      unfold cat2
      rw [dif_neg hk, dif_pos hk2]
      simp only [dif_pos hkb]
      rfl
    · -- a column of the third matrix
      have hkc : k.val - a - b < c := by omega
      refine (HP 2 (by simp) _ Z rfl rfl (a + b) rfl (ix2 p ⟨k.val - a - b, hkc⟩)
        (fun d hd => by match d, hd with | ⟨0, _⟩, _ => rfl | ⟨1, _⟩, hd => exact absurd rfl hd)
        (by show a + b + (k.val - a - b) = k.val; omega)).trans ?_
      unfold cat2
      rw [dif_neg hk, dif_pos hk2]
      simp only [dif_neg hkb, dif_pos hkc]
      rfl

/-- Five matrices side by side. -/
theorem concat5_rows {A a b c d e n : Nat} (X₁ : Mat A a) (X₂ : Mat A b) (X₃ : Mat A c) (X₄ : Mat A d) (X₅ : Mat A e)
    (h : Shape.Concatenates [(⟨2, ![A, a]⟩ : Shape), (⟨2, ![A, b]⟩ : Shape), (⟨2, ![A, c]⟩ : Shape), (⟨2, ![A, d]⟩ : Shape),
      (⟨2, ![A, e]⟩ : Shape)] (⟨2, ![A, n]⟩ : Shape) 1) :
    concatenate (⟨2, ![A, n]⟩ : Shape) 1
        [⟨(⟨2, ![A, a]⟩ : Shape), X₁⟩, ⟨(⟨2, ![A, b]⟩ : Shape), X₂⟩, ⟨(⟨2, ![A, c]⟩ : Shape), X₃⟩,
          ⟨(⟨2, ![A, d]⟩ : Shape), X₄⟩, ⟨(⟨2, ![A, e]⟩ : Shape), X₅⟩] h
      = rows5 (fun x₁ x₂ x₃ x₄ x₅ => cat5 x₁ x₂ x₃ x₄ x₅) X₁ X₂ X₃ X₄ X₅ := by
  -- the five widths add up to the result's
  have hn : a + (b + (c + (d + e))) = n := by
    have hs := h.2.2
    simpa using hs
  refine mat_ext fun p k => ?_
  show _ = cat5 (row X₁ p) (row X₂ p) (row X₃ p) (row X₄ p) (row X₅ p) k
  unfold cat5
  have hkn := k.isLt
  have HP := concatenate_apply_piece (t := (⟨2, ![A, n]⟩ : Shape)) (1 : Fin 2)
    [⟨(⟨2, ![A, a]⟩ : Shape), X₁⟩, ⟨(⟨2, ![A, b]⟩ : Shape), X₂⟩, ⟨(⟨2, ![A, c]⟩ : Shape), X₃⟩,
      ⟨(⟨2, ![A, d]⟩ : Shape), X₄⟩, ⟨(⟨2, ![A, e]⟩ : Shape), X₅⟩] h (ix2 p k)
  by_cases hk : k.val < a
  · -- a column of the first matrix
    refine (HP 0 (by simp) _ X₁ rfl rfl 0 rfl (ix2 p ⟨k.val, hk⟩)
      (fun d hd => by match d, hd with | ⟨0, _⟩, _ => rfl | ⟨1, _⟩, hd => exact absurd rfl hd)
      (by show 0 + k.val = k.val; omega)).trans ?_
    unfold cat2
    rw [dif_pos hk]
    rfl
  · have hk2 : k.val - a < b + (c + (d + e)) := by omega
    by_cases hkb : k.val - a < b
    · -- a column of the second matrix
      refine (HP 1 (by simp) _ X₂ rfl rfl a rfl (ix2 p ⟨k.val - a, hkb⟩)
        (fun d hd => by match d, hd with | ⟨0, _⟩, _ => rfl | ⟨1, _⟩, hd => exact absurd rfl hd)
        (by show a + (k.val - a) = k.val; omega)).trans ?_
      unfold cat2
      rw [dif_neg hk, dif_pos hk2]
      simp only [dif_pos hkb]
      rfl
    · have hk3 : k.val - a - b < c + (d + e) := by omega
      by_cases hkc : k.val - a - b < c
      · -- a column of the third matrix
        refine (HP 2 (by simp) _ X₃ rfl rfl (a + b) rfl (ix2 p ⟨k.val - a - b, hkc⟩)
          (fun d hd => by match d, hd with | ⟨0, _⟩, _ => rfl | ⟨1, _⟩, hd => exact absurd rfl hd)
          (by show a + b + (k.val - a - b) = k.val; omega)).trans ?_
        unfold cat2
        rw [dif_neg hk, dif_pos hk2]
        simp only [dif_neg hkb, dif_pos hk3, dif_pos hkc]
        rfl
      · have hk4 : k.val - a - b - c < d + e := by omega
        by_cases hkd : k.val - a - b - c < d
        · -- a column of the fourth matrix
          refine (HP 3 (by simp) _ X₄ rfl rfl (a + (b + c)) rfl (ix2 p ⟨k.val - a - b - c, hkd⟩)
            (fun d hd => by match d, hd with | ⟨0, _⟩, _ => rfl | ⟨1, _⟩, hd => exact absurd rfl hd)
            (by show a + (b + c) + (k.val - a - b - c) = k.val; omega)).trans ?_
          unfold cat2
          rw [dif_neg hk, dif_pos hk2]
          simp only [dif_neg hkb, dif_pos hk3, dif_neg hkc, dif_pos hk4, dif_pos hkd]
          rfl
        · -- a column of the fifth matrix
          have hke : k.val - a - b - c - d < e := by omega
          refine (HP 4 (by simp) _ X₅ rfl rfl (a + (b + (c + d))) rfl (ix2 p ⟨k.val - a - b - c - d, hke⟩)
            (fun d hd => by match d, hd with | ⟨0, _⟩, _ => rfl | ⟨1, _⟩, hd => exact absurd rfl hd)
            (by show a + (b + (c + d)) + (k.val - a - b - c - d) = k.val; omega)).trans ?_
          unfold cat2
          rw [dif_neg hk, dif_pos hk2]
          simp only [dif_neg hkb, dif_pos hk3, dif_neg hkc, dif_pos hk4, dif_neg hkd, dif_pos hke]
          rfl

/-- A unit-stride slice of the columns `o … o + b − 1`. -/
theorem slice_cols {A n : Nat} (o b : Nat) (hob : o + b ≤ n) (X : Mat A n)
    (h : (⟨2, ![A, n]⟩ : Shape).Slices ![0, o] (⟨2, ![A, b]⟩ : Shape)) :
    extractStridedSlice (⟨2, ![A, b]⟩ : Shape) ![0, o] X h = rows1 (hi o b hob) X := by
  refine mat_ext fun p k => ?_
  rw [rows1_apply]
  have hk : o + k.val < n := by have := k.isLt; omega
  -- entry (p, k) of the slice is entry (p, o + k) of the matrix
  refine (extractStridedSlice_apply _ X h (ix2 p k) (ix2 p ⟨o + k.val, hk⟩) (fun d => ?_)).trans ?_
  · match d with
    | ⟨0, _⟩ => exact (Nat.zero_add p.val).symm
    | ⟨1, _⟩ => rfl
  · rfl

/-- A unit-stride slice of the first `a` ROWS, read at an entry. -/
theorem slice_top_apply {a n B : Nat} (han : a ≤ n) (W : Mat n B)
    (h : (⟨2, ![n, B]⟩ : Shape).Slices ![0, 0] (⟨2, ![a, B]⟩ : Shape)) (k : Fin a) (q : Fin B) :
    extractStridedSlice (⟨2, ![a, B]⟩ : Shape) ![0, 0] W h (ix2 k q) = W (ix2 (⟨k.val, by omega⟩ : Fin n) q) := by
  -- both offsets are zero: the entry keeps its coordinates
  refine extractStridedSlice_apply _ W h (ix2 k q) (ix2 (⟨k.val, by omega⟩ : Fin n) q) (fun d => ?_)
  match d with
  | ⟨0, _⟩ => exact (Nat.zero_add k.val).symm
  | ⟨1, _⟩ => exact (Nat.zero_add q.val).symm

/-- A gather of whole rows is a selection of rows: row `e` of the result is the table's row `GatherRow.sel idx e`. -/
theorem gather_selRows {N D R w : Nat} (hN : 0 < N)
    (wf : GatherDims.WF ⟨2, ![N, D]⟩ ⟨2, ![R, 1]⟩ ⟨2, ![R, D]⟩ [1] [0] [] [0] [] 1 ![1, D])
    (X : Mat N D) (idx : IVec ⟨2, ![R, 1]⟩ w) :
    Host.gather (GatherRow.dims N D R wf) X idx = selRows (GatherRow.sel hN idx) X :=
  funext fun y => GatherRow.gather_row_apply hN wf X idx y

end Idealize.ShloMosaic.RowOps

end
-- ==== Proof.KBodyMsg.lean ====
/-
  THE MESSAGE STAGE, BLOCK BY BLOCK: the body multiplies the target rows, the source rows and the edge rows by the three
  bands of rows of the first weight matrix and adds the three products, which is the first layer applied to the three
  rows side by side; then the positive part, the second layer and the positive part again. So its output block is row by
  row the message function of the rows of its three row-tiled inputs.
-/
import proofs.«404104_j10677288698628_1_alg».proof.Proof.Gen.KernelIdeal.Frame
import proofs.«404104_j10677288698628_1_alg».proof.Proof.LibRowDense
import proofs.«404104_j10677288698628_1_alg».proof.Proof.LibRowLayout
import proofs.«404104_j10677288698628_1_alg».proof.Proof.Rows

set_option maxRecDepth 16384

noncomputable section

namespace Cert.KernelIdeal.Body

open Cert.KernelIdeal Cert.KernelIdeal.Gen Idealize.ShloMosaic Idealize.ShloMosaic.TcCoe Idealize.SL.Sem
open Idealize.ShloMosaic.ValueIdx Idealize.ShloMosaic.RowOps

/-- A layer whose two operands pass through a narrowing of format (the identity on extended reals) before the product
    into the zero accumulator, with the bias cast to one row and broadcast and the positive part, is row by row
    `relu ∘ dense W b`. -/
theorem layer_relu_narrowed {A K B : Nat}
    (d : DotDims (⟨2, ![A, K]⟩ : Shape) (⟨2, ![K, B]⟩ : Shape) (⟨2, ![A, B]⟩ : Shape))
    (hd : IsRowsCols d) (X : Mat A K) (W : Mat K B) (b : Arr B)
    (hc : (⟨1, ![B]⟩ : Shape).ShapeCasts ⟨2, ![1, B]⟩) (hb : (⟨2, ![1, B]⟩ : Shape).Broadcasts ⟨2, ![A, B]⟩)
    (hl : FTy.bits .bf16 < FTy.bits .f32) :
    maximumf (addf (matmul d none (truncf .bf16 X hl) (truncf .bf16 W hl)
          (constant (F := Ideal) (⟨2, ![A, B]⟩ : Shape) .f32 0x00000000#32))
        (broadcastTo (⟨2, ![A, B]⟩ : Shape) (shapeCast (⟨2, ![1, B]⟩ : Shape) b hc) hb))
      (broadcast (⟨2, ![A, B]⟩ : Shape) (Scalar.ofBits (F := Ideal) .f32 0x00000000#32))
    = rows1 (fun x => relu (dense W b x)) X := by
  obtain ⟨hr, hs, hbl, hbr, hnl, hnr, hcl, hcr⟩ := hd
  refine mat_ext fun p h => ?_
  rw [maximumf_apply, addf_apply, broadcast_apply, broadcastTo_1b_ab_apply, shapeCast_a_1a_apply, rows1_apply]
  show max (FloatOps.matmul d none (truncf .bf16 X hl) (truncf .bf16 W hl)
      (constant (⟨2, ![A, B]⟩ : Shape) .f32 0x00000000#32) (ix2 p h) + b (ix1 h))
      (Ideal.ofBits .f32 0x00000000#32) = _
  rw [Contract.matmul_zero_rows_cols d none hr hs hbl hbr hnl hnr hcl hcr, Ideal.ofBits_zero_f32]
  rfl

/-- A first layer spelled as THREE products, one per input matrix against a band of rows of the weight matrix, added up,
    plus the bias and the positive part, is row by row the layer of the three rows side by side: the sum over the
    `a + (b + c)` columns is the sum of its three stretches. -/
theorem layer3_relu_narrowed {A a b c n B : Nat} (hn : a + (b + c) = n)
    (d1 : DotDims (⟨2, ![A, a]⟩ : Shape) (⟨2, ![a, B]⟩ : Shape) (⟨2, ![A, B]⟩ : Shape))
    (d2 : DotDims (⟨2, ![A, b]⟩ : Shape) (⟨2, ![b, B]⟩ : Shape) (⟨2, ![A, B]⟩ : Shape))
    (d3 : DotDims (⟨2, ![A, c]⟩ : Shape) (⟨2, ![c, B]⟩ : Shape) (⟨2, ![A, B]⟩ : Shape))
    (hd1 : IsRowsCols d1) (hd2 : IsRowsCols d2) (hd3 : IsRowsCols d3)
    (X : Mat A a) (Y : Mat A b) (Z : Mat A c) (W : Mat n B) (Wx : Mat a B) (Wy : Mat b B) (Wz : Mat c B)
    (hWx : ∀ (k : Fin a) (q : Fin B), Wx (ix2 k q) = W (ix2 (⟨k.val, by omega⟩ : Fin n) q))
    (hWy : ∀ (k : Fin b) (q : Fin B), Wy (ix2 k q) = W (ix2 (⟨a + k.val, by omega⟩ : Fin n) q))
    (hWz : ∀ (k : Fin c) (q : Fin B), Wz (ix2 k q) = W (ix2 (⟨a + b + k.val, by omega⟩ : Fin n) q))
    (bias : Arr B)
    (hc : (⟨1, ![B]⟩ : Shape).ShapeCasts ⟨2, ![1, B]⟩) (hb : (⟨2, ![1, B]⟩ : Shape).Broadcasts ⟨2, ![A, B]⟩)
    (hl : FTy.bits .bf16 < FTy.bits .f32) :
    maximumf (addf (addf (addf
            (matmul d1 none (truncf .bf16 X hl) (truncf .bf16 Wx hl)
              (constant (F := Ideal) (⟨2, ![A, B]⟩ : Shape) .f32 0x00000000#32))
            (matmul d2 none (truncf .bf16 Y hl) (truncf .bf16 Wy hl)
              (constant (F := Ideal) (⟨2, ![A, B]⟩ : Shape) .f32 0x00000000#32)))
          (matmul d3 none (truncf .bf16 Z hl) (truncf .bf16 Wz hl)
            (constant (F := Ideal) (⟨2, ![A, B]⟩ : Shape) .f32 0x00000000#32)))
        (broadcastTo (⟨2, ![A, B]⟩ : Shape) (shapeCast (⟨2, ![1, B]⟩ : Shape) bias hc) hb))
      (broadcast (⟨2, ![A, B]⟩ : Shape) (Scalar.ofBits (F := Ideal) .f32 0x00000000#32))
    = rows3 (fun x y z => relu (dense W bias (cat3 (n := n) x y z))) X Y Z := by
  obtain ⟨hr1, hs1, hbl1, hbr1, hnl1, hnr1, hcl1, hcr1⟩ := hd1
  obtain ⟨hr2, hs2, hbl2, hbr2, hnl2, hnr2, hcl2, hcr2⟩ := hd2
  obtain ⟨hr3, hs3, hbl3, hbr3, hnl3, hnr3, hcl3, hcr3⟩ := hd3
  refine mat_ext fun p h => ?_
  rw [maximumf_apply, addf_apply, addf_apply, addf_apply, broadcast_apply, broadcastTo_1b_ab_apply,
    shapeCast_a_1a_apply, rows3_apply]
  show max (FloatOps.matmul d1 none (truncf .bf16 X hl) (truncf .bf16 Wx hl)
        (constant (⟨2, ![A, B]⟩ : Shape) .f32 0x00000000#32) (ix2 p h)
      + FloatOps.matmul d2 none (truncf .bf16 Y hl) (truncf .bf16 Wy hl)
        (constant (⟨2, ![A, B]⟩ : Shape) .f32 0x00000000#32) (ix2 p h)
      + FloatOps.matmul d3 none (truncf .bf16 Z hl) (truncf .bf16 Wz hl)
        (constant (⟨2, ![A, B]⟩ : Shape) .f32 0x00000000#32) (ix2 p h)
      + bias (ix1 h)) (Ideal.ofBits .f32 0x00000000#32)
    = max (dense W bias (cat3 (n := n) (row X p) (row Y p) (row Z p)) h) 0
  rw [Contract.matmul_zero_rows_cols d1 none hr1 hs1 hbl1 hbr1 hnl1 hnr1 hcl1 hcr1,
    Contract.matmul_zero_rows_cols d2 none hr2 hs2 hbl2 hbr2 hnl2 hnr2 hcl2 hcr2,
    Contract.matmul_zero_rows_cols d3 none hr3 hs3 hbl3 hbr3 hnl3 hnr3 hcl3 hcr3,
    Ideal.ofBits_zero_f32, Gnn.dense_cat3 hn]
  simp only [truncf_apply, hWx, hWy, hWz]
  rfl

/-- A unit-stride slice of the `a` ROWS from row `o` on, read at an entry. -/
theorem slice_band_apply {a n B : Nat} (o : Nat) (hoa : o + a ≤ n) (W : Mat n B)
    (h : (⟨2, ![n, B]⟩ : Shape).Slices ![o, 0] (⟨2, ![a, B]⟩ : Shape)) (k : Fin a) (q : Fin B) :
    extractStridedSlice (⟨2, ![a, B]⟩ : Shape) ![o, 0] W h (ix2 k q) = W (ix2 (⟨o + k.val, by omega⟩ : Fin n) q) := by
  -- the row moves down by the offset, the column keeps its place
  refine extractStridedSlice_apply _ W h (ix2 k q) (ix2 (⟨o + k.val, by omega⟩ : Fin n) q) (fun d => ?_)
  match d with
  | ⟨0, _⟩ => rfl
  | ⟨1, _⟩ => exact (Nat.zero_add q.val).symm

/-- A row function applied to the rows of a matrix that is itself row by row a function of three matrices. -/
theorem rows1_rows3 {A C₁ C₂ C₃ D E : Nat} (f : (Fin D → EReal) → Fin E → EReal)
    (g : (Fin C₁ → EReal) → (Fin C₂ → EReal) → (Fin C₃ → EReal) → Fin D → EReal)
    (X : Mat A C₁) (Y : Mat A C₂) (Z : Mat A C₃) :
    rows1 f (rows3 g X Y Z) = rows3 (fun x y z => f (g x y z)) X Y Z := rfl

/-- Region 2's body. -/
theorem msg_body2 (x0 x1 : Mat 3200 128) (x2 : Mat 3200 32) (W1 : Mat 288 128) (b1 : Arr 128) (W2 : Mat 128 128) (b2 : Arr 128) :
    out2_9 (F := Ideal) x0 x1 x2
      (extractStridedSlice S128x128 ![0, 0] W1 slices_S288x128_S128x128_0_0)
      (extractStridedSlice S128x128 ![128, 0] W1 slices_S288x128_S128x128_128_0)
      (extractStridedSlice S32x128 ![256, 0] W1 slices_S288x128_S32x128_256_0)
      (shapeCast S1x128 b1 shapeCasts_S128_S1x128) W2 (shapeCast S1x128 b2 shapeCasts_S128_S1x128)
    = rows3 (Gnn.msgRow W1 b1 W2 b2) x0 x1 x2 := by
  have hz : (![0, 0] : Fin 2 → Nat) = fun _ => 0 := funext fun a => by fin_cases a <;> rfl
  -- the one store of the whole block leaves its payload; each whole-block load reads its operand
  unfold out2_9
  rw [View.canon_unit_zero hz]
  simp only [View.ld_unit_zero (S := S3200x128) hz, View.ld_unit_zero (S := S3200x32) hz,
    View.ld_unit_zero (S := S128x128) hz, View.ld_unit_zero (S := S32x128) hz, View.ld_unit_zero (S := S1x128) hz]
  unfold k2_pay1 k2_pay2 k2_pay3
  simp only [shapeCast_self]
  -- the second layer, row by row, of the first layer's result
  refine (layer_relu_narrowed dot_S3200x128_S128x128_S3200x128_1_0_0_1_n_n ⟨rfl, rfl, rfl, rfl, rfl, rfl, rfl, rfl⟩ _ W2 b2
    shapeCasts_S128_S1x128 broadcasts_S1x128_S3200x128 bitsLt_bf16_f32).trans ?_
  -- the first layer: three products against the three bands of rows of the weight matrix
  refine (congrArg (rows1 fun x => relu (dense W2 b2 x))
    (layer3_relu_narrowed (n := 288) rfl dot_S3200x128_S128x128_S3200x128_1_0_0_1_n_n
      dot_S3200x128_S128x128_S3200x128_1_0_0_1_n_n dot_S3200x32_S32x128_S3200x128_1_0_0_1_n_n
      ⟨rfl, rfl, rfl, rfl, rfl, rfl, rfl, rfl⟩ ⟨rfl, rfl, rfl, rfl, rfl, rfl, rfl, rfl⟩ ⟨rfl, rfl, rfl, rfl, rfl, rfl, rfl, rfl⟩
      x0 x1 x2 W1 _ _ _
      (fun k q => slice_top_apply (by omega) W1 slices_S288x128_S128x128_0_0 k q)
      (fun k q => slice_band_apply 128 (by omega) W1 slices_S288x128_S128x128_128_0 k q)
      (fun k q => (slice_band_apply 256 (by omega) W1 slices_S288x128_S32x128_256_0 k q).trans
        (congrArg (fun i => W1 (ix2 i q)) (Fin.ext (by show 256 + k.val = 128 + 128 + k.val; omega))))
      b1 shapeCasts_S128_S1x128 broadcasts_S1x128_S3200x128 bitsLt_bf16_f32)).trans ?_
  rfl

/-- Region 4's body. -/
theorem msg_body4 (x0 x1 : Mat 3200 128) (x2 : Mat 3200 32) (W1 : Mat 288 128) (b1 : Arr 128) (W2 : Mat 128 128) (b2 : Arr 128) :
    out4_9 (F := Ideal) x0 x1 x2
      (extractStridedSlice S128x128 ![0, 0] W1 slices_S288x128_S128x128_0_0)
      (extractStridedSlice S128x128 ![128, 0] W1 slices_S288x128_S128x128_128_0)
      (extractStridedSlice S32x128 ![256, 0] W1 slices_S288x128_S32x128_256_0)
      (shapeCast S1x128 b1 shapeCasts_S128_S1x128) W2 (shapeCast S1x128 b2 shapeCasts_S128_S1x128)
    = rows3 (Gnn.msgRow W1 b1 W2 b2) x0 x1 x2 := by
  have hz : (![0, 0] : Fin 2 → Nat) = fun _ => 0 := funext fun a => by fin_cases a <;> rfl
  -- the one store of the whole block leaves its payload; each whole-block load reads its operand
  unfold out4_9
  rw [View.canon_unit_zero hz]
  simp only [View.ld_unit_zero (S := S3200x128) hz, View.ld_unit_zero (S := S3200x32) hz,
    View.ld_unit_zero (S := S128x128) hz, View.ld_unit_zero (S := S32x128) hz, View.ld_unit_zero (S := S1x128) hz]
  unfold k4_pay1 k4_pay2 k4_pay3
  simp only [shapeCast_self]
  -- the second layer, row by row, of the first layer's result
  refine (layer_relu_narrowed dot_S3200x128_S128x128_S3200x128_1_0_0_1_n_n ⟨rfl, rfl, rfl, rfl, rfl, rfl, rfl, rfl⟩ _ W2 b2
    shapeCasts_S128_S1x128 broadcasts_S1x128_S3200x128 bitsLt_bf16_f32).trans ?_
  -- the first layer: three products against the three bands of rows of the weight matrix
  refine (congrArg (rows1 fun x => relu (dense W2 b2 x))
    (layer3_relu_narrowed (n := 288) rfl dot_S3200x128_S128x128_S3200x128_1_0_0_1_n_n
      dot_S3200x128_S128x128_S3200x128_1_0_0_1_n_n dot_S3200x32_S32x128_S3200x128_1_0_0_1_n_n
      ⟨rfl, rfl, rfl, rfl, rfl, rfl, rfl, rfl⟩ ⟨rfl, rfl, rfl, rfl, rfl, rfl, rfl, rfl⟩ ⟨rfl, rfl, rfl, rfl, rfl, rfl, rfl, rfl⟩
      x0 x1 x2 W1 _ _ _
      (fun k q => slice_top_apply (by omega) W1 slices_S288x128_S128x128_0_0 k q)
      (fun k q => slice_band_apply 128 (by omega) W1 slices_S288x128_S128x128_128_0 k q)
      (fun k q => (slice_band_apply 256 (by omega) W1 slices_S288x128_S32x128_256_0 k q).trans
        (congrArg (fun i => W1 (ix2 i q)) (Fin.ext (by show 256 + k.val = 128 + 128 + k.val; omega))))
      b1 shapeCasts_S128_S1x128 broadcasts_S1x128_S3200x128 bitsLt_bf16_f32)).trans ?_
  rfl

/-- Region 6's body. -/
theorem msg_body6 (x0 x1 : Mat 3200 128) (x2 : Mat 3200 32) (W1 : Mat 288 128) (b1 : Arr 128) (W2 : Mat 128 128) (b2 : Arr 128) :
    out6_9 (F := Ideal) x0 x1 x2
      (extractStridedSlice S128x128 ![0, 0] W1 slices_S288x128_S128x128_0_0)
      (extractStridedSlice S128x128 ![128, 0] W1 slices_S288x128_S128x128_128_0)
      (extractStridedSlice S32x128 ![256, 0] W1 slices_S288x128_S32x128_256_0)
      (shapeCast S1x128 b1 shapeCasts_S128_S1x128) W2 (shapeCast S1x128 b2 shapeCasts_S128_S1x128)
    = rows3 (Gnn.msgRow W1 b1 W2 b2) x0 x1 x2 := by
  have hz : (![0, 0] : Fin 2 → Nat) = fun _ => 0 := funext fun a => by fin_cases a <;> rfl
  -- the one store of the whole block leaves its payload; each whole-block load reads its operand
  unfold out6_9
  rw [View.canon_unit_zero hz]
  simp only [View.ld_unit_zero (S := S3200x128) hz, View.ld_unit_zero (S := S3200x32) hz,
    View.ld_unit_zero (S := S128x128) hz, View.ld_unit_zero (S := S32x128) hz, View.ld_unit_zero (S := S1x128) hz]
  unfold k6_pay1 k6_pay2 k6_pay3
  simp only [shapeCast_self]
  -- the second layer, row by row, of the first layer's result
  refine (layer_relu_narrowed dot_S3200x128_S128x128_S3200x128_1_0_0_1_n_n ⟨rfl, rfl, rfl, rfl, rfl, rfl, rfl, rfl⟩ _ W2 b2
    shapeCasts_S128_S1x128 broadcasts_S1x128_S3200x128 bitsLt_bf16_f32).trans ?_
  -- the first layer: three products against the three bands of rows of the weight matrix
  refine (congrArg (rows1 fun x => relu (dense W2 b2 x))
    (layer3_relu_narrowed (n := 288) rfl dot_S3200x128_S128x128_S3200x128_1_0_0_1_n_n
      dot_S3200x128_S128x128_S3200x128_1_0_0_1_n_n dot_S3200x32_S32x128_S3200x128_1_0_0_1_n_n
      ⟨rfl, rfl, rfl, rfl, rfl, rfl, rfl, rfl⟩ ⟨rfl, rfl, rfl, rfl, rfl, rfl, rfl, rfl⟩ ⟨rfl, rfl, rfl, rfl, rfl, rfl, rfl, rfl⟩
      x0 x1 x2 W1 _ _ _
      (fun k q => slice_top_apply (by omega) W1 slices_S288x128_S128x128_0_0 k q)
      (fun k q => slice_band_apply 128 (by omega) W1 slices_S288x128_S128x128_128_0 k q)
      (fun k q => (slice_band_apply 256 (by omega) W1 slices_S288x128_S32x128_256_0 k q).trans
        (congrArg (fun i => W1 (ix2 i q)) (Fin.ext (by show 256 + k.val = 128 + 128 + k.val; omega))))
      b1 shapeCasts_S128_S1x128 broadcasts_S1x128_S3200x128 bitsLt_bf16_f32)).trans ?_
  rfl

end Cert.KernelIdeal.Body

end
-- ==== Proof.KRegion2.lean ====
/-
  REGION 2 AS A WHOLE: the message of every edge. The three row-tiled inputs move with the output, block by block; the
  six weight operands are whole arrays at every point; so the array ends holding the message function of the rows with
  the same number in the three inputs.
-/
import proofs.«404104_j10677288698628_1_alg».proof.Proof.KBodyMsg

set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx Idealize.ShloMosaic.RowOps

/-! ## The index maps, decided over the hundred grid points

  A row-tiled window (the three inputs and the output) has block index (t, 0) at point t; a weight window (0, 0). -/

theorem idxR2_0 : ∀ t : Fin cfg2.N, (win2_0.index t (0 : Fin 2) = t.val ∧ win2_0.index t (1 : Fin 2) = 0) :=
  (by decide +kernel : ∀ t : Fin grid2.N, _)
theorem idxR2_1 : ∀ t : Fin cfg2.N, (win2_1.index t (0 : Fin 2) = t.val ∧ win2_1.index t (1 : Fin 2) = 0) :=
  (by decide +kernel : ∀ t : Fin grid2.N, _)
theorem idxR2_2 : ∀ t : Fin cfg2.N, (win2_2.index t (0 : Fin 2) = t.val ∧ win2_2.index t (1 : Fin 2) = 0) :=
  (by decide +kernel : ∀ t : Fin grid2.N, _)
theorem idxR2_9 : ∀ t : Fin cfg2.N, (win2_9.index t (0 : Fin 2) = t.val ∧ win2_9.index t (1 : Fin 2) = 0) :=
  (by decide +kernel : ∀ t : Fin grid2.N, _)
theorem idxW2_3 : ∀ t : Fin cfg2.N, (win2_3.index t (0 : Fin 2) = 0 ∧ win2_3.index t (1 : Fin 2) = 0) :=
  (by decide +kernel : ∀ t : Fin grid2.N, _)
theorem idxW2_4 : ∀ t : Fin cfg2.N, (win2_4.index t (0 : Fin 2) = 0 ∧ win2_4.index t (1 : Fin 2) = 0) :=
  (by decide +kernel : ∀ t : Fin grid2.N, _)
theorem idxW2_5 : ∀ t : Fin cfg2.N, (win2_5.index t (0 : Fin 2) = 0 ∧ win2_5.index t (1 : Fin 2) = 0) :=
  (by decide +kernel : ∀ t : Fin grid2.N, _)
theorem idxW2_6 : ∀ t : Fin cfg2.N, (win2_6.index t (0 : Fin 2) = 0 ∧ win2_6.index t (1 : Fin 2) = 0) :=
  (by decide +kernel : ∀ t : Fin grid2.N, _)
theorem idxW2_7 : ∀ t : Fin cfg2.N, (win2_7.index t (0 : Fin 2) = 0 ∧ win2_7.index t (1 : Fin 2) = 0) :=
  (by decide +kernel : ∀ t : Fin grid2.N, _)
theorem idxW2_8 : ∀ t : Fin cfg2.N, (win2_8.index t (0 : Fin 2) = 0 ∧ win2_8.index t (1 : Fin 2) = 0) :=
  (by decide +kernel : ∀ t : Fin grid2.N, _)

/-! ## One grid point, over matrices of the literal sizes

  If the weight blocks are the host's bands and casts, and entry (p, k) of each input block is entry (3200 n + p, k) of
  its array, then the body's output block is, entry by entry, the message function of the arrays' rows 3200 n + p. -/

theorem point2 (x0 x1 : Mat 3200 128) (x2 : Mat 3200 32) (x3 x4 : Mat 128 128) (x5 : Mat 32 128) (x6 : Mat 1 128)
    (x7 : Mat 128 128) (x8 : Mat 1 128) (A0 A1 : Mat 320000 128) (A2 : Mat 320000 32)
    (W1 : Mat 288 128) (b1 : Arr 128) (W2 : Mat 128 128) (b2 : Arr 128)
    (e3 : x3 = extractStridedSlice S128x128 ![0, 0] W1 slices_S288x128_S128x128_0_0)
    (e4 : x4 = extractStridedSlice S128x128 ![128, 0] W1 slices_S288x128_S128x128_128_0)
    (e5 : x5 = extractStridedSlice S32x128 ![256, 0] W1 slices_S288x128_S32x128_256_0)
    (e6 : x6 = shapeCast S1x128 b1 shapeCasts_S128_S1x128)
    (e7 : x7 = W2)
    (e8 : x8 = shapeCast S1x128 b2 shapeCasts_S128_S1x128)
    (n : Nat)
    (r0 : ∀ (p : Fin 3200) (k : Fin 128) (q : Fin 320000), q.val = n * 3200 + p.val → x0 (ix2 p k) = A0 (ix2 q k))
    (r1 : ∀ (p : Fin 3200) (k : Fin 128) (q : Fin 320000), q.val = n * 3200 + p.val → x1 (ix2 p k) = A1 (ix2 q k))
    (r2 : ∀ (p : Fin 3200) (k : Fin 32) (q : Fin 320000), q.val = n * 3200 + p.val → x2 (ix2 p k) = A2 (ix2 q k))
    (y : (⟨2, ![3200, 128]⟩ : Shape).Idx) (i : (⟨2, ![320000, 128]⟩ : Shape).Idx)
    (hi0 : (i 0).val = n * 3200 + (y 0).val) (hi1 : (i 1).val = (y 1).val) :
    out2_9 (F := Ideal) x0 x1 x2 x3 x4 x5 x6 x7 x8 y = rows3 (Gnn.msgRow W1 b1 W2 b2) A0 A1 A2 i := by
  rw [e3, e4, e5, e6, e7, e8, Body.msg_body2]
  have h0 : row x0 ⟨(y 0).val, idx2_lt0 y⟩ = row A0 ⟨(i 0).val, idx2_lt0 i⟩ :=
    funext fun k => r0 ⟨(y 0).val, idx2_lt0 y⟩ k ⟨(i 0).val, idx2_lt0 i⟩ hi0
  have h1 : row x1 ⟨(y 0).val, idx2_lt0 y⟩ = row A1 ⟨(i 0).val, idx2_lt0 i⟩ :=
    funext fun k => r1 ⟨(y 0).val, idx2_lt0 y⟩ k ⟨(i 0).val, idx2_lt0 i⟩ hi0
  have h2 : row x2 ⟨(y 0).val, idx2_lt0 y⟩ = row A2 ⟨(i 0).val, idx2_lt0 i⟩ :=
    funext fun k => r2 ⟨(y 0).val, idx2_lt0 y⟩ k ⟨(i 0).val, idx2_lt0 i⟩ hi0
  have hk : (⟨(y 1).val, idx2_lt1 y⟩ : Fin 128) = ⟨(i 1).val, idx2_lt1 i⟩ := Fin.ext hi1.symm
  show Gnn.msgRow W1 b1 W2 b2 (row x0 ⟨(y 0).val, idx2_lt0 y⟩) (row x1 ⟨(y 0).val, idx2_lt0 y⟩)
      (row x2 ⟨(y 0).val, idx2_lt0 y⟩) ⟨(y 1).val, idx2_lt1 y⟩
    = Gnn.msgRow W1 b1 W2 b2 (row A0 ⟨(i 0).val, idx2_lt0 i⟩) (row A1 ⟨(i 0).val, idx2_lt0 i⟩)
      (row A2 ⟨(i 0).val, idx2_lt0 i⟩) ⟨(i 1).val, idx2_lt1 i⟩
  rw [h0, h1, h2, hk]

variable (V : (c : Dev nD) → (b : Ref sig .tc) → Buf (Elt Ideal) ((c : Thread nD τ).loc b))

/-! ## The blocks read off the arrays -/

/-- Window 3's block at every point is its whole array: the block is the full rectangle at offset (0, 0). -/
theorem wblk2_3 (c : Dev nD) (t : Fin cfg2.N) : iblk2 V c 3 t = V c main_v12 := by
  obtain ⟨e0, e1⟩ := idxW2_3 t
  funext y
  show V c main_v12 (((cfg2.win 3).blk t).view.emb y) = V c main_v12 y
  congr 1
  funext a; apply Fin.ext
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- Window 4's block at every point is its whole array: the block is the full rectangle at offset (0, 0). -/
theorem wblk2_4 (c : Dev nD) (t : Fin cfg2.N) : iblk2 V c 4 t = V c main_v13 := by
  obtain ⟨e0, e1⟩ := idxW2_4 t
  funext y
  show V c main_v13 (((cfg2.win 4).blk t).view.emb y) = V c main_v13 y
  congr 1
  funext a; apply Fin.ext
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- Window 5's block at every point is its whole array: the block is the full rectangle at offset (0, 0). -/
theorem wblk2_5 (c : Dev nD) (t : Fin cfg2.N) : iblk2 V c 5 t = V c main_v14 := by
  obtain ⟨e0, e1⟩ := idxW2_5 t
  funext y
  show V c main_v14 (((cfg2.win 5).blk t).view.emb y) = V c main_v14 y
  congr 1
  funext a; apply Fin.ext
  match a with
  | ⟨0, _⟩ => show win2_5.index t (0 : Fin 2) * 32 + 1 * (y 0).val = (y 0).val; omega
  | ⟨1, _⟩ => show win2_5.index t (1 : Fin 2) * 128 + 1 * (y 1).val = (y 1).val; omega

/-- Window 6's block at every point is its whole array: the block is the full rectangle at offset (0, 0). -/
theorem wblk2_6 (c : Dev nD) (t : Fin cfg2.N) : iblk2 V c 6 t = V c main_v17 := by
  obtain ⟨e0, e1⟩ := idxW2_6 t
  funext y
  show V c main_v17 (((cfg2.win 6).blk t).view.emb y) = V c main_v17 y
  congr 1
  funext a; apply Fin.ext
  match a with
  | ⟨0, _⟩ => show win2_6.index t (0 : Fin 2) * 1 + 1 * (y 0).val = (y 0).val; omega
  | ⟨1, _⟩ => show win2_6.index t (1 : Fin 2) * 128 + 1 * (y 1).val = (y 1).val; omega

/-- Window 7's block at every point is its whole array: the block is the full rectangle at offset (0, 0). -/
theorem wblk2_7 (c : Dev nD) (t : Fin cfg2.N) : iblk2 V c 7 t = V c main_v19 := by
  obtain ⟨e0, e1⟩ := idxW2_7 t
  funext y
  show V c main_v19 (((cfg2.win 7).blk t).view.emb y) = V c main_v19 y
  congr 1
  funext a; apply Fin.ext
  match a with
  | ⟨0, _⟩ => show win2_7.index t (0 : Fin 2) * 128 + 1 * (y 0).val = (y 0).val; omega
  | ⟨1, _⟩ => show win2_7.index t (1 : Fin 2) * 128 + 1 * (y 1).val = (y 1).val; omega

/-- Window 8's block at every point is its whole array: the block is the full rectangle at offset (0, 0). -/
theorem wblk2_8 (c : Dev nD) (t : Fin cfg2.N) : iblk2 V c 8 t = V c main_v22 := by
  obtain ⟨e0, e1⟩ := idxW2_8 t
  funext y
  show V c main_v22 (((cfg2.win 8).blk t).view.emb y) = V c main_v22 y
  congr 1
  funext a; apply Fin.ext
  match a with
  | ⟨0, _⟩ => show win2_8.index t (0 : Fin 2) * 1 + 1 * (y 0).val = (y 0).val; omega
  | ⟨1, _⟩ => show win2_8.index t (1 : Fin 2) * 128 + 1 * (y 1).val = (y 1).val; omega

/-- Entry (p, k) of window 0's block at point t is entry (3200 t + p, k) of its array. -/
theorem iblk2_0_apply (c : Dev nD) (t : Fin cfg2.N) (p : Fin 3200) (k : Fin 128) (q : Fin 320000)
    (hq : q.val = t.val * 3200 + p.val) :
    (iblk2 V c 0 t : Mat 3200 128) (ix2 p k) = (V c main_v8 : Mat 320000 128) (ix2 q k) := by
  obtain ⟨e0, e1⟩ := idxR2_0 t
  show V c main_v8 (((cfg2.win 0).blk t).view.emb (ix2 p k)) = V c main_v8 (ix2 q k)
  congr 1
  funext a; apply Fin.ext
  match a with
  | ⟨0, _⟩ => show win2_0.index t (0 : Fin 2) * 3200 + 1 * p.val = q.val; omega
  | ⟨1, _⟩ => show win2_0.index t (1 : Fin 2) * 128 + 1 * k.val = k.val; omega

/-- Entry (p, k) of window 1's block at point t is entry (3200 t + p, k) of its array. -/
theorem iblk2_1_apply (c : Dev nD) (t : Fin cfg2.N) (p : Fin 3200) (k : Fin 128) (q : Fin 320000)
    (hq : q.val = t.val * 3200 + p.val) :
    (iblk2 V c 1 t : Mat 3200 128) (ix2 p k) = (V c main_v9 : Mat 320000 128) (ix2 q k) := by
  obtain ⟨e0, e1⟩ := idxR2_1 t
  show V c main_v9 (((cfg2.win 1).blk t).view.emb (ix2 p k)) = V c main_v9 (ix2 q k)
  congr 1
  funext a; apply Fin.ext
  match a with
  | ⟨0, _⟩ => show win2_1.index t (0 : Fin 2) * 3200 + 1 * p.val = q.val; omega
  | ⟨1, _⟩ => show win2_1.index t (1 : Fin 2) * 128 + 1 * k.val = k.val; omega

/-- Entry (p, k) of window 2's block at point t is entry (3200 t + p, k) of its array. -/
theorem iblk2_2_apply (c : Dev nD) (t : Fin cfg2.N) (p : Fin 3200) (k : Fin 32) (q : Fin 320000)
    (hq : q.val = t.val * 3200 + p.val) :
    (iblk2 V c 2 t : Mat 3200 32) (ix2 p k) = (V c main_v7 : Mat 320000 32) (ix2 q k) := by
  obtain ⟨e0, e1⟩ := idxR2_2 t
  show V c main_v7 (((cfg2.win 2).blk t).view.emb (ix2 p k)) = V c main_v7 (ix2 q k)
  congr 1
  funext a; apply Fin.ext
  match a with
  | ⟨0, _⟩ => show win2_2.index t (0 : Fin 2) * 3200 + 1 * p.val = q.val; omega
  | ⟨1, _⟩ => show win2_2.index t (1 : Fin 2) * 32 + 1 * k.val = k.val; omega

/-- An element of the output's block at point t sits in the array at row 3200 t + its row, same column. -/
theorem emb2_9 (t : Fin cfg2.N) (y : (⟨2, ![3200, 128]⟩ : Shape).Idx) :
    ((((cfg2.win 9).blk t).view.emb y : (⟨2, ![320000, 128]⟩ : Shape).Idx) 0).val = t.val * 3200 + (y 0).val
    ∧ ((((cfg2.win 9).blk t).view.emb y : (⟨2, ![320000, 128]⟩ : Shape).Idx) 1).val = (y 1).val := by
  obtain ⟨e0, e1⟩ := idxR2_9 t
  constructor
  · show win2_9.index t (0 : Fin 2) * 3200 + 1 * (y 0).val = t.val * 3200 + (y 0).val; omega
  · show win2_9.index t (1 : Fin 2) * 128 + 1 * (y 1).val = (y 1).val; omega

/-! ## What a point writes back, and the cover -/

/-- WHAT POINT t WRITES BACK is block t of the message function of the three arrays, row by row. -/
theorem flushed2_eq (c : Dev nD) (W1 : Mat 288 128) (b1 : Arr 128) (W2 : Mat 128 128) (b2 : Arr 128)
    (h3 : V c main_v12 = extractStridedSlice S128x128 ![0, 0] W1 slices_S288x128_S128x128_0_0)
    (h4 : V c main_v13 = extractStridedSlice S128x128 ![128, 0] W1 slices_S288x128_S128x128_128_0)
    (h5 : V c main_v14 = extractStridedSlice S32x128 ![256, 0] W1 slices_S288x128_S32x128_256_0)
    (h6 : V c main_v17 = shapeCast S1x128 b1 shapeCasts_S128_S1x128)
    (h7 : V c main_v19 = W2)
    (h8 : V c main_v22 = shapeCast S1x128 b2 shapeCasts_S128_S1x128) (t : Fin cfg2.N) :
    (dat2 V c).flushed 9 t = ((cfg2.win 9).blk t).view.read (Elt Ideal)
      (rows3 (Gnn.msgRow W1 b1 W2 b2) (V c main_v8) (V c main_v9) (V c main_v7)) := by
  show (cfg2.win 9).cut (grid2.coords t) ((dat2 V c).after 9 t) = _
  rw [after2_9]
  funext y
  obtain ⟨hy0, hy1⟩ := emb2_9 t y
  exact point2 (iblk2 V c 0 t) (iblk2 V c 1 t) (iblk2 V c 2 t) (iblk2 V c 3 t) (iblk2 V c 4 t)
    (iblk2 V c 5 t) (iblk2 V c 6 t) (iblk2 V c 7 t) (iblk2 V c 8 t) (V c main_v8) (V c main_v9) (V c main_v7)
    W1 b1 W2 b2 ((wblk2_3 V c t).trans h3) ((wblk2_4 V c t).trans h4) ((wblk2_5 V c t).trans h5)
    ((wblk2_6 V c t).trans h6) ((wblk2_7 V c t).trans h7) ((wblk2_8 V c t).trans h8) t.val
    (iblk2_0_apply V c t) (iblk2_1_apply V c t) (iblk2_2_apply V c t) y (((cfg2.win 9).blk t).view.emb y) hy0 hy1

/-- An index of the array is in point t's block iff each coordinate is in the block's range on its axis. -/
theorem mem_blk2 (t : Fin cfg2.N) (i : S320000x128.Idx) :
    i ∈ ((cfg2.win 9).blk t).view.set ↔ ∀ a : Fin 2, win2_9.index t a * S3200x128.size a ≤ (i a).val ∧ (i a).val < win2_9.index t a * S3200x128.size a + S3200x128.size a := by
  show i ∈ ((View.whole main_v23).slice (win2_9.rect t)).set ↔ _
  rw [View.set_slice_whole, Rect.mem_set_unit]
  exact Iff.rfl

/-- Row r of the array is in the block of point r / 3200: the hundred blocks of 3200 rows tile the 320000 rows. -/
theorem cover2 (i : S320000x128.Idx) :
    ∃ t : Fin cfg2.N, (cfg2.win 9).flush t = true ∧ i ∈ ((cfg2.win 9).blk t).view.set := by
  have hi0 : (i 0).val < 320000 := (i 0).isLt
  have hi1 : (i 1).val < 128 := (i 1).isLt
  have hN : cfg2.N = 100 := N_2
  obtain ⟨t, ht⟩ : ∃ t : Fin cfg2.N, t.val = (i 0).val / 3200 := ⟨⟨(i 0).val / 3200, by rw [hN]; omega⟩, rfl⟩
  obtain ⟨e0, e1⟩ := idxR2_9 t
  refine ⟨t, flush2_9 t, ?_⟩
  rw [mem_blk2]
  intro a
  match a with
  | ⟨0, _⟩ => show win2_9.index t (0 : Fin 2) * 3200 ≤ (i 0).val ∧ (i 0).val < win2_9.index t (0 : Fin 2) * 3200 + 3200; omega
  | ⟨1, _⟩ => show win2_9.index t (1 : Fin 2) * 128 ≤ (i 1).val ∧ (i 1).val < win2_9.index t (1 : Fin 2) * 128 + 128; omega

/-- The messages' array after the region, the weight operands being the bands and casts the host made of `W1`, `b1`, `W2`, `b2`. -/
theorem region2_value (c : Dev nD) (W1 : Mat 288 128) (b1 : Arr 128) (W2 : Mat 128 128) (b2 : Arr 128)
    (h3 : V c main_v12 = extractStridedSlice S128x128 ![0, 0] W1 slices_S288x128_S128x128_0_0)
    (h4 : V c main_v13 = extractStridedSlice S128x128 ![128, 0] W1 slices_S288x128_S128x128_128_0)
    (h5 : V c main_v14 = extractStridedSlice S32x128 ![256, 0] W1 slices_S288x128_S32x128_256_0)
    (h6 : V c main_v17 = shapeCast S1x128 b1 shapeCasts_S128_S1x128)
    (h7 : V c main_v19 = W2)
    (h8 : V c main_v22 = shapeCast S1x128 b2 shapeCasts_S128_S1x128) :
    (dat2 V c).arrAt 9 cfg2.N = rows3 (Gnn.msgRow W1 b1 W2 b2) (V c main_v8) (V c main_v9) (V c main_v7) :=
  (dat2 V c).arrAt_eq_of_cover 9 _ (fun t _ => flushed2_eq V c W1 b1 W2 b2 h3 h4 h5 h6 h7 h8 t) (cover2)

end Cert.KernelIdeal.Region

end
-- ==== Proof.KBodyUpd.lean ====
/-
  THE UPDATE STAGE, BLOCK BY BLOCK: the body multiplies the node rows and the aggregated rows by the two bands of rows of
  the first weight matrix and adds the products, which is the first layer applied to the two rows side by side; then the
  positive part, the second layer and the positive part again.
-/
import proofs.«404104_j10677288698628_1_alg».proof.Proof.Gen.KernelIdeal.Frame
import proofs.«404104_j10677288698628_1_alg».proof.Proof.LibRowDense
import proofs.«404104_j10677288698628_1_alg».proof.Proof.LibRowLayout
import proofs.«404104_j10677288698628_1_alg».proof.Proof.Rows

set_option maxRecDepth 16384

noncomputable section

namespace Cert.KernelIdeal.Body

open Cert.KernelIdeal Cert.KernelIdeal.Gen Idealize.ShloMosaic Idealize.ShloMosaic.TcCoe Idealize.SL.Sem
open Idealize.ShloMosaic.ValueIdx Idealize.ShloMosaic.RowOps

/-! ## General facts -/

/-- The offsets of a whole block are zero. -/
private theorem upd_offsets_zero : (![0, 0] : Fin 2 → Nat) = fun _ => 0 := funext fun a => by fin_cases a <;> rfl

/-- Over the extended reals a change of number format changes nothing. -/
private theorem upd_truncf {s : Shape} {φ ψ : FTy} (a : FVec Ideal s φ) (h : ψ.bits < φ.bits) :
    (truncf ψ a h : FVec Ideal s ψ) = a := rfl

/-- … so a product of operands in the short format is the product of the same operands in the long one. -/
private theorem upd_matmul_fmt {sl sr so : Shape} (d : DotDims sl sr so) (prec : Option ContractPrecision)
    (X : FVec Ideal sl .bf16) (W : FVec Ideal sr .bf16) (acc : FVec Ideal so .f32) :
    matmul d prec X W acc = matmul (φ₁ := .f32) (φ₂ := .f32) d prec X W acc := rfl

/-- A unit-stride slice of the `a` rows from row `o` on, read at an entry. -/
private theorem upd_slice_band_apply {a n B : Nat} (o : Nat) (hoa : o + a ≤ n) (W : Mat n B)
    (h : (⟨2, ![n, B]⟩ : Shape).Slices ![o, 0] (⟨2, ![a, B]⟩ : Shape)) (k : Fin a) (q : Fin B) :
    extractStridedSlice (⟨2, ![a, B]⟩ : Shape) ![o, 0] W h (ix2 k q)
      = W (ix2 (⟨o + k.val, by have := k.isLt; omega⟩ : Fin n) q) := by
  refine extractStridedSlice_apply _ W h (ix2 k q) (ix2 (⟨o + k.val, by have := k.isLt; omega⟩ : Fin n) q) (fun d => ?_)
  match d with
  | ⟨0, _⟩ => rfl
  | ⟨1, _⟩ => exact (Nat.zero_add q.val).symm

/-- THE FIRST LAYER ON TWO ROWS SIDE BY SIDE, as the kernel spells it: the two row blocks are multiplied by the two bands
    of rows of the weight matrix (each product into the zero accumulator), the products and the bias (cast to one row and
    broadcast over the rows) are added, then the maximum with zero. A sum over `a + b` indices is the sum of its two
    stretches, so row by row this is `relu ∘ dense W bias` of the two rows side by side. -/
private theorem upd_layer1 {A a b n B : Nat} (hn : a + b = n)
    (d₁ : DotDims (⟨2, ![A, a]⟩ : Shape) (⟨2, ![a, B]⟩ : Shape) (⟨2, ![A, B]⟩ : Shape)) (hd₁ : IsRowsCols d₁)
    (d₂ : DotDims (⟨2, ![A, b]⟩ : Shape) (⟨2, ![b, B]⟩ : Shape) (⟨2, ![A, B]⟩ : Shape)) (hd₂ : IsRowsCols d₂)
    (X : Mat A a) (Y : Mat A b) (W : Mat n B) (W₁ : Mat a B) (W₂ : Mat b B) (bias : Arr B)
    (hW₁ : ∀ (k : Fin a) (q : Fin B), W₁ (ix2 k q) = W (ix2 (⟨k.val, by have := k.isLt; omega⟩ : Fin n) q))
    (hW₂ : ∀ (k : Fin b) (q : Fin B), W₂ (ix2 k q) = W (ix2 (⟨a + k.val, by have := k.isLt; omega⟩ : Fin n) q))
    (hc : (⟨1, ![B]⟩ : Shape).ShapeCasts ⟨2, ![1, B]⟩) (hb : (⟨2, ![1, B]⟩ : Shape).Broadcasts ⟨2, ![A, B]⟩) :
    maximumf (addf (addf (matmul d₁ none X W₁ (constant (F := Ideal) (⟨2, ![A, B]⟩ : Shape) .f32 0x00000000#32))
          (matmul d₂ none Y W₂ (constant (F := Ideal) (⟨2, ![A, B]⟩ : Shape) .f32 0x00000000#32)))
        (broadcastTo (⟨2, ![A, B]⟩ : Shape) (shapeCast (⟨2, ![1, B]⟩ : Shape) bias hc) hb))
      (broadcast (⟨2, ![A, B]⟩ : Shape) (Scalar.ofBits (F := Ideal) .f32 0x00000000#32))
    = rows2 (fun x y => relu (dense W bias (cat2 (n := n) x y))) X Y := by
  obtain ⟨hr, hs, hbl, hbr, hnl, hnr, hcl, hcr⟩ := hd₁
  obtain ⟨hr', hs', hbl', hbr', hnl', hnr', hcl', hcr'⟩ := hd₂
  refine mat_ext fun p h => ?_
  rw [maximumf_apply, addf_apply, addf_apply, broadcast_apply, broadcastTo_1b_ab_apply, shapeCast_a_1a_apply, rows2_apply]
  show max (FloatOps.matmul d₁ none X W₁ (constant (⟨2, ![A, B]⟩ : Shape) .f32 0x00000000#32) (ix2 p h)
        + FloatOps.matmul d₂ none Y W₂ (constant (⟨2, ![A, B]⟩ : Shape) .f32 0x00000000#32) (ix2 p h) + bias (ix1 h))
      (Ideal.ofBits .f32 0x00000000#32) = max (dense W bias (cat2 (n := n) (row X p) (row Y p)) h) 0
  rw [Contract.matmul_zero_rows_cols d₁ none hr hs hbl hbr hnl hnr hcl hcr,
    Contract.matmul_zero_rows_cols d₂ none hr' hs' hbl' hbr' hnl' hnr' hcl' hcr', Ideal.ofBits_zero_f32,
    Gnn.dense_cat2 hn]
  simp only [hW₁, hW₂]
  rfl

/-- THE UPDATE OF A BLOCK OF NODES, as the kernel spells it: the first layer on the node rows and the aggregated rows
    against the two bands of its weight matrix, then the second layer, each with its positive part. -/
private theorem upd_net {A : Nat}
    (d : DotDims (⟨2, ![A, 128]⟩ : Shape) (⟨2, ![128, 128]⟩ : Shape) (⟨2, ![A, 128]⟩ : Shape)) (hd : IsRowsCols d)
    (X Y : Mat A 128) (U1 : Mat 256 128) (W₁ W₂ : Mat 128 128) (c1 : Arr 128) (U2 : Mat 128 128) (c2 : Arr 128)
    (hW₁ : ∀ (k : Fin 128) (q : Fin 128), W₁ (ix2 k q) = U1 (ix2 (⟨k.val, by have := k.isLt; omega⟩ : Fin 256) q))
    (hW₂ : ∀ (k : Fin 128) (q : Fin 128), W₂ (ix2 k q) = U1 (ix2 (⟨128 + k.val, by have := k.isLt; omega⟩ : Fin 256) q))
    (hc : (⟨1, ![128]⟩ : Shape).ShapeCasts ⟨2, ![1, 128]⟩) (hb : (⟨2, ![1, 128]⟩ : Shape).Broadcasts ⟨2, ![A, 128]⟩) :
    maximumf (addf (matmul d none
          (maximumf (addf (addf (matmul d none X W₁ (constant (F := Ideal) (⟨2, ![A, 128]⟩ : Shape) .f32 0x00000000#32))
                (matmul d none Y W₂ (constant (F := Ideal) (⟨2, ![A, 128]⟩ : Shape) .f32 0x00000000#32)))
              (broadcastTo (⟨2, ![A, 128]⟩ : Shape) (shapeCast (⟨2, ![1, 128]⟩ : Shape) c1 hc) hb))
            (broadcast (⟨2, ![A, 128]⟩ : Shape) (Scalar.ofBits (F := Ideal) .f32 0x00000000#32)))
          U2 (constant (F := Ideal) (⟨2, ![A, 128]⟩ : Shape) .f32 0x00000000#32))
        (broadcastTo (⟨2, ![A, 128]⟩ : Shape) (shapeCast (⟨2, ![1, 128]⟩ : Shape) c2 hc) hb))
      (broadcast (⟨2, ![A, 128]⟩ : Shape) (Scalar.ofBits (F := Ideal) .f32 0x00000000#32))
    = rows2 (Gnn.updRow U1 c1 U2 c2) X Y := by
  rw [upd_layer1 (n := 256) rfl d hd d hd X Y U1 W₁ W₂ c1 hW₁ hW₂ hc hb, kdense_relu d hd _ U2 c2 hc hb]
  rfl

/-- The printed dimension record of the three products is "rows times columns". -/
private theorem upd_dot : IsRowsCols dot_S4000x128_S128x128_S4000x128_1_0_0_1_n_n :=
  ⟨rfl, rfl, rfl, rfl, rfl, rfl, rfl, rfl⟩

/-- Region 3's body. -/
theorem upd_body3 (x0 x1 : Mat 4000 128) (U1 : Mat 256 128) (c1 : Arr 128) (U2 : Mat 128 128) (c2 : Arr 128) :
    out3_7 (F := Ideal) x0 x1
      (extractStridedSlice S128x128 ![0, 0] U1 slices_S256x128_S128x128_0_0)
      (extractStridedSlice S128x128 ![128, 0] U1 slices_S256x128_S128x128_128_0)
      (shapeCast S1x128 c1 shapeCasts_S128_S1x128) U2 (shapeCast S1x128 c2 shapeCasts_S128_S1x128)
    = rows2 (Gnn.updRow U1 c1 U2 c2) x0 x1 := by
  unfold out3_7
  rw [View.canon_unit_zero upd_offsets_zero]
  simp only [View.ld_unit_zero (S := S4000x128) upd_offsets_zero, View.ld_unit_zero (S := S128x128) upd_offsets_zero,
    View.ld_unit_zero (S := S1x128) upd_offsets_zero]
  unfold k3_pay1
  simp only [shapeCast_self, upd_truncf, upd_matmul_fmt]
  exact upd_net dot_S4000x128_S128x128_S4000x128_1_0_0_1_n_n upd_dot x0 x1 U1 _ _ c1 U2 c2
    (fun k q => slice_top_apply (by omega) U1 slices_S256x128_S128x128_0_0 k q)
    (fun k q => upd_slice_band_apply 128 (by omega) U1 slices_S256x128_S128x128_128_0 k q)
    shapeCasts_S128_S1x128 broadcasts_S1x128_S4000x128

/-- Region 5's body. -/
theorem upd_body5 (x0 x1 : Mat 4000 128) (U1 : Mat 256 128) (c1 : Arr 128) (U2 : Mat 128 128) (c2 : Arr 128) :
    out5_7 (F := Ideal) x0 x1
      (extractStridedSlice S128x128 ![0, 0] U1 slices_S256x128_S128x128_0_0)
      (extractStridedSlice S128x128 ![128, 0] U1 slices_S256x128_S128x128_128_0)
      (shapeCast S1x128 c1 shapeCasts_S128_S1x128) U2 (shapeCast S1x128 c2 shapeCasts_S128_S1x128)
    = rows2 (Gnn.updRow U1 c1 U2 c2) x0 x1 := by
  unfold out5_7
  rw [View.canon_unit_zero upd_offsets_zero]
  simp only [View.ld_unit_zero (S := S4000x128) upd_offsets_zero, View.ld_unit_zero (S := S128x128) upd_offsets_zero,
    View.ld_unit_zero (S := S1x128) upd_offsets_zero]
  unfold k5_pay1
  simp only [shapeCast_self, upd_truncf, upd_matmul_fmt]
  exact upd_net dot_S4000x128_S128x128_S4000x128_1_0_0_1_n_n upd_dot x0 x1 U1 _ _ c1 U2 c2
    (fun k q => slice_top_apply (by omega) U1 slices_S256x128_S128x128_0_0 k q)
    (fun k q => upd_slice_band_apply 128 (by omega) U1 slices_S256x128_S128x128_128_0 k q)
    shapeCasts_S128_S1x128 broadcasts_S1x128_S4000x128

/-- Region 7's body. -/
theorem upd_body7 (x0 x1 : Mat 4000 128) (U1 : Mat 256 128) (c1 : Arr 128) (U2 : Mat 128 128) (c2 : Arr 128) :
    out7_7 (F := Ideal) x0 x1
      (extractStridedSlice S128x128 ![0, 0] U1 slices_S256x128_S128x128_0_0)
      (extractStridedSlice S128x128 ![128, 0] U1 slices_S256x128_S128x128_128_0)
      (shapeCast S1x128 c1 shapeCasts_S128_S1x128) U2 (shapeCast S1x128 c2 shapeCasts_S128_S1x128)
    = rows2 (Gnn.updRow U1 c1 U2 c2) x0 x1 := by
  unfold out7_7
  rw [View.canon_unit_zero upd_offsets_zero]
  simp only [View.ld_unit_zero (S := S4000x128) upd_offsets_zero, View.ld_unit_zero (S := S128x128) upd_offsets_zero,
    View.ld_unit_zero (S := S1x128) upd_offsets_zero]
  unfold k7_pay1
  simp only [shapeCast_self, upd_truncf, upd_matmul_fmt]
  exact upd_net dot_S4000x128_S128x128_S4000x128_1_0_0_1_n_n upd_dot x0 x1 U1 _ _ c1 U2 c2
    (fun k q => slice_top_apply (by omega) U1 slices_S256x128_S128x128_0_0 k q)
    (fun k q => upd_slice_band_apply 128 (by omega) U1 slices_S256x128_S128x128_128_0 k q)
    shapeCasts_S128_S1x128 broadcasts_S1x128_S4000x128

end Cert.KernelIdeal.Body

end
-- ==== Proof.KRegion3.lean ====
/-
  REGION 3 AS A WHOLE: the update of every node. The two row-tiled inputs (the nodes' rows and their aggregated
  messages) move with the output; the five weight operands are whole arrays at every point.
-/
import proofs.«404104_j10677288698628_1_alg».proof.Proof.KBodyUpd

set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx Idealize.ShloMosaic.RowOps

variable (V : (c : Dev nD) → (b : Ref sig .tc) → Buf (Elt Ideal) ((c : Thread nD τ).loc b))

/-- A row-wise function of two matrices, read at entry `j`, agrees with the same function of two taller matrices read at
    entry `i`, when row `j 0` of each short matrix is row `i 0` of the tall one and the columns are the same. -/
theorem upd3_rows_of_block {A B C₁ C₂ D : Nat} (f : (Fin C₁ → EReal) → (Fin C₂ → EReal) → Fin D → EReal)
    (X0 : Mat A C₁) (X1 : Mat A C₂) (x0 : Mat B C₁) (x1 : Mat B C₂)
    (j : (⟨2, ![B, D]⟩ : Shape).Idx) (i : (⟨2, ![A, D]⟩ : Shape).Idx)
    (h0 : ∀ q : Fin C₁, x0 (ix2 ⟨(j 0).val, idx2_lt0 j⟩ q) = X0 (ix2 ⟨(i 0).val, idx2_lt0 i⟩ q))
    (h1 : ∀ q : Fin C₂, x1 (ix2 ⟨(j 0).val, idx2_lt0 j⟩ q) = X1 (ix2 ⟨(i 0).val, idx2_lt0 i⟩ q))
    (hq : (j 1).val = (i 1).val) :
    rows2 f x0 x1 j = rows2 f X0 X1 i := by
  show f (row x0 ⟨(j 0).val, idx2_lt0 j⟩) (row x1 ⟨(j 0).val, idx2_lt0 j⟩) ⟨(j 1).val, idx2_lt1 j⟩
    = f (row X0 ⟨(i 0).val, idx2_lt0 i⟩) (row X1 ⟨(i 0).val, idx2_lt0 i⟩) ⟨(i 1).val, idx2_lt1 i⟩
  have r0 : row x0 ⟨(j 0).val, idx2_lt0 j⟩ = row X0 ⟨(i 0).val, idx2_lt0 i⟩ := funext h0
  have r1 : row x1 ⟨(j 0).val, idx2_lt0 j⟩ = row X1 ⟨(i 0).val, idx2_lt0 i⟩ := funext h1
  rw [r0, r1]
  exact congrArg _ (Fin.ext hq)

/-- The printed index maps over the five points: the two row-tiled inputs and the output sit at block `(t, 0)`, each
    weight operand at block `(0, 0)`. -/
theorem upd3_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-! ## The weight operands: the block at offset zero of the full size is the array -/

theorem upd3_blk2 (c : Dev nD) (t : Fin cfg3.N) : (iblk3 V c 2 t : Mat 128 128) = V c main_v29 := by
  obtain ⟨-, -, -, -, e0, e1, -⟩ := upd3_index t
  funext y
  unfold iblk3
  rw [View.read_apply]
  show V c main_v29 _ = V c main_v29 y
  congr 1
  funext a
  apply Fin.ext
  match a with
  | ⟨0, _⟩ => show win3_2.index t (0 : Fin 2) * 128 + 1 * (y 0).val = (y 0).val; rw [e0]; omega
  | ⟨1, _⟩ => show win3_2.index t (1 : Fin 2) * 128 + 1 * (y 1).val = (y 1).val; rw [e1]; omega

theorem upd3_blk3 (c : Dev nD) (t : Fin cfg3.N) : (iblk3 V c 3 t : Mat 128 128) = V c main_v30 := by
  obtain ⟨-, -, -, -, -, -, e0, e1, -⟩ := upd3_index t
  funext y
  unfold iblk3
  rw [View.read_apply]
  show V c main_v30 _ = V c main_v30 y
  congr 1
  funext a
  apply Fin.ext
  match a with
  | ⟨0, _⟩ => show win3_3.index t (0 : Fin 2) * 128 + 1 * (y 0).val = (y 0).val; rw [e0]; omega
  | ⟨1, _⟩ => show win3_3.index t (1 : Fin 2) * 128 + 1 * (y 1).val = (y 1).val; rw [e1]; omega

theorem upd3_blk4 (c : Dev nD) (t : Fin cfg3.N) : (iblk3 V c 4 t : Vec Ideal S1x128 .f32) = V c main_v33 := by
  obtain ⟨-, -, -, -, -, -, -, -, e0, e1, -⟩ := upd3_index t
  funext y
  unfold iblk3
  rw [View.read_apply]
  show V c main_v33 _ = V c main_v33 y
  congr 1
  funext a
  apply Fin.ext
  match a with
  | ⟨0, _⟩ => show win3_4.index t (0 : Fin 2) * 1 + 1 * (y 0).val = (y 0).val; rw [e0]; omega
  | ⟨1, _⟩ => show win3_4.index t (1 : Fin 2) * 128 + 1 * (y 1).val = (y 1).val; rw [e1]; omega

theorem upd3_blk5 (c : Dev nD) (t : Fin cfg3.N) : (iblk3 V c 5 t : Mat 128 128) = V c main_v35 := by
  obtain ⟨-, -, -, -, -, -, -, -, -, -, e0, e1, -⟩ := upd3_index t
  funext y
  unfold iblk3
  rw [View.read_apply]
  show V c main_v35 _ = V c main_v35 y
  congr 1
  funext a
  apply Fin.ext
  match a with
  | ⟨0, _⟩ => show win3_5.index t (0 : Fin 2) * 128 + 1 * (y 0).val = (y 0).val; rw [e0]; omega
  | ⟨1, _⟩ => show win3_5.index t (1 : Fin 2) * 128 + 1 * (y 1).val = (y 1).val; rw [e1]; omega

theorem upd3_blk6 (c : Dev nD) (t : Fin cfg3.N) : (iblk3 V c 6 t : Vec Ideal S1x128 .f32) = V c main_v38 := by
  obtain ⟨-, -, -, -, -, -, -, -, -, -, -, -, e0, e1, -⟩ := upd3_index t
  funext y
  unfold iblk3
  rw [View.read_apply]
  show V c main_v38 _ = V c main_v38 y
  congr 1
  funext a
  apply Fin.ext
  match a with
  | ⟨0, _⟩ => show win3_6.index t (0 : Fin 2) * 1 + 1 * (y 0).val = (y 0).val; rw [e0]; omega
  | ⟨1, _⟩ => show win3_6.index t (1 : Fin 2) * 128 + 1 * (y 1).val = (y 1).val; rw [e1]; omega

/-! ## The row-tiled operands: entry `(p, q)` of block `t` is entry `(4000 t + p, q)` of the array -/

theorem upd3_blk0_apply (c : Dev nD) (t : Fin cfg3.N) (x : S4000x128.Idx) (k : S20000x128.Idx)
    (hk0 : (k 0).val = t.val * 4000 + (x 0).val) (hk1 : (k 1).val = (x 1).val) :
    (iblk3 V c 0 t : Mat 4000 128) x = (V c main_v5 : Mat 20000 128) k := by
  obtain ⟨e0, e1, -⟩ := upd3_index t
  unfold iblk3
  rw [View.read_apply]
  show V c main_v5 _ = V c main_v5 k
  congr 1
  funext a
  apply Fin.ext
  match a with
  | ⟨0, _⟩ => show win3_0.index t (0 : Fin 2) * 4000 + 1 * (x 0).val = (k 0).val; rw [e0, hk0]; omega
  | ⟨1, _⟩ => show win3_0.index t (1 : Fin 2) * 128 + 1 * (x 1).val = (k 1).val; rw [e1, hk1]; omega

theorem upd3_blk1_apply (c : Dev nD) (t : Fin cfg3.N) (x : S4000x128.Idx) (k : S20000x128.Idx)
    (hk0 : (k 0).val = t.val * 4000 + (x 0).val) (hk1 : (k 1).val = (x 1).val) :
    (iblk3 V c 1 t : Mat 4000 128) x = (V c main_v26 : Mat 20000 128) k := by
  obtain ⟨-, -, e0, e1, -⟩ := upd3_index t
  unfold iblk3
  rw [View.read_apply]
  show V c main_v26 _ = V c main_v26 k
  congr 1
  funext a
  apply Fin.ext
  match a with
  | ⟨0, _⟩ => show win3_1.index t (0 : Fin 2) * 4000 + 1 * (x 0).val = (k 0).val; rw [e0, hk0]; omega
  | ⟨1, _⟩ => show win3_1.index t (1 : Fin 2) * 128 + 1 * (x 1).val = (k 1).val; rw [e1, hk1]; omega

/-- Where entry `y` of the output's block `t` sits in the output array. -/
theorem upd3_out_emb (t : Fin cfg3.N) (y : S4000x128.Idx) :
    ((((cfg3.win 7).blk t).view.emb y) 0).val = t.val * 4000 + (y 0).val
    ∧ ((((cfg3.win 7).blk t).view.emb y) 1).val = (y 1).val := by
  obtain ⟨-, -, -, -, -, -, -, -, -, -, -, -, -, -, e0, e1⟩ := upd3_index t
  constructor
  · show win3_7.index t (0 : Fin 2) * 4000 + 1 * (y 0).val = t.val * 4000 + (y 0).val
    rw [e0]; omega
  · show win3_7.index t (1 : Fin 2) * 128 + 1 * (y 1).val = (y 1).val
    rw [e1]; omega

/-- The body at literal operands: with the weight operands in the host's forms it is the update applied row by row. -/
theorem upd3_body_at (x0 x1 : Mat 4000 128) (w2 w3 : Mat 128 128) (w4 : Vec Ideal S1x128 .f32) (w5 : Mat 128 128)
    (w6 : Vec Ideal S1x128 .f32) (U1 : Mat 256 128) (c1 : Arr 128) (U2 : Mat 128 128) (c2 : Arr 128)
    (e2 : w2 = extractStridedSlice S128x128 ![0, 0] U1 slices_S256x128_S128x128_0_0)
    (e3 : w3 = extractStridedSlice S128x128 ![128, 0] U1 slices_S256x128_S128x128_128_0)
    (e4 : w4 = shapeCast S1x128 c1 shapeCasts_S128_S1x128)
    (e5 : w5 = U2)
    (e6 : w6 = shapeCast S1x128 c2 shapeCasts_S128_S1x128) :
    out3_7 (F := Ideal) x0 x1 w2 w3 w4 w5 w6 = rows2 (Gnn.updRow U1 c1 U2 c2) x0 x1 := by
  rw [e2, e3, e4, e5, e6]
  exact Body.upd_body3 x0 x1 U1 c1 U2 c2

/-- WHAT POINT `t` WRITES BACK is block `t` of the update applied row by row to the two input arrays. -/
theorem upd3_flushed (c : Dev nD) (U1 : Mat 256 128) (c1 : Arr 128) (U2 : Mat 128 128) (c2 : Arr 128)
    (h2 : V c main_v29 = extractStridedSlice S128x128 ![0, 0] U1 slices_S256x128_S128x128_0_0)
    (h3 : V c main_v30 = extractStridedSlice S128x128 ![128, 0] U1 slices_S256x128_S128x128_128_0)
    (h4 : V c main_v33 = shapeCast S1x128 c1 shapeCasts_S128_S1x128)
    (h5 : V c main_v35 = U2)
    (h6 : V c main_v38 = shapeCast S1x128 c2 shapeCasts_S128_S1x128) (t : Fin cfg3.N) :
    (dat3 V c).flushed 7 t
      = ((cfg3.win 7).blk t).view.read (Elt Ideal)
          (rows2 (Gnn.updRow U1 c1 U2 c2) (V c main_v5) (V c main_v26)) := by
  show (cfg3.win 7).cut (grid3.coords t) ((dat3 V c).after 7 t) = _
  rw [after3_7]
  funext y
  refine (congrFun (upd3_body_at (iblk3 V c 0 t) (iblk3 V c 1 t) (iblk3 V c 2 t) (iblk3 V c 3 t)
    (iblk3 V c 4 t) (iblk3 V c 5 t) (iblk3 V c 6 t) U1 c1 U2 c2 ((upd3_blk2 V c t).trans h2)
    ((upd3_blk3 V c t).trans h3) ((upd3_blk4 V c t).trans h4) ((upd3_blk5 V c t).trans h5)
    ((upd3_blk6 V c t).trans h6)) _).trans ?_
  show rows2 (A := 4000) (Gnn.updRow U1 c1 U2 c2) (iblk3 V c 0 t) (iblk3 V c 1 t) _
    = rows2 (A := 20000) (Gnn.updRow U1 c1 U2 c2) (V c main_v5) (V c main_v26) (((cfg3.win 7).blk t).view.emb y)
  obtain ⟨k0, k1⟩ := upd3_out_emb t y
  refine upd3_rows_of_block (A := 20000) (B := 4000) _ _ _ _ _ _ _ (fun q => ?_) (fun q => ?_) k1.symm
  · exact upd3_blk0_apply V c t _ _ k0 rfl
  · exact upd3_blk1_apply V c t _ _ k0 rfl

/-- An index of the output array is in point `t`'s block iff each coordinate is in the block's range on its axis. -/
theorem upd3_mem (t : Fin cfg3.N) (i : S20000x128.Idx) :
    i ∈ ((cfg3.win 7).blk t).view.set
      ↔ ∀ a : Fin 2, win3_7.index t a * S4000x128.size a ≤ (i a).val
          ∧ (i a).val < win3_7.index t a * S4000x128.size a + S4000x128.size a := by
  show i ∈ ((View.whole main_v39).slice (win3_7.rect t)).set ↔ _
  rw [View.set_slice_whole, Rect.mem_set_unit]
  exact Iff.rfl

/-- Row `r` of the output is written by point `r / 4000`: the five blocks of 4000 rows tile the 20000 rows. -/
theorem upd3_cover (i : S20000x128.Idx) :
    ∃ t : Fin cfg3.N, (cfg3.win 7).flush t = true ∧ i ∈ ((cfg3.win 7).blk t).view.set := by
  have hi0 : (i 0).val < 20000 := (i 0).isLt
  have hi1 : (i 1).val < 128 := (i 1).isLt
  have hN : cfg3.N = 5 := N_3
  obtain ⟨t, ht⟩ : ∃ t : Fin cfg3.N, t.val = (i 0).val / 4000 := ⟨⟨(i 0).val / 4000, by rw [hN]; omega⟩, rfl⟩
  obtain ⟨-, -, -, -, -, -, -, -, -, -, -, -, -, -, e0, e1⟩ := upd3_index t
  refine ⟨t, flush3_7 t, ?_⟩
  rw [upd3_mem]
  intro a
  match a with
  | ⟨0, _⟩ =>
    show win3_7.index t (0 : Fin 2) * 4000 ≤ (i 0).val ∧ (i 0).val < win3_7.index t (0 : Fin 2) * 4000 + 4000
    rw [e0, ht]; omega
  | ⟨1, _⟩ =>
    show win3_7.index t (1 : Fin 2) * 128 ≤ (i 1).val ∧ (i 1).val < win3_7.index t (1 : Fin 2) * 128 + 128
    rw [e1]; omega

/-- The nodes' array after the region, the weight operands being the bands and casts the host made of `U1`, `c1`, `U2`, `c2`. -/
theorem region3_value (c : Dev nD) (U1 : Mat 256 128) (c1 : Arr 128) (U2 : Mat 128 128) (c2 : Arr 128)
    (h2 : V c main_v29 = extractStridedSlice S128x128 ![0, 0] U1 slices_S256x128_S128x128_0_0)
    (h3 : V c main_v30 = extractStridedSlice S128x128 ![128, 0] U1 slices_S256x128_S128x128_128_0)
    (h4 : V c main_v33 = shapeCast S1x128 c1 shapeCasts_S128_S1x128)
    (h5 : V c main_v35 = U2)
    (h6 : V c main_v38 = shapeCast S1x128 c2 shapeCasts_S128_S1x128) :
    (dat3 V c).arrAt 7 cfg3.N = rows2 (Gnn.updRow U1 c1 U2 c2) (V c main_v5) (V c main_v26) :=
  (dat3 V c).arrAt_eq_of_cover 7 _ (fun t _ => upd3_flushed V c U1 c1 U2 c2 h2 h3 h4 h5 h6 t) (upd3_cover)

end Cert.KernelIdeal.Region

end
-- ==== Proof.KLayer1.lean ====
/-
  ROUND 1 OF THE KERNEL PROGRAM, FROM BOUNDARY TO BOUNDARY. Between the exit of the region before it and the exit of its
  update region the program reads the nodes' rows at the edges' targets and sources (where every node number is in range
  this is the plain gather), cuts the round's weights out of the stacked arrays, runs the message region, sums the
  messages per target, and runs the update region. So the nodes' array at the exit is one round of message passing on
  the nodes' array at the entry, and the edge numbers, the edges' rows and the weight arguments are where they were.
-/
import proofs.«404104_j10677288698628_1_alg».proof.Proof.KChainDefs
import proofs.«404104_j10677288698628_1_alg».proof.Proof.KRegion2
import proofs.«404104_j10677288698628_1_alg».proof.Proof.KRegion3

set_option maxRecDepth 16384

noncomputable section

namespace Cert.KernelIdeal.Chain

open Cert.KernelIdeal Cert.KernelIdeal.Gen Idealize.ShloMosaic Idealize.ShloMosaic.TcCoe Idealize.SL.Sem
open Idealize.ShloMosaic.ValueIdx Idealize.ShloMosaic.RowOps

variable (m : (ℓ : Loc nD τ sig) → Buf (Elt Ideal) ℓ) (ρ : Dev nD → PrngReg) (c : Dev nD)

/-! ## What each host stretch of the round writes, and that it leaves every other buffer alone -/

/-- The buffers written by the read of the nodes' rows at the edges' targets. -/
def r1_wrTakeD1 : List (Ref sig .tc) :=
  [main_call0_c, main_call0_v0, main_call0_v1, main_call0_c_0, main_call0_v2, main_call0_v3, main_call0_v4,
   main_call0_v5, main_call0_c_1, main_call0_c_2, main_call0_v6, main_call0_v7, main_call0_v8, main_call0_v9,
   main_call0_v10, main_call0_v11, main_call0_c_3, main_call0_v12, main_call0_v13, main_call0_v14, main_call0_cst,
   main_call0_v15, main_v8]
/-- The buffers written by the read of the nodes' rows at the edges' sources. -/
def r1_wrTakeS1 : List (Ref sig .tc) :=
  [main_call1_c, main_call1_v0, main_call1_v1, main_call1_c_0, main_call1_v2, main_call1_v3, main_call1_v4,
   main_call1_v5, main_call1_c_1, main_call1_c_2, main_call1_v6, main_call1_v7, main_call1_v8, main_call1_v9,
   main_call1_v10, main_call1_v11, main_call1_c_3, main_call1_v12, main_call1_v13, main_call1_v14, main_call1_cst,
   main_call1_v15, main_v9]
/-- The buffers written when the message weights are cut out. -/
def r1_wrMsgW1 : List (Ref sig .tc) :=
  [main_v10, main_v11, main_v12, main_v13, main_v14, main_v15, main_v16, main_v17, main_v18, main_v19, main_v20, main_v21, main_v22]
/-- The buffers written by the sum per target and when the update weights are cut out. -/
def r1_wrUpdW1 : List (Ref sig .tc) :=
  [main_cst, main_v24, main_v25, main_v26, main_v27, main_v28, main_v29, main_v30, main_v31, main_v32, main_v33, main_v34, main_v35,
   main_v36, main_v37, main_v38]

/-- The targets' read leaves every buffer it does not write as it was. -/
theorem r1_keepTakeD1 (V : Valuation τ sig (Elt Ideal)) (b : Ref sig .tc) (hb : ∀ w ∈ r1_wrTakeD1, b ≠ w) :
    StableHlo.after hostOps2 V (Proc.devRef .tc b) = V (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide +kernel))))

/-- The sources' read leaves every buffer it does not write as it was. -/
theorem r1_keepTakeS1 (V : Valuation τ sig (Elt Ideal)) (b : Ref sig .tc) (hb : ∀ w ∈ r1_wrTakeS1, b ≠ w) :
    StableHlo.after hostOps2_1 V (Proc.devRef .tc b) = V (Proc.devRef .tc b) :=
  StableHlo.after_of_forall_not_mem (b := Proc.devRef .tc b) _ _ (List.forall_iff_forall_mem.mp (by
    simp only [hostOps2_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide +kernel))))

/-- Cutting the message weights out leaves every buffer it does not write as it was. -/
theorem r1_keepMsgW1 (V : Valuation τ sig (Elt Ideal)) (b : Ref sig .tc) (hb : ∀ w ∈ r1_wrMsgW1, b ≠ w) :
    StableHlo.after hostOps2_2 V (Proc.devRef .tc b) = V (Proc.devRef .tc b) :=
  StableHlo.after_of_forall_not_mem (b := Proc.devRef .tc b) _ _ (List.forall_iff_forall_mem.mp (by
    simp only [hostOps2_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide +kernel))))

/-- The sum per target and cutting the update weights out leave every buffer they do not write as they were. -/
theorem r1_keepUpdW1 (V : Valuation τ sig (Elt Ideal)) (b : Ref sig .tc) (hb : ∀ w ∈ r1_wrUpdW1, b ≠ w) :
    StableHlo.after hostOps3 V (Proc.devRef .tc b) = V (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide +kernel))))

/-! ## What the host stretches compute, over any contents at their entry -/

/-- Contents carried to a buffer's own type and back are the contents. -/
theorem r1_ofBuf_toBuf {T : BufTy} (x : StableHlo.TRef sig T) (v : T.Contents (Elt Ideal)) : x.ofBuf (x.toBuf v) = v := by
  obtain ⟨r, rfl, _, _⟩ := x; rfl

/-- At the edges' numbers, the nodes' array and the two reads' results the carrying is the identity. -/
theorem r1_ofBuf_v1 (V : Valuation τ sig (Elt Ideal)) :
    (StableHlo.TRef.of main_v1 : StableHlo.TRef sig ⟨S320000, .i32⟩).ofBuf (V (Proc.devRef .tc main_v1)) = V (Proc.devRef .tc main_v1) := rfl
theorem r1_ofBuf_v3 (V : Valuation τ sig (Elt Ideal)) :
    (StableHlo.TRef.of main_v3 : StableHlo.TRef sig ⟨S320000, .i32⟩).ofBuf (V (Proc.devRef .tc main_v3)) = V (Proc.devRef .tc main_v3) := rfl
theorem r1_ofBuf_v5 (V : Valuation τ sig (Elt Ideal)) :
    (StableHlo.TRef.of main_v5 : StableHlo.TRef sig ⟨S20000x128, .f32⟩).ofBuf (V (Proc.devRef .tc main_v5)) = V (Proc.devRef .tc main_v5) := rfl
theorem r1_toBuf_v8 (X : (⟨S320000x128, .f32⟩ : BufTy).Contents (Elt Ideal)) :
    (StableHlo.TRef.of main_v8 : StableHlo.TRef sig ⟨S320000x128, .f32⟩).toBuf X = X := rfl
theorem r1_toBuf_v9 (X : (⟨S320000x128, .f32⟩ : BufTy).Contents (Elt Ideal)) :
    (StableHlo.TRef.of main_v9 : StableHlo.TRef sig ⟨S320000x128, .f32⟩).toBuf X = X := rfl

/-- The targets' read is the fill-on-out-of-range read of the nodes' array at the targets' numbers. -/
theorem r1_takeD1_val (V : Valuation τ sig (Elt Ideal)) :
    StableHlo.after hostOps2 V (Proc.devRef .tc main_v8)
      = Take.takeFill (V (Proc.devRef .tc main_v5)) (V (Proc.devRef .tc main_v3)) := by
  after_results_simp
  simp only [r1_ofBuf_toBuf]
  rw [r1_toBuf_v8, r1_ofBuf_v3, r1_ofBuf_v5]
  unfold Take.takeFill Take.inb Take.rowsAt Take.col Take.wrap
  rfl

/-- The sources' read is the fill-on-out-of-range read of the nodes' array at the sources' numbers. -/
theorem r1_takeS1_val (V : Valuation τ sig (Elt Ideal)) :
    StableHlo.after hostOps2_1 V (Proc.devRef .tc main_v9)
      = Take.takeFill (V (Proc.devRef .tc main_v5)) (V (Proc.devRef .tc main_v1)) := by
  after_results_simp
  simp only [r1_ofBuf_toBuf]
  rw [r1_toBuf_v9, r1_ofBuf_v1, r1_ofBuf_v5]
  unfold Take.takeFill Take.inb Take.rowsAt Take.col Take.wrap
  rfl

/-- The three row bands of the first message layer's weights. -/
theorem r1_msgW1_v12 (V : Valuation τ sig (Elt Ideal)) (A : (⟨S3x288x128, .f32⟩ : BufTy).Contents (Elt Ideal)) (hA : V (Proc.devRef .tc main_arg6) = A) :
    StableHlo.after hostOps2_2 V (Proc.devRef .tc main_v12)
      = extractStridedSlice S128x128 ![0, 0] (shapeCast S288x128 (extractStridedSlice S1x288x128 ![0, 0, 0] A slices_S3x288x128_S1x288x128_0_0_0) shapeCasts_S1x288x128_S288x128) slices_S288x128_S128x128_0_0 := by
  subst hA
  after_results
  rfl
theorem r1_msgW1_v13 (V : Valuation τ sig (Elt Ideal)) (A : (⟨S3x288x128, .f32⟩ : BufTy).Contents (Elt Ideal)) (hA : V (Proc.devRef .tc main_arg6) = A) :
    StableHlo.after hostOps2_2 V (Proc.devRef .tc main_v13)
      = extractStridedSlice S128x128 ![128, 0] (shapeCast S288x128 (extractStridedSlice S1x288x128 ![0, 0, 0] A slices_S3x288x128_S1x288x128_0_0_0) shapeCasts_S1x288x128_S288x128) slices_S288x128_S128x128_128_0 := by
  subst hA
  after_results
  rfl
theorem r1_msgW1_v14 (V : Valuation τ sig (Elt Ideal)) (A : (⟨S3x288x128, .f32⟩ : BufTy).Contents (Elt Ideal)) (hA : V (Proc.devRef .tc main_arg6) = A) :
    StableHlo.after hostOps2_2 V (Proc.devRef .tc main_v14)
      = extractStridedSlice S32x128 ![256, 0] (shapeCast S288x128 (extractStridedSlice S1x288x128 ![0, 0, 0] A slices_S3x288x128_S1x288x128_0_0_0) shapeCasts_S1x288x128_S288x128) slices_S288x128_S32x128_256_0 := by
  subst hA
  after_results
  rfl
/-- The first message layer's bias as one row. -/
theorem r1_msgW1_v17 (V : Valuation τ sig (Elt Ideal)) (A : (⟨S3x128, .f32⟩ : BufTy).Contents (Elt Ideal)) (hA : V (Proc.devRef .tc main_arg7) = A) :
    StableHlo.after hostOps2_2 V (Proc.devRef .tc main_v17)
      = shapeCast S1x128 (shapeCast S128 (extractStridedSlice S1x128 ![0, 0] A slices_S3x128_S1x128_0_0) shapeCasts_S1x128_S128) shapeCasts_S128_S1x128 := by
  subst hA
  after_results
  rfl
/-- The second message layer's weights. -/
theorem r1_msgW1_v19 (V : Valuation τ sig (Elt Ideal)) (A : (⟨S3x128x128, .f32⟩ : BufTy).Contents (Elt Ideal)) (hA : V (Proc.devRef .tc main_arg8) = A) :
    StableHlo.after hostOps2_2 V (Proc.devRef .tc main_v19)
      = shapeCast S128x128 (extractStridedSlice S1x128x128 ![0, 0, 0] A slices_S3x128x128_S1x128x128_0_0_0) shapeCasts_S1x128x128_S128x128 := by
  subst hA
  after_results
  rfl
/-- The second message layer's bias as one row. -/
theorem r1_msgW1_v22 (V : Valuation τ sig (Elt Ideal)) (A : (⟨S3x128, .f32⟩ : BufTy).Contents (Elt Ideal)) (hA : V (Proc.devRef .tc main_arg9) = A) :
    StableHlo.after hostOps2_2 V (Proc.devRef .tc main_v22)
      = shapeCast S1x128 (shapeCast S128 (extractStridedSlice S1x128 ![0, 0] A slices_S3x128_S1x128_0_0) shapeCasts_S1x128_S128) shapeCasts_S128_S1x128 := by
  subst hA
  after_results
  rfl

/-- The messages summed per target: a scatter-add of the messages' array into zeros at the targets' numbers. -/
theorem r1_agg1_val (V : Valuation τ sig (Elt Ideal)) :
    StableHlo.after hostOps3 V (Proc.devRef .tc main_v26)
      = Host.scatterAdd scatter_S20000x128_S320000x1_S320000x128_1_0_0_1
          (broadcastInDim S20000x128 ![] bcast_S_S20000x128 (constant (F := Ideal) S_ .f32 0x00000000#32))
          (Take.col (V (Proc.devRef .tc main_v3))) (V (Proc.devRef .tc main_v23)) := by
  after_results
  rfl

/-- The two row bands of the first update layer's weights. -/
theorem r1_updW1_v29 (V : Valuation τ sig (Elt Ideal)) (A : (⟨S3x256x128, .f32⟩ : BufTy).Contents (Elt Ideal)) (hA : V (Proc.devRef .tc main_arg10) = A) :
    StableHlo.after hostOps3 V (Proc.devRef .tc main_v29)
      = extractStridedSlice S128x128 ![0, 0] (shapeCast S256x128 (extractStridedSlice S1x256x128 ![0, 0, 0] A slices_S3x256x128_S1x256x128_0_0_0) shapeCasts_S1x256x128_S256x128) slices_S256x128_S128x128_0_0 := by
  subst hA
  after_results
  rfl
theorem r1_updW1_v30 (V : Valuation τ sig (Elt Ideal)) (A : (⟨S3x256x128, .f32⟩ : BufTy).Contents (Elt Ideal)) (hA : V (Proc.devRef .tc main_arg10) = A) :
    StableHlo.after hostOps3 V (Proc.devRef .tc main_v30)
      = extractStridedSlice S128x128 ![128, 0] (shapeCast S256x128 (extractStridedSlice S1x256x128 ![0, 0, 0] A slices_S3x256x128_S1x256x128_0_0_0) shapeCasts_S1x256x128_S256x128) slices_S256x128_S128x128_128_0 := by
  subst hA
  after_results
  rfl
/-- The first update layer's bias as one row. -/
theorem r1_updW1_v33 (V : Valuation τ sig (Elt Ideal)) (A : (⟨S3x128, .f32⟩ : BufTy).Contents (Elt Ideal)) (hA : V (Proc.devRef .tc main_arg11) = A) :
    StableHlo.after hostOps3 V (Proc.devRef .tc main_v33)
      = shapeCast S1x128 (shapeCast S128 (extractStridedSlice S1x128 ![0, 0] A slices_S3x128_S1x128_0_0) shapeCasts_S1x128_S128) shapeCasts_S128_S1x128 := by
  subst hA
  after_results
  rfl
/-- The second update layer's weights. -/
theorem r1_updW1_v35 (V : Valuation τ sig (Elt Ideal)) (A : (⟨S3x128x128, .f32⟩ : BufTy).Contents (Elt Ideal)) (hA : V (Proc.devRef .tc main_arg12) = A) :
    StableHlo.after hostOps3 V (Proc.devRef .tc main_v35)
      = shapeCast S128x128 (extractStridedSlice S1x128x128 ![0, 0, 0] A slices_S3x128x128_S1x128x128_0_0_0) shapeCasts_S1x128x128_S128x128 := by
  subst hA
  after_results
  rfl
/-- The second update layer's bias as one row. -/
theorem r1_updW1_v38 (V : Valuation τ sig (Elt Ideal)) (A : (⟨S3x128, .f32⟩ : BufTy).Contents (Elt Ideal)) (hA : V (Proc.devRef .tc main_arg13) = A) :
    StableHlo.after hostOps3 V (Proc.devRef .tc main_v38)
      = shapeCast S1x128 (shapeCast S128 (extractStridedSlice S1x128 ![0, 0] A slices_S3x128_S1x128_0_0) shapeCasts_S1x128_S128) shapeCasts_S128_S1x128 := by
  subst hA
  after_results
  rfl

/-! ## A buffer the round neither writes nor runs a window over, from boundary to boundary -/

/-- No host operation of the round writes `b` and neither region has a window over it. -/
def r1_Free1 (b : Ref sig .tc) : Prop :=
  (∀ w ∈ r1_wrTakeD1, b ≠ w) ∧ (∀ w ∈ r1_wrTakeS1, b ≠ w) ∧ (∀ w ∈ r1_wrMsgW1, b ≠ w) ∧ (∀ w ∈ r1_wrUpdW1, b ≠ w)
    ∧ (∀ w, Pipeline.arrRef spec2 w ≠ b) ∧ (∀ w, Pipeline.arrRef spec3 w ≠ b)

instance (b : Ref sig .tc) : Decidable (r1_Free1 b) := by unfold r1_Free1; exact inferInstance

theorem r1_free1_v1 : r1_Free1 main_v1 := by decide +kernel
theorem r1_free1_v3 : r1_Free1 main_v3 := by decide +kernel
theorem r1_free1_arg6 : r1_Free1 main_arg6 := by decide +kernel
theorem r1_free1_arg7 : r1_Free1 main_arg7 := by decide +kernel
theorem r1_free1_arg8 : r1_Free1 main_arg8 := by decide +kernel
theorem r1_free1_arg9 : r1_Free1 main_arg9 := by decide +kernel
theorem r1_free1_arg10 : r1_Free1 main_arg10 := by decide +kernel
theorem r1_free1_arg11 : r1_Free1 main_arg11 := by decide +kernel
theorem r1_free1_arg12 : r1_Free1 main_arg12 := by decide +kernel
theorem r1_free1_arg13 : r1_Free1 main_arg13 := by decide +kernel
theorem r1_free1_arg14 : r1_Free1 main_arg14 := by decide +kernel
theorem r1_free1_arg15 : r1_Free1 main_arg15 := by decide +kernel
theorem r1_free1_arg16 : r1_Free1 main_arg16 := by decide +kernel
theorem r1_free1_arg17 : r1_Free1 main_arg17 := by decide +kernel

/-- Such a buffer after the two reads of the nodes' rows. -/
theorem r1_keep1_W6 (b : Ref sig .tc) (hb : r1_Free1 b) : W6 m ρ c (Proc.devRef .tc b) = W4 m ρ c (Proc.devRef .tc b) :=
  (r1_keepTakeS1 (W5 m ρ c) b hb.2.1).trans (r1_keepTakeD1 (W4 m ρ c) b hb.1)

/-- Such a buffer at the message region's entry. -/
theorem r1_keep1_W7 (b : Ref sig .tc) (hb : r1_Free1 b) : W7 m ρ c (Proc.devRef .tc b) = W4 m ρ c (Proc.devRef .tc b) :=
  (r1_keepMsgW1 (W6 m ρ c) b hb.2.2.1).trans (r1_keep1_W6 m ρ c b hb)

/-- Such a buffer at the message region's exit. -/
theorem r1_keep1_W8 (b : Ref sig .tc) (hb : r1_Free1 b) : W8 m ρ c (Proc.devRef .tc b) = W4 m ρ c (Proc.devRef .tc b) :=
  (W8_of_ne m ρ c b hb.2.2.2.2.1).trans (r1_keep1_W7 m ρ c b hb)

/-- Such a buffer at the update region's entry. -/
theorem r1_keep1_W9 (b : Ref sig .tc) (hb : r1_Free1 b) : W9 m ρ c (Proc.devRef .tc b) = W4 m ρ c (Proc.devRef .tc b) :=
  (r1_keepUpdW1 (W8 m ρ c) b hb.2.2.2.1).trans (r1_keep1_W8 m ρ c b hb)

/-- Such a buffer at the update region's exit. -/
theorem r1_keep1_W10 (b : Ref sig .tc) (hb : r1_Free1 b) : W10 m ρ c (Proc.devRef .tc b) = W4 m ρ c (Proc.devRef .tc b) :=
  (W10_of_ne m ρ c b hb.2.2.2.2.2).trans (r1_keep1_W9 m ρ c b hb)

/-- The edges' rows at the message region's entry: no host operation before it writes them. -/
theorem r1_v7_W7 : W7 m ρ c (Proc.devRef .tc main_v7) = W4 m ρ c (Proc.devRef .tc main_v7) :=
  (r1_keepMsgW1 (W6 m ρ c) main_v7 (by decide +kernel)).trans
    ((r1_keepTakeS1 (W5 m ρ c) main_v7 (by decide +kernel)).trans (r1_keepTakeD1 (W4 m ρ c) main_v7 (by decide +kernel)))

/-- The edges' rows are an input window of the message region (never written back) and no window of the update region. -/
theorem r1_v7_W10 : W10 m ρ c (Proc.devRef .tc main_v7) = W4 m ρ c (Proc.devRef .tc main_v7) :=
  calc W10 m ρ c (Proc.devRef .tc main_v7)
    _ = W9 m ρ c (Proc.devRef .tc main_v7) := W10_of_ne m ρ c main_v7 (by decide +kernel)
    _ = W8 m ρ c (Proc.devRef .tc main_v7) := r1_keepUpdW1 (W8 m ρ c) main_v7 (by decide +kernel)
    _ = W7 m ρ c (Proc.devRef .tc main_v7) :=
        (W8_arr m ρ c 2).trans (((dat2 (V7 m ρ) c).arrAt_in 2 rfl _).trans (A_eq2 (V7 m ρ) c 2))
    _ = W4 m ρ c (Proc.devRef .tc main_v7) := r1_v7_W7 m ρ c

/-- The nodes' array at the update region's entry: nothing before it writes it, and the message region has no window over it. -/
theorem r1_v5_W9 : W9 m ρ c (Proc.devRef .tc main_v5) = W4 m ρ c (Proc.devRef .tc main_v5) :=
  calc W9 m ρ c (Proc.devRef .tc main_v5)
    _ = W8 m ρ c (Proc.devRef .tc main_v5) := r1_keepUpdW1 (W8 m ρ c) main_v5 (by decide +kernel)
    _ = W7 m ρ c (Proc.devRef .tc main_v5) := W8_of_ne m ρ c main_v5 (by decide +kernel)
    _ = W6 m ρ c (Proc.devRef .tc main_v5) := r1_keepMsgW1 (W6 m ρ c) main_v5 (by decide +kernel)
    _ = W5 m ρ c (Proc.devRef .tc main_v5) := r1_keepTakeS1 (W5 m ρ c) main_v5 (by decide +kernel)
    _ = W4 m ρ c (Proc.devRef .tc main_v5) := r1_keepTakeD1 (W4 m ρ c) main_v5 (by decide +kernel)

/-- The weight arguments at the update region's exit are the weight arguments at the round's entry. -/
theorem r1_args1_W10 (ha : ArgsAt m c (W4 m ρ c)) : ArgsAt m c (W10 m ρ c) := by
  obtain ⟨a6, a7, a8, a9, a10, a11, a12, a13, a14, a15, a16, a17⟩ := ha
  exact ⟨(r1_keep1_W10 m ρ c main_arg6 r1_free1_arg6).trans a6,
    (r1_keep1_W10 m ρ c main_arg7 r1_free1_arg7).trans a7,
    (r1_keep1_W10 m ρ c main_arg8 r1_free1_arg8).trans a8,
    (r1_keep1_W10 m ρ c main_arg9 r1_free1_arg9).trans a9,
    (r1_keep1_W10 m ρ c main_arg10 r1_free1_arg10).trans a10,
    (r1_keep1_W10 m ρ c main_arg11 r1_free1_arg11).trans a11,
    (r1_keep1_W10 m ρ c main_arg12 r1_free1_arg12).trans a12,
    (r1_keep1_W10 m ρ c main_arg13 r1_free1_arg13).trans a13,
    (r1_keep1_W10 m ρ c main_arg14 r1_free1_arg14).trans a14,
    (r1_keep1_W10 m ρ c main_arg15 r1_free1_arg15).trans a15,
    (r1_keep1_W10 m ρ c main_arg16 r1_free1_arg16).trans a16,
    (r1_keep1_W10 m ρ c main_arg17 r1_free1_arg17).trans a17⟩

/-! ## The round's values, boundary by boundary -/

/-- The message region's first input: the nodes' rows at the edges' targets. -/
theorem r1_v8_W7 (h : Mat 20000 128) (hr : Take.InRange (edges m c))
    (h3 : W4 m ρ c (Proc.devRef .tc main_v3) = Take.dstIdx (edges m c)) (hh : W4 m ρ c (Proc.devRef .tc main_v5) = h) :
    W7 m ρ c (Proc.devRef .tc main_v8) = gdK m c h :=
  calc W7 m ρ c (Proc.devRef .tc main_v8)
    _ = W6 m ρ c (Proc.devRef .tc main_v8) := r1_keepMsgW1 (W6 m ρ c) main_v8 (by decide +kernel)
    _ = W5 m ρ c (Proc.devRef .tc main_v8) := r1_keepTakeS1 (W5 m ρ c) main_v8 (by decide +kernel)
    _ = Take.takeFill (W4 m ρ c (Proc.devRef .tc main_v5)) (W4 m ρ c (Proc.devRef .tc main_v3)) := r1_takeD1_val (W4 m ρ c)
    _ = Take.takeFill h (Take.dstIdx (edges m c)) := congrArg₂ Take.takeFill hh h3
    _ = gdK m c h := Take.takeFill_dst h _ hr

/-- The message region's second input: the nodes' rows at the edges' sources. -/
theorem r1_v9_W7 (h : Mat 20000 128) (hr : Take.InRange (edges m c))
    (h1 : W4 m ρ c (Proc.devRef .tc main_v1) = Take.srcIdx (edges m c)) (hh : W4 m ρ c (Proc.devRef .tc main_v5) = h) :
    W7 m ρ c (Proc.devRef .tc main_v9) = gsK m c h :=
  calc W7 m ρ c (Proc.devRef .tc main_v9)
    _ = W6 m ρ c (Proc.devRef .tc main_v9) := r1_keepMsgW1 (W6 m ρ c) main_v9 (by decide +kernel)
    _ = Take.takeFill (W5 m ρ c (Proc.devRef .tc main_v5)) (W5 m ρ c (Proc.devRef .tc main_v1)) := r1_takeS1_val (W5 m ρ c)
    _ = Take.takeFill h (Take.srcIdx (edges m c)) :=
        congrArg₂ Take.takeFill ((r1_keepTakeD1 (W4 m ρ c) main_v5 (by decide +kernel)).trans hh)
          ((r1_keepTakeD1 (W4 m ρ c) main_v1 (by decide +kernel)).trans h1)
    _ = gsK m c h := Take.takeFill_src h _ hr

/-- The messages: the message function of the three inputs' rows, with the round's message weights. -/
theorem r1_msgs1 (e : Mat 320000 32) (h : Mat 20000 128) (hr : Take.InRange (edges m c))
    (h1 : W4 m ρ c (Proc.devRef .tc main_v1) = Take.srcIdx (edges m c))
    (h3 : W4 m ρ c (Proc.devRef .tc main_v3) = Take.dstIdx (edges m c))
    (h7 : W4 m ρ c (Proc.devRef .tc main_v7) = e)
    (hh : W4 m ρ c (Proc.devRef .tc main_v5) = h)
    (ha : ArgsAt m c (W4 m ρ c)) :
    W8 m ρ c (Proc.devRef .tc main_v23)
      = rows3 (Gnn.msgRow (W1L0 m c) (b1L0 m c) (W2L0 m c) (b2L0 m c)) (gdK m c h) (gsK m c h) e := by
  obtain ⟨a6, a7, a8, a9, -⟩ := ha
  refine (W8_arr m ρ c 9).trans ?_
  refine (Region.region2_value (V7 m ρ) c (W1L0 m c) (b1L0 m c) (W2L0 m c) (b2L0 m c)
    (r1_msgW1_v12 (W6 m ρ c) _ ((r1_keep1_W6 m ρ c main_arg6 r1_free1_arg6).trans a6))
    (r1_msgW1_v13 (W6 m ρ c) _ ((r1_keep1_W6 m ρ c main_arg6 r1_free1_arg6).trans a6))
    (r1_msgW1_v14 (W6 m ρ c) _ ((r1_keep1_W6 m ρ c main_arg6 r1_free1_arg6).trans a6))
    (r1_msgW1_v17 (W6 m ρ c) _ ((r1_keep1_W6 m ρ c main_arg7 r1_free1_arg7).trans a7))
    (r1_msgW1_v19 (W6 m ρ c) _ ((r1_keep1_W6 m ρ c main_arg8 r1_free1_arg8).trans a8))
    (r1_msgW1_v22 (W6 m ρ c) _ ((r1_keep1_W6 m ρ c main_arg9 r1_free1_arg9).trans a9))).trans ?_
  show rows3 _ (W7 m ρ c (Proc.devRef .tc main_v8)) (W7 m ρ c (Proc.devRef .tc main_v9)) (W7 m ρ c (Proc.devRef .tc main_v7)) = _
  rw [r1_v8_W7 m ρ c h hr h3 hh, r1_v9_W7 m ρ c h hr h1 hh, (r1_v7_W7 m ρ c).trans h7]

/-- The messages summed per target node, at the update region's entry. -/
theorem r1_agg1 (u : Mat 320000 128) (h3 : W4 m ρ c (Proc.devRef .tc main_v3) = Take.dstIdx (edges m c))
    (hu : W8 m ρ c (Proc.devRef .tc main_v23) = u) :
    W9 m ρ c (Proc.devRef .tc main_v26) = aggK m c u := by
  refine (r1_agg1_val (W8 m ρ c)).trans ?_
  rw [(r1_keep1_W8 m ρ c main_v3 r1_free1_v3).trans h3, hu]
  rfl

/-- The update region's output: the update function of the nodes' rows and their sums, with the round's update weights. -/
theorem r1_out1 (h s : Mat 20000 128) (hh : W4 m ρ c (Proc.devRef .tc main_v5) = h) (hs : W9 m ρ c (Proc.devRef .tc main_v26) = s)
    (ha : ArgsAt m c (W4 m ρ c)) :
    W10 m ρ c (Proc.devRef .tc main_v39) = rows2 (Gnn.updRow (U1L0 m c) (c1L0 m c) (U2L0 m c) (c2L0 m c)) h s := by
  obtain ⟨-, -, -, -, a10, a11, a12, a13, -⟩ := ha
  refine (W10_arr m ρ c 7).trans ?_
  refine (Region.region3_value (V9 m ρ) c (U1L0 m c) (c1L0 m c) (U2L0 m c) (c2L0 m c)
    (r1_updW1_v29 (W8 m ρ c) _ ((r1_keep1_W8 m ρ c main_arg10 r1_free1_arg10).trans a10))
    (r1_updW1_v30 (W8 m ρ c) _ ((r1_keep1_W8 m ρ c main_arg10 r1_free1_arg10).trans a10))
    (r1_updW1_v33 (W8 m ρ c) _ ((r1_keep1_W8 m ρ c main_arg11 r1_free1_arg11).trans a11))
    (r1_updW1_v35 (W8 m ρ c) _ ((r1_keep1_W8 m ρ c main_arg12 r1_free1_arg12).trans a12))
    (r1_updW1_v38 (W8 m ρ c) _ ((r1_keep1_W8 m ρ c main_arg13 r1_free1_arg13).trans a13))).trans ?_
  show rows2 _ (W9 m ρ c (Proc.devRef .tc main_v5)) (W9 m ρ c (Proc.devRef .tc main_v26)) = _
  rw [(r1_v5_W9 m ρ c).trans hh, hs]

/-- Round 1: from the contents at region 1's exit to the contents at region 3's exit. -/
theorem round1_chain (e : Mat 320000 32) (h : Mat 20000 128) (hr : Take.InRange (edges m c))
    (h1 : W4 m ρ c (Proc.devRef .tc main_v1) = Take.srcIdx (edges m c))
    (h3 : W4 m ρ c (Proc.devRef .tc main_v3) = Take.dstIdx (edges m c))
    (h7 : W4 m ρ c (Proc.devRef .tc main_v7) = e)
    (hh : W4 m ρ c (Proc.devRef .tc main_v5) = h)
    (ha : ArgsAt m c (W4 m ρ c)) :
    W10 m ρ c (Proc.devRef .tc main_v39)
        = Gnn.round (gdK m c) (gsK m c) (aggK m c) e (W1L0 m c) (b1L0 m c) (W2L0 m c) (b2L0 m c)
            (U1L0 m c) (c1L0 m c) (U2L0 m c) (c2L0 m c) h
      ∧ W10 m ρ c (Proc.devRef .tc main_v1) = Take.srcIdx (edges m c)
      ∧ W10 m ρ c (Proc.devRef .tc main_v3) = Take.dstIdx (edges m c)
      ∧ W10 m ρ c (Proc.devRef .tc main_v7) = e
      ∧ ArgsAt m c (W10 m ρ c) := by
  refine ⟨?_, (r1_keep1_W10 m ρ c main_v1 r1_free1_v1).trans h1, (r1_keep1_W10 m ρ c main_v3 r1_free1_v3).trans h3,
    (r1_v7_W10 m ρ c).trans h7, r1_args1_W10 m ρ c ha⟩
  exact r1_out1 m ρ c h _ hh (r1_agg1 m ρ c _ h3 (r1_msgs1 m ρ c e h hr h1 h3 h7 hh ha)) ha

end Cert.KernelIdeal.Chain

end
-- ==== Proof.KRegion4.lean ====
/-
  REGION 4 AS A WHOLE: the message of every edge. The three row-tiled inputs move with the output, block by block; the
  six weight operands are whole arrays at every point; so the array ends holding the message function of the rows with
  the same number in the three inputs.
-/
import proofs.«404104_j10677288698628_1_alg».proof.Proof.KBodyMsg

set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx Idealize.ShloMosaic.RowOps

/-! ## The index maps, decided over the hundred grid points

  A row-tiled window (the three inputs and the output) has block index (t, 0) at point t; a weight window (0, 0). -/

theorem idxR4_0 : ∀ t : Fin cfg4.N, (win4_0.index t (0 : Fin 2) = t.val ∧ win4_0.index t (1 : Fin 2) = 0) :=
  (by decide +kernel : ∀ t : Fin grid4.N, _)
theorem idxR4_1 : ∀ t : Fin cfg4.N, (win4_1.index t (0 : Fin 2) = t.val ∧ win4_1.index t (1 : Fin 2) = 0) :=
  (by decide +kernel : ∀ t : Fin grid4.N, _)
theorem idxR4_2 : ∀ t : Fin cfg4.N, (win4_2.index t (0 : Fin 2) = t.val ∧ win4_2.index t (1 : Fin 2) = 0) :=
  (by decide +kernel : ∀ t : Fin grid4.N, _)
theorem idxR4_9 : ∀ t : Fin cfg4.N, (win4_9.index t (0 : Fin 2) = t.val ∧ win4_9.index t (1 : Fin 2) = 0) :=
  (by decide +kernel : ∀ t : Fin grid4.N, _)
theorem idxW4_3 : ∀ t : Fin cfg4.N, (win4_3.index t (0 : Fin 2) = 0 ∧ win4_3.index t (1 : Fin 2) = 0) :=
  (by decide +kernel : ∀ t : Fin grid4.N, _)
theorem idxW4_4 : ∀ t : Fin cfg4.N, (win4_4.index t (0 : Fin 2) = 0 ∧ win4_4.index t (1 : Fin 2) = 0) :=
  (by decide +kernel : ∀ t : Fin grid4.N, _)
theorem idxW4_5 : ∀ t : Fin cfg4.N, (win4_5.index t (0 : Fin 2) = 0 ∧ win4_5.index t (1 : Fin 2) = 0) :=
  (by decide +kernel : ∀ t : Fin grid4.N, _)
theorem idxW4_6 : ∀ t : Fin cfg4.N, (win4_6.index t (0 : Fin 2) = 0 ∧ win4_6.index t (1 : Fin 2) = 0) :=
  (by decide +kernel : ∀ t : Fin grid4.N, _)
theorem idxW4_7 : ∀ t : Fin cfg4.N, (win4_7.index t (0 : Fin 2) = 0 ∧ win4_7.index t (1 : Fin 2) = 0) :=
  (by decide +kernel : ∀ t : Fin grid4.N, _)
theorem idxW4_8 : ∀ t : Fin cfg4.N, (win4_8.index t (0 : Fin 2) = 0 ∧ win4_8.index t (1 : Fin 2) = 0) :=
  (by decide +kernel : ∀ t : Fin grid4.N, _)

/-! ## One grid point, over matrices of the literal sizes

  If the weight blocks are the host's bands and casts, and entry (p, k) of each input block is entry (3200 n + p, k) of
  its array, then the body's output block is, entry by entry, the message function of the arrays' rows 3200 n + p. -/

theorem point4 (x0 x1 : Mat 3200 128) (x2 : Mat 3200 32) (x3 x4 : Mat 128 128) (x5 : Mat 32 128) (x6 : Mat 1 128)
    (x7 : Mat 128 128) (x8 : Mat 1 128) (A0 A1 : Mat 320000 128) (A2 : Mat 320000 32)
    (W1 : Mat 288 128) (b1 : Arr 128) (W2 : Mat 128 128) (b2 : Arr 128)
    (e3 : x3 = extractStridedSlice S128x128 ![0, 0] W1 slices_S288x128_S128x128_0_0)
    (e4 : x4 = extractStridedSlice S128x128 ![128, 0] W1 slices_S288x128_S128x128_128_0)
    (e5 : x5 = extractStridedSlice S32x128 ![256, 0] W1 slices_S288x128_S32x128_256_0)
    (e6 : x6 = shapeCast S1x128 b1 shapeCasts_S128_S1x128)
    (e7 : x7 = W2)
    (e8 : x8 = shapeCast S1x128 b2 shapeCasts_S128_S1x128)
    (n : Nat)
    (r0 : ∀ (p : Fin 3200) (k : Fin 128) (q : Fin 320000), q.val = n * 3200 + p.val → x0 (ix2 p k) = A0 (ix2 q k))
    (r1 : ∀ (p : Fin 3200) (k : Fin 128) (q : Fin 320000), q.val = n * 3200 + p.val → x1 (ix2 p k) = A1 (ix2 q k))
    (r2 : ∀ (p : Fin 3200) (k : Fin 32) (q : Fin 320000), q.val = n * 3200 + p.val → x2 (ix2 p k) = A2 (ix2 q k))
    (y : (⟨2, ![3200, 128]⟩ : Shape).Idx) (i : (⟨2, ![320000, 128]⟩ : Shape).Idx)
    (hi0 : (i 0).val = n * 3200 + (y 0).val) (hi1 : (i 1).val = (y 1).val) :
    out4_9 (F := Ideal) x0 x1 x2 x3 x4 x5 x6 x7 x8 y = rows3 (Gnn.msgRow W1 b1 W2 b2) A0 A1 A2 i := by
  rw [e3, e4, e5, e6, e7, e8, Body.msg_body4]
  have h0 : row x0 ⟨(y 0).val, idx2_lt0 y⟩ = row A0 ⟨(i 0).val, idx2_lt0 i⟩ :=
    funext fun k => r0 ⟨(y 0).val, idx2_lt0 y⟩ k ⟨(i 0).val, idx2_lt0 i⟩ hi0
  have h1 : row x1 ⟨(y 0).val, idx2_lt0 y⟩ = row A1 ⟨(i 0).val, idx2_lt0 i⟩ :=
    funext fun k => r1 ⟨(y 0).val, idx2_lt0 y⟩ k ⟨(i 0).val, idx2_lt0 i⟩ hi0
  have h2 : row x2 ⟨(y 0).val, idx2_lt0 y⟩ = row A2 ⟨(i 0).val, idx2_lt0 i⟩ :=
    funext fun k => r2 ⟨(y 0).val, idx2_lt0 y⟩ k ⟨(i 0).val, idx2_lt0 i⟩ hi0
  have hk : (⟨(y 1).val, idx2_lt1 y⟩ : Fin 128) = ⟨(i 1).val, idx2_lt1 i⟩ := Fin.ext hi1.symm
  show Gnn.msgRow W1 b1 W2 b2 (row x0 ⟨(y 0).val, idx2_lt0 y⟩) (row x1 ⟨(y 0).val, idx2_lt0 y⟩)
      (row x2 ⟨(y 0).val, idx2_lt0 y⟩) ⟨(y 1).val, idx2_lt1 y⟩
    = Gnn.msgRow W1 b1 W2 b2 (row A0 ⟨(i 0).val, idx2_lt0 i⟩) (row A1 ⟨(i 0).val, idx2_lt0 i⟩)
      (row A2 ⟨(i 0).val, idx2_lt0 i⟩) ⟨(i 1).val, idx2_lt1 i⟩
  rw [h0, h1, h2, hk]

variable (V : (c : Dev nD) → (b : Ref sig .tc) → Buf (Elt Ideal) ((c : Thread nD τ).loc b))

/-! ## The blocks read off the arrays -/

/-- Window 3's block at every point is its whole array: the block is the full rectangle at offset (0, 0). -/
theorem wblk4_3 (c : Dev nD) (t : Fin cfg4.N) : iblk4 V c 3 t = V c main_v44 := by
  obtain ⟨e0, e1⟩ := idxW4_3 t
  funext y
  show V c main_v44 (((cfg4.win 3).blk t).view.emb y) = V c main_v44 y
  congr 1
  funext a; apply Fin.ext
  match a with
  | ⟨0, _⟩ => show win4_3.index t (0 : Fin 2) * 128 + 1 * (y 0).val = (y 0).val; omega
  | ⟨1, _⟩ => show win4_3.index t (1 : Fin 2) * 128 + 1 * (y 1).val = (y 1).val; omega

/-- Window 4's block at every point is its whole array: the block is the full rectangle at offset (0, 0). -/
theorem wblk4_4 (c : Dev nD) (t : Fin cfg4.N) : iblk4 V c 4 t = V c main_v45 := by
  obtain ⟨e0, e1⟩ := idxW4_4 t
  funext y
  show V c main_v45 (((cfg4.win 4).blk t).view.emb y) = V c main_v45 y
  congr 1
  funext a; apply Fin.ext
  match a with
  | ⟨0, _⟩ => show win4_4.index t (0 : Fin 2) * 128 + 1 * (y 0).val = (y 0).val; omega
  | ⟨1, _⟩ => show win4_4.index t (1 : Fin 2) * 128 + 1 * (y 1).val = (y 1).val; omega

/-- Window 5's block at every point is its whole array: the block is the full rectangle at offset (0, 0). -/
theorem wblk4_5 (c : Dev nD) (t : Fin cfg4.N) : iblk4 V c 5 t = V c main_v46 := by
  obtain ⟨e0, e1⟩ := idxW4_5 t
  funext y
  show V c main_v46 (((cfg4.win 5).blk t).view.emb y) = V c main_v46 y
  congr 1
  funext a; apply Fin.ext
  match a with
  | ⟨0, _⟩ => show win4_5.index t (0 : Fin 2) * 32 + 1 * (y 0).val = (y 0).val; omega
  | ⟨1, _⟩ => show win4_5.index t (1 : Fin 2) * 128 + 1 * (y 1).val = (y 1).val; omega

/-- Window 6's block at every point is its whole array: the block is the full rectangle at offset (0, 0). -/
theorem wblk4_6 (c : Dev nD) (t : Fin cfg4.N) : iblk4 V c 6 t = V c main_v49 := by
  obtain ⟨e0, e1⟩ := idxW4_6 t
  funext y
  show V c main_v49 (((cfg4.win 6).blk t).view.emb y) = V c main_v49 y
  congr 1
  funext a; apply Fin.ext
  match a with
  | ⟨0, _⟩ => show win4_6.index t (0 : Fin 2) * 1 + 1 * (y 0).val = (y 0).val; omega
  | ⟨1, _⟩ => show win4_6.index t (1 : Fin 2) * 128 + 1 * (y 1).val = (y 1).val; omega

/-- Window 7's block at every point is its whole array: the block is the full rectangle at offset (0, 0). -/
theorem wblk4_7 (c : Dev nD) (t : Fin cfg4.N) : iblk4 V c 7 t = V c main_v51 := by
  obtain ⟨e0, e1⟩ := idxW4_7 t
  funext y
  show V c main_v51 (((cfg4.win 7).blk t).view.emb y) = V c main_v51 y
  congr 1
  funext a; apply Fin.ext
  match a with
  | ⟨0, _⟩ => show win4_7.index t (0 : Fin 2) * 128 + 1 * (y 0).val = (y 0).val; omega
  | ⟨1, _⟩ => show win4_7.index t (1 : Fin 2) * 128 + 1 * (y 1).val = (y 1).val; omega

/-- Window 8's block at every point is its whole array: the block is the full rectangle at offset (0, 0). -/
theorem wblk4_8 (c : Dev nD) (t : Fin cfg4.N) : iblk4 V c 8 t = V c main_v54 := by
  obtain ⟨e0, e1⟩ := idxW4_8 t
  funext y
  show V c main_v54 (((cfg4.win 8).blk t).view.emb y) = V c main_v54 y
  congr 1
  funext a; apply Fin.ext
  match a with
  | ⟨0, _⟩ => show win4_8.index t (0 : Fin 2) * 1 + 1 * (y 0).val = (y 0).val; omega
  | ⟨1, _⟩ => show win4_8.index t (1 : Fin 2) * 128 + 1 * (y 1).val = (y 1).val; omega

/-- Entry (p, k) of window 0's block at point t is entry (3200 t + p, k) of its array. -/
theorem iblk4_0_apply (c : Dev nD) (t : Fin cfg4.N) (p : Fin 3200) (k : Fin 128) (q : Fin 320000)
    (hq : q.val = t.val * 3200 + p.val) :
    (iblk4 V c 0 t : Mat 3200 128) (ix2 p k) = (V c main_v40 : Mat 320000 128) (ix2 q k) := by
  obtain ⟨e0, e1⟩ := idxR4_0 t
  show V c main_v40 (((cfg4.win 0).blk t).view.emb (ix2 p k)) = V c main_v40 (ix2 q k)
  congr 1
  funext a; apply Fin.ext
  match a with
  | ⟨0, _⟩ => show win4_0.index t (0 : Fin 2) * 3200 + 1 * p.val = q.val; omega
  | ⟨1, _⟩ => show win4_0.index t (1 : Fin 2) * 128 + 1 * k.val = k.val; omega

/-- Entry (p, k) of window 1's block at point t is entry (3200 t + p, k) of its array. -/
theorem iblk4_1_apply (c : Dev nD) (t : Fin cfg4.N) (p : Fin 3200) (k : Fin 128) (q : Fin 320000)
    (hq : q.val = t.val * 3200 + p.val) :
    (iblk4 V c 1 t : Mat 3200 128) (ix2 p k) = (V c main_v41 : Mat 320000 128) (ix2 q k) := by
  obtain ⟨e0, e1⟩ := idxR4_1 t
  show V c main_v41 (((cfg4.win 1).blk t).view.emb (ix2 p k)) = V c main_v41 (ix2 q k)
  congr 1
  funext a; apply Fin.ext
  match a with
  | ⟨0, _⟩ => show win4_1.index t (0 : Fin 2) * 3200 + 1 * p.val = q.val; omega
  | ⟨1, _⟩ => show win4_1.index t (1 : Fin 2) * 128 + 1 * k.val = k.val; omega

/-- Entry (p, k) of window 2's block at point t is entry (3200 t + p, k) of its array. -/
theorem iblk4_2_apply (c : Dev nD) (t : Fin cfg4.N) (p : Fin 3200) (k : Fin 32) (q : Fin 320000)
    (hq : q.val = t.val * 3200 + p.val) :
    (iblk4 V c 2 t : Mat 3200 32) (ix2 p k) = (V c main_v7 : Mat 320000 32) (ix2 q k) := by
  obtain ⟨e0, e1⟩ := idxR4_2 t
  show V c main_v7 (((cfg4.win 2).blk t).view.emb (ix2 p k)) = V c main_v7 (ix2 q k)
  congr 1
  funext a; apply Fin.ext
  match a with
  | ⟨0, _⟩ => show win4_2.index t (0 : Fin 2) * 3200 + 1 * p.val = q.val; omega
  | ⟨1, _⟩ => show win4_2.index t (1 : Fin 2) * 32 + 1 * k.val = k.val; omega

/-- An element of the output's block at point t sits in the array at row 3200 t + its row, same column. -/
theorem emb4_9 (t : Fin cfg4.N) (y : (⟨2, ![3200, 128]⟩ : Shape).Idx) :
    ((((cfg4.win 9).blk t).view.emb y : (⟨2, ![320000, 128]⟩ : Shape).Idx) 0).val = t.val * 3200 + (y 0).val
    ∧ ((((cfg4.win 9).blk t).view.emb y : (⟨2, ![320000, 128]⟩ : Shape).Idx) 1).val = (y 1).val := by
  obtain ⟨e0, e1⟩ := idxR4_9 t
  constructor
  · show win4_9.index t (0 : Fin 2) * 3200 + 1 * (y 0).val = t.val * 3200 + (y 0).val; omega
  · show win4_9.index t (1 : Fin 2) * 128 + 1 * (y 1).val = (y 1).val; omega

/-! ## What a point writes back, and the cover -/

/-- WHAT POINT t WRITES BACK is block t of the message function of the three arrays, row by row. -/
theorem flushed4_eq (c : Dev nD) (W1 : Mat 288 128) (b1 : Arr 128) (W2 : Mat 128 128) (b2 : Arr 128)
    (h3 : V c main_v44 = extractStridedSlice S128x128 ![0, 0] W1 slices_S288x128_S128x128_0_0)
    (h4 : V c main_v45 = extractStridedSlice S128x128 ![128, 0] W1 slices_S288x128_S128x128_128_0)
    (h5 : V c main_v46 = extractStridedSlice S32x128 ![256, 0] W1 slices_S288x128_S32x128_256_0)
    (h6 : V c main_v49 = shapeCast S1x128 b1 shapeCasts_S128_S1x128)
    (h7 : V c main_v51 = W2)
    (h8 : V c main_v54 = shapeCast S1x128 b2 shapeCasts_S128_S1x128) (t : Fin cfg4.N) :
    (dat4 V c).flushed 9 t = ((cfg4.win 9).blk t).view.read (Elt Ideal)
      (rows3 (Gnn.msgRow W1 b1 W2 b2) (V c main_v40) (V c main_v41) (V c main_v7)) := by
  show (cfg4.win 9).cut (grid4.coords t) ((dat4 V c).after 9 t) = _
  rw [after4_9]
  funext y
  obtain ⟨hy0, hy1⟩ := emb4_9 t y
  exact point4 (iblk4 V c 0 t) (iblk4 V c 1 t) (iblk4 V c 2 t) (iblk4 V c 3 t) (iblk4 V c 4 t)
    (iblk4 V c 5 t) (iblk4 V c 6 t) (iblk4 V c 7 t) (iblk4 V c 8 t) (V c main_v40) (V c main_v41) (V c main_v7)
    W1 b1 W2 b2 ((wblk4_3 V c t).trans h3) ((wblk4_4 V c t).trans h4) ((wblk4_5 V c t).trans h5)
    ((wblk4_6 V c t).trans h6) ((wblk4_7 V c t).trans h7) ((wblk4_8 V c t).trans h8) t.val
    (iblk4_0_apply V c t) (iblk4_1_apply V c t) (iblk4_2_apply V c t) y (((cfg4.win 9).blk t).view.emb y) hy0 hy1

/-- An index of the array is in point t's block iff each coordinate is in the block's range on its axis. -/
theorem mem_blk4 (t : Fin cfg4.N) (i : S320000x128.Idx) :
    i ∈ ((cfg4.win 9).blk t).view.set ↔ ∀ a : Fin 2, win4_9.index t a * S3200x128.size a ≤ (i a).val ∧ (i a).val < win4_9.index t a * S3200x128.size a + S3200x128.size a := by
  show i ∈ ((View.whole main_v55).slice (win4_9.rect t)).set ↔ _
  rw [View.set_slice_whole, Rect.mem_set_unit]
  exact Iff.rfl

/-- Row r of the array is in the block of point r / 3200: the hundred blocks of 3200 rows tile the 320000 rows. -/
theorem cover4 (i : S320000x128.Idx) :
    ∃ t : Fin cfg4.N, (cfg4.win 9).flush t = true ∧ i ∈ ((cfg4.win 9).blk t).view.set := by
  have hi0 : (i 0).val < 320000 := (i 0).isLt
  have hi1 : (i 1).val < 128 := (i 1).isLt
  have hN : cfg4.N = 100 := N_4
  obtain ⟨t, ht⟩ : ∃ t : Fin cfg4.N, t.val = (i 0).val / 3200 := ⟨⟨(i 0).val / 3200, by rw [hN]; omega⟩, rfl⟩
  obtain ⟨e0, e1⟩ := idxR4_9 t
  refine ⟨t, flush4_9 t, ?_⟩
  rw [mem_blk4]
  intro a
  match a with
  | ⟨0, _⟩ => show win4_9.index t (0 : Fin 2) * 3200 ≤ (i 0).val ∧ (i 0).val < win4_9.index t (0 : Fin 2) * 3200 + 3200; omega
  | ⟨1, _⟩ => show win4_9.index t (1 : Fin 2) * 128 ≤ (i 1).val ∧ (i 1).val < win4_9.index t (1 : Fin 2) * 128 + 128; omega

/-- The messages' array after the region, the weight operands being the bands and casts the host made of `W1`, `b1`, `W2`, `b2`. -/
theorem region4_value (c : Dev nD) (W1 : Mat 288 128) (b1 : Arr 128) (W2 : Mat 128 128) (b2 : Arr 128)
    (h3 : V c main_v44 = extractStridedSlice S128x128 ![0, 0] W1 slices_S288x128_S128x128_0_0)
    (h4 : V c main_v45 = extractStridedSlice S128x128 ![128, 0] W1 slices_S288x128_S128x128_128_0)
    (h5 : V c main_v46 = extractStridedSlice S32x128 ![256, 0] W1 slices_S288x128_S32x128_256_0)
    (h6 : V c main_v49 = shapeCast S1x128 b1 shapeCasts_S128_S1x128)
    (h7 : V c main_v51 = W2)
    (h8 : V c main_v54 = shapeCast S1x128 b2 shapeCasts_S128_S1x128) :
    (dat4 V c).arrAt 9 cfg4.N = rows3 (Gnn.msgRow W1 b1 W2 b2) (V c main_v40) (V c main_v41) (V c main_v7) :=
  (dat4 V c).arrAt_eq_of_cover 9 _ (fun t _ => flushed4_eq V c W1 b1 W2 b2 h3 h4 h5 h6 h7 h8 t) (cover4)

end Cert.KernelIdeal.Region

end
-- ==== Proof.KRegion5.lean ====
/-
  REGION 5 AS A WHOLE: the update of every node. The two row-tiled inputs (the nodes' rows and their aggregated
  messages) move with the output; the five weight operands are whole arrays at every point.
-/
import proofs.«404104_j10677288698628_1_alg».proof.Proof.KBodyUpd

set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx Idealize.ShloMosaic.RowOps

variable (V : (c : Dev nD) → (b : Ref sig .tc) → Buf (Elt Ideal) ((c : Thread nD τ).loc b))

/-- A row-wise function of two matrices, read at entry `j`, agrees with the same function of two taller matrices read at
    entry `i`, when row `j 0` of each short matrix is row `i 0` of the tall one and the columns are the same. -/
theorem upd5_rows_of_block {A B C₁ C₂ D : Nat} (f : (Fin C₁ → EReal) → (Fin C₂ → EReal) → Fin D → EReal)
    (X0 : Mat A C₁) (X1 : Mat A C₂) (x0 : Mat B C₁) (x1 : Mat B C₂)
    (j : (⟨2, ![B, D]⟩ : Shape).Idx) (i : (⟨2, ![A, D]⟩ : Shape).Idx)
    (h0 : ∀ q : Fin C₁, x0 (ix2 ⟨(j 0).val, idx2_lt0 j⟩ q) = X0 (ix2 ⟨(i 0).val, idx2_lt0 i⟩ q))
    (h1 : ∀ q : Fin C₂, x1 (ix2 ⟨(j 0).val, idx2_lt0 j⟩ q) = X1 (ix2 ⟨(i 0).val, idx2_lt0 i⟩ q))
    (hq : (j 1).val = (i 1).val) :
    rows2 f x0 x1 j = rows2 f X0 X1 i := by
  show f (row x0 ⟨(j 0).val, idx2_lt0 j⟩) (row x1 ⟨(j 0).val, idx2_lt0 j⟩) ⟨(j 1).val, idx2_lt1 j⟩
    = f (row X0 ⟨(i 0).val, idx2_lt0 i⟩) (row X1 ⟨(i 0).val, idx2_lt0 i⟩) ⟨(i 1).val, idx2_lt1 i⟩
  have r0 : row x0 ⟨(j 0).val, idx2_lt0 j⟩ = row X0 ⟨(i 0).val, idx2_lt0 i⟩ := funext h0
  have r1 : row x1 ⟨(j 0).val, idx2_lt0 j⟩ = row X1 ⟨(i 0).val, idx2_lt0 i⟩ := funext h1
  rw [r0, r1]
  exact congrArg _ (Fin.ext hq)

/-- The printed index maps over the five points: the two row-tiled inputs and the output sit at block `(t, 0)`, each
    weight operand at block `(0, 0)`. -/
theorem upd5_index : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0 :=
  (by decide +kernel : ∀ t : Fin grid5.N, _)

/-! ## The weight operands: the block at offset zero of the full size is the array -/

theorem upd5_blk2 (c : Dev nD) (t : Fin cfg5.N) : (iblk5 V c 2 t : Mat 128 128) = V c main_v61 := by
  obtain ⟨-, -, -, -, e0, e1, -⟩ := upd5_index t
  funext y
  unfold iblk5
  rw [View.read_apply]
  show V c main_v61 _ = V c main_v61 y
  congr 1
  funext a
  apply Fin.ext
  match a with
  | ⟨0, _⟩ => show win5_2.index t (0 : Fin 2) * 128 + 1 * (y 0).val = (y 0).val; rw [e0]; omega
  | ⟨1, _⟩ => show win5_2.index t (1 : Fin 2) * 128 + 1 * (y 1).val = (y 1).val; rw [e1]; omega

theorem upd5_blk3 (c : Dev nD) (t : Fin cfg5.N) : (iblk5 V c 3 t : Mat 128 128) = V c main_v62 := by
  obtain ⟨-, -, -, -, -, -, e0, e1, -⟩ := upd5_index t
  funext y
  unfold iblk5
  rw [View.read_apply]
  show V c main_v62 _ = V c main_v62 y
  congr 1
  funext a
  apply Fin.ext
  match a with
  | ⟨0, _⟩ => show win5_3.index t (0 : Fin 2) * 128 + 1 * (y 0).val = (y 0).val; rw [e0]; omega
  | ⟨1, _⟩ => show win5_3.index t (1 : Fin 2) * 128 + 1 * (y 1).val = (y 1).val; rw [e1]; omega

theorem upd5_blk4 (c : Dev nD) (t : Fin cfg5.N) : (iblk5 V c 4 t : Vec Ideal S1x128 .f32) = V c main_v65 := by
  obtain ⟨-, -, -, -, -, -, -, -, e0, e1, -⟩ := upd5_index t
  funext y
  unfold iblk5
  rw [View.read_apply]
  show V c main_v65 _ = V c main_v65 y
  congr 1
  funext a
  apply Fin.ext
  match a with
  | ⟨0, _⟩ => show win5_4.index t (0 : Fin 2) * 1 + 1 * (y 0).val = (y 0).val; rw [e0]; omega
  | ⟨1, _⟩ => show win5_4.index t (1 : Fin 2) * 128 + 1 * (y 1).val = (y 1).val; rw [e1]; omega

theorem upd5_blk5 (c : Dev nD) (t : Fin cfg5.N) : (iblk5 V c 5 t : Mat 128 128) = V c main_v67 := by
  obtain ⟨-, -, -, -, -, -, -, -, -, -, e0, e1, -⟩ := upd5_index t
  funext y
  unfold iblk5
  rw [View.read_apply]
  show V c main_v67 _ = V c main_v67 y
  congr 1
  funext a
  apply Fin.ext
  match a with
  | ⟨0, _⟩ => show win5_5.index t (0 : Fin 2) * 128 + 1 * (y 0).val = (y 0).val; rw [e0]; omega
  | ⟨1, _⟩ => show win5_5.index t (1 : Fin 2) * 128 + 1 * (y 1).val = (y 1).val; rw [e1]; omega

theorem upd5_blk6 (c : Dev nD) (t : Fin cfg5.N) : (iblk5 V c 6 t : Vec Ideal S1x128 .f32) = V c main_v70 := by
  obtain ⟨-, -, -, -, -, -, -, -, -, -, -, -, e0, e1, -⟩ := upd5_index t
  funext y
  unfold iblk5
  rw [View.read_apply]
  show V c main_v70 _ = V c main_v70 y
  congr 1
  funext a
  apply Fin.ext
  match a with
  | ⟨0, _⟩ => show win5_6.index t (0 : Fin 2) * 1 + 1 * (y 0).val = (y 0).val; rw [e0]; omega
  | ⟨1, _⟩ => show win5_6.index t (1 : Fin 2) * 128 + 1 * (y 1).val = (y 1).val; rw [e1]; omega

/-! ## The row-tiled operands: entry `(p, q)` of block `t` is entry `(4000 t + p, q)` of the array -/

theorem upd5_blk0_apply (c : Dev nD) (t : Fin cfg5.N) (x : S4000x128.Idx) (k : S20000x128.Idx)
    (hk0 : (k 0).val = t.val * 4000 + (x 0).val) (hk1 : (k 1).val = (x 1).val) :
    (iblk5 V c 0 t : Mat 4000 128) x = (V c main_v39 : Mat 20000 128) k := by
  obtain ⟨e0, e1, -⟩ := upd5_index t
  unfold iblk5
  rw [View.read_apply]
  show V c main_v39 _ = V c main_v39 k
  congr 1
  funext a
  apply Fin.ext
  match a with
  | ⟨0, _⟩ => show win5_0.index t (0 : Fin 2) * 4000 + 1 * (x 0).val = (k 0).val; rw [e0, hk0]; omega
  | ⟨1, _⟩ => show win5_0.index t (1 : Fin 2) * 128 + 1 * (x 1).val = (k 1).val; rw [e1, hk1]; omega

theorem upd5_blk1_apply (c : Dev nD) (t : Fin cfg5.N) (x : S4000x128.Idx) (k : S20000x128.Idx)
    (hk0 : (k 0).val = t.val * 4000 + (x 0).val) (hk1 : (k 1).val = (x 1).val) :
    (iblk5 V c 1 t : Mat 4000 128) x = (V c main_v58 : Mat 20000 128) k := by
  obtain ⟨-, -, e0, e1, -⟩ := upd5_index t
  unfold iblk5
  rw [View.read_apply]
  show V c main_v58 _ = V c main_v58 k
  congr 1
  funext a
  apply Fin.ext
  match a with
  | ⟨0, _⟩ => show win5_1.index t (0 : Fin 2) * 4000 + 1 * (x 0).val = (k 0).val; rw [e0, hk0]; omega
  | ⟨1, _⟩ => show win5_1.index t (1 : Fin 2) * 128 + 1 * (x 1).val = (k 1).val; rw [e1, hk1]; omega

/-- Where entry `y` of the output's block `t` sits in the output array. -/
theorem upd5_out_emb (t : Fin cfg5.N) (y : S4000x128.Idx) :
    ((((cfg5.win 7).blk t).view.emb y) 0).val = t.val * 4000 + (y 0).val
    ∧ ((((cfg5.win 7).blk t).view.emb y) 1).val = (y 1).val := by
  obtain ⟨-, -, -, -, -, -, -, -, -, -, -, -, -, -, e0, e1⟩ := upd5_index t
  constructor
  · show win5_7.index t (0 : Fin 2) * 4000 + 1 * (y 0).val = t.val * 4000 + (y 0).val
    rw [e0]; omega
  · show win5_7.index t (1 : Fin 2) * 128 + 1 * (y 1).val = (y 1).val
    rw [e1]; omega

/-- The body at literal operands: with the weight operands in the host's forms it is the update applied row by row. -/
theorem upd5_body_at (x0 x1 : Mat 4000 128) (w2 w3 : Mat 128 128) (w4 : Vec Ideal S1x128 .f32) (w5 : Mat 128 128)
    (w6 : Vec Ideal S1x128 .f32) (U1 : Mat 256 128) (c1 : Arr 128) (U2 : Mat 128 128) (c2 : Arr 128)
    (e2 : w2 = extractStridedSlice S128x128 ![0, 0] U1 slices_S256x128_S128x128_0_0)
    (e3 : w3 = extractStridedSlice S128x128 ![128, 0] U1 slices_S256x128_S128x128_128_0)
    (e4 : w4 = shapeCast S1x128 c1 shapeCasts_S128_S1x128)
    (e5 : w5 = U2)
    (e6 : w6 = shapeCast S1x128 c2 shapeCasts_S128_S1x128) :
    out5_7 (F := Ideal) x0 x1 w2 w3 w4 w5 w6 = rows2 (Gnn.updRow U1 c1 U2 c2) x0 x1 := by
  rw [e2, e3, e4, e5, e6]
  exact Body.upd_body5 x0 x1 U1 c1 U2 c2

/-- WHAT POINT `t` WRITES BACK is block `t` of the update applied row by row to the two input arrays. -/
theorem upd5_flushed (c : Dev nD) (U1 : Mat 256 128) (c1 : Arr 128) (U2 : Mat 128 128) (c2 : Arr 128)
    (h2 : V c main_v61 = extractStridedSlice S128x128 ![0, 0] U1 slices_S256x128_S128x128_0_0)
    (h3 : V c main_v62 = extractStridedSlice S128x128 ![128, 0] U1 slices_S256x128_S128x128_128_0)
    (h4 : V c main_v65 = shapeCast S1x128 c1 shapeCasts_S128_S1x128)
    (h5 : V c main_v67 = U2)
    (h6 : V c main_v70 = shapeCast S1x128 c2 shapeCasts_S128_S1x128) (t : Fin cfg5.N) :
    (dat5 V c).flushed 7 t
      = ((cfg5.win 7).blk t).view.read (Elt Ideal)
          (rows2 (Gnn.updRow U1 c1 U2 c2) (V c main_v39) (V c main_v58)) := by
  show (cfg5.win 7).cut (grid5.coords t) ((dat5 V c).after 7 t) = _
  rw [after5_7]
  funext y
  refine (congrFun (upd5_body_at (iblk5 V c 0 t) (iblk5 V c 1 t) (iblk5 V c 2 t) (iblk5 V c 3 t)
    (iblk5 V c 4 t) (iblk5 V c 5 t) (iblk5 V c 6 t) U1 c1 U2 c2 ((upd5_blk2 V c t).trans h2)
    ((upd5_blk3 V c t).trans h3) ((upd5_blk4 V c t).trans h4) ((upd5_blk5 V c t).trans h5)
    ((upd5_blk6 V c t).trans h6)) _).trans ?_
  show rows2 (A := 4000) (Gnn.updRow U1 c1 U2 c2) (iblk5 V c 0 t) (iblk5 V c 1 t) _
    = rows2 (A := 20000) (Gnn.updRow U1 c1 U2 c2) (V c main_v39) (V c main_v58) (((cfg5.win 7).blk t).view.emb y)
  obtain ⟨k0, k1⟩ := upd5_out_emb t y
  refine upd5_rows_of_block (A := 20000) (B := 4000) _ _ _ _ _ _ _ (fun q => ?_) (fun q => ?_) k1.symm
  · exact upd5_blk0_apply V c t _ _ k0 rfl
  · exact upd5_blk1_apply V c t _ _ k0 rfl

/-- An index of the output array is in point `t`'s block iff each coordinate is in the block's range on its axis. -/
theorem upd5_mem (t : Fin cfg5.N) (i : S20000x128.Idx) :
    i ∈ ((cfg5.win 7).blk t).view.set
      ↔ ∀ a : Fin 2, win5_7.index t a * S4000x128.size a ≤ (i a).val
          ∧ (i a).val < win5_7.index t a * S4000x128.size a + S4000x128.size a := by
  show i ∈ ((View.whole main_v71).slice (win5_7.rect t)).set ↔ _
  rw [View.set_slice_whole, Rect.mem_set_unit]
  exact Iff.rfl

/-- Row `r` of the output is written by point `r / 4000`: the five blocks of 4000 rows tile the 20000 rows. -/
theorem upd5_cover (i : S20000x128.Idx) :
    ∃ t : Fin cfg5.N, (cfg5.win 7).flush t = true ∧ i ∈ ((cfg5.win 7).blk t).view.set := by
  have hi0 : (i 0).val < 20000 := (i 0).isLt
  have hi1 : (i 1).val < 128 := (i 1).isLt
  have hN : cfg5.N = 5 := N_5
  obtain ⟨t, ht⟩ : ∃ t : Fin cfg5.N, t.val = (i 0).val / 4000 := ⟨⟨(i 0).val / 4000, by rw [hN]; omega⟩, rfl⟩
  obtain ⟨-, -, -, -, -, -, -, -, -, -, -, -, -, -, e0, e1⟩ := upd5_index t
  refine ⟨t, flush5_7 t, ?_⟩
  rw [upd5_mem]
  intro a
  match a with
  | ⟨0, _⟩ =>
    show win5_7.index t (0 : Fin 2) * 4000 ≤ (i 0).val ∧ (i 0).val < win5_7.index t (0 : Fin 2) * 4000 + 4000
    rw [e0, ht]; omega
  | ⟨1, _⟩ =>
    show win5_7.index t (1 : Fin 2) * 128 ≤ (i 1).val ∧ (i 1).val < win5_7.index t (1 : Fin 2) * 128 + 128
    rw [e1]; omega

/-- The nodes' array after the region, the weight operands being the bands and casts the host made of `U1`, `c1`, `U2`, `c2`. -/
theorem region5_value (c : Dev nD) (U1 : Mat 256 128) (c1 : Arr 128) (U2 : Mat 128 128) (c2 : Arr 128)
    (h2 : V c main_v61 = extractStridedSlice S128x128 ![0, 0] U1 slices_S256x128_S128x128_0_0)
    (h3 : V c main_v62 = extractStridedSlice S128x128 ![128, 0] U1 slices_S256x128_S128x128_128_0)
    (h4 : V c main_v65 = shapeCast S1x128 c1 shapeCasts_S128_S1x128)
    (h5 : V c main_v67 = U2)
    (h6 : V c main_v70 = shapeCast S1x128 c2 shapeCasts_S128_S1x128) :
    (dat5 V c).arrAt 7 cfg5.N = rows2 (Gnn.updRow U1 c1 U2 c2) (V c main_v39) (V c main_v58) :=
  (dat5 V c).arrAt_eq_of_cover 7 _ (fun t _ => upd5_flushed V c U1 c1 U2 c2 h2 h3 h4 h5 h6 t) (upd5_cover)

end Cert.KernelIdeal.Region

end
-- ==== Proof.KLayer2.lean ====
/-
  ROUND 2 OF THE KERNEL PROGRAM, FROM BOUNDARY TO BOUNDARY. Between the exit of the region before it and the exit of its
  update region the program reads the nodes' rows at the edges' targets and sources (where every node number is in range
  this is the plain gather), cuts the round's weights out of the stacked arrays, runs the message region, sums the
  messages per target, and runs the update region. So the nodes' array at the exit is one round of message passing on
  the nodes' array at the entry, and the edge numbers, the edges' rows and the weight arguments are where they were.
-/
import proofs.«404104_j10677288698628_1_alg».proof.Proof.KChainDefs
import proofs.«404104_j10677288698628_1_alg».proof.Proof.KRegion4
import proofs.«404104_j10677288698628_1_alg».proof.Proof.KRegion5

set_option maxRecDepth 16384

noncomputable section

namespace Cert.KernelIdeal.Chain

open Cert.KernelIdeal Cert.KernelIdeal.Gen Idealize.ShloMosaic Idealize.ShloMosaic.TcCoe Idealize.SL.Sem
open Idealize.ShloMosaic.ValueIdx Idealize.ShloMosaic.RowOps

variable (m : (ℓ : Loc nD τ sig) → Buf (Elt Ideal) ℓ) (ρ : Dev nD → PrngReg) (c : Dev nD)

/-- The buffers the host operations `hostOps4` write. -/
abbrev r2_wr4 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v40]
theorem r2_wr4_sub : (hostOps4 : List (HloOp τ sig (Elt Ideal))).Forall fun op => op.writes ⊆ (r2_wr4.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer they do not write holds after them what it held before. -/
theorem r2_keep4 (V : Valuation τ sig (Elt Ideal)) (r : Ref sig .tc) (h : r ∉ r2_wr4) :
    StableHlo.after hostOps4 V (Proc.devRef .tc r) = V (Proc.devRef .tc r) :=
  StableHlo.after_of_writes_sub hostOps4 _ r2_wr4_sub h

/-- The buffers the host operations `hostOps4_1` write. -/
abbrev r2_wr4_1 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v41]
theorem r2_wr4_1_sub : (hostOps4_1 : List (HloOp τ sig (Elt Ideal))).Forall fun op => op.writes ⊆ (r2_wr4_1.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer they do not write holds after them what it held before. -/
theorem r2_keep4_1 (V : Valuation τ sig (Elt Ideal)) (r : Ref sig .tc) (h : r ∉ r2_wr4_1) :
    StableHlo.after hostOps4_1 V (Proc.devRef .tc r) = V (Proc.devRef .tc r) :=
  StableHlo.after_of_writes_sub hostOps4_1 _ r2_wr4_1_sub h

/-- The buffers the host operations `hostOps4_2` write. -/
abbrev r2_wr4_2 : List (Ref sig .tc) := [main_v42, main_v43, main_v44, main_v45, main_v46, main_v47, main_v48, main_v49, main_v50, main_v51, main_v52, main_v53, main_v54]
theorem r2_wr4_2_sub : (hostOps4_2 : List (HloOp τ sig (Elt Ideal))).Forall fun op => op.writes ⊆ (r2_wr4_2.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer they do not write holds after them what it held before. -/
theorem r2_keep4_2 (V : Valuation τ sig (Elt Ideal)) (r : Ref sig .tc) (h : r ∉ r2_wr4_2) :
    StableHlo.after hostOps4_2 V (Proc.devRef .tc r) = V (Proc.devRef .tc r) :=
  StableHlo.after_of_writes_sub hostOps4_2 _ r2_wr4_2_sub h

/-- The buffers the host operations `hostOps5` write. -/
abbrev r2_wr5 : List (Ref sig .tc) := [main_cst_0, main_v56, main_v57, main_v58, main_v59, main_v60, main_v61, main_v62, main_v63, main_v64, main_v65, main_v66, main_v67, main_v68, main_v69, main_v70]
theorem r2_wr5_sub : (hostOps5 : List (HloOp τ sig (Elt Ideal))).Forall fun op => op.writes ⊆ (r2_wr5.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer they do not write holds after them what it held before. -/
theorem r2_keep5 (V : Valuation τ sig (Elt Ideal)) (r : Ref sig .tc) (h : r ∉ r2_wr5) :
    StableHlo.after hostOps5 V (Proc.devRef .tc r) = V (Proc.devRef .tc r) :=
  StableHlo.after_of_writes_sub hostOps5 _ r2_wr5_sub h

/-! ### Contents at a buffer's own type -/

/-- Contents carried to a buffer's own type and back are the contents. -/
theorem r2_ofBuf_toBuf {T : BufTy} (x : StableHlo.TRef sig T) (v : T.Contents (Elt Ideal)) : x.ofBuf (x.toBuf v) = v := by
  obtain ⟨r, rfl, _, _⟩ := x; rfl

theorem r2_ofBuf_v1 (V : Valuation τ sig (Elt Ideal)) :
    (StableHlo.TRef.of main_v1 : StableHlo.TRef sig ⟨S320000, .i32⟩).ofBuf (V (Proc.devRef .tc main_v1)) = V (Proc.devRef .tc main_v1) := rfl
theorem r2_ofBuf_v3 (V : Valuation τ sig (Elt Ideal)) :
    (StableHlo.TRef.of main_v3 : StableHlo.TRef sig ⟨S320000, .i32⟩).ofBuf (V (Proc.devRef .tc main_v3)) = V (Proc.devRef .tc main_v3) := rfl
theorem r2_ofBuf_v39 (V : Valuation τ sig (Elt Ideal)) :
    (StableHlo.TRef.of main_v39 : StableHlo.TRef sig ⟨S20000x128, .f32⟩).ofBuf (V (Proc.devRef .tc main_v39)) = V (Proc.devRef .tc main_v39) := rfl
theorem r2_toBuf_v40 (X : (⟨S320000x128, .f32⟩ : BufTy).Contents (Elt Ideal)) :
    (StableHlo.TRef.of main_v40 : StableHlo.TRef sig ⟨S320000x128, .f32⟩).toBuf X = X := rfl
theorem r2_toBuf_v41 (X : (⟨S320000x128, .f32⟩ : BufTy).Contents (Elt Ideal)) :
    (StableHlo.TRef.of main_v41 : StableHlo.TRef sig ⟨S320000x128, .f32⟩).toBuf X = X := rfl

/-! ### What the host operations compute, from any contents `V` before them -/

/-- The read of the nodes' rows at the targets. -/
theorem r2_host4_v40 (V : Valuation τ sig (Elt Ideal)) :
    StableHlo.after hostOps4 V (Proc.devRef .tc main_v40) = Take.takeFill (V (Proc.devRef .tc main_v39)) (V (Proc.devRef .tc main_v3)) := by
  after_results_simp
  simp only [r2_ofBuf_toBuf]
  rw [r2_toBuf_v40, r2_ofBuf_v3, r2_ofBuf_v39]
  unfold Take.takeFill Take.inb Take.rowsAt Take.col Take.wrap
  rfl

/-- The read of the nodes' rows at the sources. -/
theorem r2_host4_1_v41 (V : Valuation τ sig (Elt Ideal)) :
    StableHlo.after hostOps4_1 V (Proc.devRef .tc main_v41) = Take.takeFill (V (Proc.devRef .tc main_v39)) (V (Proc.devRef .tc main_v1)) := by
  after_results_simp
  simp only [r2_ofBuf_toBuf]
  rw [r2_toBuf_v41, r2_ofBuf_v1, r2_ofBuf_v39]
  unfold Take.takeFill Take.inb Take.rowsAt Take.col Take.wrap
  rfl

/-! ### The round's message weights, as the message region takes them -/

theorem r2_host4_2_v44 (V : Valuation τ sig (Elt Ideal)) (ha : V (Proc.devRef .tc main_arg6) = m ((c.tc : Thread nD τ).loc main_arg6)) :
    StableHlo.after hostOps4_2 V (Proc.devRef .tc main_v44) = extractStridedSlice S128x128 ![0, 0] (W1L1 m c) slices_S288x128_S128x128_0_0 := by
  after_results_simp
  rw [ha]
  rfl

theorem r2_host4_2_v45 (V : Valuation τ sig (Elt Ideal)) (ha : V (Proc.devRef .tc main_arg6) = m ((c.tc : Thread nD τ).loc main_arg6)) :
    StableHlo.after hostOps4_2 V (Proc.devRef .tc main_v45) = extractStridedSlice S128x128 ![128, 0] (W1L1 m c) slices_S288x128_S128x128_128_0 := by
  after_results_simp
  rw [ha]
  rfl

theorem r2_host4_2_v46 (V : Valuation τ sig (Elt Ideal)) (ha : V (Proc.devRef .tc main_arg6) = m ((c.tc : Thread nD τ).loc main_arg6)) :
    StableHlo.after hostOps4_2 V (Proc.devRef .tc main_v46) = extractStridedSlice S32x128 ![256, 0] (W1L1 m c) slices_S288x128_S32x128_256_0 := by
  after_results_simp
  rw [ha]
  rfl

theorem r2_host4_2_v49 (V : Valuation τ sig (Elt Ideal)) (ha : V (Proc.devRef .tc main_arg7) = m ((c.tc : Thread nD τ).loc main_arg7)) :
    StableHlo.after hostOps4_2 V (Proc.devRef .tc main_v49) = shapeCast S1x128 (b1L1 m c) shapeCasts_S128_S1x128 := by
  after_results_simp
  rw [ha]
  rfl

theorem r2_host4_2_v51 (V : Valuation τ sig (Elt Ideal)) (ha : V (Proc.devRef .tc main_arg8) = m ((c.tc : Thread nD τ).loc main_arg8)) :
    StableHlo.after hostOps4_2 V (Proc.devRef .tc main_v51) = W2L1 m c := by
  after_results_simp
  rw [ha]
  rfl

theorem r2_host4_2_v54 (V : Valuation τ sig (Elt Ideal)) (ha : V (Proc.devRef .tc main_arg9) = m ((c.tc : Thread nD τ).loc main_arg9)) :
    StableHlo.after hostOps4_2 V (Proc.devRef .tc main_v54) = shapeCast S1x128 (b2L1 m c) shapeCasts_S128_S1x128 := by
  after_results_simp
  rw [ha]
  rfl

/-! ### The sum of the messages per target, and the round's update weights -/

theorem r2_host5_v58 (V : Valuation τ sig (Elt Ideal)) :
    StableHlo.after hostOps5 V (Proc.devRef .tc main_v58)
      = Host.scatterAdd scatter_S20000x128_S320000x1_S320000x128_1_0_0_1
          (broadcastInDim S20000x128 ![] bcast_S_S20000x128 (constant (F := Ideal) S_ .f32 0x00000000#32))
          (Take.col (V (Proc.devRef .tc main_v3))) (V (Proc.devRef .tc main_v55)) := by
  after_results_simp
  rfl

theorem r2_host5_v61 (V : Valuation τ sig (Elt Ideal)) (ha : V (Proc.devRef .tc main_arg10) = m ((c.tc : Thread nD τ).loc main_arg10)) :
    StableHlo.after hostOps5 V (Proc.devRef .tc main_v61) = extractStridedSlice S128x128 ![0, 0] (U1L1 m c) slices_S256x128_S128x128_0_0 := by
  after_results_simp
  rw [ha]
  rfl

theorem r2_host5_v62 (V : Valuation τ sig (Elt Ideal)) (ha : V (Proc.devRef .tc main_arg10) = m ((c.tc : Thread nD τ).loc main_arg10)) :
    StableHlo.after hostOps5 V (Proc.devRef .tc main_v62) = extractStridedSlice S128x128 ![128, 0] (U1L1 m c) slices_S256x128_S128x128_128_0 := by
  after_results_simp
  rw [ha]
  rfl

theorem r2_host5_v65 (V : Valuation τ sig (Elt Ideal)) (ha : V (Proc.devRef .tc main_arg11) = m ((c.tc : Thread nD τ).loc main_arg11)) :
    StableHlo.after hostOps5 V (Proc.devRef .tc main_v65) = shapeCast S1x128 (c1L1 m c) shapeCasts_S128_S1x128 := by
  after_results_simp
  rw [ha]
  rfl

theorem r2_host5_v67 (V : Valuation τ sig (Elt Ideal)) (ha : V (Proc.devRef .tc main_arg12) = m ((c.tc : Thread nD τ).loc main_arg12)) :
    StableHlo.after hostOps5 V (Proc.devRef .tc main_v67) = U2L1 m c := by
  after_results_simp
  rw [ha]
  rfl

theorem r2_host5_v70 (V : Valuation τ sig (Elt Ideal)) (ha : V (Proc.devRef .tc main_arg13) = m ((c.tc : Thread nD τ).loc main_arg13)) :
    StableHlo.after hostOps5 V (Proc.devRef .tc main_v70) = shapeCast S1x128 (c2L1 m c) shapeCasts_S128_S1x128 := by
  after_results_simp
  rw [ha]
  rfl

/-! ### Buffers the round leaves alone -/

/-- A buffer none of the three host stretches before the message region writes holds at that region's entry what it
    held at the round's entry. -/
theorem r2_at13 (r : Ref sig .tc) (h4 : r ∉ r2_wr4) (h41 : r ∉ r2_wr4_1) (h42 : r ∉ r2_wr4_2) :
    W13 m ρ c (Proc.devRef .tc r) = W10 m ρ c (Proc.devRef .tc r) :=
  (r2_keep4_2 (W12 m ρ c) r h42).trans ((r2_keep4_1 (W11 m ρ c) r h41).trans (r2_keep4 (W10 m ρ c) r h4))

/-- The same at the message region's exit, for a buffer that is none of its windows. -/
theorem r2_at14 (r : Ref sig .tc) (h4 : r ∉ r2_wr4) (h41 : r ∉ r2_wr4_1) (h42 : r ∉ r2_wr4_2)
    (hw : ∀ w, Pipeline.arrRef spec4 w ≠ r) : W14 m ρ c (Proc.devRef .tc r) = W10 m ρ c (Proc.devRef .tc r) :=
  (W14_of_ne m ρ c r hw).trans (r2_at13 m ρ c r h4 h41 h42)

/-- The same at the update region's entry. -/
theorem r2_at15 (r : Ref sig .tc) (h4 : r ∉ r2_wr4) (h41 : r ∉ r2_wr4_1) (h42 : r ∉ r2_wr4_2)
    (hw : ∀ w, Pipeline.arrRef spec4 w ≠ r) (h5 : r ∉ r2_wr5) :
    W15 m ρ c (Proc.devRef .tc r) = W10 m ρ c (Proc.devRef .tc r) :=
  (r2_keep5 (W14 m ρ c) r h5).trans (r2_at14 m ρ c r h4 h41 h42 hw)

/-- The same at the round's exit, for a buffer that is no window of the update region either. -/
theorem r2_at16 (r : Ref sig .tc) (h4 : r ∉ r2_wr4) (h41 : r ∉ r2_wr4_1) (h42 : r ∉ r2_wr4_2)
    (hw : ∀ w, Pipeline.arrRef spec4 w ≠ r) (h5 : r ∉ r2_wr5) (hw5 : ∀ w, Pipeline.arrRef spec5 w ≠ r) :
    W16 m ρ c (Proc.devRef .tc r) = W10 m ρ c (Proc.devRef .tc r) :=
  (W16_of_ne m ρ c r hw5).trans (r2_at15 m ρ c r h4 h41 h42 hw h5)

/-- The edges' rows are an input window of the message region, which leaves its inputs as it found them. -/
theorem r2_v7_at16 : W16 m ρ c (Proc.devRef .tc main_v7) = W10 m ρ c (Proc.devRef .tc main_v7) :=
  (W16_of_ne m ρ c main_v7 (by decide)).trans ((r2_keep5 (W14 m ρ c) main_v7 (by decide)).trans
    (((W14_arr m ρ c 2).trans (((dat4 (V13 m ρ) c).arrAt_in 2 rfl _).trans (A_eq4 (V13 m ρ) c 2))).trans
      (r2_at13 m ρ c main_v7 (by decide) (by decide) (by decide))))

/-- No host operation and no region of the round writes a weight argument. -/
theorem r2_args (ha : ArgsAt m c (W10 m ρ c)) : ArgsAt m c (W16 m ρ c) := by
  obtain ⟨a6, a7, a8, a9, a10, a11, a12, a13, a14, a15, a16, a17⟩ := ha
  exact ⟨(r2_at16 m ρ c main_arg6 (by decide) (by decide) (by decide) (by decide) (by decide) (by decide)).trans a6,
    (r2_at16 m ρ c main_arg7 (by decide) (by decide) (by decide) (by decide) (by decide) (by decide)).trans a7,
    (r2_at16 m ρ c main_arg8 (by decide) (by decide) (by decide) (by decide) (by decide) (by decide)).trans a8,
    (r2_at16 m ρ c main_arg9 (by decide) (by decide) (by decide) (by decide) (by decide) (by decide)).trans a9,
    (r2_at16 m ρ c main_arg10 (by decide) (by decide) (by decide) (by decide) (by decide) (by decide)).trans a10,
    (r2_at16 m ρ c main_arg11 (by decide) (by decide) (by decide) (by decide) (by decide) (by decide)).trans a11,
    (r2_at16 m ρ c main_arg12 (by decide) (by decide) (by decide) (by decide) (by decide) (by decide)).trans a12,
    (r2_at16 m ρ c main_arg13 (by decide) (by decide) (by decide) (by decide) (by decide) (by decide)).trans a13,
    (r2_at16 m ρ c main_arg14 (by decide) (by decide) (by decide) (by decide) (by decide) (by decide)).trans a14,
    (r2_at16 m ρ c main_arg15 (by decide) (by decide) (by decide) (by decide) (by decide) (by decide)).trans a15,
    (r2_at16 m ρ c main_arg16 (by decide) (by decide) (by decide) (by decide) (by decide) (by decide)).trans a16,
    (r2_at16 m ρ c main_arg17 (by decide) (by decide) (by decide) (by decide) (by decide) (by decide)).trans a17⟩

/-! ### The messages -/

/-- At the message region's entry the targets' rows are the plain gather of the nodes' rows at the round's entry. -/
theorem r2_gd (h : Mat 20000 128) (hr : Take.InRange (edges m c))
    (h3 : W10 m ρ c (Proc.devRef .tc main_v3) = Take.dstIdx (edges m c))
    (hh : W10 m ρ c (Proc.devRef .tc main_v39) = h) :
    W13 m ρ c (Proc.devRef .tc main_v40) = gdK m c h :=
  (r2_keep4_2 (W12 m ρ c) main_v40 (by decide)).trans ((r2_keep4_1 (W11 m ρ c) main_v40 (by decide)).trans
    ((r2_host4_v40 (W10 m ρ c)).trans ((congrArg₂ Take.takeFill hh h3).trans (Take.takeFill_dst h _ hr))))

/-- And the sources' rows. -/
theorem r2_gs (h : Mat 20000 128) (hr : Take.InRange (edges m c))
    (h1 : W10 m ρ c (Proc.devRef .tc main_v1) = Take.srcIdx (edges m c))
    (hh : W10 m ρ c (Proc.devRef .tc main_v39) = h) :
    W13 m ρ c (Proc.devRef .tc main_v41) = gsK m c h :=
  (r2_keep4_2 (W12 m ρ c) main_v41 (by decide)).trans ((r2_host4_1_v41 (W11 m ρ c)).trans
    ((congrArg₂ Take.takeFill ((r2_keep4 (W10 m ρ c) main_v39 (by decide)).trans hh) ((r2_keep4 (W10 m ρ c) main_v1 (by decide)).trans h1)).trans
      (Take.takeFill_src h _ hr)))

/-- The messages' array at the message region's exit. -/
theorem r2_msgs (e : Mat 320000 32) (h : Mat 20000 128) (hr : Take.InRange (edges m c))
    (h1 : W10 m ρ c (Proc.devRef .tc main_v1) = Take.srcIdx (edges m c))
    (h3 : W10 m ρ c (Proc.devRef .tc main_v3) = Take.dstIdx (edges m c))
    (h7 : W10 m ρ c (Proc.devRef .tc main_v7) = e)
    (hh : W10 m ρ c (Proc.devRef .tc main_v39) = h)
    (ha : ArgsAt m c (W10 m ρ c)) :
    W14 m ρ c (Proc.devRef .tc main_v55)
      = rows3 (Gnn.msgRow (W1L1 m c) (b1L1 m c) (W2L1 m c) (b2L1 m c)) (gdK m c h) (gsK m c h) e := by
  obtain ⟨a6, a7, a8, a9, -⟩ := ha
  have g6 : W12 m ρ c (Proc.devRef .tc main_arg6) = m ((c.tc : Thread nD τ).loc main_arg6) :=
    (r2_keep4_1 (W11 m ρ c) main_arg6 (by decide)).trans ((r2_keep4 (W10 m ρ c) main_arg6 (by decide)).trans a6)
  have g7 : W12 m ρ c (Proc.devRef .tc main_arg7) = m ((c.tc : Thread nD τ).loc main_arg7) :=
    (r2_keep4_1 (W11 m ρ c) main_arg7 (by decide)).trans ((r2_keep4 (W10 m ρ c) main_arg7 (by decide)).trans a7)
  have g8 : W12 m ρ c (Proc.devRef .tc main_arg8) = m ((c.tc : Thread nD τ).loc main_arg8) :=
    (r2_keep4_1 (W11 m ρ c) main_arg8 (by decide)).trans ((r2_keep4 (W10 m ρ c) main_arg8 (by decide)).trans a8)
  have g9 : W12 m ρ c (Proc.devRef .tc main_arg9) = m ((c.tc : Thread nD τ).loc main_arg9) :=
    (r2_keep4_1 (W11 m ρ c) main_arg9 (by decide)).trans ((r2_keep4 (W10 m ρ c) main_arg9 (by decide)).trans a9)
  have r := Region.region4_value (V13 m ρ) c (W1L1 m c) (b1L1 m c) (W2L1 m c) (b2L1 m c)
    (r2_host4_2_v44 m c (W12 m ρ c) g6) (r2_host4_2_v45 m c (W12 m ρ c) g6) (r2_host4_2_v46 m c (W12 m ρ c) g6)
    (r2_host4_2_v49 m c (W12 m ρ c) g7) (r2_host4_2_v51 m c (W12 m ρ c) g8) (r2_host4_2_v54 m c (W12 m ρ c) g9)
  have e40 : V13 m ρ c main_v40 = gdK m c h := r2_gd m ρ c h hr h3 hh
  have e41 : V13 m ρ c main_v41 = gsK m c h := r2_gs m ρ c h hr h1 hh
  have e7 : V13 m ρ c main_v7 = e := (r2_at13 m ρ c main_v7 (by decide) (by decide) (by decide)).trans h7
  rw [e40, e41, e7] at r
  exact (W14_arr m ρ c 9).trans r

/-! ### The update -/

/-- The nodes' array at the round's exit is one round of message passing on the nodes' array at its entry. -/
theorem r2_value (e : Mat 320000 32) (h : Mat 20000 128) (hr : Take.InRange (edges m c))
    (h1 : W10 m ρ c (Proc.devRef .tc main_v1) = Take.srcIdx (edges m c))
    (h3 : W10 m ρ c (Proc.devRef .tc main_v3) = Take.dstIdx (edges m c))
    (h7 : W10 m ρ c (Proc.devRef .tc main_v7) = e)
    (hh : W10 m ρ c (Proc.devRef .tc main_v39) = h)
    (ha : ArgsAt m c (W10 m ρ c)) :
    W16 m ρ c (Proc.devRef .tc main_v71)
      = Gnn.round (gdK m c) (gsK m c) (aggK m c) e (W1L1 m c) (b1L1 m c) (W2L1 m c) (b2L1 m c)
          (U1L1 m c) (c1L1 m c) (U2L1 m c) (c2L1 m c) h := by
  have hm := r2_msgs m ρ c e h hr h1 h3 h7 hh ha
  obtain ⟨-, -, -, -, a10, a11, a12, a13, -⟩ := ha
  have g10 : W14 m ρ c (Proc.devRef .tc main_arg10) = m ((c.tc : Thread nD τ).loc main_arg10) :=
    (r2_at14 m ρ c main_arg10 (by decide) (by decide) (by decide) (by decide)).trans a10
  have g11 : W14 m ρ c (Proc.devRef .tc main_arg11) = m ((c.tc : Thread nD τ).loc main_arg11) :=
    (r2_at14 m ρ c main_arg11 (by decide) (by decide) (by decide) (by decide)).trans a11
  have g12 : W14 m ρ c (Proc.devRef .tc main_arg12) = m ((c.tc : Thread nD τ).loc main_arg12) :=
    (r2_at14 m ρ c main_arg12 (by decide) (by decide) (by decide) (by decide)).trans a12
  have g13 : W14 m ρ c (Proc.devRef .tc main_arg13) = m ((c.tc : Thread nD τ).loc main_arg13) :=
    (r2_at14 m ρ c main_arg13 (by decide) (by decide) (by decide) (by decide)).trans a13
  have r := Region.region5_value (V15 m ρ) c (U1L1 m c) (c1L1 m c) (U2L1 m c) (c2L1 m c)
    (r2_host5_v61 m c (W14 m ρ c) g10) (r2_host5_v62 m c (W14 m ρ c) g10) (r2_host5_v65 m c (W14 m ρ c) g11)
    (r2_host5_v67 m c (W14 m ρ c) g12) (r2_host5_v70 m c (W14 m ρ c) g13)
  have e39 : V15 m ρ c main_v39 = h := (r2_at15 m ρ c main_v39 (by decide) (by decide) (by decide) (by decide) (by decide)).trans hh
  have e3 : W14 m ρ c (Proc.devRef .tc main_v3) = Take.dstIdx (edges m c) :=
    (r2_at14 m ρ c main_v3 (by decide) (by decide) (by decide) (by decide)).trans h3
  have e58 : V15 m ρ c main_v58
      = aggK m c (rows3 (Gnn.msgRow (W1L1 m c) (b1L1 m c) (W2L1 m c) (b2L1 m c)) (gdK m c h) (gsK m c h) e) := by
    refine (r2_host5_v58 (W14 m ρ c)).trans ?_
    rw [hm, e3]
    rfl
  rw [e39, e58] at r
  exact (W16_arr m ρ c 7).trans r

/-- Round 2: from the contents at region 3's exit to the contents at region 5's exit. -/
theorem round2_chain (e : Mat 320000 32) (h : Mat 20000 128) (hr : Take.InRange (edges m c))
    (h1 : W10 m ρ c (Proc.devRef .tc main_v1) = Take.srcIdx (edges m c))
    (h3 : W10 m ρ c (Proc.devRef .tc main_v3) = Take.dstIdx (edges m c))
    (h7 : W10 m ρ c (Proc.devRef .tc main_v7) = e)
    (hh : W10 m ρ c (Proc.devRef .tc main_v39) = h)
    (ha : ArgsAt m c (W10 m ρ c)) :
    W16 m ρ c (Proc.devRef .tc main_v71)
        = Gnn.round (gdK m c) (gsK m c) (aggK m c) e (W1L1 m c) (b1L1 m c) (W2L1 m c) (b2L1 m c)
            (U1L1 m c) (c1L1 m c) (U2L1 m c) (c2L1 m c) h
      ∧ W16 m ρ c (Proc.devRef .tc main_v1) = Take.srcIdx (edges m c)
      ∧ W16 m ρ c (Proc.devRef .tc main_v3) = Take.dstIdx (edges m c)
      ∧ W16 m ρ c (Proc.devRef .tc main_v7) = e
      ∧ ArgsAt m c (W16 m ρ c) := by
  exact ⟨r2_value m ρ c e h hr h1 h3 h7 hh ha,
    (r2_at16 m ρ c main_v1 (by decide) (by decide) (by decide) (by decide) (by decide) (by decide)).trans h1,
    (r2_at16 m ρ c main_v3 (by decide) (by decide) (by decide) (by decide) (by decide) (by decide)).trans h3,
    (r2_v7_at16 m ρ c).trans h7,
    r2_args m ρ c ha⟩

end Cert.KernelIdeal.Chain

end
-- ==== Proof.KRegion6.lean ====
/-
  REGION 6 AS A WHOLE: the message of every edge. The three row-tiled inputs move with the output, block by block; the
  six weight operands are whole arrays at every point; so the array ends holding the message function of the rows with
  the same number in the three inputs.
-/
import proofs.«404104_j10677288698628_1_alg».proof.Proof.KBodyMsg

set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx Idealize.ShloMosaic.RowOps

/-! ## The index maps, decided over the hundred grid points

  A row-tiled window (the three inputs and the output) has block index (t, 0) at point t; a weight window (0, 0). -/

theorem idxR6_0 : ∀ t : Fin cfg6.N, (win6_0.index t (0 : Fin 2) = t.val ∧ win6_0.index t (1 : Fin 2) = 0) :=
  (by decide +kernel : ∀ t : Fin grid6.N, _)
theorem idxR6_1 : ∀ t : Fin cfg6.N, (win6_1.index t (0 : Fin 2) = t.val ∧ win6_1.index t (1 : Fin 2) = 0) :=
  (by decide +kernel : ∀ t : Fin grid6.N, _)
theorem idxR6_2 : ∀ t : Fin cfg6.N, (win6_2.index t (0 : Fin 2) = t.val ∧ win6_2.index t (1 : Fin 2) = 0) :=
  (by decide +kernel : ∀ t : Fin grid6.N, _)
theorem idxR6_9 : ∀ t : Fin cfg6.N, (win6_9.index t (0 : Fin 2) = t.val ∧ win6_9.index t (1 : Fin 2) = 0) :=
  (by decide +kernel : ∀ t : Fin grid6.N, _)
theorem idxW6_3 : ∀ t : Fin cfg6.N, (win6_3.index t (0 : Fin 2) = 0 ∧ win6_3.index t (1 : Fin 2) = 0) :=
  (by decide +kernel : ∀ t : Fin grid6.N, _)
theorem idxW6_4 : ∀ t : Fin cfg6.N, (win6_4.index t (0 : Fin 2) = 0 ∧ win6_4.index t (1 : Fin 2) = 0) :=
  (by decide +kernel : ∀ t : Fin grid6.N, _)
theorem idxW6_5 : ∀ t : Fin cfg6.N, (win6_5.index t (0 : Fin 2) = 0 ∧ win6_5.index t (1 : Fin 2) = 0) :=
  (by decide +kernel : ∀ t : Fin grid6.N, _)
theorem idxW6_6 : ∀ t : Fin cfg6.N, (win6_6.index t (0 : Fin 2) = 0 ∧ win6_6.index t (1 : Fin 2) = 0) :=
  (by decide +kernel : ∀ t : Fin grid6.N, _)
theorem idxW6_7 : ∀ t : Fin cfg6.N, (win6_7.index t (0 : Fin 2) = 0 ∧ win6_7.index t (1 : Fin 2) = 0) :=
  (by decide +kernel : ∀ t : Fin grid6.N, _)
theorem idxW6_8 : ∀ t : Fin cfg6.N, (win6_8.index t (0 : Fin 2) = 0 ∧ win6_8.index t (1 : Fin 2) = 0) :=
  (by decide +kernel : ∀ t : Fin grid6.N, _)

/-! ## One grid point, over matrices of the literal sizes

  If the weight blocks are the host's bands and casts, and entry (p, k) of each input block is entry (3200 n + p, k) of
  its array, then the body's output block is, entry by entry, the message function of the arrays' rows 3200 n + p. -/

theorem point6 (x0 x1 : Mat 3200 128) (x2 : Mat 3200 32) (x3 x4 : Mat 128 128) (x5 : Mat 32 128) (x6 : Mat 1 128)
    (x7 : Mat 128 128) (x8 : Mat 1 128) (A0 A1 : Mat 320000 128) (A2 : Mat 320000 32)
    (W1 : Mat 288 128) (b1 : Arr 128) (W2 : Mat 128 128) (b2 : Arr 128)
    (e3 : x3 = extractStridedSlice S128x128 ![0, 0] W1 slices_S288x128_S128x128_0_0)
    (e4 : x4 = extractStridedSlice S128x128 ![128, 0] W1 slices_S288x128_S128x128_128_0)
    (e5 : x5 = extractStridedSlice S32x128 ![256, 0] W1 slices_S288x128_S32x128_256_0)
    (e6 : x6 = shapeCast S1x128 b1 shapeCasts_S128_S1x128)
    (e7 : x7 = W2)
    (e8 : x8 = shapeCast S1x128 b2 shapeCasts_S128_S1x128)
    (n : Nat)
    (r0 : ∀ (p : Fin 3200) (k : Fin 128) (q : Fin 320000), q.val = n * 3200 + p.val → x0 (ix2 p k) = A0 (ix2 q k))
    (r1 : ∀ (p : Fin 3200) (k : Fin 128) (q : Fin 320000), q.val = n * 3200 + p.val → x1 (ix2 p k) = A1 (ix2 q k))
    (r2 : ∀ (p : Fin 3200) (k : Fin 32) (q : Fin 320000), q.val = n * 3200 + p.val → x2 (ix2 p k) = A2 (ix2 q k))
    (y : (⟨2, ![3200, 128]⟩ : Shape).Idx) (i : (⟨2, ![320000, 128]⟩ : Shape).Idx)
    (hi0 : (i 0).val = n * 3200 + (y 0).val) (hi1 : (i 1).val = (y 1).val) :
    out6_9 (F := Ideal) x0 x1 x2 x3 x4 x5 x6 x7 x8 y = rows3 (Gnn.msgRow W1 b1 W2 b2) A0 A1 A2 i := by
  rw [e3, e4, e5, e6, e7, e8, Body.msg_body6]
  have h0 : row x0 ⟨(y 0).val, idx2_lt0 y⟩ = row A0 ⟨(i 0).val, idx2_lt0 i⟩ :=
    funext fun k => r0 ⟨(y 0).val, idx2_lt0 y⟩ k ⟨(i 0).val, idx2_lt0 i⟩ hi0
  have h1 : row x1 ⟨(y 0).val, idx2_lt0 y⟩ = row A1 ⟨(i 0).val, idx2_lt0 i⟩ :=
    funext fun k => r1 ⟨(y 0).val, idx2_lt0 y⟩ k ⟨(i 0).val, idx2_lt0 i⟩ hi0
  have h2 : row x2 ⟨(y 0).val, idx2_lt0 y⟩ = row A2 ⟨(i 0).val, idx2_lt0 i⟩ :=
    funext fun k => r2 ⟨(y 0).val, idx2_lt0 y⟩ k ⟨(i 0).val, idx2_lt0 i⟩ hi0
  have hk : (⟨(y 1).val, idx2_lt1 y⟩ : Fin 128) = ⟨(i 1).val, idx2_lt1 i⟩ := Fin.ext hi1.symm
  show Gnn.msgRow W1 b1 W2 b2 (row x0 ⟨(y 0).val, idx2_lt0 y⟩) (row x1 ⟨(y 0).val, idx2_lt0 y⟩)
      (row x2 ⟨(y 0).val, idx2_lt0 y⟩) ⟨(y 1).val, idx2_lt1 y⟩
    = Gnn.msgRow W1 b1 W2 b2 (row A0 ⟨(i 0).val, idx2_lt0 i⟩) (row A1 ⟨(i 0).val, idx2_lt0 i⟩)
      (row A2 ⟨(i 0).val, idx2_lt0 i⟩) ⟨(i 1).val, idx2_lt1 i⟩
  rw [h0, h1, h2, hk]

variable (V : (c : Dev nD) → (b : Ref sig .tc) → Buf (Elt Ideal) ((c : Thread nD τ).loc b))

/-! ## The blocks read off the arrays -/

/-- Window 3's block at every point is its whole array: the block is the full rectangle at offset (0, 0). -/
theorem wblk6_3 (c : Dev nD) (t : Fin cfg6.N) : iblk6 V c 3 t = V c main_v76 := by
  obtain ⟨e0, e1⟩ := idxW6_3 t
  funext y
  show V c main_v76 (((cfg6.win 3).blk t).view.emb y) = V c main_v76 y
  congr 1
  funext a; apply Fin.ext
  match a with
  | ⟨0, _⟩ => show win6_3.index t (0 : Fin 2) * 128 + 1 * (y 0).val = (y 0).val; omega
  | ⟨1, _⟩ => show win6_3.index t (1 : Fin 2) * 128 + 1 * (y 1).val = (y 1).val; omega

/-- Window 4's block at every point is its whole array: the block is the full rectangle at offset (0, 0). -/
theorem wblk6_4 (c : Dev nD) (t : Fin cfg6.N) : iblk6 V c 4 t = V c main_v77 := by
  obtain ⟨e0, e1⟩ := idxW6_4 t
  funext y
  show V c main_v77 (((cfg6.win 4).blk t).view.emb y) = V c main_v77 y
  congr 1
  funext a; apply Fin.ext
  match a with
  | ⟨0, _⟩ => show win6_4.index t (0 : Fin 2) * 128 + 1 * (y 0).val = (y 0).val; omega
  | ⟨1, _⟩ => show win6_4.index t (1 : Fin 2) * 128 + 1 * (y 1).val = (y 1).val; omega

/-- Window 5's block at every point is its whole array: the block is the full rectangle at offset (0, 0). -/
theorem wblk6_5 (c : Dev nD) (t : Fin cfg6.N) : iblk6 V c 5 t = V c main_v78 := by
  obtain ⟨e0, e1⟩ := idxW6_5 t
  funext y
  show V c main_v78 (((cfg6.win 5).blk t).view.emb y) = V c main_v78 y
  congr 1
  funext a; apply Fin.ext
  match a with
  | ⟨0, _⟩ => show win6_5.index t (0 : Fin 2) * 32 + 1 * (y 0).val = (y 0).val; omega
  | ⟨1, _⟩ => show win6_5.index t (1 : Fin 2) * 128 + 1 * (y 1).val = (y 1).val; omega

/-- Window 6's block at every point is its whole array: the block is the full rectangle at offset (0, 0). -/
theorem wblk6_6 (c : Dev nD) (t : Fin cfg6.N) : iblk6 V c 6 t = V c main_v81 := by
  obtain ⟨e0, e1⟩ := idxW6_6 t
  funext y
  show V c main_v81 (((cfg6.win 6).blk t).view.emb y) = V c main_v81 y
  congr 1
  funext a; apply Fin.ext
  match a with
  | ⟨0, _⟩ => show win6_6.index t (0 : Fin 2) * 1 + 1 * (y 0).val = (y 0).val; omega
  | ⟨1, _⟩ => show win6_6.index t (1 : Fin 2) * 128 + 1 * (y 1).val = (y 1).val; omega

/-- Window 7's block at every point is its whole array: the block is the full rectangle at offset (0, 0). -/
theorem wblk6_7 (c : Dev nD) (t : Fin cfg6.N) : iblk6 V c 7 t = V c main_v83 := by
  obtain ⟨e0, e1⟩ := idxW6_7 t
  funext y
  show V c main_v83 (((cfg6.win 7).blk t).view.emb y) = V c main_v83 y
  congr 1
  funext a; apply Fin.ext
  match a with
  | ⟨0, _⟩ => show win6_7.index t (0 : Fin 2) * 128 + 1 * (y 0).val = (y 0).val; omega
  | ⟨1, _⟩ => show win6_7.index t (1 : Fin 2) * 128 + 1 * (y 1).val = (y 1).val; omega

/-- Window 8's block at every point is its whole array: the block is the full rectangle at offset (0, 0). -/
theorem wblk6_8 (c : Dev nD) (t : Fin cfg6.N) : iblk6 V c 8 t = V c main_v86 := by
  obtain ⟨e0, e1⟩ := idxW6_8 t
  funext y
  show V c main_v86 (((cfg6.win 8).blk t).view.emb y) = V c main_v86 y
  congr 1
  funext a; apply Fin.ext
  match a with
  | ⟨0, _⟩ => show win6_8.index t (0 : Fin 2) * 1 + 1 * (y 0).val = (y 0).val; omega
  | ⟨1, _⟩ => show win6_8.index t (1 : Fin 2) * 128 + 1 * (y 1).val = (y 1).val; omega

/-- Entry (p, k) of window 0's block at point t is entry (3200 t + p, k) of its array. -/
theorem iblk6_0_apply (c : Dev nD) (t : Fin cfg6.N) (p : Fin 3200) (k : Fin 128) (q : Fin 320000)
    (hq : q.val = t.val * 3200 + p.val) :
    (iblk6 V c 0 t : Mat 3200 128) (ix2 p k) = (V c main_v72 : Mat 320000 128) (ix2 q k) := by
  obtain ⟨e0, e1⟩ := idxR6_0 t
  show V c main_v72 (((cfg6.win 0).blk t).view.emb (ix2 p k)) = V c main_v72 (ix2 q k)
  congr 1
  funext a; apply Fin.ext
  match a with
  | ⟨0, _⟩ => show win6_0.index t (0 : Fin 2) * 3200 + 1 * p.val = q.val; omega
  | ⟨1, _⟩ => show win6_0.index t (1 : Fin 2) * 128 + 1 * k.val = k.val; omega

/-- Entry (p, k) of window 1's block at point t is entry (3200 t + p, k) of its array. -/
theorem iblk6_1_apply (c : Dev nD) (t : Fin cfg6.N) (p : Fin 3200) (k : Fin 128) (q : Fin 320000)
    (hq : q.val = t.val * 3200 + p.val) :
    (iblk6 V c 1 t : Mat 3200 128) (ix2 p k) = (V c main_v73 : Mat 320000 128) (ix2 q k) := by
  obtain ⟨e0, e1⟩ := idxR6_1 t
  show V c main_v73 (((cfg6.win 1).blk t).view.emb (ix2 p k)) = V c main_v73 (ix2 q k)
  congr 1
  funext a; apply Fin.ext
  match a with
  | ⟨0, _⟩ => show win6_1.index t (0 : Fin 2) * 3200 + 1 * p.val = q.val; omega
  | ⟨1, _⟩ => show win6_1.index t (1 : Fin 2) * 128 + 1 * k.val = k.val; omega

/-- Entry (p, k) of window 2's block at point t is entry (3200 t + p, k) of its array. -/
theorem iblk6_2_apply (c : Dev nD) (t : Fin cfg6.N) (p : Fin 3200) (k : Fin 32) (q : Fin 320000)
    (hq : q.val = t.val * 3200 + p.val) :
    (iblk6 V c 2 t : Mat 3200 32) (ix2 p k) = (V c main_v7 : Mat 320000 32) (ix2 q k) := by
  obtain ⟨e0, e1⟩ := idxR6_2 t
  show V c main_v7 (((cfg6.win 2).blk t).view.emb (ix2 p k)) = V c main_v7 (ix2 q k)
  congr 1
  funext a; apply Fin.ext
  match a with
  | ⟨0, _⟩ => show win6_2.index t (0 : Fin 2) * 3200 + 1 * p.val = q.val; omega
  | ⟨1, _⟩ => show win6_2.index t (1 : Fin 2) * 32 + 1 * k.val = k.val; omega

/-- An element of the output's block at point t sits in the array at row 3200 t + its row, same column. -/
theorem emb6_9 (t : Fin cfg6.N) (y : (⟨2, ![3200, 128]⟩ : Shape).Idx) :
    ((((cfg6.win 9).blk t).view.emb y : (⟨2, ![320000, 128]⟩ : Shape).Idx) 0).val = t.val * 3200 + (y 0).val
    ∧ ((((cfg6.win 9).blk t).view.emb y : (⟨2, ![320000, 128]⟩ : Shape).Idx) 1).val = (y 1).val := by
  obtain ⟨e0, e1⟩ := idxR6_9 t
  constructor
  · show win6_9.index t (0 : Fin 2) * 3200 + 1 * (y 0).val = t.val * 3200 + (y 0).val; omega
  · show win6_9.index t (1 : Fin 2) * 128 + 1 * (y 1).val = (y 1).val; omega

/-! ## What a point writes back, and the cover -/

/-- WHAT POINT t WRITES BACK is block t of the message function of the three arrays, row by row. -/
theorem flushed6_eq (c : Dev nD) (W1 : Mat 288 128) (b1 : Arr 128) (W2 : Mat 128 128) (b2 : Arr 128)
    (h3 : V c main_v76 = extractStridedSlice S128x128 ![0, 0] W1 slices_S288x128_S128x128_0_0)
    (h4 : V c main_v77 = extractStridedSlice S128x128 ![128, 0] W1 slices_S288x128_S128x128_128_0)
    (h5 : V c main_v78 = extractStridedSlice S32x128 ![256, 0] W1 slices_S288x128_S32x128_256_0)
    (h6 : V c main_v81 = shapeCast S1x128 b1 shapeCasts_S128_S1x128)
    (h7 : V c main_v83 = W2)
    (h8 : V c main_v86 = shapeCast S1x128 b2 shapeCasts_S128_S1x128) (t : Fin cfg6.N) :
    (dat6 V c).flushed 9 t = ((cfg6.win 9).blk t).view.read (Elt Ideal)
      (rows3 (Gnn.msgRow W1 b1 W2 b2) (V c main_v72) (V c main_v73) (V c main_v7)) := by
  show (cfg6.win 9).cut (grid6.coords t) ((dat6 V c).after 9 t) = _
  rw [after6_9]
  funext y
  obtain ⟨hy0, hy1⟩ := emb6_9 t y
  exact point6 (iblk6 V c 0 t) (iblk6 V c 1 t) (iblk6 V c 2 t) (iblk6 V c 3 t) (iblk6 V c 4 t)
    (iblk6 V c 5 t) (iblk6 V c 6 t) (iblk6 V c 7 t) (iblk6 V c 8 t) (V c main_v72) (V c main_v73) (V c main_v7)
    W1 b1 W2 b2 ((wblk6_3 V c t).trans h3) ((wblk6_4 V c t).trans h4) ((wblk6_5 V c t).trans h5)
    ((wblk6_6 V c t).trans h6) ((wblk6_7 V c t).trans h7) ((wblk6_8 V c t).trans h8) t.val
    (iblk6_0_apply V c t) (iblk6_1_apply V c t) (iblk6_2_apply V c t) y (((cfg6.win 9).blk t).view.emb y) hy0 hy1

/-- An index of the array is in point t's block iff each coordinate is in the block's range on its axis. -/
theorem mem_blk6 (t : Fin cfg6.N) (i : S320000x128.Idx) :
    i ∈ ((cfg6.win 9).blk t).view.set ↔ ∀ a : Fin 2, win6_9.index t a * S3200x128.size a ≤ (i a).val ∧ (i a).val < win6_9.index t a * S3200x128.size a + S3200x128.size a := by
  show i ∈ ((View.whole main_v87).slice (win6_9.rect t)).set ↔ _
  rw [View.set_slice_whole, Rect.mem_set_unit]
  exact Iff.rfl

/-- Row r of the array is in the block of point r / 3200: the hundred blocks of 3200 rows tile the 320000 rows. -/
theorem cover6 (i : S320000x128.Idx) :
    ∃ t : Fin cfg6.N, (cfg6.win 9).flush t = true ∧ i ∈ ((cfg6.win 9).blk t).view.set := by
  have hi0 : (i 0).val < 320000 := (i 0).isLt
  have hi1 : (i 1).val < 128 := (i 1).isLt
  have hN : cfg6.N = 100 := N_6
  obtain ⟨t, ht⟩ : ∃ t : Fin cfg6.N, t.val = (i 0).val / 3200 := ⟨⟨(i 0).val / 3200, by rw [hN]; omega⟩, rfl⟩
  obtain ⟨e0, e1⟩ := idxR6_9 t
  refine ⟨t, flush6_9 t, ?_⟩
  rw [mem_blk6]
  intro a
  match a with
  | ⟨0, _⟩ => show win6_9.index t (0 : Fin 2) * 3200 ≤ (i 0).val ∧ (i 0).val < win6_9.index t (0 : Fin 2) * 3200 + 3200; omega
  | ⟨1, _⟩ => show win6_9.index t (1 : Fin 2) * 128 ≤ (i 1).val ∧ (i 1).val < win6_9.index t (1 : Fin 2) * 128 + 128; omega

/-- The messages' array after the region, the weight operands being the bands and casts the host made of `W1`, `b1`, `W2`, `b2`. -/
theorem region6_value (c : Dev nD) (W1 : Mat 288 128) (b1 : Arr 128) (W2 : Mat 128 128) (b2 : Arr 128)
    (h3 : V c main_v76 = extractStridedSlice S128x128 ![0, 0] W1 slices_S288x128_S128x128_0_0)
    (h4 : V c main_v77 = extractStridedSlice S128x128 ![128, 0] W1 slices_S288x128_S128x128_128_0)
    (h5 : V c main_v78 = extractStridedSlice S32x128 ![256, 0] W1 slices_S288x128_S32x128_256_0)
    (h6 : V c main_v81 = shapeCast S1x128 b1 shapeCasts_S128_S1x128)
    (h7 : V c main_v83 = W2)
    (h8 : V c main_v86 = shapeCast S1x128 b2 shapeCasts_S128_S1x128) :
    (dat6 V c).arrAt 9 cfg6.N = rows3 (Gnn.msgRow W1 b1 W2 b2) (V c main_v72) (V c main_v73) (V c main_v7) :=
  (dat6 V c).arrAt_eq_of_cover 9 _ (fun t _ => flushed6_eq V c W1 b1 W2 b2 h3 h4 h5 h6 h7 h8 t) (cover6)

end Cert.KernelIdeal.Region

end
-- ==== Proof.KRegion7.lean ====
/-
  REGION 7 AS A WHOLE: the update of every node. The two row-tiled inputs (the nodes' rows and their aggregated
  messages) move with the output; the five weight operands are whole arrays at every point.
-/
import proofs.«404104_j10677288698628_1_alg».proof.Proof.KBodyUpd

set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx Idealize.ShloMosaic.RowOps

variable (V : (c : Dev nD) → (b : Ref sig .tc) → Buf (Elt Ideal) ((c : Thread nD τ).loc b))

/-- A row-wise function of two matrices, read at entry `j`, agrees with the same function of two taller matrices read at
    entry `i`, when row `j 0` of each short matrix is row `i 0` of the tall one and the columns are the same. -/
theorem upd7_rows_of_block {A B C₁ C₂ D : Nat} (f : (Fin C₁ → EReal) → (Fin C₂ → EReal) → Fin D → EReal)
    (X0 : Mat A C₁) (X1 : Mat A C₂) (x0 : Mat B C₁) (x1 : Mat B C₂)
    (j : (⟨2, ![B, D]⟩ : Shape).Idx) (i : (⟨2, ![A, D]⟩ : Shape).Idx)
    (h0 : ∀ q : Fin C₁, x0 (ix2 ⟨(j 0).val, idx2_lt0 j⟩ q) = X0 (ix2 ⟨(i 0).val, idx2_lt0 i⟩ q))
    (h1 : ∀ q : Fin C₂, x1 (ix2 ⟨(j 0).val, idx2_lt0 j⟩ q) = X1 (ix2 ⟨(i 0).val, idx2_lt0 i⟩ q))
    (hq : (j 1).val = (i 1).val) :
    rows2 f x0 x1 j = rows2 f X0 X1 i := by
  show f (row x0 ⟨(j 0).val, idx2_lt0 j⟩) (row x1 ⟨(j 0).val, idx2_lt0 j⟩) ⟨(j 1).val, idx2_lt1 j⟩
    = f (row X0 ⟨(i 0).val, idx2_lt0 i⟩) (row X1 ⟨(i 0).val, idx2_lt0 i⟩) ⟨(i 1).val, idx2_lt1 i⟩
  have r0 : row x0 ⟨(j 0).val, idx2_lt0 j⟩ = row X0 ⟨(i 0).val, idx2_lt0 i⟩ := funext h0
  have r1 : row x1 ⟨(j 0).val, idx2_lt0 j⟩ = row X1 ⟨(i 0).val, idx2_lt0 i⟩ := funext h1
  rw [r0, r1]
  exact congrArg _ (Fin.ext hq)

/-- The printed index maps over the five points: the two row-tiled inputs and the output sit at block `(t, 0)`, each
    weight operand at block `(0, 0)`. -/
theorem upd7_index : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = t.val ∧ win7_7.index t (1 : Fin 2) = 0 :=
  (by decide +kernel : ∀ t : Fin grid7.N, _)

/-! ## The weight operands: the block at offset zero of the full size is the array -/

theorem upd7_blk2 (c : Dev nD) (t : Fin cfg7.N) : (iblk7 V c 2 t : Mat 128 128) = V c main_v93 := by
  obtain ⟨-, -, -, -, e0, e1, -⟩ := upd7_index t
  funext y
  unfold iblk7
  rw [View.read_apply]
  show V c main_v93 _ = V c main_v93 y
  congr 1
  funext a
  apply Fin.ext
  match a with
  | ⟨0, _⟩ => show win7_2.index t (0 : Fin 2) * 128 + 1 * (y 0).val = (y 0).val; rw [e0]; omega
  | ⟨1, _⟩ => show win7_2.index t (1 : Fin 2) * 128 + 1 * (y 1).val = (y 1).val; rw [e1]; omega

theorem upd7_blk3 (c : Dev nD) (t : Fin cfg7.N) : (iblk7 V c 3 t : Mat 128 128) = V c main_v94 := by
  obtain ⟨-, -, -, -, -, -, e0, e1, -⟩ := upd7_index t
  funext y
  unfold iblk7
  rw [View.read_apply]
  show V c main_v94 _ = V c main_v94 y
  congr 1
  funext a
  apply Fin.ext
  match a with
  | ⟨0, _⟩ => show win7_3.index t (0 : Fin 2) * 128 + 1 * (y 0).val = (y 0).val; rw [e0]; omega
  | ⟨1, _⟩ => show win7_3.index t (1 : Fin 2) * 128 + 1 * (y 1).val = (y 1).val; rw [e1]; omega

theorem upd7_blk4 (c : Dev nD) (t : Fin cfg7.N) : (iblk7 V c 4 t : Vec Ideal S1x128 .f32) = V c main_v97 := by
  obtain ⟨-, -, -, -, -, -, -, -, e0, e1, -⟩ := upd7_index t
  funext y
  unfold iblk7
  rw [View.read_apply]
  show V c main_v97 _ = V c main_v97 y
  congr 1
  funext a
  apply Fin.ext
  match a with
  | ⟨0, _⟩ => show win7_4.index t (0 : Fin 2) * 1 + 1 * (y 0).val = (y 0).val; rw [e0]; omega
  | ⟨1, _⟩ => show win7_4.index t (1 : Fin 2) * 128 + 1 * (y 1).val = (y 1).val; rw [e1]; omega

theorem upd7_blk5 (c : Dev nD) (t : Fin cfg7.N) : (iblk7 V c 5 t : Mat 128 128) = V c main_v99 := by
  obtain ⟨-, -, -, -, -, -, -, -, -, -, e0, e1, -⟩ := upd7_index t
  funext y
  unfold iblk7
  rw [View.read_apply]
  show V c main_v99 _ = V c main_v99 y
  congr 1
  funext a
  apply Fin.ext
  match a with
  | ⟨0, _⟩ => show win7_5.index t (0 : Fin 2) * 128 + 1 * (y 0).val = (y 0).val; rw [e0]; omega
  | ⟨1, _⟩ => show win7_5.index t (1 : Fin 2) * 128 + 1 * (y 1).val = (y 1).val; rw [e1]; omega

theorem upd7_blk6 (c : Dev nD) (t : Fin cfg7.N) : (iblk7 V c 6 t : Vec Ideal S1x128 .f32) = V c main_v102 := by
  obtain ⟨-, -, -, -, -, -, -, -, -, -, -, -, e0, e1, -⟩ := upd7_index t
  funext y
  unfold iblk7
  rw [View.read_apply]
  show V c main_v102 _ = V c main_v102 y
  congr 1
  funext a
  apply Fin.ext
  match a with
  | ⟨0, _⟩ => show win7_6.index t (0 : Fin 2) * 1 + 1 * (y 0).val = (y 0).val; rw [e0]; omega
  | ⟨1, _⟩ => show win7_6.index t (1 : Fin 2) * 128 + 1 * (y 1).val = (y 1).val; rw [e1]; omega

/-! ## The row-tiled operands: entry `(p, q)` of block `t` is entry `(4000 t + p, q)` of the array -/

theorem upd7_blk0_apply (c : Dev nD) (t : Fin cfg7.N) (x : S4000x128.Idx) (k : S20000x128.Idx)
    (hk0 : (k 0).val = t.val * 4000 + (x 0).val) (hk1 : (k 1).val = (x 1).val) :
    (iblk7 V c 0 t : Mat 4000 128) x = (V c main_v71 : Mat 20000 128) k := by
  obtain ⟨e0, e1, -⟩ := upd7_index t
  unfold iblk7
  rw [View.read_apply]
  show V c main_v71 _ = V c main_v71 k
  congr 1
  funext a
  apply Fin.ext
  match a with
  | ⟨0, _⟩ => show win7_0.index t (0 : Fin 2) * 4000 + 1 * (x 0).val = (k 0).val; rw [e0, hk0]; omega
  | ⟨1, _⟩ => show win7_0.index t (1 : Fin 2) * 128 + 1 * (x 1).val = (k 1).val; rw [e1, hk1]; omega

theorem upd7_blk1_apply (c : Dev nD) (t : Fin cfg7.N) (x : S4000x128.Idx) (k : S20000x128.Idx)
    (hk0 : (k 0).val = t.val * 4000 + (x 0).val) (hk1 : (k 1).val = (x 1).val) :
    (iblk7 V c 1 t : Mat 4000 128) x = (V c main_v90 : Mat 20000 128) k := by
  obtain ⟨-, -, e0, e1, -⟩ := upd7_index t
  unfold iblk7
  rw [View.read_apply]
  show V c main_v90 _ = V c main_v90 k
  congr 1
  funext a
  apply Fin.ext
  match a with
  | ⟨0, _⟩ => show win7_1.index t (0 : Fin 2) * 4000 + 1 * (x 0).val = (k 0).val; rw [e0, hk0]; omega
  | ⟨1, _⟩ => show win7_1.index t (1 : Fin 2) * 128 + 1 * (x 1).val = (k 1).val; rw [e1, hk1]; omega

/-- Where entry `y` of the output's block `t` sits in the output array. -/
theorem upd7_out_emb (t : Fin cfg7.N) (y : S4000x128.Idx) :
    ((((cfg7.win 7).blk t).view.emb y) 0).val = t.val * 4000 + (y 0).val
    ∧ ((((cfg7.win 7).blk t).view.emb y) 1).val = (y 1).val := by
  obtain ⟨-, -, -, -, -, -, -, -, -, -, -, -, -, -, e0, e1⟩ := upd7_index t
  constructor
  · show win7_7.index t (0 : Fin 2) * 4000 + 1 * (y 0).val = t.val * 4000 + (y 0).val
    rw [e0]; omega
  · show win7_7.index t (1 : Fin 2) * 128 + 1 * (y 1).val = (y 1).val
    rw [e1]; omega

/-- The body at literal operands: with the weight operands in the host's forms it is the update applied row by row. -/
theorem upd7_body_at (x0 x1 : Mat 4000 128) (w2 w3 : Mat 128 128) (w4 : Vec Ideal S1x128 .f32) (w5 : Mat 128 128)
    (w6 : Vec Ideal S1x128 .f32) (U1 : Mat 256 128) (c1 : Arr 128) (U2 : Mat 128 128) (c2 : Arr 128)
    (e2 : w2 = extractStridedSlice S128x128 ![0, 0] U1 slices_S256x128_S128x128_0_0)
    (e3 : w3 = extractStridedSlice S128x128 ![128, 0] U1 slices_S256x128_S128x128_128_0)
    (e4 : w4 = shapeCast S1x128 c1 shapeCasts_S128_S1x128)
    (e5 : w5 = U2)
    (e6 : w6 = shapeCast S1x128 c2 shapeCasts_S128_S1x128) :
    out7_7 (F := Ideal) x0 x1 w2 w3 w4 w5 w6 = rows2 (Gnn.updRow U1 c1 U2 c2) x0 x1 := by
  rw [e2, e3, e4, e5, e6]
  exact Body.upd_body7 x0 x1 U1 c1 U2 c2

/-- WHAT POINT `t` WRITES BACK is block `t` of the update applied row by row to the two input arrays. -/
theorem upd7_flushed (c : Dev nD) (U1 : Mat 256 128) (c1 : Arr 128) (U2 : Mat 128 128) (c2 : Arr 128)
    (h2 : V c main_v93 = extractStridedSlice S128x128 ![0, 0] U1 slices_S256x128_S128x128_0_0)
    (h3 : V c main_v94 = extractStridedSlice S128x128 ![128, 0] U1 slices_S256x128_S128x128_128_0)
    (h4 : V c main_v97 = shapeCast S1x128 c1 shapeCasts_S128_S1x128)
    (h5 : V c main_v99 = U2)
    (h6 : V c main_v102 = shapeCast S1x128 c2 shapeCasts_S128_S1x128) (t : Fin cfg7.N) :
    (dat7 V c).flushed 7 t
      = ((cfg7.win 7).blk t).view.read (Elt Ideal)
          (rows2 (Gnn.updRow U1 c1 U2 c2) (V c main_v71) (V c main_v90)) := by
  show (cfg7.win 7).cut (grid7.coords t) ((dat7 V c).after 7 t) = _
  rw [after7_7]
  funext y
  refine (congrFun (upd7_body_at (iblk7 V c 0 t) (iblk7 V c 1 t) (iblk7 V c 2 t) (iblk7 V c 3 t)
    (iblk7 V c 4 t) (iblk7 V c 5 t) (iblk7 V c 6 t) U1 c1 U2 c2 ((upd7_blk2 V c t).trans h2)
    ((upd7_blk3 V c t).trans h3) ((upd7_blk4 V c t).trans h4) ((upd7_blk5 V c t).trans h5)
    ((upd7_blk6 V c t).trans h6)) _).trans ?_
  show rows2 (A := 4000) (Gnn.updRow U1 c1 U2 c2) (iblk7 V c 0 t) (iblk7 V c 1 t) _
    = rows2 (A := 20000) (Gnn.updRow U1 c1 U2 c2) (V c main_v71) (V c main_v90) (((cfg7.win 7).blk t).view.emb y)
  obtain ⟨k0, k1⟩ := upd7_out_emb t y
  refine upd7_rows_of_block (A := 20000) (B := 4000) _ _ _ _ _ _ _ (fun q => ?_) (fun q => ?_) k1.symm
  · exact upd7_blk0_apply V c t _ _ k0 rfl
  · exact upd7_blk1_apply V c t _ _ k0 rfl

/-- An index of the output array is in point `t`'s block iff each coordinate is in the block's range on its axis. -/
theorem upd7_mem (t : Fin cfg7.N) (i : S20000x128.Idx) :
    i ∈ ((cfg7.win 7).blk t).view.set
      ↔ ∀ a : Fin 2, win7_7.index t a * S4000x128.size a ≤ (i a).val
          ∧ (i a).val < win7_7.index t a * S4000x128.size a + S4000x128.size a := by
  show i ∈ ((View.whole main_v103).slice (win7_7.rect t)).set ↔ _
  rw [View.set_slice_whole, Rect.mem_set_unit]
  exact Iff.rfl

/-- Row `r` of the output is written by point `r / 4000`: the five blocks of 4000 rows tile the 20000 rows. -/
theorem upd7_cover (i : S20000x128.Idx) :
    ∃ t : Fin cfg7.N, (cfg7.win 7).flush t = true ∧ i ∈ ((cfg7.win 7).blk t).view.set := by
  have hi0 : (i 0).val < 20000 := (i 0).isLt
  have hi1 : (i 1).val < 128 := (i 1).isLt
  have hN : cfg7.N = 5 := N_7
  obtain ⟨t, ht⟩ : ∃ t : Fin cfg7.N, t.val = (i 0).val / 4000 := ⟨⟨(i 0).val / 4000, by rw [hN]; omega⟩, rfl⟩
  obtain ⟨-, -, -, -, -, -, -, -, -, -, -, -, -, -, e0, e1⟩ := upd7_index t
  refine ⟨t, flush7_7 t, ?_⟩
  rw [upd7_mem]
  intro a
  match a with
  | ⟨0, _⟩ =>
    show win7_7.index t (0 : Fin 2) * 4000 ≤ (i 0).val ∧ (i 0).val < win7_7.index t (0 : Fin 2) * 4000 + 4000
    rw [e0, ht]; omega
  | ⟨1, _⟩ =>
    show win7_7.index t (1 : Fin 2) * 128 ≤ (i 1).val ∧ (i 1).val < win7_7.index t (1 : Fin 2) * 128 + 128
    rw [e1]; omega

/-- The nodes' array after the region, the weight operands being the bands and casts the host made of `U1`, `c1`, `U2`, `c2`. -/
theorem region7_value (c : Dev nD) (U1 : Mat 256 128) (c1 : Arr 128) (U2 : Mat 128 128) (c2 : Arr 128)
    (h2 : V c main_v93 = extractStridedSlice S128x128 ![0, 0] U1 slices_S256x128_S128x128_0_0)
    (h3 : V c main_v94 = extractStridedSlice S128x128 ![128, 0] U1 slices_S256x128_S128x128_128_0)
    (h4 : V c main_v97 = shapeCast S1x128 c1 shapeCasts_S128_S1x128)
    (h5 : V c main_v99 = U2)
    (h6 : V c main_v102 = shapeCast S1x128 c2 shapeCasts_S128_S1x128) :
    (dat7 V c).arrAt 7 cfg7.N = rows2 (Gnn.updRow U1 c1 U2 c2) (V c main_v71) (V c main_v90) :=
  (dat7 V c).arrAt_eq_of_cover 7 _ (fun t _ => upd7_flushed V c U1 c1 U2 c2 h2 h3 h4 h5 h6 t) (upd7_cover)

end Cert.KernelIdeal.Region

end
-- ==== Proof.KLayer3.lean ====
/-
  ROUND 3 OF THE KERNEL PROGRAM, FROM BOUNDARY TO BOUNDARY. Between the exit of the region before it and the exit of its
  update region the program reads the nodes' rows at the edges' targets and sources (where every node number is in range
  this is the plain gather), cuts the round's weights out of the stacked arrays, runs the message region, sums the
  messages per target, and runs the update region. So the nodes' array at the exit is one round of message passing on
  the nodes' array at the entry, and the edge numbers, the edges' rows and the weight arguments are where they were.
-/
import proofs.«404104_j10677288698628_1_alg».proof.Proof.KChainDefs
import proofs.«404104_j10677288698628_1_alg».proof.Proof.KRegion6
import proofs.«404104_j10677288698628_1_alg».proof.Proof.KRegion7

set_option maxRecDepth 16384

noncomputable section

namespace Cert.KernelIdeal.Chain

open Cert.KernelIdeal Cert.KernelIdeal.Gen Idealize.ShloMosaic Idealize.ShloMosaic.TcCoe Idealize.SL.Sem
open Idealize.ShloMosaic.ValueIdx Idealize.ShloMosaic.RowOps

variable (m : (ℓ : Loc nD τ sig) → Buf (Elt Ideal) ℓ) (ρ : Dev nD → PrngReg) (c : Dev nD)

/-! ## What the host stretches of the round write -/

/-- The buffers the read of the targets' rows writes. -/
private abbrev r3_wl6 : List (Ref sig .tc) :=
  [main_call4_c, main_call4_v0, main_call4_v1, main_call4_c_0, main_call4_v2, main_call4_v3, main_call4_v4, main_call4_v5,
    main_call4_c_1, main_call4_c_2, main_call4_v6, main_call4_v7, main_call4_v8, main_call4_v9, main_call4_v10, main_call4_v11,
    main_call4_c_3, main_call4_v12, main_call4_v13, main_call4_v14, main_call4_cst, main_call4_v15, main_v72]
/-- The buffers the read of the sources' rows writes. -/
private abbrev r3_wl6_1 : List (Ref sig .tc) :=
  [main_call5_c, main_call5_v0, main_call5_v1, main_call5_c_0, main_call5_v2, main_call5_v3, main_call5_v4, main_call5_v5,
    main_call5_c_1, main_call5_c_2, main_call5_v6, main_call5_v7, main_call5_v8, main_call5_v9, main_call5_v10, main_call5_v11,
    main_call5_c_3, main_call5_v12, main_call5_v13, main_call5_v14, main_call5_cst, main_call5_v15, main_v73]
/-- The buffers the cut of the message weights writes. -/
private abbrev r3_wl6_2 : List (Ref sig .tc) :=
  [main_v74, main_v75, main_v76, main_v77, main_v78, main_v79, main_v80, main_v81, main_v82, main_v83, main_v84, main_v85, main_v86]
/-- The buffers the sum per target and the cut of the update weights write. -/
private abbrev r3_wl7 : List (Ref sig .tc) :=
  [main_cst_1, main_v88, main_v89, main_v90, main_v91, main_v92, main_v93, main_v94, main_v95, main_v96, main_v97, main_v98,
    main_v99, main_v100, main_v101, main_v102]

private theorem r3_writes6 : (hostOps6 : List (HloOp τ sig (Elt Ideal))).Forall fun op =>
    op.writes ⊆ (r3_wl6.map (Proc.devRef (τ := τ) .tc)).toFinset := by
  simp only [List.Forall]
  repeat' apply And.intro
  all_goals (simp only [StableHlo.nullary_writes, StableHlo.unary_writes, StableHlo.binary_writes, StableHlo.ternary_writes,
    StableHlo.reshape_writes, Finset.singleton_subset_iff, List.mem_toFinset]; exact List.mem_map_of_mem (by decide))

private theorem r3_writes6_1 : (hostOps6_1 : List (HloOp τ sig (Elt Ideal))).Forall fun op =>
    op.writes ⊆ (r3_wl6_1.map (Proc.devRef (τ := τ) .tc)).toFinset := by
  simp only [List.Forall]
  repeat' apply And.intro
  all_goals (simp only [StableHlo.nullary_writes, StableHlo.unary_writes, StableHlo.binary_writes, StableHlo.ternary_writes,
    StableHlo.reshape_writes, Finset.singleton_subset_iff, List.mem_toFinset]; exact List.mem_map_of_mem (by decide))

private theorem r3_writes6_2 : (hostOps6_2 : List (HloOp τ sig (Elt Ideal))).Forall fun op =>
    op.writes ⊆ (r3_wl6_2.map (Proc.devRef (τ := τ) .tc)).toFinset := by
  simp only [List.Forall]
  repeat' apply And.intro
  all_goals (simp only [StableHlo.nullary_writes, StableHlo.unary_writes, StableHlo.binary_writes, StableHlo.ternary_writes,
    StableHlo.reshape_writes, Finset.singleton_subset_iff, List.mem_toFinset]; exact List.mem_map_of_mem (by decide))

private theorem r3_writes7 : (hostOps7 : List (HloOp τ sig (Elt Ideal))).Forall fun op =>
    op.writes ⊆ (r3_wl7.map (Proc.devRef (τ := τ) .tc)).toFinset := by
  simp only [List.Forall]
  repeat' apply And.intro
  all_goals (simp only [StableHlo.nullary_writes, StableHlo.unary_writes, StableHlo.binary_writes, StableHlo.ternary_writes,
    StableHlo.reshape_writes, Finset.singleton_subset_iff, List.mem_toFinset]; exact List.mem_map_of_mem (by decide))

/-! ## A buffer a stretch does not write, and a buffer that is no window of a region, is where it was -/

private theorem r3_keep17 (r : Ref sig .tc) (h : r ∉ r3_wl6) :
    W17 m ρ c (Proc.devRef .tc r) = W16 m ρ c (Proc.devRef .tc r) :=
  StableHlo.after_of_writes_sub hostOps6 _ r3_writes6 h
private theorem r3_keep18 (r : Ref sig .tc) (h : r ∉ r3_wl6_1) :
    W18 m ρ c (Proc.devRef .tc r) = W17 m ρ c (Proc.devRef .tc r) :=
  StableHlo.after_of_writes_sub hostOps6_1 _ r3_writes6_1 h
private theorem r3_keep19 (r : Ref sig .tc) (h : r ∉ r3_wl6_2) :
    W19 m ρ c (Proc.devRef .tc r) = W18 m ρ c (Proc.devRef .tc r) :=
  StableHlo.after_of_writes_sub hostOps6_2 _ r3_writes6_2 h
private theorem r3_keep21 (r : Ref sig .tc) (h : r ∉ r3_wl7) :
    W21 m ρ c (Proc.devRef .tc r) = W20 m ρ c (Proc.devRef .tc r) :=
  StableHlo.after_of_writes_sub hostOps7 _ r3_writes7 h

/-! ## Contents carried to a buffer's own type and back -/

/-- Contents carried to a buffer's own type and back are the contents. -/
private theorem r3_ofBuf_toBuf {T : BufTy} (x : StableHlo.TRef sig T) (v : T.Contents (Elt Ideal)) :
    x.ofBuf (x.toBuf v) = v := by
  obtain ⟨r, rfl, _, _⟩ := x; rfl

private theorem r3_ofBuf_v1 (V : Valuation τ sig (Elt Ideal)) :
    (StableHlo.TRef.of main_v1 : StableHlo.TRef sig ⟨S320000, .i32⟩).ofBuf (V (Proc.devRef .tc main_v1))
      = V (Proc.devRef .tc main_v1) := rfl
private theorem r3_ofBuf_v3 (V : Valuation τ sig (Elt Ideal)) :
    (StableHlo.TRef.of main_v3 : StableHlo.TRef sig ⟨S320000, .i32⟩).ofBuf (V (Proc.devRef .tc main_v3))
      = V (Proc.devRef .tc main_v3) := rfl
private theorem r3_ofBuf_v71 (V : Valuation τ sig (Elt Ideal)) :
    (StableHlo.TRef.of main_v71 : StableHlo.TRef sig ⟨S20000x128, .f32⟩).ofBuf (V (Proc.devRef .tc main_v71))
      = V (Proc.devRef .tc main_v71) := rfl
private theorem r3_toBuf_v72 (X : (⟨S320000x128, .f32⟩ : BufTy).Contents (Elt Ideal)) :
    (StableHlo.TRef.of main_v72 : StableHlo.TRef sig ⟨S320000x128, .f32⟩).toBuf X = X := rfl
private theorem r3_toBuf_v73 (X : (⟨S320000x128, .f32⟩ : BufTy).Contents (Elt Ideal)) :
    (StableHlo.TRef.of main_v73 : StableHlo.TRef sig ⟨S320000x128, .f32⟩).toBuf X = X := rfl

/-! ## What the host stretches of the round compute, from any contents at their entry -/

/-- The read of the targets' rows, as the kernel spells it. -/
private theorem r3_take_dst (V : Valuation τ sig (Elt Ideal)) :
    StableHlo.after hostOps6 V (Proc.devRef .tc main_v72)
      = Take.takeFill (V (Proc.devRef .tc main_v71)) (V (Proc.devRef .tc main_v3)) := by
  after_results_simp
  simp only [r3_ofBuf_toBuf]
  rw [r3_toBuf_v72, r3_ofBuf_v3, r3_ofBuf_v71]
  unfold Take.takeFill Take.inb Take.rowsAt Take.col Take.wrap
  rfl
/-- The read of the sources' rows. -/
private theorem r3_take_src (V : Valuation τ sig (Elt Ideal)) :
    StableHlo.after hostOps6_1 V (Proc.devRef .tc main_v73)
      = Take.takeFill (V (Proc.devRef .tc main_v71)) (V (Proc.devRef .tc main_v1)) := by
  after_results_simp
  simp only [r3_ofBuf_toBuf]
  rw [r3_toBuf_v73, r3_ofBuf_v1, r3_ofBuf_v71]
  unfold Take.takeFill Take.inb Take.rowsAt Take.col Take.wrap
  rfl

/-- The message weights as the stretch cuts them out of the stacked arrays. -/
private theorem r3_cut_v76 (V : Valuation τ sig (Elt Ideal)) :
    StableHlo.after hostOps6_2 V (Proc.devRef .tc main_v76)
      = extractStridedSlice S128x128 ![0, 0] (shapeCast S288x128 (extractStridedSlice S1x288x128 ![2, 0, 0] (V (Proc.devRef .tc main_arg6)) slices_S3x288x128_S1x288x128_2_0_0) shapeCasts_S1x288x128_S288x128) slices_S288x128_S128x128_0_0 := by
  after_results
  rfl
private theorem r3_cut_v77 (V : Valuation τ sig (Elt Ideal)) :
    StableHlo.after hostOps6_2 V (Proc.devRef .tc main_v77)
      = extractStridedSlice S128x128 ![128, 0] (shapeCast S288x128 (extractStridedSlice S1x288x128 ![2, 0, 0] (V (Proc.devRef .tc main_arg6)) slices_S3x288x128_S1x288x128_2_0_0) shapeCasts_S1x288x128_S288x128) slices_S288x128_S128x128_128_0 := by
  after_results
  rfl
private theorem r3_cut_v78 (V : Valuation τ sig (Elt Ideal)) :
    StableHlo.after hostOps6_2 V (Proc.devRef .tc main_v78)
      = extractStridedSlice S32x128 ![256, 0] (shapeCast S288x128 (extractStridedSlice S1x288x128 ![2, 0, 0] (V (Proc.devRef .tc main_arg6)) slices_S3x288x128_S1x288x128_2_0_0) shapeCasts_S1x288x128_S288x128) slices_S288x128_S32x128_256_0 := by
  after_results
  rfl
private theorem r3_cut_v81 (V : Valuation τ sig (Elt Ideal)) :
    StableHlo.after hostOps6_2 V (Proc.devRef .tc main_v81)
      = shapeCast S1x128 (shapeCast S128 (extractStridedSlice S1x128 ![2, 0] (V (Proc.devRef .tc main_arg7)) slices_S3x128_S1x128_2_0) shapeCasts_S1x128_S128) shapeCasts_S128_S1x128 := by
  after_results
  rfl
private theorem r3_cut_v83 (V : Valuation τ sig (Elt Ideal)) :
    StableHlo.after hostOps6_2 V (Proc.devRef .tc main_v83)
      = shapeCast S128x128 (extractStridedSlice S1x128x128 ![2, 0, 0] (V (Proc.devRef .tc main_arg8)) slices_S3x128x128_S1x128x128_2_0_0) shapeCasts_S1x128x128_S128x128 := by
  after_results
  rfl
private theorem r3_cut_v86 (V : Valuation τ sig (Elt Ideal)) :
    StableHlo.after hostOps6_2 V (Proc.devRef .tc main_v86)
      = shapeCast S1x128 (shapeCast S128 (extractStridedSlice S1x128 ![2, 0] (V (Proc.devRef .tc main_arg9)) slices_S3x128_S1x128_2_0) shapeCasts_S1x128_S128) shapeCasts_S128_S1x128 := by
  after_results
  rfl
/-- The messages summed per target, and the update weights, as the stretch before the update region computes them. -/
private theorem r3_sum_v90 (V : Valuation τ sig (Elt Ideal)) :
    StableHlo.after hostOps7 V (Proc.devRef .tc main_v90)
      = Host.scatterAdd scatter_S20000x128_S320000x1_S320000x128_1_0_0_1
          (broadcastInDim S20000x128 ![] bcast_S_S20000x128 (constant (F := Ideal) S_ .f32 0x00000000#32))
          (broadcastInDim S320000x1 ![0] bcast_S320000_S320000x1_0 (V (Proc.devRef .tc main_v3)))
          (V (Proc.devRef .tc main_v87)) := by
  after_results
private theorem r3_cut_v93 (V : Valuation τ sig (Elt Ideal)) :
    StableHlo.after hostOps7 V (Proc.devRef .tc main_v93)
      = extractStridedSlice S128x128 ![0, 0] (shapeCast S256x128 (extractStridedSlice S1x256x128 ![2, 0, 0] (V (Proc.devRef .tc main_arg10)) slices_S3x256x128_S1x256x128_2_0_0) shapeCasts_S1x256x128_S256x128) slices_S256x128_S128x128_0_0 := by
  after_results
  rfl
private theorem r3_cut_v94 (V : Valuation τ sig (Elt Ideal)) :
    StableHlo.after hostOps7 V (Proc.devRef .tc main_v94)
      = extractStridedSlice S128x128 ![128, 0] (shapeCast S256x128 (extractStridedSlice S1x256x128 ![2, 0, 0] (V (Proc.devRef .tc main_arg10)) slices_S3x256x128_S1x256x128_2_0_0) shapeCasts_S1x256x128_S256x128) slices_S256x128_S128x128_128_0 := by
  after_results
  rfl
private theorem r3_cut_v97 (V : Valuation τ sig (Elt Ideal)) :
    StableHlo.after hostOps7 V (Proc.devRef .tc main_v97)
      = shapeCast S1x128 (shapeCast S128 (extractStridedSlice S1x128 ![2, 0] (V (Proc.devRef .tc main_arg11)) slices_S3x128_S1x128_2_0) shapeCasts_S1x128_S128) shapeCasts_S128_S1x128 := by
  after_results
  rfl
private theorem r3_cut_v99 (V : Valuation τ sig (Elt Ideal)) :
    StableHlo.after hostOps7 V (Proc.devRef .tc main_v99)
      = shapeCast S128x128 (extractStridedSlice S1x128x128 ![2, 0, 0] (V (Proc.devRef .tc main_arg12)) slices_S3x128x128_S1x128x128_2_0_0) shapeCasts_S1x128x128_S128x128 := by
  after_results
  rfl
private theorem r3_cut_v102 (V : Valuation τ sig (Elt Ideal)) :
    StableHlo.after hostOps7 V (Proc.devRef .tc main_v102)
      = shapeCast S1x128 (shapeCast S128 (extractStridedSlice S1x128 ![2, 0] (V (Proc.devRef .tc main_arg13)) slices_S3x128_S1x128_2_0) shapeCasts_S1x128_S128) shapeCasts_S128_S1x128 := by
  after_results
  rfl

/-! ## Keeps over several steps of the round -/

/-- Across the three stretches before the message region. -/
private theorem r3_keep19_16 (r : Ref sig .tc) (h6 : r ∉ r3_wl6) (h61 : r ∉ r3_wl6_1) (h62 : r ∉ r3_wl6_2) :
    W19 m ρ c (Proc.devRef .tc r) = W16 m ρ c (Proc.devRef .tc r) :=
  (r3_keep19 m ρ c r h62).trans ((r3_keep18 m ρ c r h61).trans (r3_keep17 m ρ c r h6))

/-- … and across the message region, for a buffer that is none of its windows. -/
private theorem r3_keep20_16 (r : Ref sig .tc) (h6 : r ∉ r3_wl6) (h61 : r ∉ r3_wl6_1) (h62 : r ∉ r3_wl6_2)
    (hw6 : ∀ w, Pipeline.arrRef spec6 w ≠ r) :
    W20 m ρ c (Proc.devRef .tc r) = W16 m ρ c (Proc.devRef .tc r) :=
  (W20_of_ne m ρ c r hw6).trans (r3_keep19_16 m ρ c r h6 h61 h62)

/-- … and across the stretch before the update region. -/
private theorem r3_keep21_16 (r : Ref sig .tc) (h6 : r ∉ r3_wl6) (h61 : r ∉ r3_wl6_1) (h62 : r ∉ r3_wl6_2) (h7 : r ∉ r3_wl7)
    (hw6 : ∀ w, Pipeline.arrRef spec6 w ≠ r) :
    W21 m ρ c (Proc.devRef .tc r) = W16 m ρ c (Proc.devRef .tc r) :=
  (r3_keep21 m ρ c r h7).trans (r3_keep20_16 m ρ c r h6 h61 h62 hw6)

/-- … and across the update region, for a buffer that is none of its windows. -/
private theorem r3_keep22_16 (r : Ref sig .tc) (h6 : r ∉ r3_wl6) (h61 : r ∉ r3_wl6_1) (h62 : r ∉ r3_wl6_2) (h7 : r ∉ r3_wl7)
    (hw6 : ∀ w, Pipeline.arrRef spec6 w ≠ r) (hw7 : ∀ w, Pipeline.arrRef spec7 w ≠ r) :
    W22 m ρ c (Proc.devRef .tc r) = W16 m ρ c (Proc.devRef .tc r) :=
  (W22_of_ne m ρ c r hw7).trans (r3_keep21_16 m ρ c r h6 h61 h62 h7 hw6)

/-- The edges' rows are an input window of the message region, which leaves an input as it was. -/
private theorem r3_v7_W20 : W20 m ρ c (Proc.devRef .tc main_v7) = W19 m ρ c (Proc.devRef .tc main_v7) :=
  (W20_arr m ρ c 2).trans (((dat6 (V19 m ρ) c).arrAt_in 2 rfl _).trans (A_eq6 (V19 m ρ) c 2))

/-- The edges' rows at the round's exit. -/
private theorem r3_v7_W22 : W22 m ρ c (Proc.devRef .tc main_v7) = W16 m ρ c (Proc.devRef .tc main_v7) :=
  (W22_of_ne m ρ c main_v7 (by decide)).trans ((r3_keep21 m ρ c main_v7 (by decide)).trans
    ((r3_v7_W20 m ρ c).trans (r3_keep19_16 m ρ c main_v7 (by decide) (by decide) (by decide))))

/-- The weight arguments through the round. -/
private theorem r3_args18 (ha : ArgsAt m c (W16 m ρ c)) : ArgsAt m c (W18 m ρ c) := by
  obtain ⟨a6, a7, a8, a9, a10, a11, a12, a13, a14, a15, a16, a17⟩ := ha
  exact ⟨(r3_keep18 m ρ c main_arg6 (by decide)).trans ((r3_keep17 m ρ c main_arg6 (by decide)).trans a6),
    (r3_keep18 m ρ c main_arg7 (by decide)).trans ((r3_keep17 m ρ c main_arg7 (by decide)).trans a7),
    (r3_keep18 m ρ c main_arg8 (by decide)).trans ((r3_keep17 m ρ c main_arg8 (by decide)).trans a8),
    (r3_keep18 m ρ c main_arg9 (by decide)).trans ((r3_keep17 m ρ c main_arg9 (by decide)).trans a9),
    (r3_keep18 m ρ c main_arg10 (by decide)).trans ((r3_keep17 m ρ c main_arg10 (by decide)).trans a10),
    (r3_keep18 m ρ c main_arg11 (by decide)).trans ((r3_keep17 m ρ c main_arg11 (by decide)).trans a11),
    (r3_keep18 m ρ c main_arg12 (by decide)).trans ((r3_keep17 m ρ c main_arg12 (by decide)).trans a12),
    (r3_keep18 m ρ c main_arg13 (by decide)).trans ((r3_keep17 m ρ c main_arg13 (by decide)).trans a13),
    (r3_keep18 m ρ c main_arg14 (by decide)).trans ((r3_keep17 m ρ c main_arg14 (by decide)).trans a14),
    (r3_keep18 m ρ c main_arg15 (by decide)).trans ((r3_keep17 m ρ c main_arg15 (by decide)).trans a15),
    (r3_keep18 m ρ c main_arg16 (by decide)).trans ((r3_keep17 m ρ c main_arg16 (by decide)).trans a16),
    (r3_keep18 m ρ c main_arg17 (by decide)).trans ((r3_keep17 m ρ c main_arg17 (by decide)).trans a17)⟩

private theorem r3_args20 (ha : ArgsAt m c (W16 m ρ c)) : ArgsAt m c (W20 m ρ c) := by
  obtain ⟨a6, a7, a8, a9, a10, a11, a12, a13, a14, a15, a16, a17⟩ := ha
  exact ⟨(r3_keep20_16 m ρ c main_arg6 (by decide) (by decide) (by decide) (by decide)).trans a6,
    (r3_keep20_16 m ρ c main_arg7 (by decide) (by decide) (by decide) (by decide)).trans a7,
    (r3_keep20_16 m ρ c main_arg8 (by decide) (by decide) (by decide) (by decide)).trans a8,
    (r3_keep20_16 m ρ c main_arg9 (by decide) (by decide) (by decide) (by decide)).trans a9,
    (r3_keep20_16 m ρ c main_arg10 (by decide) (by decide) (by decide) (by decide)).trans a10,
    (r3_keep20_16 m ρ c main_arg11 (by decide) (by decide) (by decide) (by decide)).trans a11,
    (r3_keep20_16 m ρ c main_arg12 (by decide) (by decide) (by decide) (by decide)).trans a12,
    (r3_keep20_16 m ρ c main_arg13 (by decide) (by decide) (by decide) (by decide)).trans a13,
    (r3_keep20_16 m ρ c main_arg14 (by decide) (by decide) (by decide) (by decide)).trans a14,
    (r3_keep20_16 m ρ c main_arg15 (by decide) (by decide) (by decide) (by decide)).trans a15,
    (r3_keep20_16 m ρ c main_arg16 (by decide) (by decide) (by decide) (by decide)).trans a16,
    (r3_keep20_16 m ρ c main_arg17 (by decide) (by decide) (by decide) (by decide)).trans a17⟩

private theorem r3_args22 (ha : ArgsAt m c (W16 m ρ c)) : ArgsAt m c (W22 m ρ c) := by
  obtain ⟨a6, a7, a8, a9, a10, a11, a12, a13, a14, a15, a16, a17⟩ := ha
  exact ⟨(r3_keep22_16 m ρ c main_arg6 (by decide) (by decide) (by decide) (by decide) (by decide) (by decide)).trans a6,
    (r3_keep22_16 m ρ c main_arg7 (by decide) (by decide) (by decide) (by decide) (by decide) (by decide)).trans a7,
    (r3_keep22_16 m ρ c main_arg8 (by decide) (by decide) (by decide) (by decide) (by decide) (by decide)).trans a8,
    (r3_keep22_16 m ρ c main_arg9 (by decide) (by decide) (by decide) (by decide) (by decide) (by decide)).trans a9,
    (r3_keep22_16 m ρ c main_arg10 (by decide) (by decide) (by decide) (by decide) (by decide) (by decide)).trans a10,
    (r3_keep22_16 m ρ c main_arg11 (by decide) (by decide) (by decide) (by decide) (by decide) (by decide)).trans a11,
    (r3_keep22_16 m ρ c main_arg12 (by decide) (by decide) (by decide) (by decide) (by decide) (by decide)).trans a12,
    (r3_keep22_16 m ρ c main_arg13 (by decide) (by decide) (by decide) (by decide) (by decide) (by decide)).trans a13,
    (r3_keep22_16 m ρ c main_arg14 (by decide) (by decide) (by decide) (by decide) (by decide) (by decide)).trans a14,
    (r3_keep22_16 m ρ c main_arg15 (by decide) (by decide) (by decide) (by decide) (by decide) (by decide)).trans a15,
    (r3_keep22_16 m ρ c main_arg16 (by decide) (by decide) (by decide) (by decide) (by decide) (by decide)).trans a16,
    (r3_keep22_16 m ρ c main_arg17 (by decide) (by decide) (by decide) (by decide) (by decide) (by decide)).trans a17⟩

/-! ## The round's values -/

/-- The targets' rows of the entry array at the message region's entry. -/
private theorem r3_gd (h : Mat 20000 128) (hr : Take.InRange (edges m c))
    (h3 : W16 m ρ c (Proc.devRef .tc main_v3) = Take.dstIdx (edges m c))
    (hh : W16 m ρ c (Proc.devRef .tc main_v71) = h) :
    W19 m ρ c (Proc.devRef .tc main_v72) = gdK m c h := by
  refine (r3_keep19 m ρ c main_v72 (by decide)).trans ((r3_keep18 m ρ c main_v72 (by decide)).trans ?_)
  refine (r3_take_dst (W16 m ρ c)).trans ?_
  rw [hh, h3, Take.takeFill_dst h _ hr]
  rfl

/-- The sources' rows. -/
private theorem r3_gs (h : Mat 20000 128) (hr : Take.InRange (edges m c))
    (h1 : W16 m ρ c (Proc.devRef .tc main_v1) = Take.srcIdx (edges m c))
    (hh : W16 m ρ c (Proc.devRef .tc main_v71) = h) :
    W19 m ρ c (Proc.devRef .tc main_v73) = gsK m c h := by
  refine (r3_keep19 m ρ c main_v73 (by decide)).trans ?_
  refine (r3_take_src (W17 m ρ c)).trans ?_
  rw [r3_keep17 m ρ c main_v71 (by decide), r3_keep17 m ρ c main_v1 (by decide), hh, h1, Take.takeFill_src h _ hr]
  rfl

/-- The messages at the message region's exit. -/
private theorem r3_msgs (e : Mat 320000 32) (h : Mat 20000 128) (hr : Take.InRange (edges m c))
    (h1 : W16 m ρ c (Proc.devRef .tc main_v1) = Take.srcIdx (edges m c))
    (h3 : W16 m ρ c (Proc.devRef .tc main_v3) = Take.dstIdx (edges m c))
    (h7 : W16 m ρ c (Proc.devRef .tc main_v7) = e)
    (hh : W16 m ρ c (Proc.devRef .tc main_v71) = h)
    (ha : ArgsAt m c (W16 m ρ c)) :
    W20 m ρ c (Proc.devRef .tc main_v87)
      = rows3 (Gnn.msgRow (W1L2 m c) (b1L2 m c) (W2L2 m c) (b2L2 m c)) (gdK m c h) (gsK m c h) e := by
  obtain ⟨a6, a7, a8, a9, -, -, -, -, -, -, -, -⟩ := r3_args18 m ρ c ha
  refine (W20_arr m ρ c 9).trans ?_
  refine (Region.region6_value (V19 m ρ) c (W1L2 m c) (b1L2 m c) (W2L2 m c) (b2L2 m c)
    ((r3_cut_v76 (W18 m ρ c)).trans (by rw [a6]; rfl)) ((r3_cut_v77 (W18 m ρ c)).trans (by rw [a6]; rfl))
    ((r3_cut_v78 (W18 m ρ c)).trans (by rw [a6]; rfl)) ((r3_cut_v81 (W18 m ρ c)).trans (by rw [a7]; rfl))
    ((r3_cut_v83 (W18 m ρ c)).trans (by rw [a8]; rfl)) ((r3_cut_v86 (W18 m ρ c)).trans (by rw [a9]; rfl))).trans ?_
  have e72 : V19 m ρ c main_v72 = gdK m c h := r3_gd m ρ c h hr h3 hh
  have e73 : V19 m ρ c main_v73 = gsK m c h := r3_gs m ρ c h hr h1 hh
  have e7 : V19 m ρ c main_v7 = e := (r3_keep19_16 m ρ c main_v7 (by decide) (by decide) (by decide)).trans h7
  rw [e72, e73, e7]

/-- Round 3: from the contents at region 5's exit to the contents at region 7's exit. -/
theorem round3_chain (e : Mat 320000 32) (h : Mat 20000 128) (hr : Take.InRange (edges m c))
    (h1 : W16 m ρ c (Proc.devRef .tc main_v1) = Take.srcIdx (edges m c))
    (h3 : W16 m ρ c (Proc.devRef .tc main_v3) = Take.dstIdx (edges m c))
    (h7 : W16 m ρ c (Proc.devRef .tc main_v7) = e)
    (hh : W16 m ρ c (Proc.devRef .tc main_v71) = h)
    (ha : ArgsAt m c (W16 m ρ c)) :
    W22 m ρ c (Proc.devRef .tc main_v103)
        = Gnn.round (gdK m c) (gsK m c) (aggK m c) e (W1L2 m c) (b1L2 m c) (W2L2 m c) (b2L2 m c)
            (U1L2 m c) (c1L2 m c) (U2L2 m c) (c2L2 m c) h
      ∧ W22 m ρ c (Proc.devRef .tc main_v1) = Take.srcIdx (edges m c)
      ∧ W22 m ρ c (Proc.devRef .tc main_v3) = Take.dstIdx (edges m c)
      ∧ W22 m ρ c (Proc.devRef .tc main_v7) = e
      ∧ ArgsAt m c (W22 m ρ c) := by
  refine ⟨?_, (r3_keep22_16 m ρ c main_v1 (by decide) (by decide) (by decide) (by decide) (by decide) (by decide)).trans h1,
    (r3_keep22_16 m ρ c main_v3 (by decide) (by decide) (by decide) (by decide) (by decide) (by decide)).trans h3,
    (r3_v7_W22 m ρ c).trans h7, r3_args22 m ρ c ha⟩
  obtain ⟨-, -, -, -, a10, a11, a12, a13, -, -, -, -⟩ := r3_args20 m ρ c ha
  refine (W22_arr m ρ c 7).trans ?_
  refine (Region.region7_value (V21 m ρ) c (U1L2 m c) (c1L2 m c) (U2L2 m c) (c2L2 m c)
    ((r3_cut_v93 (W20 m ρ c)).trans (by rw [a10]; rfl)) ((r3_cut_v94 (W20 m ρ c)).trans (by rw [a10]; rfl))
    ((r3_cut_v97 (W20 m ρ c)).trans (by rw [a11]; rfl)) ((r3_cut_v99 (W20 m ρ c)).trans (by rw [a12]; rfl))
    ((r3_cut_v102 (W20 m ρ c)).trans (by rw [a13]; rfl))).trans ?_
  have e71 : V21 m ρ c main_v71 = h := (r3_keep21_16 m ρ c main_v71 (by decide) (by decide) (by decide) (by decide) (by decide)).trans hh
  have e90 : V21 m ρ c main_v90
      = aggK m c (rows3 (Gnn.msgRow (W1L2 m c) (b1L2 m c) (W2L2 m c) (b2L2 m c)) (gdK m c h) (gsK m c h) e) := by
    refine (r3_sum_v90 (W20 m ρ c)).trans ?_
    rw [r3_keep20_16 m ρ c main_v3 (by decide) (by decide) (by decide) (by decide), h3, r3_msgs m ρ c e h hr h1 h3 h7 hh ha]
    rfl
  rw [e71, e90]
  rfl

end Cert.KernelIdeal.Chain

end
-- ==== Proof.KRegion8.lean ====
/-
  REGION 8 AS A WHOLE: every node's logit from the node's final row, the output's blocks being the row blocks of the
  20000 × 1 array.
-/
import proofs.«404104_j10677288698628_1_alg».proof.Proof.KBodyLin

set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx Idealize.ShloMosaic.RowOps

variable (V : (c : Dev nD) → (b : Ref sig .tc) → Buf (Elt Ideal) ((c : Thread nD τ).loc b))

/-- A row-wise map of a block of rows is the same block of rows of the row-wise map of the whole array: if the block
    `XB` reads `X` through `e'`, and `e`, `e'` both shift the row number by `o` and keep the column, then entry `y` of
    the row-wise map of the block is entry `e y` of the row-wise map of the array. -/
theorem rows1_blk8 {A R C D : Nat} (f : (Fin C → EReal) → Fin D → EReal) (X : Mat A C) (XB : Mat R C) (o : Nat)
    (e : (⟨2, ![R, D]⟩ : Shape).Idx → (⟨2, ![A, D]⟩ : Shape).Idx)
    (e' : (⟨2, ![R, C]⟩ : Shape).Idx → (⟨2, ![A, C]⟩ : Shape).Idx)
    (hXB : ∀ y, XB y = X (e' y))
    (he : ∀ y, ((e y) 0).val = o + (y 0).val ∧ ((e y) 1).val = (y 1).val)
    (he' : ∀ y, ((e' y) 0).val = o + (y 0).val ∧ ((e' y) 1).val = (y 1).val)
    (y : (⟨2, ![R, D]⟩ : Shape).Idx) :
    rows1 f XB y = rows1 f X (e y) := by
  unfold rows1
  have h1 : (⟨(y 1).val, idx2_lt1 y⟩ : Fin D) = ⟨((e y) 1).val, idx2_lt1 (e y)⟩ := Fin.ext (he y).2.symm
  have h0 : row XB ⟨(y 0).val, idx2_lt0 y⟩ = row X ⟨((e y) 0).val, idx2_lt0 (e y)⟩ := by
    funext k
    unfold row
    rw [hXB]
    refine congrArg X ?_
    funext a; apply Fin.ext
    match a with
    | ⟨0, _⟩ =>
      show ((e' (ix2 (⟨(y 0).val, idx2_lt0 y⟩ : Fin R) k)) 0).val = ((e y) 0).val
      rw [(he' _).1, (he y).1]; rfl
    | ⟨1, _⟩ =>
      show ((e' (ix2 (⟨(y 0).val, idx2_lt0 y⟩ : Fin R) k)) 1).val = k.val
      rw [(he' _).2]; rfl
  rw [h0, h1]

/-- The printed index maps, decided once over the grid: the row-tiled input and the output have block index `(t, 0)` at
    point `t`, the two weights and the two biases `(0, 0)`. -/
theorem idx8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- The first weight's block is the whole weight array at every point: the block is the full rectangle at offset 0. -/
theorem wblk8_1 (c : Dev nD) (t : Fin cfg8.N) : iblk8 V c 1 t = V c main_arg14 := by
  obtain ⟨-, -, e2, e3, -⟩ := idx8 t
  funext y
  show V c main_arg14 (((cfg8.win 1).blk t).view.emb y) = V c main_arg14 y
  refine congrArg (V c main_arg14) ?_
  funext a; apply Fin.ext
  match a with
  | ⟨0, _⟩ => show win8_1.index t (0 : Fin 2) * 128 + 1 * (y 0).val = (y 0).val; omega
  | ⟨1, _⟩ => show win8_1.index t (1 : Fin 2) * 64 + 1 * (y 1).val = (y 1).val; omega

/-- So is the first bias's, -/
theorem wblk8_2 (c : Dev nD) (t : Fin cfg8.N) : iblk8 V c 2 t = V c main_v104 := by
  obtain ⟨-, -, -, -, e4, e5, -⟩ := idx8 t
  funext y
  show V c main_v104 (((cfg8.win 2).blk t).view.emb y) = V c main_v104 y
  refine congrArg (V c main_v104) ?_
  funext a; apply Fin.ext
  match a with
  | ⟨0, _⟩ => show win8_2.index t (0 : Fin 2) * 1 + 1 * (y 0).val = (y 0).val; omega
  | ⟨1, _⟩ => show win8_2.index t (1 : Fin 2) * 64 + 1 * (y 1).val = (y 1).val; omega

/-- the second weight's, -/
theorem wblk8_3 (c : Dev nD) (t : Fin cfg8.N) : iblk8 V c 3 t = V c main_arg16 := by
  obtain ⟨-, -, -, -, -, -, e6, e7, -⟩ := idx8 t
  funext y
  show V c main_arg16 (((cfg8.win 3).blk t).view.emb y) = V c main_arg16 y
  refine congrArg (V c main_arg16) ?_
  funext a; apply Fin.ext
  match a with
  | ⟨0, _⟩ => show win8_3.index t (0 : Fin 2) * 64 + 1 * (y 0).val = (y 0).val; omega
  | ⟨1, _⟩ => show win8_3.index t (1 : Fin 2) * 1 + 1 * (y 1).val = (y 1).val; omega

/-- and the second bias's. -/
theorem wblk8_4 (c : Dev nD) (t : Fin cfg8.N) : iblk8 V c 4 t = V c main_v105 := by
  obtain ⟨-, -, -, -, -, -, -, -, e8, e9, -⟩ := idx8 t
  funext y
  show V c main_v105 (((cfg8.win 4).blk t).view.emb y) = V c main_v105 y
  refine congrArg (V c main_v105) ?_
  funext a; apply Fin.ext
  match a with
  | ⟨0, _⟩ => show win8_4.index t (0 : Fin 2) * 1 + 1 * (y 0).val = (y 0).val; omega
  | ⟨1, _⟩ => show win8_4.index t (1 : Fin 2) * 1 + 1 * (y 1).val = (y 1).val; omega

/-- WHAT POINT `t` WRITES BACK is block `t` of the row-wise logit map of the input array: the body maps the rows of the
    input's block, and entry `(y₀, y₁)` of block `t` is entry `(4000·t + y₀, y₁)` of its array, for the input and the
    output alike. -/
theorem flushed8 (c : Dev nD) (d1 : Arr 64) (d2 : Arr 1)
    (h2 : V c main_v104 = shapeCast S1x64 d1 shapeCasts_S64_S1x64)
    (h4 : V c main_v105 = shapeCast S1x1 d2 shapeCasts_S1_S1x1) (t : Fin cfg8.N) :
    (dat8 V c).flushed 5 t
      = ((cfg8.win 5).blk t).view.read (Elt Ideal)
          (rows1 (Gnn.tokRow (V c main_arg14) d1 (V c main_arg16) d2) (V c main_v103)) := by
  show (cfg8.win 5).cut (grid8.coords t) ((dat8 V c).after 5 t) = _
  rw [after8_5, wblk8_1, wblk8_2, wblk8_3, wblk8_4, h2, h4]
  refine (Body.tok_body (iblk8 V c 0 t) (V c main_arg14) d1 (V c main_arg16) d2).trans ?_
  obtain ⟨e0, e1, -, -, -, -, -, -, -, -, e10, e11⟩ := idx8 t
  funext y
  exact rows1_blk8 (Gnn.tokRow (V c main_arg14) d1 (V c main_arg16) d2) (V c main_v103) (iblk8 V c 0 t) (t.val * 4000)
    ((cfg8.win 5).blk t).view.emb ((cfg8.win 0).blk t).view.emb (fun _ => rfl)
    (fun y => ⟨by show win8_5.index t (0 : Fin 2) * 4000 + 1 * (y 0).val = t.val * 4000 + (y 0).val; omega,
      by show win8_5.index t (1 : Fin 2) * 1 + 1 * (y 1).val = (y 1).val; omega⟩)
    (fun y => ⟨by show win8_0.index t (0 : Fin 2) * 4000 + 1 * (y 0).val = t.val * 4000 + (y 0).val; omega,
      by show win8_0.index t (1 : Fin 2) * 128 + 1 * (y 1).val = (y 1).val; omega⟩) y

/-- An index of the output array is in point `t`'s block iff each coordinate is in the block's range on its axis. -/
theorem mem_blk8 (t : Fin cfg8.N) (i : S20000x1.Idx) :
    i ∈ ((cfg8.win 5).blk t).view.set ↔ ∀ a : Fin 2, win8_5.index t a * S4000x1.size a ≤ (i a).val
      ∧ (i a).val < win8_5.index t a * S4000x1.size a + S4000x1.size a := by
  show i ∈ ((View.whole main_v106).slice (win8_5.rect t)).set ↔ _
  rw [View.set_slice_whole, Rect.mem_set_unit]
  exact Iff.rfl

/-- Every index of the output array is in some point's block: row `r` in the block of point `r / 4000`. -/
theorem cover8 (i : S20000x1.Idx) :
    ∃ t : Fin cfg8.N, (cfg8.win 5).flush t = true ∧ i ∈ ((cfg8.win 5).blk t).view.set := by
  have hi0 : (i 0).val < 20000 := (i 0).isLt
  have hi1 : (i 1).val < 1 := (i 1).isLt
  obtain ⟨t, ht⟩ : ∃ t : Fin cfg8.N, t.val = (i 0).val / 4000 :=
    ⟨⟨(i 0).val / 4000, by rw [show cfg8.N = 5 from N_8]; omega⟩, rfl⟩
  obtain ⟨-, -, -, -, -, -, -, -, -, -, e10, e11⟩ := idx8 t
  refine ⟨t, flush8_5 t, ?_⟩
  rw [mem_blk8]
  intro a
  match a with
  | ⟨0, _⟩ =>
    show win8_5.index t (0 : Fin 2) * 4000 ≤ (i 0).val ∧ (i 0).val < win8_5.index t (0 : Fin 2) * 4000 + 4000
    omega
  | ⟨1, _⟩ =>
    show win8_5.index t (1 : Fin 2) * 1 ≤ (i 1).val ∧ (i 1).val < win8_5.index t (1 : Fin 2) * 1 + 1
    omega

/-- The logits' array (one column) after the region. -/
theorem region8_value (c : Dev nD) (d1 : Arr 64) (d2 : Arr 1)
    (h2 : V c main_v104 = shapeCast S1x64 d1 shapeCasts_S64_S1x64)
    (h4 : V c main_v105 = shapeCast S1x1 d2 shapeCasts_S1_S1x1) :
    (dat8 V c).arrAt 5 cfg8.N = rows1 (Gnn.tokRow (V c main_arg14) d1 (V c main_arg16) d2) (V c main_v103) :=
  (dat8 V c).arrAt_eq_of_cover 5 _ (fun t _ => flushed8 V c d1 d2 h2 h4 t) cover8

end Cert.KernelIdeal.Region

end
-- ==== Proof.KTail.lean ====
/-
  THE TAIL OF THE KERNEL PROGRAM: the logit region on the final nodes' rows, and the logits' column laid out as a vector.
-/
import proofs.«404104_j10677288698628_1_alg».proof.Proof.KChainDefs
import proofs.«404104_j10677288698628_1_alg».proof.Proof.KRegion8

set_option maxRecDepth 16384

noncomputable section

namespace Cert.KernelIdeal.Chain

open Cert.KernelIdeal Cert.KernelIdeal.Gen Idealize.ShloMosaic Idealize.ShloMosaic.TcCoe Idealize.SL.Sem
open Idealize.ShloMosaic.ValueIdx Idealize.ShloMosaic.RowOps

variable (m : (ℓ : Loc nD τ sig) → Buf (Elt Ideal) ℓ) (ρ : Dev nD → PrngReg) (c : Dev nD)

theorem tail_chain (h : Mat 20000 128)
    (hh : W22 m ρ c (Proc.devRef .tc main_v103) = h) (ha : ArgsAt m c (W22 m ρ c)) :
    W25 m ρ c (Proc.devRef .tc main_v107)
        = shapeCast S20000 (Gnn.logit (m ((c.tc : Thread nD τ).loc main_arg14)) (m ((c.tc : Thread nD τ).loc main_arg15)) (m ((c.tc : Thread nD τ).loc main_arg16)) (m ((c.tc : Thread nD τ).loc main_arg17)) h) shapeCasts_S20000x1_S20000
      ∧ W25 m ρ c (Proc.devRef .tc main_v103) = h := by
  obtain ⟨-, -, -, -, -, -, -, -, a14, a15, a16, a17⟩ := ha
  -- at the logit region's entry: the two biases are the launched vectors laid out as one row each,
  have v104 : V23 m ρ c main_v104 = shapeCast S1x64 (m ((c.tc : Thread nD τ).loc main_arg15)) shapeCasts_S64_S1x64 := by
    show StableHlo.after hostOps8 (W22 m ρ c) (Proc.devRef .tc main_v104) = _
    after_results
    rw [a15]
    rfl
  have v105 : V23 m ρ c main_v105 = shapeCast S1x1 (m ((c.tc : Thread nD τ).loc main_arg17)) shapeCasts_S1_S1x1 := by
    show StableHlo.after hostOps8 (W22 m ρ c) (Proc.devRef .tc main_v105) = _
    after_results
    rw [a17]
    rfl
  -- the two weight matrices are the launched ones and the nodes' rows are the last round's,
  have w14 : V23 m ρ c main_arg14 = m ((c.tc : Thread nD τ).loc main_arg14) := by
    show StableHlo.after hostOps8 (W22 m ρ c) (Proc.devRef .tc main_arg14) = _
    after_results
    exact a14
  have w16 : V23 m ρ c main_arg16 = m ((c.tc : Thread nD τ).loc main_arg16) := by
    show StableHlo.after hostOps8 (W22 m ρ c) (Proc.devRef .tc main_arg16) = _
    after_results
    exact a16
  have w103 : V23 m ρ c main_v103 = h := by
    show StableHlo.after hostOps8 (W22 m ρ c) (Proc.devRef .tc main_v103) = _
    after_results
    exact hh
  -- the region leaves the logits' column in its output array and its input array as entered,
  have v106 : W24 m ρ c (Proc.devRef .tc main_v106) = (dat8 (V23 m ρ) c).arrAt 5 cfg8.N := W24_arr m ρ c 5
  have i103 : W24 m ρ c (Proc.devRef .tc main_v103) = V23 m ρ c main_v103 :=
    (W24_arr m ρ c 0).trans (((dat8 (V23 m ρ) c).arrAt_in 0 rfl _).trans (A_eq8 (V23 m ρ) c 0))
  -- and the last operation lays the column out as a vector, touching nothing else.
  have v107 : W25 m ρ c (Proc.devRef .tc main_v107)
      = shapeCast S20000 (W24 m ρ c (Proc.devRef .tc main_v106)) shapeCasts_S20000x1_S20000 := by
    show StableHlo.after hostOps9 (W24 m ρ c) (Proc.devRef .tc main_v107) = _
    after_results
    rfl
  have k103 : W25 m ρ c (Proc.devRef .tc main_v103) = W24 m ρ c (Proc.devRef .tc main_v103) := by
    show StableHlo.after hostOps9 (W24 m ρ c) (Proc.devRef .tc main_v103) = _
    after_results
  refine ⟨?_, k103.trans (i103.trans w103)⟩
  rw [v107, v106, Region.region8_value (V23 m ρ) c _ _ v104 v105, w14, w16, w103]
  rfl

end Cert.KernelIdeal.Chain

end
-- ==== Proof.KValue.lean ====
/-
  THE KERNEL PROGRAM'S TWO RESULTS AS FUNCTIONS OF THE LAUNCH MEMORY: the head leaves the projected nodes' and edges' rows,
  each round maps the nodes' rows by one round of message passing with its own weights, the tail computes the logits.
  Where every node number of the edge list is in range, the final nodes' rows are three rounds on the projection and
  the logits are the logit map of those rows, as a vector.
-/
import proofs.«404104_j10677288698628_1_alg».proof.Proof.KHead
import proofs.«404104_j10677288698628_1_alg».proof.Proof.KLayer1
import proofs.«404104_j10677288698628_1_alg».proof.Proof.KLayer2
import proofs.«404104_j10677288698628_1_alg».proof.Proof.KLayer3
import proofs.«404104_j10677288698628_1_alg».proof.Proof.KTail

set_option maxRecDepth 16384

noncomputable section

namespace Cert.KernelIdeal.Chain

open Cert.KernelIdeal Cert.KernelIdeal.Gen Idealize.ShloMosaic Idealize.ShloMosaic.TcCoe Idealize.SL.Sem
open Idealize.ShloMosaic.ValueIdx Idealize.ShloMosaic.RowOps

variable (m : (ℓ : Loc nD τ sig) → Buf (Elt Ideal) ℓ) (ρ : Dev nD → PrngReg) (c : Dev nD)

/-- The projected edges' rows. -/
def E0 : Mat 320000 32 := Gnn.edges0 (m ((c.tc : Thread nD τ).loc main_arg4)) (m ((c.tc : Thread nD τ).loc main_arg5)) (m ((c.tc : Thread nD τ).loc main_arg1))

/-- The nodes' rows after the projection and three rounds. -/
def H3 : Mat 20000 128 :=
  Gnn.round (gdK m c) (gsK m c) (aggK m c) (E0 m c) (W1L2 m c) (b1L2 m c) (W2L2 m c) (b2L2 m c) (U1L2 m c) (c1L2 m c) (U2L2 m c) (c2L2 m c)
    (Gnn.round (gdK m c) (gsK m c) (aggK m c) (E0 m c) (W1L1 m c) (b1L1 m c) (W2L1 m c) (b2L1 m c) (U1L1 m c) (c1L1 m c) (U2L1 m c) (c2L1 m c)
      (Gnn.round (gdK m c) (gsK m c) (aggK m c) (E0 m c) (W1L0 m c) (b1L0 m c) (W2L0 m c) (b2L0 m c) (U1L0 m c) (c1L0 m c) (U2L0 m c) (c2L0 m c)
        (Gnn.nodes0 (m ((c.tc : Thread nD τ).loc main_arg2)) (m ((c.tc : Thread nD τ).loc main_arg3)) (m ((c.tc : Thread nD τ).loc main_arg0)))))

/-- The contents of the two result buffers at the last boundary. -/
theorem kernel_value (hr : Take.InRange (edges m c)) :
    W25 m ρ c (Proc.devRef .tc main_v107)
        = shapeCast S20000 (Gnn.logit (m ((c.tc : Thread nD τ).loc main_arg14)) (m ((c.tc : Thread nD τ).loc main_arg15)) (m ((c.tc : Thread nD τ).loc main_arg16)) (m ((c.tc : Thread nD τ).loc main_arg17)) (H3 m c)) shapeCasts_S20000x1_S20000
      ∧ W25 m ρ c (Proc.devRef .tc main_v103) = H3 m c := by
  obtain ⟨h1, h3, h7, h5, ha⟩ := head_chain m ρ c
  obtain ⟨r1, h1a, h3a, h7a, haa⟩ := round1_chain m ρ c _ _ hr h1 h3 h7 h5 ha
  obtain ⟨r2, h1b, h3b, h7b, hab⟩ := round2_chain m ρ c _ _ hr h1a h3a h7a r1 haa
  obtain ⟨r3, -, -, -, hac⟩ := round3_chain m ρ c _ _ hr h1b h3b h7b r2 hab
  exact tail_chain m ρ c _ r3 hac

end Cert.KernelIdeal.Chain

end
-- ==== Proof.RefMaps.lean ====
/-
  THE REFERENCE'S THREE INDEX MAPS. The reference reads a node array at every edge's target and at every edge's source by a
  gather of whole rows at the edge's (wrapped) node number, and sums the edges' rows per target node by a scatter-add into
  zeros. All three are functions of the edge list alone; every round uses the same three.
-/
import proofs.«404104_j10677288698628_1_alg».proof.Proof.RefRead
import proofs.«404104_j10677288698628_1_alg».proof.Proof.Net

set_option maxRecDepth 16384

noncomputable section

namespace Cert.ReferenceIdeal.RefValue

open Cert.ReferenceIdeal Cert.ReferenceIdeal.Gen Cert.ReferenceIdeal.ReadP Idealize.ShloMosaic Idealize.ShloMosaic.TcCoe Idealize.SL.Sem
open Idealize.ShloMosaic.ValueIdx Idealize.ShloMosaic.RowOps

variable (x0 : (⟨S20000x64, .f32⟩ : BufTy).Contents (Elt Ideal))
  (x1 : (⟨S320000x32, .f32⟩ : BufTy).Contents (Elt Ideal))
  (x2 : (⟨S64x128, .f32⟩ : BufTy).Contents (Elt Ideal))
  (x3 : (⟨S128, .f32⟩ : BufTy).Contents (Elt Ideal))
  (x4 : (⟨S32x32, .f32⟩ : BufTy).Contents (Elt Ideal))
  (x5 : (⟨S32, .f32⟩ : BufTy).Contents (Elt Ideal))
  (x6 : (⟨S3x288x128, .f32⟩ : BufTy).Contents (Elt Ideal))
  (x7 : (⟨S3x128, .f32⟩ : BufTy).Contents (Elt Ideal))
  (x8 : (⟨S3x128x128, .f32⟩ : BufTy).Contents (Elt Ideal))
  (x9 : (⟨S3x128, .f32⟩ : BufTy).Contents (Elt Ideal))
  (x10 : (⟨S3x256x128, .f32⟩ : BufTy).Contents (Elt Ideal))
  (x11 : (⟨S3x128, .f32⟩ : BufTy).Contents (Elt Ideal))
  (x12 : (⟨S3x128x128, .f32⟩ : BufTy).Contents (Elt Ideal))
  (x13 : (⟨S3x128, .f32⟩ : BufTy).Contents (Elt Ideal))
  (x14 : (⟨S128x64, .f32⟩ : BufTy).Contents (Elt Ideal))
  (x15 : (⟨S64, .f32⟩ : BufTy).Contents (Elt Ideal))
  (x16 : (⟨S64x1, .f32⟩ : BufTy).Contents (Elt Ideal))
  (x17 : (⟨S1, .f32⟩ : BufTy).Contents (Elt Ideal))
  (x18 : (⟨S2x320000, .i32⟩ : BufTy).Contents (Elt Ideal))

/-- A node array read at every edge's target. -/
abbrev gd : RowOps.Mat 20000 128 → RowOps.Mat 320000 128 := fun h =>
  Host.gather gather_S20000x128_S320000x1_S320000x128_1_0_n_n_0_1_1128 h (val_main_v17 (F := Ideal) x18)
/-- A node array read at every edge's source. -/
abbrev gs : RowOps.Mat 20000 128 → RowOps.Mat 320000 128 := fun h =>
  Host.gather gather_S20000x128_S320000x1_S320000x128_1_0_n_n_0_1_1128 h (val_main_v24 (F := Ideal) x18)
/-- The edges' rows summed per target node. -/
abbrev agg : RowOps.Mat 320000 128 → RowOps.Mat 20000 128 := fun u =>
  Host.scatterAdd scatter_S20000x128_S320000x1_S320000x128_1_0_0_1 (val_main_v45 (F := Ideal)) (val_main_v46 (F := Ideal) x18) u

end Cert.ReferenceIdeal.RefValue

end
-- ==== Proof.RefStages.lean ====
/-
  THE REFERENCE, STAGE BY STAGE, IN ROW FORM (first part). The two input projections are one affine layer on every row; the
  first round's stages — two gathers, a concatenation of three arrays, two layers with positive part, a scatter-add, a
  concatenation of two arrays, two more layers — are one round of message passing; the logits are the two-layer logit map
  of the final rows, laid out as a vector.
-/
import proofs.«404104_j10677288698628_1_alg».proof.Proof.RefMaps
import proofs.«404104_j10677288698628_1_alg».proof.Proof.LibRowDense
import proofs.«404104_j10677288698628_1_alg».proof.Proof.LibRowLayout

set_option maxRecDepth 16384

noncomputable section

namespace Cert.ReferenceIdeal.RefValue

open Cert.ReferenceIdeal Cert.ReferenceIdeal.Gen Cert.ReferenceIdeal.ReadP Idealize.ShloMosaic Idealize.ShloMosaic.TcCoe Idealize.SL.Sem
open Idealize.ShloMosaic.ValueIdx Idealize.ShloMosaic.RowOps

variable (x0 : (⟨S20000x64, .f32⟩ : BufTy).Contents (Elt Ideal))
  (x1 : (⟨S320000x32, .f32⟩ : BufTy).Contents (Elt Ideal))
  (x2 : (⟨S64x128, .f32⟩ : BufTy).Contents (Elt Ideal))
  (x3 : (⟨S128, .f32⟩ : BufTy).Contents (Elt Ideal))
  (x4 : (⟨S32x32, .f32⟩ : BufTy).Contents (Elt Ideal))
  (x5 : (⟨S32, .f32⟩ : BufTy).Contents (Elt Ideal))
  (x6 : (⟨S3x288x128, .f32⟩ : BufTy).Contents (Elt Ideal))
  (x7 : (⟨S3x128, .f32⟩ : BufTy).Contents (Elt Ideal))
  (x8 : (⟨S3x128x128, .f32⟩ : BufTy).Contents (Elt Ideal))
  (x9 : (⟨S3x128, .f32⟩ : BufTy).Contents (Elt Ideal))
  (x10 : (⟨S3x256x128, .f32⟩ : BufTy).Contents (Elt Ideal))
  (x11 : (⟨S3x128, .f32⟩ : BufTy).Contents (Elt Ideal))
  (x12 : (⟨S3x128x128, .f32⟩ : BufTy).Contents (Elt Ideal))
  (x13 : (⟨S3x128, .f32⟩ : BufTy).Contents (Elt Ideal))
  (x14 : (⟨S128x64, .f32⟩ : BufTy).Contents (Elt Ideal))
  (x15 : (⟨S64, .f32⟩ : BufTy).Contents (Elt Ideal))
  (x16 : (⟨S64x1, .f32⟩ : BufTy).Contents (Elt Ideal))
  (x17 : (⟨S1, .f32⟩ : BufTy).Contents (Elt Ideal))
  (x18 : (⟨S2x320000, .i32⟩ : BufTy).Contents (Elt Ideal))

/-! ## The dimension records of the reference's products say "rows times columns" -/

theorem stage_rc_nodes : IsRowsCols (A := 20000) (K := 64) (B := 128) dot_S20000x64_S64x128_S20000x128_1_0_0_1_n_n :=
  ⟨rfl, rfl, rfl, rfl, rfl, rfl, rfl, rfl⟩
theorem stage_rc_edges : IsRowsCols (A := 320000) (K := 32) (B := 32) dot_S320000x32_S32x32_S320000x32_1_0_0_1_n_n :=
  ⟨rfl, rfl, rfl, rfl, rfl, rfl, rfl, rfl⟩
theorem stage_rc_msg1 : IsRowsCols (A := 320000) (K := 288) (B := 128) dot_S320000x288_S288x128_S320000x128_1_0_0_1_n_n :=
  ⟨rfl, rfl, rfl, rfl, rfl, rfl, rfl, rfl⟩
theorem stage_rc_msg2 : IsRowsCols (A := 320000) (K := 128) (B := 128) dot_S320000x128_S128x128_S320000x128_1_0_0_1_n_n :=
  ⟨rfl, rfl, rfl, rfl, rfl, rfl, rfl, rfl⟩
theorem stage_rc_upd1 : IsRowsCols (A := 20000) (K := 256) (B := 128) dot_S20000x256_S256x128_S20000x128_1_0_0_1_n_n :=
  ⟨rfl, rfl, rfl, rfl, rfl, rfl, rfl, rfl⟩
theorem stage_rc_upd2 : IsRowsCols (A := 20000) (K := 128) (B := 128) dot_S20000x128_S128x128_S20000x128_1_0_0_1_n_n :=
  ⟨rfl, rfl, rfl, rfl, rfl, rfl, rfl, rfl⟩
theorem stage_rc_tok1 : IsRowsCols (A := 20000) (K := 128) (B := 64) dot_S20000x128_S128x64_S20000x64_1_0_0_1_n_n :=
  ⟨rfl, rfl, rfl, rfl, rfl, rfl, rfl, rfl⟩
theorem stage_rc_tok2 : IsRowsCols (A := 20000) (K := 64) (B := 1) dot_S20000x64_S64x1_S20000x1_1_0_0_1_n_n :=
  ⟨rfl, rfl, rfl, rfl, rfl, rfl, rfl, rfl⟩

/-! ## The stages of one round, over arbitrary arrays -/

/-- The two message layers applied to three arrays side by side: row by row the message function. -/
theorem stage_msg_layers (G1 G2 : Mat 320000 128) (e : Mat 320000 32) (W1 : Mat 288 128) (b1 : Arr 128) (W2 : Mat 128 128)
    (b2 : Arr 128) :
    maximumf (addf (Host.dotGeneral dot_S320000x128_S128x128_S320000x128_1_0_0_1_n_n none
        (maximumf (addf (Host.dotGeneral dot_S320000x288_S288x128_S320000x128_1_0_0_1_n_n none
            (concatenate S320000x288 1 [⟨S320000x128, G1⟩, ⟨S320000x128, G2⟩, ⟨S320000x32, e⟩]
              concatenates_S320000x128_S320000x128_S320000x32_S320000x288_d1) W1)
          (broadcastInDim S320000x128 ![0, 1] bcast_S1x128_S320000x128_0_1 (broadcastInDim S1x128 ![1] bcast_S128_S1x128_1 b1)))
          (broadcastInDim S320000x128 ![] bcast_S_S320000x128 (constant (F := Ideal) S_ .f32 0x00000000#32))) W2)
        (broadcastInDim S320000x128 ![0, 1] bcast_S1x128_S320000x128_0_1 (broadcastInDim S1x128 ![1] bcast_S128_S1x128_1 b2)))
      (broadcastInDim S320000x128 ![] bcast_S_S320000x128 (constant (F := Ideal) S_ .f32 0x00000000#32))
    = rows3 (Gnn.msgRow W1 b1 W2 b2) G1 G2 e := by
  rw [concat3_rows G1 G2 e, hdense_relu _ stage_rc_msg1, hdense_relu _ stage_rc_msg2]
  rfl

/-- The two update layers applied to two arrays side by side: row by row the update function. -/
theorem stage_upd_layers (h a : Mat 20000 128) (U1 : Mat 256 128) (c1 : Arr 128) (U2 : Mat 128 128) (c2 : Arr 128) :
    maximumf (addf (Host.dotGeneral dot_S20000x128_S128x128_S20000x128_1_0_0_1_n_n none
        (maximumf (addf (Host.dotGeneral dot_S20000x256_S256x128_S20000x128_1_0_0_1_n_n none
            (concatenate S20000x256 1 [⟨S20000x128, h⟩, ⟨S20000x128, a⟩]
              concatenates_S20000x128_S20000x128_S20000x256_d1) U1)
          (broadcastInDim S20000x128 ![0, 1] bcast_S1x128_S20000x128_0_1 (broadcastInDim S1x128 ![1] bcast_S128_S1x128_1 c1)))
          (broadcastInDim S20000x128 ![] bcast_S_S20000x128 (constant (F := Ideal) S_ .f32 0x00000000#32))) U2)
        (broadcastInDim S20000x128 ![0, 1] bcast_S1x128_S20000x128_0_1 (broadcastInDim S1x128 ![1] bcast_S128_S1x128_1 c2)))
      (broadcastInDim S20000x128 ![] bcast_S_S20000x128 (constant (F := Ideal) S_ .f32 0x00000000#32))
    = rows2 (Gnn.updRow U1 c1 U2 c2) h a := by
  rw [concat2_rows h a, hdense_relu _ stage_rc_upd1, hdense_relu _ stage_rc_upd2]
  rfl

/-- The two logit layers: row by row the logit function. -/
theorem stage_tok_layers (h : Mat 20000 128) (T1 : Mat 128 64) (d1 : Arr 64) (T2 : Mat 64 1) (d2 : Arr 1) :
    addf (Host.dotGeneral dot_S20000x64_S64x1_S20000x1_1_0_0_1_n_n none
        (maximumf (addf (Host.dotGeneral dot_S20000x128_S128x64_S20000x64_1_0_0_1_n_n none h T1)
          (broadcastInDim S20000x64 ![0, 1] bcast_S1x64_S20000x64_0_1 (broadcastInDim S1x64 ![1] bcast_S64_S1x64_1 d1)))
          (broadcastInDim S20000x64 ![] bcast_S_S20000x64 (constant (F := Ideal) S_ .f32 0x00000000#32))) T2)
      (broadcastInDim S20000x1 ![0, 1] bcast_S1x1_S20000x1_0_1 (broadcastInDim S1x1 ![1] bcast_S1_S1x1_1 d2))
    = rows1 (Gnn.tokRow T1 d1 T2 d2) h := by
  rw [hdense_relu _ stage_rc_tok1, hdense _ stage_rc_tok2]
  rfl

/-! ## The reference's stages -/

/-- The nodes' projection. -/
theorem ref_nodes0 : val_main_v7 (F := Ideal) x0 x2 x3 = Gnn.nodes0 x2 x3 x0 := by
  unfold val_main_v7 val_main_v6 val_main_v5 val_main_v4 Gnn.nodes0
  exact hdense (A := 20000) (K := 64) (B := 128) dot_S20000x64_S64x128_S20000x128_1_0_0_1_n_n stage_rc_nodes x0 x2 x3
    bcast_S128_S1x128_1 bcast_S1x128_S20000x128_0_1

/-- The edges' projection. -/
theorem ref_edges0 : val_main_v11 (F := Ideal) x1 x4 x5 = Gnn.edges0 x4 x5 x1 := by
  unfold val_main_v11 val_main_v10 val_main_v9 val_main_v8 Gnn.edges0
  exact hdense (A := 320000) (K := 32) (B := 32) dot_S320000x32_S32x32_S320000x32_1_0_0_1_n_n stage_rc_edges x1 x4 x5
    bcast_S32_S1x32_1 bcast_S1x32_S320000x32_0_1

/-- Round 1 of the reference: the stage after its second update layer is one round of message passing on the previous nodes' rows. -/
theorem ref_round1 :
    val_main_v66 (F := Ideal) x0 x1 x2 x3 x4 x5 x6 x7 x8 x9 x10 x11 x12 x13 x18
      = Gnn.round (gd x18) (gs x18) (agg x18) (val_main_v11 (F := Ideal) x1 x4 x5)
          (val_main_v28 (F := Ideal) x6) (val_main_v31 (F := Ideal) x7) (val_main_v37 (F := Ideal) x8) (val_main_v40 (F := Ideal) x9)
          (val_main_v50 (F := Ideal) x10) (val_main_v53 (F := Ideal) x11) (val_main_v59 (F := Ideal) x12) (val_main_v62 (F := Ideal) x13)
          (val_main_v7 (F := Ideal) x0 x2 x3) := by
  unfold val_main_v66 val_main_v65 val_main_v64 val_main_v63 val_main_v60 val_main_call3_v0 val_main_call3_cst
    val_main_v57 val_main_v56 val_main_v55 val_main_v54 val_main_v51 val_main_call2_v0 val_main_call2_cst
    val_main_v48 val_main_v47
    val_main_v44 val_main_v43 val_main_v42 val_main_v41 val_main_v38 val_main_call1_v0 val_main_call1_cst
    val_main_v35 val_main_v34 val_main_v33 val_main_v32 val_main_v29 val_main_call0_v0 val_main_call0_cst
    val_main_v26 val_main_v25 val_main_v18 Gnn.round
  generalize val_main_v7 (F := Ideal) x0 x2 x3 = h
  generalize val_main_v11 (F := Ideal) x1 x4 x5 = e
  generalize val_main_v28 (F := Ideal) x6 = W1
  generalize val_main_v31 (F := Ideal) x7 = b1
  generalize val_main_v37 (F := Ideal) x8 = W2
  generalize val_main_v40 (F := Ideal) x9 = b2
  generalize val_main_v50 (F := Ideal) x10 = U1
  generalize val_main_v53 (F := Ideal) x11 = c1
  generalize val_main_v59 (F := Ideal) x12 = U2
  generalize val_main_v62 (F := Ideal) x13 = c2
  rw [stage_msg_layers]
  exact stage_upd_layers h _ U1 c1 U2 c2

/-- The logits: the logit map of the final rows (one column), laid out as a vector of 20000. -/
theorem ref_logit :
    val_main_v186 (F := Ideal) x0 x1 x2 x3 x4 x5 x6 x7 x8 x9 x10 x11 x12 x13 x14 x15 x16 x17 x18
      = shapeCast _ (Gnn.logit x14 x15 x16 x17 (val_main_v176 (F := Ideal) x0 x1 x2 x3 x4 x5 x6 x7 x8 x9 x10 x11 x12 x13 x18)) shapeCasts_S20000x1_S20000 := by
  unfold val_main_v186 val_main_v185 val_main_v184 val_main_v183 val_main_v182 val_main_v181 val_main_v180 val_main_v179
    val_main_v178 val_main_v177 val_main_call12_v0 val_main_call12_cst Gnn.logit
  generalize val_main_v176 (F := Ideal) x0 x1 x2 x3 x4 x5 x6 x7 x8 x9 x10 x11 x12 x13 x18 = h
  rw [stage_tok_layers]

end Cert.ReferenceIdeal.RefValue

end
-- ==== Proof.RefRounds.lean ====
/-
  THE REFERENCE, STAGE BY STAGE, IN ROW FORM (second part): the second and the third round. Each recomputes the wrapped edge
  numbers and the zero array it scatters into; they are the same functions of the edge list as the first round's.
-/
import proofs.«404104_j10677288698628_1_alg».proof.Proof.RefMaps
import proofs.«404104_j10677288698628_1_alg».proof.Proof.LibRowDense
import proofs.«404104_j10677288698628_1_alg».proof.Proof.LibRowLayout

set_option maxRecDepth 16384

noncomputable section

namespace Cert.ReferenceIdeal.RefValue

open Cert.ReferenceIdeal Cert.ReferenceIdeal.Gen Cert.ReferenceIdeal.ReadP Idealize.ShloMosaic Idealize.ShloMosaic.TcCoe Idealize.SL.Sem
open Idealize.ShloMosaic.ValueIdx Idealize.ShloMosaic.RowOps

variable (x0 : (⟨S20000x64, .f32⟩ : BufTy).Contents (Elt Ideal))
  (x1 : (⟨S320000x32, .f32⟩ : BufTy).Contents (Elt Ideal))
  (x2 : (⟨S64x128, .f32⟩ : BufTy).Contents (Elt Ideal))
  (x3 : (⟨S128, .f32⟩ : BufTy).Contents (Elt Ideal))
  (x4 : (⟨S32x32, .f32⟩ : BufTy).Contents (Elt Ideal))
  (x5 : (⟨S32, .f32⟩ : BufTy).Contents (Elt Ideal))
  (x6 : (⟨S3x288x128, .f32⟩ : BufTy).Contents (Elt Ideal))
  (x7 : (⟨S3x128, .f32⟩ : BufTy).Contents (Elt Ideal))
  (x8 : (⟨S3x128x128, .f32⟩ : BufTy).Contents (Elt Ideal))
  (x9 : (⟨S3x128, .f32⟩ : BufTy).Contents (Elt Ideal))
  (x10 : (⟨S3x256x128, .f32⟩ : BufTy).Contents (Elt Ideal))
  (x11 : (⟨S3x128, .f32⟩ : BufTy).Contents (Elt Ideal))
  (x12 : (⟨S3x128x128, .f32⟩ : BufTy).Contents (Elt Ideal))
  (x13 : (⟨S3x128, .f32⟩ : BufTy).Contents (Elt Ideal))
  (x14 : (⟨S128x64, .f32⟩ : BufTy).Contents (Elt Ideal))
  (x15 : (⟨S64, .f32⟩ : BufTy).Contents (Elt Ideal))
  (x16 : (⟨S64x1, .f32⟩ : BufTy).Contents (Elt Ideal))
  (x17 : (⟨S1, .f32⟩ : BufTy).Contents (Elt Ideal))
  (x18 : (⟨S2x320000, .i32⟩ : BufTy).Contents (Elt Ideal))

/-! ## One round, over arbitrary arrays

The two dense stacks of a round are stated over VARIABLES: the message stack over three arrays with one row per edge, the
update stack over two arrays with one row per node. Each is a concatenation along the columns followed by two layers
"product, plus the bias broadcast in two steps, then the maximum with a broadcast zero"; row by row that is the message
function, respectively the update function, of the rows with the same number. Only the grouping of operations changes. -/

/-- The message stack: three arrays side by side through two layers with their positive parts is, row by row, the
    message function of the three rows. -/
theorem msg_rows {E : Nat}
    (d1 : DotDims (⟨2, ![E, 288]⟩ : Shape) (⟨2, ![288, 128]⟩ : Shape) (⟨2, ![E, 128]⟩ : Shape)) (hd1 : IsRowsCols d1)
    (d2 : DotDims (⟨2, ![E, 128]⟩ : Shape) (⟨2, ![128, 128]⟩ : Shape) (⟨2, ![E, 128]⟩ : Shape)) (hd2 : IsRowsCols d2)
    (X Y : Mat E 128) (Z : Mat E 32) (W1 : Mat 288 128) (b1 : Arr 128) (W2 : Mat 128 128) (b2 : Arr 128)
    (hc : Shape.Concatenates [(⟨2, ![E, 128]⟩ : Shape), (⟨2, ![E, 128]⟩ : Shape), (⟨2, ![E, 32]⟩ : Shape)]
      (⟨2, ![E, 288]⟩ : Shape) 1)
    (h1 : (⟨1, ![128]⟩ : Shape).BroadcastsInDim (⟨2, ![1, 128]⟩ : Shape) ![1])
    (h2 : (⟨2, ![1, 128]⟩ : Shape).BroadcastsInDim (⟨2, ![E, 128]⟩ : Shape) ![0, 1])
    (h0 : (⟨0, ![]⟩ : Shape).BroadcastsInDim (⟨2, ![E, 128]⟩ : Shape) ![]) :
    maximumf (addf (Host.dotGeneral d2 none
        (maximumf (addf (Host.dotGeneral d1 none
            (concatenate (⟨2, ![E, 288]⟩ : Shape) 1
              [⟨(⟨2, ![E, 128]⟩ : Shape), X⟩, ⟨(⟨2, ![E, 128]⟩ : Shape), Y⟩, ⟨(⟨2, ![E, 32]⟩ : Shape), Z⟩] hc) W1)
            (broadcastInDim (⟨2, ![E, 128]⟩ : Shape) ![0, 1] h2 (broadcastInDim (⟨2, ![1, 128]⟩ : Shape) ![1] h1 b1)))
          (broadcastInDim (⟨2, ![E, 128]⟩ : Shape) ![] h0 (constant (F := Ideal) (⟨0, ![]⟩ : Shape) .f32 0x00000000#32)))
        W2)
        (broadcastInDim (⟨2, ![E, 128]⟩ : Shape) ![0, 1] h2 (broadcastInDim (⟨2, ![1, 128]⟩ : Shape) ![1] h1 b2)))
      (broadcastInDim (⟨2, ![E, 128]⟩ : Shape) ![] h0 (constant (F := Ideal) (⟨0, ![]⟩ : Shape) .f32 0x00000000#32))
    = rows3 (Gnn.msgRow W1 b1 W2 b2) X Y Z := by
  rw [concat3_rows X Y Z hc, hdense_relu d1 hd1 _ W1 b1 h1 h2 h0, hdense_relu d2 hd2 _ W2 b2 h1 h2 h0]
  rfl

/-- The update stack: two arrays side by side through two layers with their positive parts is, row by row, the update
    function of the two rows. -/
theorem upd_rows {N : Nat}
    (d1 : DotDims (⟨2, ![N, 256]⟩ : Shape) (⟨2, ![256, 128]⟩ : Shape) (⟨2, ![N, 128]⟩ : Shape)) (hd1 : IsRowsCols d1)
    (d2 : DotDims (⟨2, ![N, 128]⟩ : Shape) (⟨2, ![128, 128]⟩ : Shape) (⟨2, ![N, 128]⟩ : Shape)) (hd2 : IsRowsCols d2)
    (X A : Mat N 128) (U1 : Mat 256 128) (c1 : Arr 128) (U2 : Mat 128 128) (c2 : Arr 128)
    (hc : Shape.Concatenates [(⟨2, ![N, 128]⟩ : Shape), (⟨2, ![N, 128]⟩ : Shape)] (⟨2, ![N, 256]⟩ : Shape) 1)
    (h1 : (⟨1, ![128]⟩ : Shape).BroadcastsInDim (⟨2, ![1, 128]⟩ : Shape) ![1])
    (h2 : (⟨2, ![1, 128]⟩ : Shape).BroadcastsInDim (⟨2, ![N, 128]⟩ : Shape) ![0, 1])
    (h0 : (⟨0, ![]⟩ : Shape).BroadcastsInDim (⟨2, ![N, 128]⟩ : Shape) ![]) :
    maximumf (addf (Host.dotGeneral d2 none
        (maximumf (addf (Host.dotGeneral d1 none
            (concatenate (⟨2, ![N, 256]⟩ : Shape) 1
              [⟨(⟨2, ![N, 128]⟩ : Shape), X⟩, ⟨(⟨2, ![N, 128]⟩ : Shape), A⟩] hc) U1)
            (broadcastInDim (⟨2, ![N, 128]⟩ : Shape) ![0, 1] h2 (broadcastInDim (⟨2, ![1, 128]⟩ : Shape) ![1] h1 c1)))
          (broadcastInDim (⟨2, ![N, 128]⟩ : Shape) ![] h0 (constant (F := Ideal) (⟨0, ![]⟩ : Shape) .f32 0x00000000#32)))
        U2)
        (broadcastInDim (⟨2, ![N, 128]⟩ : Shape) ![0, 1] h2 (broadcastInDim (⟨2, ![1, 128]⟩ : Shape) ![1] h1 c2)))
      (broadcastInDim (⟨2, ![N, 128]⟩ : Shape) ![] h0 (constant (F := Ideal) (⟨0, ![]⟩ : Shape) .f32 0x00000000#32))
    = rows2 (Gnn.updRow U1 c1 U2 c2) X A := by
  rw [concat2_rows X A hc, hdense_relu d1 hd1 _ U1 c1 h1 h2 h0, hdense_relu d2 hd2 _ U2 c2 h1 h2 h0]
  rfl

/-! ## The four dimension records of a round say "rows times columns" -/

theorem rc_msg1 : IsRowsCols (A := 320000) (K := 288) (B := 128) dot_S320000x288_S288x128_S320000x128_1_0_0_1_n_n :=
  ⟨rfl, rfl, rfl, rfl, rfl, rfl, rfl, rfl⟩
theorem rc_msg2 : IsRowsCols (A := 320000) (K := 128) (B := 128) dot_S320000x128_S128x128_S320000x128_1_0_0_1_n_n :=
  ⟨rfl, rfl, rfl, rfl, rfl, rfl, rfl, rfl⟩
theorem rc_upd1 : IsRowsCols (A := 20000) (K := 256) (B := 128) dot_S20000x256_S256x128_S20000x128_1_0_0_1_n_n :=
  ⟨rfl, rfl, rfl, rfl, rfl, rfl, rfl, rfl⟩
theorem rc_upd2 : IsRowsCols (A := 20000) (K := 128) (B := 128) dot_S20000x128_S128x128_S20000x128_1_0_0_1_n_n :=
  ⟨rfl, rfl, rfl, rfl, rfl, rfl, rfl, rfl⟩

/-- One round of the reference in its printed spelling, over an arbitrary nodes' array, an arbitrary edges' array,
    arbitrary weights and arbitrary index maps: the update stack of the nodes' array and of the sums per target of the
    message stack of the nodes' array read at the targets, read at the sources, and the edges' array. -/
theorem round_rows (gd gs : Mat 20000 128 → Mat 320000 128) (agg : Mat 320000 128 → Mat 20000 128) (e : Mat 320000 32)
    (W1 : Mat 288 128) (b1 : Arr 128) (W2 : Mat 128 128) (b2 : Arr 128)
    (U1 : Mat 256 128) (c1 : Arr 128) (U2 : Mat 128 128) (c2 : Arr 128) (h : Mat 20000 128)
    (hc3 : Shape.Concatenates [S320000x128, S320000x128, S320000x32] S320000x288 1)
    (hc2 : Shape.Concatenates [S20000x128, S20000x128] S20000x256 1)
    (h1 : S128.BroadcastsInDim S1x128 ![1])
    (h2e : S1x128.BroadcastsInDim S320000x128 ![0, 1]) (h0e : S_.BroadcastsInDim S320000x128 ![])
    (h2n : S1x128.BroadcastsInDim S20000x128 ![0, 1]) (h0n : S_.BroadcastsInDim S20000x128 ![]) :
    maximumf (addf (Host.dotGeneral dot_S20000x128_S128x128_S20000x128_1_0_0_1_n_n none
        (maximumf (addf (Host.dotGeneral dot_S20000x256_S256x128_S20000x128_1_0_0_1_n_n none
            (concatenate S20000x256 1 [⟨S20000x128, h⟩, ⟨S20000x128, agg
              (maximumf (addf (Host.dotGeneral dot_S320000x128_S128x128_S320000x128_1_0_0_1_n_n none
                  (maximumf (addf (Host.dotGeneral dot_S320000x288_S288x128_S320000x128_1_0_0_1_n_n none
                      (concatenate S320000x288 1 [⟨S320000x128, gd h⟩, ⟨S320000x128, gs h⟩, ⟨S320000x32, e⟩] hc3) W1)
                      (broadcastInDim S320000x128 ![0, 1] h2e (broadcastInDim S1x128 ![1] h1 b1)))
                    (broadcastInDim S320000x128 ![] h0e (constant (F := Ideal) S_ .f32 0x00000000#32)))
                  W2)
                  (broadcastInDim S320000x128 ![0, 1] h2e (broadcastInDim S1x128 ![1] h1 b2)))
                (broadcastInDim S320000x128 ![] h0e (constant (F := Ideal) S_ .f32 0x00000000#32)))⟩] hc2) U1)
            (broadcastInDim S20000x128 ![0, 1] h2n (broadcastInDim S1x128 ![1] h1 c1)))
          (broadcastInDim S20000x128 ![] h0n (constant (F := Ideal) S_ .f32 0x00000000#32)))
        U2)
        (broadcastInDim S20000x128 ![0, 1] h2n (broadcastInDim S1x128 ![1] h1 c2)))
      (broadcastInDim S20000x128 ![] h0n (constant (F := Ideal) S_ .f32 0x00000000#32))
    = Gnn.round gd gs agg e W1 b1 W2 b2 U1 c1 U2 c2 h := by
  unfold Gnn.round
  rw [msg_rows (E := 320000) dot_S320000x288_S288x128_S320000x128_1_0_0_1_n_n rc_msg1
    dot_S320000x128_S128x128_S320000x128_1_0_0_1_n_n rc_msg2 (gd h) (gs h) e W1 b1 W2 b2 hc3 h1 h2e h0e]
  exact upd_rows (N := 20000) dot_S20000x256_S256x128_S20000x128_1_0_0_1_n_n rc_upd1
    dot_S20000x128_S128x128_S20000x128_1_0_0_1_n_n rc_upd2 h _ U1 c1 U2 c2 hc2 h1 h2n h0n

/-! ## The later rounds' index stages are the first round's

Every round wraps the edge numbers, broadcasts the targets to a column and makes the zero array again; as functions of the
edge list these are the same terms as the first round's. -/

theorem v72_eq : val_main_v72 (F := Ideal) x18 = val_main_v17 (F := Ideal) x18 := rfl
theorem v79_eq : val_main_v79 (F := Ideal) x18 = val_main_v24 (F := Ideal) x18 := rfl
theorem v100_eq : val_main_v100 (F := Ideal) = val_main_v45 (F := Ideal) := rfl
theorem v101_eq : val_main_v101 (F := Ideal) x18 = val_main_v46 (F := Ideal) x18 := rfl
theorem v127_eq : val_main_v127 (F := Ideal) x18 = val_main_v17 (F := Ideal) x18 := rfl
theorem v134_eq : val_main_v134 (F := Ideal) x18 = val_main_v24 (F := Ideal) x18 := rfl
theorem v155_eq : val_main_v155 (F := Ideal) = val_main_v45 (F := Ideal) := rfl
theorem v156_eq : val_main_v156 (F := Ideal) x18 = val_main_v46 (F := Ideal) x18 := rfl

/-- Round 2 of the reference: the stage after its second update layer is one round of message passing on the previous nodes' rows. -/
theorem ref_round2 :
    val_main_v121 (F := Ideal) x0 x1 x2 x3 x4 x5 x6 x7 x8 x9 x10 x11 x12 x13 x18
      = Gnn.round (gd x18) (gs x18) (agg x18) (val_main_v11 (F := Ideal) x1 x4 x5)
          (val_main_v83 (F := Ideal) x6) (val_main_v86 (F := Ideal) x7) (val_main_v92 (F := Ideal) x8) (val_main_v95 (F := Ideal) x9)
          (val_main_v105 (F := Ideal) x10) (val_main_v108 (F := Ideal) x11) (val_main_v114 (F := Ideal) x12) (val_main_v117 (F := Ideal) x13)
          (val_main_v66 (F := Ideal) x0 x1 x2 x3 x4 x5 x6 x7 x8 x9 x10 x11 x12 x13 x18) := by
  unfold val_main_v121 val_main_v120 val_main_v119 val_main_v118 val_main_v115 val_main_v112 val_main_v111
    val_main_v110 val_main_v109 val_main_v106 val_main_v103 val_main_v102 val_main_v99 val_main_v98 val_main_v97
    val_main_v96 val_main_v93 val_main_v90 val_main_v89 val_main_v88 val_main_v87 val_main_v84 val_main_v81
    val_main_v80 val_main_v73 val_main_call4_v0 val_main_call5_v0 val_main_call6_v0 val_main_call7_v0
    val_main_call4_cst val_main_call5_cst val_main_call6_cst val_main_call7_cst
  rw [v72_eq, v79_eq, v100_eq, v101_eq]
  exact round_rows (gd x18) (gs x18) (agg x18) (val_main_v11 (F := Ideal) x1 x4 x5)
    (val_main_v83 (F := Ideal) x6) (val_main_v86 (F := Ideal) x7) (val_main_v92 (F := Ideal) x8) (val_main_v95 (F := Ideal) x9)
    (val_main_v105 (F := Ideal) x10) (val_main_v108 (F := Ideal) x11) (val_main_v114 (F := Ideal) x12) (val_main_v117 (F := Ideal) x13)
    (val_main_v66 (F := Ideal) x0 x1 x2 x3 x4 x5 x6 x7 x8 x9 x10 x11 x12 x13 x18) _ _ _ _ _ _ _

/-- Round 3 of the reference: the stage after its second update layer is one round of message passing on the previous nodes' rows. -/
theorem ref_round3 :
    val_main_v176 (F := Ideal) x0 x1 x2 x3 x4 x5 x6 x7 x8 x9 x10 x11 x12 x13 x18
      = Gnn.round (gd x18) (gs x18) (agg x18) (val_main_v11 (F := Ideal) x1 x4 x5)
          (val_main_v138 (F := Ideal) x6) (val_main_v141 (F := Ideal) x7) (val_main_v147 (F := Ideal) x8) (val_main_v150 (F := Ideal) x9)
          (val_main_v160 (F := Ideal) x10) (val_main_v163 (F := Ideal) x11) (val_main_v169 (F := Ideal) x12) (val_main_v172 (F := Ideal) x13)
          (val_main_v121 (F := Ideal) x0 x1 x2 x3 x4 x5 x6 x7 x8 x9 x10 x11 x12 x13 x18) := by
  unfold val_main_v176 val_main_v175 val_main_v174 val_main_v173 val_main_v170 val_main_v167 val_main_v166
    val_main_v165 val_main_v164 val_main_v161 val_main_v158 val_main_v157 val_main_v154 val_main_v153 val_main_v152
    val_main_v151 val_main_v148 val_main_v145 val_main_v144 val_main_v143 val_main_v142 val_main_v139 val_main_v136
    val_main_v135 val_main_v128 val_main_call8_v0 val_main_call9_v0 val_main_call10_v0 val_main_call11_v0
    val_main_call8_cst val_main_call9_cst val_main_call10_cst val_main_call11_cst
  rw [v127_eq, v134_eq, v155_eq, v156_eq]
  exact round_rows (gd x18) (gs x18) (agg x18) (val_main_v11 (F := Ideal) x1 x4 x5)
    (val_main_v138 (F := Ideal) x6) (val_main_v141 (F := Ideal) x7) (val_main_v147 (F := Ideal) x8) (val_main_v150 (F := Ideal) x9)
    (val_main_v160 (F := Ideal) x10) (val_main_v163 (F := Ideal) x11) (val_main_v169 (F := Ideal) x12) (val_main_v172 (F := Ideal) x13)
    (val_main_v121 (F := Ideal) x0 x1 x2 x3 x4 x5 x6 x7 x8 x9 x10 x11 x12 x13 x18) _ _ _ _ _ _ _

end Cert.ReferenceIdeal.RefValue

end
-- ==== Proof.RefTotal.lean ====
/-
  THE REFERENCE'S TWO RESULTS AS FUNCTIONS OF ITS ARGUMENTS: the stage lemmas composed. The final nodes' rows are three
  rounds of message passing on the projected nodes' rows, each with its own weights cut out of the stacked arrays; the
  logits are the logit map of those rows, as a vector.
-/
import proofs.«404104_j10677288698628_1_alg».proof.Proof.RefStages
import proofs.«404104_j10677288698628_1_alg».proof.Proof.RefRounds

set_option maxRecDepth 16384

noncomputable section

namespace Cert.ReferenceIdeal.RefValue

open Cert.ReferenceIdeal Cert.ReferenceIdeal.Gen Cert.ReferenceIdeal.ReadP Idealize.ShloMosaic Idealize.ShloMosaic.TcCoe Idealize.SL.Sem
open Idealize.ShloMosaic.ValueIdx Idealize.ShloMosaic.RowOps

variable (x0 : (⟨S20000x64, .f32⟩ : BufTy).Contents (Elt Ideal))
  (x1 : (⟨S320000x32, .f32⟩ : BufTy).Contents (Elt Ideal))
  (x2 : (⟨S64x128, .f32⟩ : BufTy).Contents (Elt Ideal))
  (x3 : (⟨S128, .f32⟩ : BufTy).Contents (Elt Ideal))
  (x4 : (⟨S32x32, .f32⟩ : BufTy).Contents (Elt Ideal))
  (x5 : (⟨S32, .f32⟩ : BufTy).Contents (Elt Ideal))
  (x6 : (⟨S3x288x128, .f32⟩ : BufTy).Contents (Elt Ideal))
  (x7 : (⟨S3x128, .f32⟩ : BufTy).Contents (Elt Ideal))
  (x8 : (⟨S3x128x128, .f32⟩ : BufTy).Contents (Elt Ideal))
  (x9 : (⟨S3x128, .f32⟩ : BufTy).Contents (Elt Ideal))
  (x10 : (⟨S3x256x128, .f32⟩ : BufTy).Contents (Elt Ideal))
  (x11 : (⟨S3x128, .f32⟩ : BufTy).Contents (Elt Ideal))
  (x12 : (⟨S3x128x128, .f32⟩ : BufTy).Contents (Elt Ideal))
  (x13 : (⟨S3x128, .f32⟩ : BufTy).Contents (Elt Ideal))
  (x14 : (⟨S128x64, .f32⟩ : BufTy).Contents (Elt Ideal))
  (x15 : (⟨S64, .f32⟩ : BufTy).Contents (Elt Ideal))
  (x16 : (⟨S64x1, .f32⟩ : BufTy).Contents (Elt Ideal))
  (x17 : (⟨S1, .f32⟩ : BufTy).Contents (Elt Ideal))
  (x18 : (⟨S2x320000, .i32⟩ : BufTy).Contents (Elt Ideal))

/-- The nodes' rows after the projection and three rounds. -/
def refH3 : RowOps.Mat 20000 128 :=
  Gnn.round (gd x18) (gs x18) (agg x18) (Gnn.edges0 x4 x5 x1) (val_main_v138 (F := Ideal) x6) (val_main_v141 (F := Ideal) x7) (val_main_v147 (F := Ideal) x8) (val_main_v150 (F := Ideal) x9) (val_main_v160 (F := Ideal) x10) (val_main_v163 (F := Ideal) x11) (val_main_v169 (F := Ideal) x12) (val_main_v172 (F := Ideal) x13)
      (Gnn.round (gd x18) (gs x18) (agg x18) (Gnn.edges0 x4 x5 x1) (val_main_v83 (F := Ideal) x6) (val_main_v86 (F := Ideal) x7) (val_main_v92 (F := Ideal) x8) (val_main_v95 (F := Ideal) x9) (val_main_v105 (F := Ideal) x10) (val_main_v108 (F := Ideal) x11) (val_main_v114 (F := Ideal) x12) (val_main_v117 (F := Ideal) x13)
      (Gnn.round (gd x18) (gs x18) (agg x18) (Gnn.edges0 x4 x5 x1) (val_main_v28 (F := Ideal) x6) (val_main_v31 (F := Ideal) x7) (val_main_v37 (F := Ideal) x8) (val_main_v40 (F := Ideal) x9) (val_main_v50 (F := Ideal) x10) (val_main_v53 (F := Ideal) x11) (val_main_v59 (F := Ideal) x12) (val_main_v62 (F := Ideal) x13)
      (Gnn.nodes0 x2 x3 x0)))

theorem ref_value_nodes : val_main_v176 (F := Ideal) x0 x1 x2 x3 x4 x5 x6 x7 x8 x9 x10 x11 x12 x13 x18 = refH3 x0 x1 x2 x3 x4 x5 x6 x7 x8 x9 x10 x11 x12 x13 x18 := by
  rw [ref_round3, ref_round2, ref_round1, ref_nodes0, ref_edges0]
  rfl

theorem ref_value_logits :
    val_main_v186 (F := Ideal) x0 x1 x2 x3 x4 x5 x6 x7 x8 x9 x10 x11 x12 x13 x14 x15 x16 x17 x18
      = shapeCast _ (Gnn.logit x14 x15 x16 x17 (refH3 x0 x1 x2 x3 x4 x5 x6 x7 x8 x9 x10 x11 x12 x13 x18)) shapeCasts_S20000x1_S20000 := by
  rw [ref_logit, ref_value_nodes]

end Cert.ReferenceIdeal.RefValue

end
-- ==== Proof.Join.lean ====
/-
  THE TWO PROGRAMS' PIECES ARE THE SAME FUNCTIONS OF THE ARGUMENTS. Both programs cut the edge list into the same two rows,
  wrap negative node numbers the same way, gather and scatter-add with the same dimension numbers, and cut each round's
  weights out of the stacked arrays by the same slices and reshapes. So, fed the same argument arrays, the reference's
  three index maps and weights are the kernel program's, and so are the composed results.
-/
import proofs.«404104_j10677288698628_1_alg».proof.Proof.KValue
import proofs.«404104_j10677288698628_1_alg».proof.Proof.RefTotal

set_option maxRecDepth 16384

noncomputable section

namespace Cert.Proof.Join

open Idealize.ShloMosaic Idealize.ShloMosaic.TcCoe Idealize.SL.Sem
open Idealize.ShloMosaic.ValueIdx Idealize.ShloMosaic.RowOps

variable (m : (ℓ : Loc Cert.KernelIdeal.nD Cert.KernelIdeal.τ Cert.KernelIdeal.sig) → Buf (Elt Ideal) ℓ) (c : Dev Cert.KernelIdeal.nD)

/-! ### The three index maps -/

/-- Reading a node array at the edges' targets: the same gather of the same wrapped numbers. -/
theorem gd_eq : Cert.ReferenceIdeal.RefValue.gd (m ((c.tc : Thread Cert.KernelIdeal.nD Cert.KernelIdeal.τ).loc Cert.KernelIdeal.main_arg18)) = Cert.KernelIdeal.Chain.gdK m c := rfl

/-- Reading a node array at the edges' sources. -/
theorem gs_eq : Cert.ReferenceIdeal.RefValue.gs (m ((c.tc : Thread Cert.KernelIdeal.nD Cert.KernelIdeal.τ).loc Cert.KernelIdeal.main_arg18)) = Cert.KernelIdeal.Chain.gsK m c := rfl

/-- Summing the edges' rows per target node: the same scatter-add into zeros at the same (unwrapped) numbers. -/
theorem agg_eq : Cert.ReferenceIdeal.RefValue.agg (m ((c.tc : Thread Cert.KernelIdeal.nD Cert.KernelIdeal.τ).loc Cert.KernelIdeal.main_arg18)) = Cert.KernelIdeal.Chain.aggK m c := rfl

/-! ### The weights: the same slice and reshape of each stacked array -/

theorem W1L0_eq : Cert.ReferenceIdeal.ReadP.val_main_v28 (F := Ideal) (m ((c.tc : Thread Cert.KernelIdeal.nD Cert.KernelIdeal.τ).loc Cert.KernelIdeal.main_arg6)) = Cert.KernelIdeal.Chain.W1L0 m c := rfl
theorem b1L0_eq : Cert.ReferenceIdeal.ReadP.val_main_v31 (F := Ideal) (m ((c.tc : Thread Cert.KernelIdeal.nD Cert.KernelIdeal.τ).loc Cert.KernelIdeal.main_arg7)) = Cert.KernelIdeal.Chain.b1L0 m c := rfl
theorem W2L0_eq : Cert.ReferenceIdeal.ReadP.val_main_v37 (F := Ideal) (m ((c.tc : Thread Cert.KernelIdeal.nD Cert.KernelIdeal.τ).loc Cert.KernelIdeal.main_arg8)) = Cert.KernelIdeal.Chain.W2L0 m c := rfl
theorem b2L0_eq : Cert.ReferenceIdeal.ReadP.val_main_v40 (F := Ideal) (m ((c.tc : Thread Cert.KernelIdeal.nD Cert.KernelIdeal.τ).loc Cert.KernelIdeal.main_arg9)) = Cert.KernelIdeal.Chain.b2L0 m c := rfl
theorem U1L0_eq : Cert.ReferenceIdeal.ReadP.val_main_v50 (F := Ideal) (m ((c.tc : Thread Cert.KernelIdeal.nD Cert.KernelIdeal.τ).loc Cert.KernelIdeal.main_arg10)) = Cert.KernelIdeal.Chain.U1L0 m c := rfl
theorem c1L0_eq : Cert.ReferenceIdeal.ReadP.val_main_v53 (F := Ideal) (m ((c.tc : Thread Cert.KernelIdeal.nD Cert.KernelIdeal.τ).loc Cert.KernelIdeal.main_arg11)) = Cert.KernelIdeal.Chain.c1L0 m c := rfl
theorem U2L0_eq : Cert.ReferenceIdeal.ReadP.val_main_v59 (F := Ideal) (m ((c.tc : Thread Cert.KernelIdeal.nD Cert.KernelIdeal.τ).loc Cert.KernelIdeal.main_arg12)) = Cert.KernelIdeal.Chain.U2L0 m c := rfl
theorem c2L0_eq : Cert.ReferenceIdeal.ReadP.val_main_v62 (F := Ideal) (m ((c.tc : Thread Cert.KernelIdeal.nD Cert.KernelIdeal.τ).loc Cert.KernelIdeal.main_arg13)) = Cert.KernelIdeal.Chain.c2L0 m c := rfl
theorem W1L1_eq : Cert.ReferenceIdeal.ReadP.val_main_v83 (F := Ideal) (m ((c.tc : Thread Cert.KernelIdeal.nD Cert.KernelIdeal.τ).loc Cert.KernelIdeal.main_arg6)) = Cert.KernelIdeal.Chain.W1L1 m c := rfl
theorem b1L1_eq : Cert.ReferenceIdeal.ReadP.val_main_v86 (F := Ideal) (m ((c.tc : Thread Cert.KernelIdeal.nD Cert.KernelIdeal.τ).loc Cert.KernelIdeal.main_arg7)) = Cert.KernelIdeal.Chain.b1L1 m c := rfl
theorem W2L1_eq : Cert.ReferenceIdeal.ReadP.val_main_v92 (F := Ideal) (m ((c.tc : Thread Cert.KernelIdeal.nD Cert.KernelIdeal.τ).loc Cert.KernelIdeal.main_arg8)) = Cert.KernelIdeal.Chain.W2L1 m c := rfl
theorem b2L1_eq : Cert.ReferenceIdeal.ReadP.val_main_v95 (F := Ideal) (m ((c.tc : Thread Cert.KernelIdeal.nD Cert.KernelIdeal.τ).loc Cert.KernelIdeal.main_arg9)) = Cert.KernelIdeal.Chain.b2L1 m c := rfl
theorem U1L1_eq : Cert.ReferenceIdeal.ReadP.val_main_v105 (F := Ideal) (m ((c.tc : Thread Cert.KernelIdeal.nD Cert.KernelIdeal.τ).loc Cert.KernelIdeal.main_arg10)) = Cert.KernelIdeal.Chain.U1L1 m c := rfl
theorem c1L1_eq : Cert.ReferenceIdeal.ReadP.val_main_v108 (F := Ideal) (m ((c.tc : Thread Cert.KernelIdeal.nD Cert.KernelIdeal.τ).loc Cert.KernelIdeal.main_arg11)) = Cert.KernelIdeal.Chain.c1L1 m c := rfl
theorem U2L1_eq : Cert.ReferenceIdeal.ReadP.val_main_v114 (F := Ideal) (m ((c.tc : Thread Cert.KernelIdeal.nD Cert.KernelIdeal.τ).loc Cert.KernelIdeal.main_arg12)) = Cert.KernelIdeal.Chain.U2L1 m c := rfl
theorem c2L1_eq : Cert.ReferenceIdeal.ReadP.val_main_v117 (F := Ideal) (m ((c.tc : Thread Cert.KernelIdeal.nD Cert.KernelIdeal.τ).loc Cert.KernelIdeal.main_arg13)) = Cert.KernelIdeal.Chain.c2L1 m c := rfl
theorem W1L2_eq : Cert.ReferenceIdeal.ReadP.val_main_v138 (F := Ideal) (m ((c.tc : Thread Cert.KernelIdeal.nD Cert.KernelIdeal.τ).loc Cert.KernelIdeal.main_arg6)) = Cert.KernelIdeal.Chain.W1L2 m c := rfl
theorem b1L2_eq : Cert.ReferenceIdeal.ReadP.val_main_v141 (F := Ideal) (m ((c.tc : Thread Cert.KernelIdeal.nD Cert.KernelIdeal.τ).loc Cert.KernelIdeal.main_arg7)) = Cert.KernelIdeal.Chain.b1L2 m c := rfl
theorem W2L2_eq : Cert.ReferenceIdeal.ReadP.val_main_v147 (F := Ideal) (m ((c.tc : Thread Cert.KernelIdeal.nD Cert.KernelIdeal.τ).loc Cert.KernelIdeal.main_arg8)) = Cert.KernelIdeal.Chain.W2L2 m c := rfl
theorem b2L2_eq : Cert.ReferenceIdeal.ReadP.val_main_v150 (F := Ideal) (m ((c.tc : Thread Cert.KernelIdeal.nD Cert.KernelIdeal.τ).loc Cert.KernelIdeal.main_arg9)) = Cert.KernelIdeal.Chain.b2L2 m c := rfl
theorem U1L2_eq : Cert.ReferenceIdeal.ReadP.val_main_v160 (F := Ideal) (m ((c.tc : Thread Cert.KernelIdeal.nD Cert.KernelIdeal.τ).loc Cert.KernelIdeal.main_arg10)) = Cert.KernelIdeal.Chain.U1L2 m c := rfl
theorem c1L2_eq : Cert.ReferenceIdeal.ReadP.val_main_v163 (F := Ideal) (m ((c.tc : Thread Cert.KernelIdeal.nD Cert.KernelIdeal.τ).loc Cert.KernelIdeal.main_arg11)) = Cert.KernelIdeal.Chain.c1L2 m c := rfl
theorem U2L2_eq : Cert.ReferenceIdeal.ReadP.val_main_v169 (F := Ideal) (m ((c.tc : Thread Cert.KernelIdeal.nD Cert.KernelIdeal.τ).loc Cert.KernelIdeal.main_arg12)) = Cert.KernelIdeal.Chain.U2L2 m c := rfl
theorem c2L2_eq : Cert.ReferenceIdeal.ReadP.val_main_v172 (F := Ideal) (m ((c.tc : Thread Cert.KernelIdeal.nD Cert.KernelIdeal.τ).loc Cert.KernelIdeal.main_arg13)) = Cert.KernelIdeal.Chain.c2L2 m c := rfl

/-- The reference's final nodes' rows, at the kernel program's argument arrays, are the kernel program's. -/
theorem nodes_eq :
    Cert.ReferenceIdeal.RefValue.refH3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg18))
      = Cert.KernelIdeal.Chain.H3 m c := by
  unfold Cert.ReferenceIdeal.RefValue.refH3 Cert.KernelIdeal.Chain.H3 Cert.KernelIdeal.Chain.E0
  rw [gd_eq m c, gs_eq m c, agg_eq m c,
    W1L0_eq m c, b1L0_eq m c, W2L0_eq m c, b2L0_eq m c, U1L0_eq m c, c1L0_eq m c, U2L0_eq m c, c2L0_eq m c, W1L1_eq m c, b1L1_eq m c, W2L1_eq m c, b2L1_eq m c, U1L1_eq m c, c1L1_eq m c, U2L1_eq m c, c2L1_eq m c, W1L2_eq m c, b1L2_eq m c, W2L2_eq m c, b2L2_eq m c, U1L2_eq m c, c1L2_eq m c, U2L2_eq m c, c2L2_eq m c]

end Cert.Proof.Join

end
-- ==== Proof.lean ====
/-
  A three-round message-passing network on a graph of 20000 nodes and 320000 edges, as nine kernel launches among host
  operations, against its plain array program. Both project the nodes' and the edges' features by one affine layer; in each
  round every edge's message is two layers (with positive part) of its target's row, its source's row and its own row side
  by side, the messages are summed per target node, and every node's new row is two layers of its row and its sum side by
  side; the logits are two layers of the final rows. The kernel program multiplies the side-by-side rows band by band of the
  first weight matrix and adds the products, which is the same sum regrouped; it reads the nodes' rows at the edges' ends
  with a fill where a node number is out of range, which never happens where every entry of the edge list is at least 0
  and less than 20000 — the precondition. No step distributes or cancels, so nothing needs the inputs to be finite.
  The three frames are the generated ones (the reference's is its generated run with the results dropped); there is no
  idealization ledger; the value claim joins the kernel program's chain of boundary contents to the reference's stages.
-/
import proofs.«404104_j10677288698628_1_alg».proof.Defs
import proofs.«404104_j10677288698628_1_alg».proof.Proof.Gen.Kernel
import proofs.«404104_j10677288698628_1_alg».proof.Proof.Gen.Kernel.Skeleton
import proofs.«404104_j10677288698628_1_alg».proof.Proof.Gen.Kernel.Launch
import proofs.«404104_j10677288698628_1_alg».proof.Proof.Gen.Kernel.Points
import proofs.«404104_j10677288698628_1_alg».proof.Proof.Gen.Kernel.Frame
import proofs.«404104_j10677288698628_1_alg».proof.Proof.Gen.KernelIdeal
import proofs.«404104_j10677288698628_1_alg».proof.Proof.Gen.KernelIdeal.Skeleton
import proofs.«404104_j10677288698628_1_alg».proof.Proof.Gen.KernelIdeal.Launch
import proofs.«404104_j10677288698628_1_alg».proof.Proof.Gen.KernelIdeal.Points
import proofs.«404104_j10677288698628_1_alg».proof.Proof.Gen.KernelIdeal.Frame
import proofs.«404104_j10677288698628_1_alg».proof.Proof.Gen.ReferenceIdeal
import proofs.«404104_j10677288698628_1_alg».proof.Proof.RefRun
import proofs.«404104_j10677288698628_1_alg».proof.Proof.RefRead
import proofs.«404104_j10677288698628_1_alg».proof.Proof.Gen.Pre_finite_inputs
import proofs.«404104_j10677288698628_1_alg».proof.Proof.KernelRun
import proofs.«404104_j10677288698628_1_alg».proof.Proof.KValue
import proofs.«404104_j10677288698628_1_alg».proof.Proof.RefTotal
import proofs.«404104_j10677288698628_1_alg».proof.Proof.Join
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- Both programs end with the logits and the final nodes' rows at the same functions of the (agreeing) arguments. -/
theorem algebraic : Cert.algebraic_KernelIdeal_ReferenceIdeal := by
  intro m ρ m' ρ' hpre hagree
  refine ⟨fun c => Cert.KernelIdeal.Gen.W25 m ρ c (Proc.devRef .tc Cert.KernelIdeal.main_v107),
    fun c => Cert.KernelIdeal.Gen.W25 m ρ c (Proc.devRef .tc Cert.KernelIdeal.main_v103),
    Cert.KernelIdeal.Gen.run_results m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · show _ = Cert.KernelIdeal.Gen.W25 m ρ c (Proc.devRef .tc Cert.KernelIdeal.main_v107)
    rw [Cert.ReferenceIdeal.ReadP.val_main_v186_eq, Cert.ReferenceIdeal.RefValue.ref_value_logits,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2,
      (Cert.KernelIdeal.Chain.kernel_value m ρ c (Cert.KernelIdeal.Take.range_of_pre m hpre c)).1, Cert.Proof.Join.nodes_eq m c]
  · show _ = Cert.KernelIdeal.Gen.W25 m ρ c (Proc.devRef .tc Cert.KernelIdeal.main_v103)
    rw [Cert.ReferenceIdeal.ReadP.val_main_v176_eq, Cert.ReferenceIdeal.RefValue.ref_value_nodes,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.2.2.2.2,
      (Cert.KernelIdeal.Chain.kernel_value m ρ c (Cert.KernelIdeal.Take.range_of_pre m hpre c)).2, Cert.Proof.Join.nodes_eq m c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
